-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "conf_minus_smooth" .f32 0x3F4CCC5F#32 ((1759204220753 / 2199023255552 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v103)) (v2 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_v132) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x30522 : Shape := ⟨2, ![2048, 30522]⟩
abbrev S2048 : Shape := ⟨1, ![2048]⟩
abbrev S64x128 : Shape := ⟨2, ![64, 128]⟩
abbrev S30522 : Shape := ⟨1, ![30522]⟩
abbrev S_ : Shape := ⟨0, ![]⟩

class Facts : Prop where
  bcast_S_S2048x30522 : S_.BroadcastsInDim S2048x30522 (![] : Fin 0 → Fin S2048x30522.rank)
  reducesTo_S2048x30522_S_d0_1 : S2048x30522.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S30522 : S_.BroadcastsInDim S30522 (![] : Fin 0 → Fin S30522.rank)
  reducesTo_S30522_S_d0 : S30522.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg3 : FVec F S64x128 .f32) (main_v29 : IVec S_ 1) (main_v31 : IVec S64x128 1) (main_cst_13 : FVec F S_ .f32) : IVec S_ 1 :=
  let main_v32 : FVec F S64x128 .f32 := broadcastInDim S64x128 ![] bcast_S_S64x128 main_cst_13
  let main_v33 : IVec S64x128 1 := cmpf .oeq main_arg3 main_v32
  let main_v34 : IVec S64x128 1 := ori main_v31 main_v33
  let main_c_14 : IVec S_ 1 := constantI S_ 1 1#1
  let main_v35 : IVec S_ 1 := (fun x v => Host.reduce IntOp.andi x v reducesTo_S64x128_S_d0_1 h_S_) main_v34 main_c_14
  let main_v36 : IVec S_ 1 := andi main_v29 main_v35
  main_v36

def fn_part1 {F : FTy → Type} [FloatOps F] (main_arg1 : IVec S2048 32) (main_arg2 : IVec S64x128 32) (main_arg3 : FVec F S64x128 .f32) (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  let main_c_6 : IVec S_ 32 := constantI S_ 32 30522#32
  let main_v18 : IVec S2048 32 := broadcastInDim S2048 ![] bcast_S_S2048 main_c_6
  let main_v19 : IVec S2048 1 := cmpi .slt main_arg1 main_v18
  let main_c_7 : IVec S_ 1 := constantI S_ 1 1#1
  let main_v20 : IVec S_ 1 := (fun x v => Host.reduce IntOp.andi x v reducesTo_S2048_S_d0 h_S_) main_v19 main_c_7
  let main_v21 : IVec S_ 1 := andi main_v17 main_v20
  let main_c_8 : IVec S_ 32 := constantI S_ 32 0#32
  let main_v22 : IVec S64x128 32 := broadcastInDim S64x128 ![] bcast_S_S64x128 main_c_8
  let main_v23 : IVec S64x128 1 := cmpi .sge main_arg2 main_v22
  let main_c_9 : IVec S_ 1 := constantI S_ 1 1#1
  let main_v24 : IVec S_ 1 := (fun x v => Host.reduce IntOp.andi x v reducesTo_S64x128_S_d0_1 h_S_) main_v23 main_c_9
  let main_v25 : IVec S_ 1 := andi main_v21 main_v24
  let main_c_10 : IVec S_ 32 := constantI S_ 32 30522#32
  let main_v26 : IVec S64x128 32 := broadcastInDim S64x128 ![] bcast_S_S64x128 main_c_10
  let main_v27 : IVec S64x128 1 := cmpi .slt main_arg2 main_v26
  let main_c_11 : IVec S_ 1 := constantI S_ 1 1#1
  let main_v28 : IVec S_ 1 := (fun x v => Host.reduce IntOp.andi x v reducesTo_S64x128_S_d0_1 h_S_) main_v27 main_c_11
  let main_v29 : IVec S_ 1 := andi main_v25 main_v28
  let main_cst_12 : FVec F S_ .f32 := constant S_ .f32 0x00000000#32
  let main_v30 : FVec F S64x128 .f32 := broadcastInDim S64x128 ![] bcast_S_S64x128 main_cst_12
  let main_v31 : IVec S64x128 1 := cmpf .oeq main_arg3 main_v30
  let main_cst_13 : FVec F S_ .f32 := constant S_ .f32 0x3F800000#32
  fn_part2 (F := F) main_arg3 main_v29 main_v31 main_cst_13

def fn {F : FTy → Type} [FloatOps F] (main_arg0 : FVec F S2048x30522 .f32) (main_arg1 : IVec S2048 32) (main_arg2 : IVec S64x128 32) (main_arg3 : FVec F S64x128 .f32) (main_arg4 : IVec S64x128 32) (main_arg5 : FVec F S30522 .f32) : IVec S_ 1 :=
  let main_v0 : FVec F S2048x30522 .f32 := Host.absf main_arg0
  let main_cst : FVec F S_ .f32 := constant S_ .f32 0x7F800000#32
  let main_v1 : FVec F S2048x30522 .f32 := broadcastInDim S2048x30522 ![] bcast_S_S2048x30522 main_cst
  let main_v2 : IVec S2048x30522 1 := cmpf .olt main_v0 main_v1
  let main_c : IVec S_ 1 := constantI S_ 1 1#1
  let main_v3 : IVec S_ 1 := (fun x v => Host.reduce IntOp.andi x v reducesTo_S2048x30522_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S30522 .f32 := Host.absf main_arg5
  let main_cst_2 : FVec F S_ .f32 := constant S_ .f32 0x7F800000#32
  let main_v10 : FVec F S30522 .f32 := broadcastInDim S30522 ![] bcast_S_S30522 main_cst_2
  let main_v11 : IVec S30522 1 := cmpf .olt main_v9 main_v10
  let main_c_3 : IVec S_ 1 := constantI S_ 1 1#1
  let main_v12 : IVec S_ 1 := (fun x v => Host.reduce IntOp.andi x v reducesTo_S30522_S_d0 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg1 main_v14
  let main_c_5 : IVec S_ 1 := constantI S_ 1 1#1
  fn_part1 (F := F) main_arg1 main_arg2 main_arg3 main_v13 main_v15 main_c_5
-- ==== Kernel.lean ====
abbrev S2048x30522 : Shape := ⟨2, ![2048, 30522]⟩
abbrev S2048 : Shape := ⟨1, ![2048]⟩
abbrev S64x128 : Shape := ⟨2, ![64, 128]⟩
abbrev S30522 : Shape := ⟨1, ![30522]⟩
abbrev S_ : Shape := ⟨0, ![]⟩
abbrev S8192 : Shape := ⟨1, ![8192]⟩
abbrev S8192x1 : Shape := ⟨2, ![8192, 1]⟩
abbrev S2048x1 : Shape := ⟨2, ![2048, 1]⟩
abbrev S2048x128 : Shape := ⟨2, ![2048, 128]⟩
abbrev S2048x2 : Shape := ⟨2, ![2048, 2]⟩
abbrev S2048x127 : Shape := ⟨2, ![2048, 127]⟩
abbrev S32x30522 : Shape := ⟨2, ![32, 30522]⟩
abbrev S32x1 : Shape := ⟨2, ![32, 1]⟩
abbrev S32 : Shape := ⟨1, ![32]⟩
abbrev S2048x128x1 : Shape := ⟨3, ![2048, 128, 1]⟩
abbrev S2048x128x2 : Shape := ⟨3, ![2048, 128, 2]⟩

abbrev nBuf : Space → Nat
  | .hbm => 265
  | .vmem => 10
  | .smem => 0
  | _ => 0

abbrev hbmTy0_0 (i : Nat) : BufTy := match i % 128 with
  | 0 => ⟨S2048x30522, .f32⟩
  | 1 => ⟨S2048, .i32⟩
  | 2 => ⟨S64x128, .i32⟩
  | 3 => ⟨S64x128, .f32⟩
  | 4 => ⟨S64x128, .i32⟩
  | 5 => ⟨S30522, .f32⟩
  | 6 => ⟨S_, .f32⟩
  | 7 => ⟨S64x128, .f32⟩
  | 8 => ⟨S64x128, .i1⟩
  | 9 => ⟨S_, .i32⟩
  | 10 => ⟨S64x128, .i32⟩
  | 11 => ⟨S64x128, .i32⟩
  | 12 => ⟨S_, .i32⟩
  | 13 => ⟨S64x128, .i32⟩
  | 14 => ⟨S64x128, .i1⟩
  | 15 => ⟨S8192, .i1⟩
  | 16 => ⟨S8192, .i32⟩
  | 17 => ⟨S_, .i32⟩
  | 18 => ⟨S_, .i32⟩
  | 19 => ⟨S8192, .i32⟩
  | 20 => ⟨S_, .i32⟩
  | 21 => ⟨S2048, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S_, .i32⟩
  | 35 => ⟨S8192, .i32⟩
  | 36 => ⟨S2048, .i32⟩
  | 37 => ⟨S_, .i32⟩
  | 38 => ⟨S_, .i32⟩
  | 39 => ⟨S2048, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i1⟩
  | 68 => ⟨S_, .i32⟩
  | 69 => ⟨S2048, .i32⟩
  | 70 => ⟨S2048, .i1⟩
  | 71 => ⟨S_, .i32⟩
  | 72 => ⟨S_, .i1⟩
  | 73 => ⟨S2048, .i1⟩
  | 74 => ⟨S2048, .i1⟩
  | 75 => ⟨S2048, .i1⟩
  | 76 => ⟨S2048, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i1⟩
  | 86 => ⟨S2048, .i32⟩
  | 87 => ⟨S2048, .i32⟩
  | 88 => ⟨S_, .i32⟩
  | 89 => ⟨S2048, .i32⟩
  | 90 => ⟨S2048, .i1⟩
  | 91 => ⟨S2048, .i1⟩
  | 92 => ⟨S_, .i32⟩
  | 93 => ⟨S2048, .i32⟩
  | 94 => ⟨S2048, .i32⟩
  | 95 => ⟨S2048, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i1⟩
  | 107 => ⟨S_, .i32⟩
  | 108 => ⟨S2048, .i32⟩
  | 109 => ⟨S2048, .i1⟩
  | 110 => ⟨S_, .i32⟩
  | 111 => ⟨S_, .i1⟩
  | 112 => ⟨S2048, .i1⟩
  | 113 => ⟨S2048, .i1⟩
  | 114 => ⟨S2048, .i1⟩
  | 115 => ⟨S2048, .i32⟩
  | 116 => ⟨S2048, .i32⟩
  | 117 => ⟨S2048, .i32⟩
  | 118 => ⟨S2048, .i32⟩
  | 119 => ⟨S_, .i32⟩
  | 120 => ⟨S2048, .i32⟩
  | 121 => ⟨S2048, .i1⟩
  | 122 => ⟨S_, .i32⟩
  | 123 => ⟨S2048, .i32⟩
  | 124 => ⟨S2048, .i32⟩
  | 125 => ⟨S2048, .i32⟩
  | 126 => ⟨S2048x1, .i32⟩
  | 127 => ⟨S2048x128, .f32⟩
  | _ => ⟨S2048x30522, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S2048x128, .i32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S2048x1, .i32⟩
  | 25 => ⟨S2048x2, .i32⟩
  | 26 => ⟨S2048, .i32⟩
  | 27 => ⟨S2048x1, .i32⟩
  | 28 => ⟨S2048x128, .i32⟩
  | 29 => ⟨S2048x128, .i1⟩
  | 30 => ⟨S2048x128, .f32⟩
  | 31 => ⟨S2048x128, .f32⟩
  | 32 => ⟨S2048x128, .f32⟩
  | 33 => ⟨S2048x128, .f32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S2048x1, .i32⟩
  | 53 => ⟨S2048x2, .i32⟩
  | 54 => ⟨S2048, .f32⟩
  | 55 => ⟨S2048x1, .f32⟩
  | 56 => ⟨S2048x128, .f32⟩
  | 57 => ⟨S2048x128, .i1⟩
  | 58 => ⟨S2048x128, .f32⟩
  | 59 => ⟨S2048x1, .f32⟩
  | 60 => ⟨S2048x127, .f32⟩
  | 61 => ⟨S2048x128, .f32⟩
  | 62 => ⟨S2048x128, .f32⟩
  | 63 => ⟨S2048x128, .f32⟩
  | 64 => ⟨S2048x128, .f32⟩
  | 65 => ⟨S_, .f32⟩
  | 66 => ⟨S2048x128, .f32⟩
  | 67 => ⟨S2048x128, .i1⟩
  | 68 => ⟨S2048x128, .f32⟩
  | 69 => ⟨S2048x128, .f32⟩
  | 70 => ⟨S_, .i32⟩
  | 71 => ⟨S2048, .i32⟩
  | 72 => ⟨S2048, .i1⟩
  | 73 => ⟨S2048x1, .i1⟩
  | 74 => ⟨S2048x128, .i1⟩
  | 75 => ⟨S2048x128, .f32⟩
  | 76 => ⟨S2048x128, .i1⟩
  | 77 => ⟨S2048x128, .f32⟩
  | 78 => ⟨S2048x128, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S2048, .f32⟩
  | 88 => ⟨S2048x1, .i32⟩
  | 89 => ⟨S2048x1, .f32⟩
  | 90 => ⟨S2048x1, .f32⟩
  | 91 => ⟨S2048x1, .f32⟩
  | 92 => ⟨S_, .f32⟩
  | 93 => ⟨S_, .f32⟩
  | 94 => ⟨S_, .f32⟩
  | 95 => ⟨S_, .f32⟩
  | 96 => ⟨S_, .f32⟩
  | 97 => ⟨S2048, .i32⟩
  | 98 => ⟨S2048x1, .i32⟩
  | 99 => ⟨S_, .i32⟩
  | 100 => ⟨S2048x1, .i32⟩
  | 101 => ⟨S2048x1, .i1⟩
  | 102 => ⟨S_, .i32⟩
  | 103 => ⟨S2048x1, .i32⟩
  | 104 => ⟨S2048x1, .i32⟩
  | 105 => ⟨S2048x1, .i32⟩
  | 106 => ⟨S_, .i32⟩
  | 107 => ⟨S2048x128, .i32⟩
  | 108 => ⟨S2048x128, .i1⟩
  | 109 => ⟨S_, .i32⟩
  | 110 => ⟨S2048x128, .i32⟩
  | 111 => ⟨S2048x128, .i32⟩
  | 112 => ⟨S2048x128, .i32⟩
  | 113 => ⟨S2048x128, .i32⟩
  | 114 => ⟨S2048x128x1, .i32⟩
  | 115 => ⟨S2048x128x1, .i32⟩
  | 116 => ⟨S2048x128x2, .i32⟩
  | 117 => ⟨S2048x128, .f32⟩
  | 118 => ⟨S2048x128, .f32⟩
  | 119 => ⟨S2048x128, .f32⟩
  | 120 => ⟨S2048x128, .f32⟩
  | 121 => ⟨S_, .f32⟩
  | 122 => ⟨S2048x128, .f32⟩
  | 123 => ⟨S2048x128, .f32⟩
  | 124 => ⟨S_, .f32⟩
  | 125 => ⟨S2048x128, .f32⟩
  | 126 => ⟨S2048x128, .f32⟩
  | 127 => ⟨S2048x128, .f32⟩
  | _ => ⟨S2048x30522, .f32⟩

abbrev hbmTy0_2 (i : Nat) : BufTy := match i % 128 with
  | 0 => ⟨S2048x128, .f32⟩
  | 1 => ⟨S2048x128, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S2048x30522, .f32⟩

abbrev hbmTy (i : Nat) : BufTy := match i / 128 with
  | 0 => hbmTy0_0 i
  | 1 => hbmTy0_1 i
  | 2 => hbmTy0_2 i
  | _ => ⟨S2048x30522, .f32⟩

abbrev bufTy : (tb : Table) → Fin (tcTables nBuf tb) → BufTy
  | .hbm, ⟨i, _⟩ => hbmTy i
  | .local _ .vmem, ⟨0, _⟩ => ⟨S32x30522, .f32⟩
  | .local _ .vmem, ⟨1, _⟩ => ⟨S32x30522, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | _, _ => ⟨S2048x30522, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_c_2 : Ref sig .tc := ⟨.hbm, 22, rfl⟩
abbrev main_call2_v0 : Ref sig .tc := ⟨.hbm, 23, rfl⟩
abbrev main_call2_v1 : Ref sig .tc := ⟨.hbm, 24, rfl⟩
abbrev main_v7 : Ref sig .tc := ⟨.hbm, 25, rfl⟩
abbrev main_c_3 : Ref sig .tc := ⟨.hbm, 26, rfl⟩
abbrev main_v8 : Ref sig .tc := ⟨.hbm, 27, rfl⟩
abbrev main_v9 : Ref sig .tc := ⟨.hbm, 28, rfl⟩
abbrev main_c_4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_call3_call0_c : Ref sig .tc := ⟨.hbm, 37, rfl⟩
abbrev main_call3_call0_v0 : Ref sig .tc := ⟨.hbm, 38, rfl⟩
abbrev main_v16 : Ref sig .tc := ⟨.hbm, 39, rfl⟩
abbrev main_c_6 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v17 : Ref sig .tc := ⟨.hbm, 56, rfl⟩
abbrev main_c_7 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v18 : Ref sig .tc := ⟨.hbm, 78, rfl⟩
abbrev main_c_8 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v19 : Ref sig .tc := ⟨.hbm, 95, rfl⟩
abbrev main_c_9 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v20 : Ref sig .tc := ⟨.hbm, 117, rfl⟩
abbrev main_v21 : Ref sig .tc := ⟨.hbm, 118, rfl⟩
abbrev main_c_10 : Ref sig .tc := ⟨.hbm, 119, rfl⟩
abbrev main_v22 : Ref sig .tc := ⟨.hbm, 120, rfl⟩
abbrev main_v23 : Ref sig .tc := ⟨.hbm, 121, rfl⟩
abbrev main_c_11 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_c_12 : Ref sig .tc := ⟨.hbm, 128, rfl⟩
abbrev main_v29 : Ref sig .tc := ⟨.hbm, 129, rfl⟩
abbrev main_v30 : Ref sig .tc := ⟨.hbm, 130, rfl⟩
abbrev main_c_13 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_c_14 : Ref sig .tc := ⟨.hbm, 137, rfl⟩
abbrev main_v36 : Ref sig .tc := ⟨.hbm, 138, rfl⟩
abbrev main_v37 : Ref sig .tc := ⟨.hbm, 139, rfl⟩
abbrev main_c_15 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_c_16 : Ref sig .tc := ⟨.hbm, 144, rfl⟩
abbrev main_v41 : Ref sig .tc := ⟨.hbm, 145, rfl⟩
abbrev main_v42 : Ref sig .tc := ⟨.hbm, 146, rfl⟩
abbrev main_c_17 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_c_18 : Ref sig .tc := ⟨.hbm, 162, rfl⟩
abbrev main_v57 : Ref sig .tc := ⟨.hbm, 163, rfl⟩
abbrev main_v58 : Ref sig .tc := ⟨.hbm, 164, rfl⟩
abbrev main_c_19 : Ref sig .tc := ⟨.hbm, 165, rfl⟩
abbrev main_v59 : Ref sig .tc := ⟨.hbm, 166, rfl⟩
abbrev main_v60 : Ref sig .tc := ⟨.hbm, 167, rfl⟩
abbrev main_c_20 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_c_21 : Ref sig .tc := ⟨.hbm, 172, rfl⟩
abbrev main_v64 : Ref sig .tc := ⟨.hbm, 173, rfl⟩
abbrev main_v65 : Ref sig .tc := ⟨.hbm, 174, rfl⟩
abbrev main_c_22 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_call8_v0 : Ref sig .tc := ⟨.hbm, 187, rfl⟩
abbrev main_call8_v1 : Ref sig .tc := ⟨.hbm, 188, rfl⟩
abbrev main_v77 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_cst_23 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_c_24 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_call9_v0 : Ref sig .tc := ⟨.hbm, 202, rfl⟩
abbrev main_v88 : Ref sig .tc := ⟨.hbm, 203, rfl⟩
abbrev main_call10_v0 : Ref sig .tc := ⟨.hbm, 204, rfl⟩
abbrev main_v89 : Ref sig .tc := ⟨.hbm, 205, rfl⟩
abbrev main_v90 : Ref sig .tc := ⟨.hbm, 206, rfl⟩
abbrev main_c_25 : Ref sig .tc := ⟨.hbm, 207, rfl⟩
abbrev main_v91 : Ref sig .tc := ⟨.hbm, 208, rfl⟩
abbrev main_v92 : Ref sig .tc := ⟨.hbm, 209, rfl⟩
abbrev main_c_26 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100_0 : Ref sig .tc := ⟨.hbm, 218, rfl⟩
abbrev main_v100_1 : Ref sig .tc := ⟨.hbm, 219, rfl⟩
abbrev main_cst_27 : Ref sig .tc := ⟨.hbm, 220, rfl⟩
abbrev main_v101 : Ref sig .tc := ⟨.hbm, 221, rfl⟩
abbrev main_cst_28 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_c_29 : Ref sig .tc := ⟨.hbm, 227, rfl⟩
abbrev main_v106 : Ref sig .tc := ⟨.hbm, 228, rfl⟩
abbrev main_v107 : Ref sig .tc := ⟨.hbm, 229, rfl⟩
abbrev main_c_30 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_c_31 : Ref sig .tc := ⟨.hbm, 234, rfl⟩
abbrev main_v111 : Ref sig .tc := ⟨.hbm, 235, rfl⟩
abbrev main_v112 : Ref sig .tc := ⟨.hbm, 236, rfl⟩
abbrev main_c_32 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_cst_33 : Ref sig .tc := ⟨.hbm, 249, rfl⟩
abbrev main_v124 : Ref sig .tc := ⟨.hbm, 250, rfl⟩
abbrev main_v125 : Ref sig .tc := ⟨.hbm, 251, rfl⟩
abbrev main_cst_34 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_cst_35 : Ref sig .tc := ⟨.hbm, 258, rfl⟩
abbrev main_v131 : Ref sig .tc := ⟨.hbm, 259, rfl⟩
abbrev main_cst_36 : Ref sig .tc := ⟨.hbm, 260, rfl⟩
abbrev main_v132 : Ref sig .tc := ⟨.hbm, 261, rfl⟩
abbrev main_cst_37 : Ref sig .tc := ⟨.hbm, 262, rfl⟩
abbrev main_v133 : Ref sig .tc := ⟨.hbm, 263, rfl⟩
abbrev main_v134 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x30522 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x128 : S_.BroadcastsInDim S64x128 (![] : Fin 0 → Fin S64x128.rank)
  shapeCasts_S64x128_S8192 : S64x128.ShapeCasts S8192
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S2048 : S_.BroadcastsInDim S2048 (![] : Fin 0 → Fin S2048.rank)
  bcast_S_S8192 : S_.BroadcastsInDim S8192 (![] : Fin 0 → Fin S8192.rank)
  bcast_S8192_S8192x1_0 : S8192.BroadcastsInDim S8192x1 (![0] : Fin 1 → Fin S8192x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S2048x1_S2048x128_0_1 : S2048x1.BroadcastsInDim S2048x128 (![0, 1] : Fin 2 → Fin S2048x128.rank)
  slices_S2048x128_S2048x1_0_127 : S2048x128.Slices ![0, 127] S2048x1
  slices_S2048x128_S2048x127_0_0 : S2048x128.Slices ![0, 0] S2048x127
  concatenates_S2048x1_S2048x127_S2048x128_d1 : Shape.Concatenates [S2048x1, S2048x127] S2048x128 1
  bcast_S_S2048x128 : S_.BroadcastsInDim S2048x128 (![] : Fin 0 → Fin S2048x128.rank)
  shapeCasts_S2048_S2048x1 : S2048.ShapeCasts S2048x1
  inb_S32x30522_S32x30522_0_0 : ∀ a, (![0, 0] : Fin 2 → Nat) a + S32x30522.size a ≤ S32x30522.size a
  h_S32x30522 : 0 < S32x30522.numel
  reduces_S32x30522_S32 : S32x30522.Reduces [1] S32
  shapeCasts_S32_S32x1 : S32.ShapeCasts S32x1
  broadcasts_S32x1_S32x30522 : S32x1.Broadcasts S32x30522
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x30522_d1_w32 : S32x30522.Iotas .tc 32 [1]
  reducesTo_S2048_S_d0 : S2048.ReducesTo [0] S_
  reducesTo_S2048x1_S_d0_1 : S2048x1.ReducesTo [0, 1] S_
  bcast_S_S2048x1 : S_.BroadcastsInDim S2048x1 (![] : Fin 0 → Fin S2048x1.rank)
  bcast_S2048x128_S2048x128x1_0_1 : S2048x128.BroadcastsInDim S2048x128x1 (![0, 1] : Fin 2 → Fin S2048x128x1.rank)
  concatenates_S2048x128x1_S2048x128x1_S2048x128x2_d2 : Shape.Concatenates [S2048x128x1, S2048x128x1] S2048x128x2 2
  reducesTo_S2048x128_S_d0_1 : S2048x128.ReducesTo [0, 1] S_
  scatter_S2048_S8192x1_S8192_n_0_0_1_wf : ScatterDims.WF S2048 S8192x1 S8192 [] [0] [0] 1
  gather_S64x128_S2048x1_S2048x128_1_0_n_n_0_1_1128_wf : GatherDims.WF S64x128 S2048x1 S2048x128 [1] [0] [] [0] [] 1 ![1, 128]
  gather_S2048x128_S2048x2_S2048_n_01_n_n_01_1_11_wf : GatherDims.WF S2048x128 S2048x2 S2048 [] [0, 1] [] [0, 1] [] 1 ![1, 1]
  gather_S30522_S2048x1_S2048_n_0_n_n_0_1_1_wf : GatherDims.WF S30522 S2048x1 S2048 [] [0] [] [0] [] 1 ![1]
  gather_S2048x30522_S2048x128x2_S2048x128_n_01_n_n_01_2_11_wf : GatherDims.WF S2048x30522 S2048x128x2 S2048x128 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x30522.size a ≤ S2048x30522.size a
  hwx0_0 : ∀ i : grid0.Coords, EltTy.bits .f32 = 32 ∨ (Rect.block (s := S2048x30522) S32x30522.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .i32 = 32 ∨ (Rect.block (s := S2048x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S2048x1.size a
  hwx0_2 : ∀ i : grid0.Coords, EltTy.bits .f32 = 32 ∨ (Rect.block (s := S2048x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S2048x1.size a
  hwx0_3 : ∀ i : grid0.Coords, EltTy.bits .f32 = 32 ∨ (Rect.block (s := S2048x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S2048x1.size a
  hwx0_4 : ∀ i : grid0.Coords, EltTy.bits .f32 = 32 ∨ (Rect.block (s := S2048x1) S32x1.size (cc0_transform_4 i) (hinb0_4 i)).WholeWords (EltTy.packing .f32)

variable [Facts₀]

def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def gather_S64x128_S2048x1_S2048x128_1_0_n_n_0_1_1128 : GatherDims S64x128 S2048x1 S2048x128 where
  offsetDims := [1]
  collapsedSliceDims := [0]
  operandBatchingDims := []
  startIndicesBatchingDims := []
  startIndexMap := [0]
  indexVectorDim := 1
  sliceSizes := ![1, 128]
  wf := gather_S64x128_S2048x1_S2048x128_1_0_n_n_0_1_1128_wf
def gather_S2048x128_S2048x2_S2048_n_01_n_n_01_1_11 : GatherDims S2048x128 S2048x2 S2048 where
  offsetDims := []
  collapsedSliceDims := [0, 1]
  operandBatchingDims := []
  startIndicesBatchingDims := []
  startIndexMap := [0, 1]
  indexVectorDim := 1
  sliceSizes := ![1, 1]
  wf := gather_S2048x128_S2048x2_S2048_n_01_n_n_01_1_11_wf
def gather_S30522_S2048x1_S2048_n_0_n_n_0_1_1 : GatherDims S30522 S2048x1 S2048 where
  offsetDims := []
  collapsedSliceDims := [0]
  operandBatchingDims := []
  startIndicesBatchingDims := []
  startIndexMap := [0]
  indexVectorDim := 1
  sliceSizes := ![1]
  wf := gather_S30522_S2048x1_S2048_n_0_n_n_0_1_1_wf
def gather_S2048x30522_S2048x128x2_S2048x128_n_01_n_n_01_2_11 : GatherDims S2048x30522 S2048x128x2 S2048x128 where
  offsetDims := []
  collapsedSliceDims := [0, 1]
  operandBatchingDims := []
  startIndicesBatchingDims := []
  startIndexMap := [0, 1]
  indexVectorDim := 2
  sliceSizes := ![1, 1]
  wf := gather_S2048x30522_S2048x128x2_S2048x128_n_01_n_n_01_2_11_wf

abbrev win0_0 : Pipeline.Window sig grid0 :=
  Pipeline.Window.ofSpec (Memref.whole main_arg0) S32x30522.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v99) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v100_0) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v100_1) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x30522 : Shape := ⟨2, ![2048, 30522]⟩
abbrev S2048 : Shape := ⟨1, ![2048]⟩
abbrev S64x128 : Shape := ⟨2, ![64, 128]⟩
abbrev S30522 : Shape := ⟨1, ![30522]⟩
abbrev S_ : Shape := ⟨0, ![]⟩
abbrev S2048x1 : Shape := ⟨2, ![2048, 1]⟩
abbrev S2048x2 : Shape := ⟨2, ![2048, 2]⟩
abbrev S8192 : Shape := ⟨1, ![8192]⟩
abbrev S8192x1 : Shape := ⟨2, ![8192, 1]⟩
abbrev S2048x128 : Shape := ⟨2, ![2048, 128]⟩
abbrev S2048x127 : Shape := ⟨2, ![2048, 127]⟩
abbrev S2048x128x1 : Shape := ⟨3, ![2048, 128, 1]⟩
abbrev S2048x128x2 : Shape := ⟨3, ![2048, 128, 2]⟩

abbrev nBuf : Space → Nat
  | .hbm => 301
  | .vmem => 0
  | .smem => 0
  | _ => 0

abbrev hbmTy0_0 (i : Nat) : BufTy := match i % 128 with
  | 0 => ⟨S2048x30522, .f32⟩
  | 1 => ⟨S2048, .i32⟩
  | 2 => ⟨S64x128, .i32⟩
  | 3 => ⟨S64x128, .f32⟩
  | 4 => ⟨S64x128, .i32⟩
  | 5 => ⟨S30522, .f32⟩
  | 6 => ⟨S_, .f32⟩
  | 7 => ⟨S2048, .f32⟩
  | 8 => ⟨S_, .f32⟩
  | 9 => ⟨S2048, .f32⟩
  | 10 => ⟨S2048, .f32⟩
  | 11 => ⟨S2048x1, .f32⟩
  | 12 => ⟨S2048x30522, .f32⟩
  | 13 => ⟨S2048x30522, .f32⟩
  | 14 => ⟨S2048x30522, .f32⟩
  | 15 => ⟨S_, .f32⟩
  | 16 => ⟨S2048, .f32⟩
  | 17 => ⟨S2048x1, .f32⟩
  | 18 => ⟨S2048x1, .f32⟩
  | 19 => ⟨S2048x30522, .f32⟩
  | 20 => ⟨S2048x30522, .f32⟩
  | 21 => ⟨S_, .f32⟩
  | 22 => ⟨S2048x30522, .f32⟩
  | 23 => ⟨S2048, .i32⟩
  | 24 => ⟨S_, .i32⟩
  | 25 => ⟨S2048, .i32⟩
  | 26 => ⟨S2048, .i1⟩
  | 27 => ⟨S_, .i32⟩
  | 28 => ⟨S2048, .i32⟩
  | 29 => ⟨S2048, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i32⟩
  | 37 => ⟨S2048, .i32⟩
  | 38 => ⟨S2048x1, .i32⟩
  | 39 => ⟨S2048x1, .i32⟩
  | 40 => ⟨S2048x2, .i32⟩
  | 41 => ⟨S_, .f32⟩
  | 42 => ⟨S2048, .f32⟩
  | 43 => ⟨S2048x30522, .f32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S2048, .f32⟩
  | 53 => ⟨S2048x30522, .f32⟩
  | 54 => ⟨S2048x30522, .f32⟩
  | 55 => ⟨S_, .f32⟩
  | 56 => ⟨S2048, .f32⟩
  | 57 => ⟨S2048, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S64x128, .f32⟩
  | 68 => ⟨S64x128, .f32⟩
  | 69 => ⟨S_, .i32⟩
  | 70 => ⟨S64x128, .i32⟩
  | 71 => ⟨S64x128, .i1⟩
  | 72 => ⟨S8192, .i1⟩
  | 73 => ⟨S8192, .i32⟩
  | 74 => ⟨S_, .i32⟩
  | 75 => ⟨S_, .i32⟩
  | 76 => ⟨S8192, .i32⟩
  | 77 => ⟨S_, .i32⟩
  | 78 => ⟨S2048, .i32⟩
  | 79 => ⟨S_, .i32⟩
  | 80 => ⟨S_, .i32⟩
  | 81 => ⟨S8192, .i32⟩
  | 82 => ⟨S8192, .i32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S_, .i32⟩
  | 92 => ⟨S8192, .i32⟩
  | 93 => ⟨S2048, .i32⟩
  | 94 => ⟨S_, .i32⟩
  | 95 => ⟨S_, .i32⟩
  | 96 => ⟨S2048, .i32⟩
  | 97 => ⟨S_, .i32⟩
  | 98 => ⟨S2048, .i32⟩
  | 99 => ⟨S2048, .i32⟩
  | 100 => ⟨S2048, .i32⟩
  | 101 => ⟨S_, .i32⟩
  | 102 => ⟨S2048, .i32⟩
  | 103 => ⟨S2048, .i1⟩
  | 104 => ⟨S2048, .i32⟩
  | 105 => ⟨S2048, .i32⟩
  | 106 => ⟨S_, .i32⟩
  | 107 => ⟨S2048, .i32⟩
  | 108 => ⟨S2048, .i1⟩
  | 109 => ⟨S2048, .i1⟩
  | 110 => ⟨S_, .i32⟩
  | 111 => ⟨S2048, .i32⟩
  | 112 => ⟨S2048, .i32⟩
  | 113 => ⟨S2048, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i1⟩
  | 125 => ⟨S_, .i32⟩
  | 126 => ⟨S2048, .i32⟩
  | 127 => ⟨S2048, .i1⟩
  | _ => ⟨S2048x30522, .f32⟩

abbrev hbmTy0_1 (i : Nat) : BufTy := match i % 128 with
  | 0 => ⟨S_, .i32⟩
  | 1 => ⟨S_, .i1⟩
  | 2 => ⟨S2048, .i1⟩
  | 3 => ⟨S2048, .i1⟩
  | 4 => ⟨S2048, .i1⟩
  | 5 => ⟨S2048, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i1⟩
  | 39 => ⟨S_, .i32⟩
  | 40 => ⟨S_, .i1⟩
  | 41 => ⟨S2048, .i1⟩
  | 42 => ⟨S2048, .i1⟩
  | 43 => ⟨S2048, .i1⟩
  | 44 => ⟨S2048, .i32⟩
  | 45 => ⟨S2048, .i32⟩
  | 46 => ⟨S2048, .i32⟩
  | 47 => ⟨S2048, .i32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x128, .f32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S2048x128, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S_, .i32⟩
  | 77 => ⟨S2048, .i32⟩
  | 78 => ⟨S2048, .i32⟩
  | 79 => ⟨S2048, .i32⟩
  | 80 => ⟨S2048x1, .i32⟩
  | 81 => ⟨S2048x1, .i32⟩
  | 82 => ⟨S2048x2, .i32⟩
  | 83 => ⟨S2048, .f32⟩
  | 84 => ⟨S2048x1, .f32⟩
  | 85 => ⟨S2048x128, .f32⟩
  | 86 => ⟨S2048x128, .i1⟩
  | 87 => ⟨S2048x128, .f32⟩
  | 88 => ⟨S2048x128, .f32⟩
  | 89 => ⟨S2048x128, .f32⟩
  | 90 => ⟨S_, .i32⟩
  | 91 => ⟨S2048, .i32⟩
  | 92 => ⟨S2048, .i32⟩
  | 93 => ⟨S_, .i32⟩
  | 94 => ⟨S2048, .i32⟩
  | 95 => ⟨S2048, .i1⟩
  | 96 => ⟨S_, .i32⟩
  | 97 => ⟨S2048, .i32⟩
  | 98 => ⟨S2048, .i32⟩
  | 99 => ⟨S2048, .i32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S2048x1, .i32⟩
  | 109 => ⟨S2048x2, .i32⟩
  | 110 => ⟨S2048, .f32⟩
  | 111 => ⟨S2048x1, .f32⟩
  | 112 => ⟨S2048x128, .f32⟩
  | 113 => ⟨S2048x128, .i1⟩
  | 114 => ⟨S2048x128, .f32⟩
  | 115 => ⟨S2048x1, .f32⟩
  | 116 => ⟨S2048x127, .f32⟩
  | 117 => ⟨S2048x128, .f32⟩
  | 118 => ⟨S2048x128, .f32⟩
  | 119 => ⟨S2048x128, .f32⟩
  | 120 => ⟨S_, .f32⟩
  | 121 => ⟨S2048x128, .f32⟩
  | 122 => ⟨S2048x128, .i1⟩
  | 123 => ⟨S2048x128, .f32⟩
  | 124 => ⟨S2048x128, .f32⟩
  | 125 => ⟨S_, .i32⟩
  | 126 => ⟨S2048, .i32⟩
  | 127 => ⟨S2048, .i1⟩
  | _ => ⟨S2048x30522, .f32⟩

abbrev hbmTy0_2 (i : Nat) : BufTy := match i % 128 with
  | 0 => ⟨S2048x1, .i1⟩
  | 1 => ⟨S2048x128, .i1⟩
  | 2 => ⟨S2048x128, .f32⟩
  | 3 => ⟨S2048x128, .i1⟩
  | 4 => ⟨S2048x128, .f32⟩
  | 5 => ⟨S2048x128, .i32⟩
  | 6 => ⟨S_, .f32⟩
  | 7 => ⟨S2048x30522, .f32⟩
  | 8 => ⟨S2048x1, .i32⟩
  | 9 => ⟨S_, .i32⟩
  | 10 => ⟨S2048x1, .i32⟩
  | 11 => ⟨S2048x1, .i1⟩
  | 12 => ⟨S_, .i32⟩
  | 13 => ⟨S2048x1, .i32⟩
  | 14 => ⟨S2048x1, .i32⟩
  | 15 => ⟨S2048x1, .i32⟩
  | 16 => ⟨S_, .i32⟩
  | 17 => ⟨S2048x128, .i32⟩
  | 18 => ⟨S2048x128, .i1⟩
  | 19 => ⟨S_, .i32⟩
  | 20 => ⟨S2048x128, .i32⟩
  | 21 => ⟨S2048x128, .i32⟩
  | 22 => ⟨S2048x128, .i32⟩
  | 23 => ⟨S2048x128, .i32⟩
  | 24 => ⟨S2048x128x1, .i32⟩
  | 25 => ⟨S2048x128x1, .i32⟩
  | 26 => ⟨S2048x128x2, .i32⟩
  | 27 => ⟨S2048x30522, .f32⟩
  | 28 => ⟨S2048x30522, .f32⟩
  | 29 => ⟨S_, .f32⟩
  | 30 => ⟨S2048x30522, .f32⟩
  | 31 => ⟨S2048x30522, .f32⟩
  | 32 => ⟨S_, .f32⟩
  | 33 => ⟨S2048x30522, .f32⟩
  | 34 => ⟨S2048x30522, .f32⟩
  | 35 => ⟨S2048x30522, .f32⟩
  | 36 => ⟨S2048x30522, .f32⟩
  | 37 => ⟨S2048x30522, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S2048x30522, .f32⟩

abbrev hbmTy (i : Nat) : BufTy := match i / 128 with
  | 0 => hbmTy0_0 i
  | 1 => hbmTy0_1 i
  | 2 => hbmTy0_2 i
  | _ => ⟨S2048x30522, .f32⟩

abbrev bufTy : (tb : Table) → Fin (tcTables nBuf tb) → BufTy
  | .hbm, ⟨i, _⟩ => hbmTy i
  | _, _ => ⟨S2048x30522, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_cst_8 : Ref sig .tc := ⟨.hbm, 60, rfl⟩
abbrev main_v30 : Ref sig .tc := ⟨.hbm, 61, rfl⟩
abbrev main_cst_9 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_11 : Ref sig .tc := ⟨.hbm, 69, rfl⟩
abbrev main_v36 : Ref sig .tc := ⟨.hbm, 70, rfl⟩
abbrev main_v37 : Ref sig .tc := ⟨.hbm, 71, rfl⟩
abbrev main_call1_v0 : Ref sig .tc := ⟨.hbm, 72, rfl⟩
abbrev main_call1_v1 : Ref sig .tc := ⟨.hbm, 73, rfl⟩
abbrev main_call1_call0_c : Ref sig .tc := ⟨.hbm, 74, rfl⟩
abbrev main_call1_call0_v0 : Ref sig .tc := ⟨.hbm, 75, rfl⟩
abbrev main_v38 : Ref sig .tc := ⟨.hbm, 76, rfl⟩
abbrev main_c_12 : Ref sig .tc := ⟨.hbm, 77, rfl⟩
abbrev main_v39 : Ref sig .tc := ⟨.hbm, 78, rfl⟩
abbrev main_c_13 : Ref sig .tc := ⟨.hbm, 79, rfl⟩
abbrev main_call2_v0 : Ref sig .tc := ⟨.hbm, 80, rfl⟩
abbrev main_call2_v1 : Ref sig .tc := ⟨.hbm, 81, rfl⟩
abbrev main_v40 : Ref sig .tc := ⟨.hbm, 82, rfl⟩
abbrev main_c_14 : Ref sig .tc := ⟨.hbm, 83, rfl⟩
abbrev main_v41 : Ref sig .tc := ⟨.hbm, 84, rfl⟩
abbrev main_v42 : Ref sig .tc := ⟨.hbm, 85, rfl⟩
abbrev main_c_15 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_16 : Ref sig .tc := ⟨.hbm, 91, rfl⟩
abbrev main_v47 : Ref sig .tc := ⟨.hbm, 92, rfl⟩
abbrev main_v48 : Ref sig .tc := ⟨.hbm, 93, rfl⟩
abbrev main_call3_call0_c : Ref sig .tc := ⟨.hbm, 94, rfl⟩
abbrev main_call3_call0_v0 : Ref sig .tc := ⟨.hbm, 95, rfl⟩
abbrev main_v49 : Ref sig .tc := ⟨.hbm, 96, rfl⟩
abbrev main_c_17 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_c : Ref sig .tc := ⟨.hbm, 106, rfl⟩
abbrev main_call4_v8 : Ref sig .tc := ⟨.hbm, 107, rfl⟩
abbrev main_call4_v9 : Ref sig .tc := ⟨.hbm, 108, rfl⟩
abbrev main_call4_v10 : Ref sig .tc := ⟨.hbm, 109, rfl⟩
abbrev main_call4_c_0 : Ref sig .tc := ⟨.hbm, 110, rfl⟩
abbrev main_call4_v11 : Ref sig .tc := ⟨.hbm, 111, rfl⟩
abbrev main_call4_v12 : Ref sig .tc := ⟨.hbm, 112, rfl⟩
abbrev main_v50 : Ref sig .tc := ⟨.hbm, 113, rfl⟩
abbrev main_c_18 : Ref sig .tc := ⟨.hbm, 114, rfl⟩
abbrev main_call5_v0 : Ref sig .tc := ⟨.hbm, 115, rfl⟩
abbrev main_call5_c : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_c_1 : Ref sig .tc := ⟨.hbm, 122, rfl⟩
abbrev main_call5_v5 : Ref sig .tc := ⟨.hbm, 123, rfl⟩
abbrev main_call5_v6 : Ref sig .tc := ⟨.hbm, 124, rfl⟩
abbrev main_call5_c_2 : Ref sig .tc := ⟨.hbm, 125, rfl⟩
abbrev main_call5_v7 : Ref sig .tc := ⟨.hbm, 126, rfl⟩
abbrev main_call5_v8 : Ref sig .tc := ⟨.hbm, 127, rfl⟩
abbrev main_call5_c_3 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_v51 : Ref sig .tc := ⟨.hbm, 135, rfl⟩
abbrev main_c_19 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_call6_v5 : Ref sig .tc := ⟨.hbm, 142, rfl⟩
abbrev main_call6_v6 : Ref sig .tc := ⟨.hbm, 143, rfl⟩
abbrev main_call6_v7 : Ref sig .tc := ⟨.hbm, 144, rfl⟩
abbrev main_call6_c : Ref sig .tc := ⟨.hbm, 145, rfl⟩
abbrev main_call6_v8 : Ref sig .tc := ⟨.hbm, 146, rfl⟩
abbrev main_call6_v9 : Ref sig .tc := ⟨.hbm, 147, rfl⟩
abbrev main_call6_v10 : Ref sig .tc := ⟨.hbm, 148, rfl⟩
abbrev main_call6_c_0 : Ref sig .tc := ⟨.hbm, 149, rfl⟩
abbrev main_call6_v11 : Ref sig .tc := ⟨.hbm, 150, rfl⟩
abbrev main_call6_v12 : Ref sig .tc := ⟨.hbm, 151, rfl⟩
abbrev main_v52 : Ref sig .tc := ⟨.hbm, 152, rfl⟩
abbrev main_c_20 : Ref sig .tc := ⟨.hbm, 153, rfl⟩
abbrev main_call7_v0 : Ref sig .tc := ⟨.hbm, 154, rfl⟩
abbrev main_call7_c : Ref sig .tc := ⟨.hbm, 155, rfl⟩
abbrev main_call7_v1 : Ref sig .tc := ⟨.hbm, 156, rfl⟩
abbrev main_call7_c_0 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_c_1 : Ref sig .tc := ⟨.hbm, 161, rfl⟩
abbrev main_call7_v5 : Ref sig .tc := ⟨.hbm, 162, rfl⟩
abbrev main_call7_v6 : Ref sig .tc := ⟨.hbm, 163, rfl⟩
abbrev main_call7_c_2 : Ref sig .tc := ⟨.hbm, 164, rfl⟩
abbrev main_call7_v7 : Ref sig .tc := ⟨.hbm, 165, rfl⟩
abbrev main_call7_v8 : Ref sig .tc := ⟨.hbm, 166, rfl⟩
abbrev main_call7_c_3 : Ref sig .tc := ⟨.hbm, 167, rfl⟩
abbrev main_call7_v9 : Ref sig .tc := ⟨.hbm, 168, rfl⟩
abbrev main_call7_v10 : Ref sig .tc := ⟨.hbm, 169, rfl⟩
abbrev main_call7_v11 : Ref sig .tc := ⟨.hbm, 170, rfl⟩
abbrev main_call7_v12 : Ref sig .tc := ⟨.hbm, 171, rfl⟩
abbrev main_call7_v13 : Ref sig .tc := ⟨.hbm, 172, rfl⟩
abbrev main_call7_v14 : Ref sig .tc := ⟨.hbm, 173, rfl⟩
abbrev main_v53 : Ref sig .tc := ⟨.hbm, 174, rfl⟩
abbrev main_v54 : Ref sig .tc := ⟨.hbm, 175, rfl⟩
abbrev main_c_21 : Ref sig .tc := ⟨.hbm, 176, rfl⟩
abbrev main_v55 : Ref sig .tc := ⟨.hbm, 177, rfl⟩
abbrev main_v56 : Ref sig .tc := ⟨.hbm, 178, rfl⟩
abbrev main_c_22 : Ref sig .tc := ⟨.hbm, 179, rfl⟩
abbrev main_v57 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_c_23 : Ref sig .tc := ⟨.hbm, 185, rfl⟩
abbrev main_v62 : Ref sig .tc := ⟨.hbm, 186, rfl⟩
abbrev main_v63 : Ref sig .tc := ⟨.hbm, 187, rfl⟩
abbrev main_c_24 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_c_25 : Ref sig .tc := ⟨.hbm, 194, rfl⟩
abbrev main_v69 : Ref sig .tc := ⟨.hbm, 195, rfl⟩
abbrev main_v70 : Ref sig .tc := ⟨.hbm, 196, rfl⟩
abbrev main_c_26 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_c_27 : Ref sig .tc := ⟨.hbm, 201, rfl⟩
abbrev main_v74 : Ref sig .tc := ⟨.hbm, 202, rfl⟩
abbrev main_v75 : Ref sig .tc := ⟨.hbm, 203, rfl⟩
abbrev main_c_28 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_c_29 : Ref sig .tc := ⟨.hbm, 218, rfl⟩
abbrev main_v89 : Ref sig .tc := ⟨.hbm, 219, rfl⟩
abbrev main_v90 : Ref sig .tc := ⟨.hbm, 220, rfl⟩
abbrev main_c_30 : Ref sig .tc := ⟨.hbm, 221, rfl⟩
abbrev main_v91 : Ref sig .tc := ⟨.hbm, 222, rfl⟩
abbrev main_v92 : Ref sig .tc := ⟨.hbm, 223, rfl⟩
abbrev main_c_31 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_c_32 : Ref sig .tc := ⟨.hbm, 228, rfl⟩
abbrev main_v96 : Ref sig .tc := ⟨.hbm, 229, rfl⟩
abbrev main_v97 : Ref sig .tc := ⟨.hbm, 230, rfl⟩
abbrev main_c_33 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_call8_v0 : Ref sig .tc := ⟨.hbm, 243, rfl⟩
abbrev main_call8_v1 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_cst_34 : Ref sig .tc := ⟨.hbm, 248, rfl⟩
abbrev main_v112 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_c_35 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_call9_v0 : Ref sig .tc := ⟨.hbm, 257, rfl⟩
abbrev main_v119 : Ref sig .tc := ⟨.hbm, 258, rfl⟩
abbrev main_call10_v0 : Ref sig .tc := ⟨.hbm, 259, rfl⟩
abbrev main_v120 : Ref sig .tc := ⟨.hbm, 260, rfl⟩
abbrev main_v121 : Ref sig .tc := ⟨.hbm, 261, rfl⟩
abbrev main_cst_36 : Ref sig .tc := ⟨.hbm, 262, rfl⟩
abbrev main_v122 : Ref sig .tc := ⟨.hbm, 263, rfl⟩
abbrev main_v123 : Ref sig .tc := ⟨.hbm, 264, rfl⟩
abbrev main_c_37 : Ref sig .tc := ⟨.hbm, 265, rfl⟩
abbrev main_v124 : Ref sig .tc := ⟨.hbm, 266, rfl⟩
abbrev main_v125 : Ref sig .tc := ⟨.hbm, 267, rfl⟩
abbrev main_c_38 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_c_39 : Ref sig .tc := ⟨.hbm, 272, rfl⟩
abbrev main_v129 : Ref sig .tc := ⟨.hbm, 273, rfl⟩
abbrev main_v130 : Ref sig .tc := ⟨.hbm, 274, rfl⟩
abbrev main_c_40 : Ref sig .tc := ⟨.hbm, 275, rfl⟩
abbrev main_v131 : Ref sig .tc := ⟨.hbm, 276, rfl⟩
abbrev main_v132 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_cst_41 : Ref sig .tc := ⟨.hbm, 285, rfl⟩
abbrev main_v140 : Ref sig .tc := ⟨.hbm, 286, rfl⟩
abbrev main_v141 : Ref sig .tc := ⟨.hbm, 287, rfl⟩
abbrev main_cst_42 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_cst_43 : Ref sig .tc := ⟨.hbm, 294, rfl⟩
abbrev main_v147 : Ref sig .tc := ⟨.hbm, 295, rfl⟩
abbrev main_cst_44 : Ref sig .tc := ⟨.hbm, 296, rfl⟩
abbrev main_v148 : Ref sig .tc := ⟨.hbm, 297, rfl⟩
abbrev main_cst_45 : Ref sig .tc := ⟨.hbm, 298, rfl⟩
abbrev main_v149 : Ref sig .tc := ⟨.hbm, 299, rfl⟩
abbrev main_v150 : Ref sig .tc := ⟨.hbm, 300, rfl⟩

abbrev nD : Nat := 1
abbrev τ : Topo := Topo.v7x

variable {F : FTy → Type} [FloatOps F]

class Facts₀ : Prop where
  reducesTo_S2048x30522_S2048_d1 : S2048x30522.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x30522_0_1 : S2048x1.BroadcastsInDim S2048x30522 (![0, 1] : Fin 2 → Fin S2048x30522.rank)
  bcast_S_S2048x30522 : S_.BroadcastsInDim S2048x30522 (![] : Fin 0 → Fin S2048x30522.rank)
  concatenates_S2048x1_S2048x1_S2048x2_d1 : Shape.Concatenates [S2048x1, S2048x1] S2048x2 1
  reducesTo_S2048_S_d0 : S2048.ReducesTo [0] S_
  bcast_S_S64x128 : S_.BroadcastsInDim S64x128 (![] : Fin 0 → Fin S64x128.rank)
  shapeCasts_S64x128_S8192 : S64x128.ShapeCasts S8192
  natLt_1_32 : 1 < 32
  bcast_S_S_ : S_.BroadcastsInDim S_ (![] : Fin 0 → Fin S_.rank)
  reduceWindows_S8192_S8192_w8192s1p8191_0 : S8192.ReduceWindows (![8192] : Fin 1 → Nat) ![1] ![8191] ![0] S8192
  bcast_S_S8192 : S_.BroadcastsInDim S8192 (![] : Fin 0 → Fin S8192.rank)
  bcast_S8192_S8192x1_0 : S8192.BroadcastsInDim S8192x1 (![0] : Fin 1 → Fin S8192x1.rank)
  reduceWindows_S2048_S2048_w2048s1p2047_0 : S2048.ReduceWindows (![2048] : Fin 1 → Nat) ![1] ![2047] ![0] S2048
  bcast_S2048x1_S2048x128_0_1 : S2048x1.BroadcastsInDim S2048x128 (![0, 1] : Fin 2 → Fin S2048x128.rank)
  slices_S2048x128_S2048x1_0_127 : S2048x128.Slices ![0, 127] S2048x1
  slices_S2048x128_S2048x127_0_0 : S2048x128.Slices ![0, 0] S2048x127
  concatenates_S2048x1_S2048x127_S2048x128_d1 : Shape.Concatenates [S2048x1, S2048x127] S2048x128 1
  bcast_S_S2048x128 : S_.BroadcastsInDim S2048x128 (![] : Fin 0 → Fin S2048x128.rank)
  bcast_S_S2048x1 : S_.BroadcastsInDim S2048x1 (![] : Fin 0 → Fin S2048x1.rank)
  bcast_S2048x128_S2048x128x1_0_1 : S2048x128.BroadcastsInDim S2048x128x1 (![0, 1] : Fin 2 → Fin S2048x128x1.rank)
  concatenates_S2048x128x1_S2048x128x1_S2048x128x2_d2 : Shape.Concatenates [S2048x128x1, S2048x128x1] S2048x128x2 2
  reducesTo_S2048x30522_S_d0_1 : S2048x30522.ReducesTo [0, 1] S_
  scatter_S2048x30522_S2048x2_S2048_n_01_01_1_wf : ScatterDims.WF S2048x30522 S2048x2 S2048 [] [0, 1] [0, 1] 1
  gather_S30522_S2048x1_S2048_n_0_n_n_0_1_1_wf : GatherDims.WF S30522 S2048x1 S2048 [] [0] [] [0] [] 1 ![1]
  scatter_S2048_S8192x1_S8192_n_0_0_1_wf : ScatterDims.WF S2048 S8192x1 S8192 [] [0] [0] 1
  gather_S64x128_S2048x1_S2048x128_1_0_n_n_0_1_1128_wf : GatherDims.WF S64x128 S2048x1 S2048x128 [1] [0] [] [0] [] 1 ![1, 128]
  gather_S2048x128_S2048x2_S2048_n_01_n_n_01_1_11_wf : GatherDims.WF S2048x128 S2048x2 S2048 [] [0, 1] [] [0, 1] [] 1 ![1, 1]
  scatter_S2048x30522_S2048x128x2_S2048x128_n_01_01_2_wf : ScatterDims.WF S2048x30522 S2048x128x2 S2048x128 [] [0, 1] [0, 1] 2

variable [Facts₀]

def scatter_S2048x30522_S2048x2_S2048_n_01_01_1 : ScatterDims S2048x30522 S2048x2 S2048 where
  updateWindowDims := []
  insertedWindowDims := [0, 1]
  scatterDimsToOperandDims := [0, 1]
  indexVectorDim := 1
  wf := scatter_S2048x30522_S2048x2_S2048_n_01_01_1_wf
def gather_S30522_S2048x1_S2048_n_0_n_n_0_1_1 : GatherDims S30522 S2048x1 S2048 where
  offsetDims := []
  collapsedSliceDims := [0]
  operandBatchingDims := []
  startIndicesBatchingDims := []
  startIndexMap := [0]
  indexVectorDim := 1
  sliceSizes := ![1]
  wf := gather_S30522_S2048x1_S2048_n_0_n_n_0_1_1_wf
def scatter_S2048_S8192x1_S8192_n_0_0_1 : ScatterDims S2048 S8192x1 S8192 where
  updateWindowDims := []
  insertedWindowDims := [0]
  scatterDimsToOperandDims := [0]
  indexVectorDim := 1
  wf := scatter_S2048_S8192x1_S8192_n_0_0_1_wf
def gather_S64x128_S2048x1_S2048x128_1_0_n_n_0_1_1128 : GatherDims S64x128 S2048x1 S2048x128 where
  offsetDims := [1]
  collapsedSliceDims := [0]
  operandBatchingDims := []
  startIndicesBatchingDims := []
  startIndexMap := [0]
  indexVectorDim := 1
  sliceSizes := ![1, 128]
  wf := gather_S64x128_S2048x1_S2048x128_1_0_n_n_0_1_1128_wf
def gather_S2048x128_S2048x2_S2048_n_01_n_n_01_1_11 : GatherDims S2048x128 S2048x2 S2048 where
  offsetDims := []
  collapsedSliceDims := [0, 1]
  operandBatchingDims := []
  startIndicesBatchingDims := []
  startIndexMap := [0, 1]
  indexVectorDim := 1
  sliceSizes := ![1, 1]
  wf := gather_S2048x128_S2048x2_S2048_n_01_n_n_01_1_11_wf
def scatter_S2048x30522_S2048x128x2_S2048x128_n_01_01_2 : ScatterDims S2048x30522 S2048x128x2 S2048x128 where
  updateWindowDims := []
  insertedWindowDims := [0, 1]
  scatterDimsToOperandDims := [0, 1]
  indexVectorDim := 2
  wf := scatter_S2048x30522_S2048x128x2_S2048x128_n_01_01_2_wf

class Facts : Prop extends Facts₀ where

variable [Facts]
-- ==== Proof.KernelRun.lean ====
/- THE KERNEL PROGRAM'S RUN WITH ITS RESULTS NAMED: the final memory of every fair execution of @main, read at the
   three scalar results and at the six arguments, in terms of the host lines after the region applied to the region's
   exit contents (the pipeline's arrays at what the write-backs leave, every other buffer as the region found it);
   and the lemmas that read those exit contents buffer by buffer. -/
import proofs.«425233_j52278341926994_2_alg».proof.Proof.Gen.KernelIdeal.Frame

set_option maxRecDepth 16384

noncomputable section

namespace Cert.KernelIdeal.Hand

open Idealize.ShloMosaic Idealize.ShloMosaic.TcCoe
open Idealize.SL Idealize.SL.Sem
open Idealize.ShloMosaic.Pipeline (Dat Cfg)

variable {F : FTy → Type} [FloatOps F] [Named F]

variable (m : (ℓ : Loc nD τ sig) → Buf (Elt F) ℓ) (ρ : Dev nD → PrngReg)

/-- Core `c`'s buffer contents at the end of @main: the host lines after the region, applied to the region's exit
    contents (each array of the pipeline at what its write-backs leave, every other buffer at its region-entry
    contents). -/
def Wfin (c : Dev nD) : Valuation τ sig (Elt F) :=
  StableHlo.after Gen.hostOps1
    (Pipeline.withArrays spec0 c (Gen.V0 m c) fun w => (Gen.dats m 0 c).arrAt w cfg0.N)

/-- The library's contents after the lines that follow the region are `Wfin`, read at a TensorCore reference. -/
theorem afterTail_eq (c : Dev nD) (b : Ref sig .tc) :
    Pipeline.afterTail₀ cfgs (Gen.dats m) 0 (Gen.V0 m) [Gen.hostOps1] c b = Wfin m c (Proc.devRef .tc b) := by
  unfold Pipeline.afterTail₀ Wfin
  rw [List.flatten_singleton]

/-! ## The run -/

/-- Every weakly fair execution of @main from `m` with zero counters terminates, and in every final state the three
    scalar results hold what `Wfin` says and the six arguments are as launched. The results are unscoped buffers that
    are no window's array, so the region passes them by and the lines after it leave them at `Wfin`; the arguments as in
    the frame claim. -/
theorem run_vals : θ_run defs (onTc (τ := τ) (main (F := F))) ⟨m, fun _ => 0, ρ⟩ (fun r => ∀ c : Dev nD,
      r.2.mem ((c.tc : Thread nD τ).loc main_v134) = Wfin m c (Proc.devRef .tc main_v134)
      ∧ r.2.mem ((c.tc : Thread nD τ).loc main_v103) = Wfin m c (Proc.devRef .tc main_v103)
      ∧ r.2.mem ((c.tc : Thread nD τ).loc main_v132) = Wfin m c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v134 (Pipeline.mem_restRefs_of main_v134 (by decide) (by decide))).trans (afterTail_eq m c main_v134),
      ((h c).2 main_v103 (Pipeline.mem_restRefs_of main_v103 (by decide) (by decide))).trans (afterTail_eq m c main_v103),
      ((h c).2 main_v132 (Pipeline.mem_restRefs_of main_v132 (by decide) (by decide))).trans (afterTail_eq m c main_v132),
      ((h c).1 0).trans ((((Gen.dats m) 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩)
    (Gen.run_main m ρ)

/-! ## The region's exit contents, buffer by buffer -/

/-- At window `w`'s array the exit contents are what the write-backs leave there (the windows' arrays are distinct
    buffers). -/
theorem start_arr (c : Dev nD) (w : Fin 5) :
    Pipeline.withArrays spec0 c (Gen.V0 m c) (fun w => (Gen.dats m 0 c).arrAt w cfg0.N)
        (Proc.devRef .tc (Pipeline.arrRef spec0 w))
      = (Gen.dats m 0 c).arrAt w cfg0.N :=
  Pipeline.withArrays_arr spec0 Gen.winFacts0.arr_inj c (Gen.V0 m c) _ w

/-- The first output's array (window 3: the weighted row sums). -/
theorem start_v100_0 (c : Dev nD) :
    Pipeline.withArrays spec0 c (Gen.V0 m c) (fun w => (Gen.dats m 0 c).arrAt w cfg0.N) (Proc.devRef .tc main_v100_0)
      = (Gen.dats m 0 c).arrAt 3 cfg0.N :=
  start_arr m c 3

/-- The second output's array (window 4: the rows' log-sum-exp). -/
theorem start_v100_1 (c : Dev nD) :
    Pipeline.withArrays spec0 c (Gen.V0 m c) (fun w => (Gen.dats m 0 c).arrAt w cfg0.N) (Proc.devRef .tc main_v100_1)
      = (Gen.dats m 0 c).arrAt 4 cfg0.N :=
  start_arr m c 4

/-- At a buffer that is no window's array the exit contents are the region-entry contents. -/
theorem start_other (c : Dev nD) (b : Ref sig .tc) (hb : ∀ w, Pipeline.arrRef spec0 w ≠ b) :
    Pipeline.withArrays spec0 c (Gen.V0 m c) (fun w => (Gen.dats m 0 c).arrAt w cfg0.N) (Proc.devRef .tc b)
      = Gen.V0 m c (Proc.devRef .tc b) :=
  Pipeline.withArrays_of_ne spec0 c (Gen.V0 m c) _ b hb

/-- An input window's array is never written back: it ends the region at its entry contents. -/
theorem arrAt_in (c : Dev nD) (w : Fin 5) (hin : (cfg0.win w).isOut = false) :
    (Gen.dats m 0 c).arrAt w cfg0.N = Gen.V m c (Pipeline.arrRef spec0 w) :=
  ((Gen.dats m 0 c).arrAt_in w hin _).trans (Gen.A_eq m c w)

theorem arrAt_0 (c : Dev nD) : (Gen.dats m 0 c).arrAt 0 cfg0.N = Gen.V m c main_arg0 := arrAt_in m c 0 rfl
theorem arrAt_1 (c : Dev nD) : (Gen.dats m 0 c).arrAt 1 cfg0.N = Gen.V m c main_v98 := arrAt_in m c 1 rfl
theorem arrAt_2 (c : Dev nD) : (Gen.dats m 0 c).arrAt 2 cfg0.N = Gen.V m c main_v99 := arrAt_in m c 2 rfl

/-- So at an input window's array too the exit contents are the region-entry contents. -/
theorem start_in (c : Dev nD) (w : Fin 5) (hin : (cfg0.win w).isOut = false) :
    Pipeline.withArrays spec0 c (Gen.V0 m c) (fun w => (Gen.dats m 0 c).arrAt w cfg0.N)
        (Proc.devRef .tc (Pipeline.arrRef spec0 w))
      = Gen.V0 m c (Proc.devRef .tc (Pipeline.arrRef spec0 w)) :=
  (start_arr m c w).trans (arrAt_in m c w hin)

/-- Away from the two output arrays the exit contents are the region-entry contents. -/
theorem start_off_out (c : Dev nD) (b : Ref sig .tc) (h0 : b ≠ main_v100_0) (h1 : b ≠ main_v100_1) :
    Pipeline.withArrays spec0 c (Gen.V0 m c) (fun w => (Gen.dats m 0 c).arrAt w cfg0.N) (Proc.devRef .tc b)
      = Gen.V0 m c (Proc.devRef .tc b) := by
  by_cases hb : ∃ w, Pipeline.arrRef spec0 w = b
  · obtain ⟨w, rfl⟩ := hb
    have hin : (cfg0.win w).isOut = false := by
      revert h0 h1; fin_cases w
      · intro _ _; rfl
      · intro _ _; rfl
      · intro _ _; rfl
      · intro h0 _; exact absurd rfl h0
      · intro _ h1; exact absurd rfl h1
    exact start_in m c w hin
  · exact start_other m c b fun w e => hb ⟨w, e⟩

end Cert.KernelIdeal.Hand

end
-- ==== Proof.RefRun.lean ====
/-
  The reference program's run. Its @main is a straight line of 295 tensor operations once each called
  function's body is put at its call over that call's buffers; the line is listed here, cut into thirteen
  consecutive segments at statement boundaries of @main, and the program is shown equal to running the
  listed operations in order. Every execution then ends with each buffer at the fold of the operations'
  results over the launch contents.
-/
import proofs.«425233_j52278341926994_2_alg».proof.Proof.Gen.ReferenceIdeal
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The operations, in thirteen consecutive segments -/

set_option maxHeartbeats 40000000 in
/-- The log-softmax call (%0): row maximum, shifted exponentials, their row sum, its logarithm, the difference. (15 operations) -/
abbrev seg_ls : List (HloOp τ sig (Elt F)) :=
  ( StableHlo.TRef.nullary (.of main_call0_cst : StableHlo.TRef sig ⟨S_, .f32⟩) (constant S_ .f32 0xFF800000#32)
  :: StableHlo.TRef.binary (.of main_arg0 : StableHlo.TRef sig ⟨S2048x30522, .f32⟩) (.of main_call0_cst : StableHlo.TRef sig ⟨S_, .f32⟩) (.of main_call0_v0 : StableHlo.TRef sig ⟨S2048, .f32⟩) (fun x v => Host.reduce FloatOps.maximumf x v reducesTo_S2048x30522_S2048_d1 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S2048, .f32⟩) (broadcastInDim S2048 ![] bcast_S_S2048)
  :: StableHlo.TRef.binary (.of main_call0_v1 : StableHlo.TRef sig ⟨S2048, .f32⟩) (.of main_call0_v0 : StableHlo.TRef sig ⟨S2048, .f32⟩) (.of main_call0_v2 : StableHlo.TRef sig ⟨S2048, .f32⟩) maximumf
  :: StableHlo.TRef.unary (.of main_call0_v2 : StableHlo.TRef sig ⟨S2048, .f32⟩) (.of main_call0_v3 : StableHlo.TRef sig ⟨S2048x1, .f32⟩) (broadcastInDim S2048x1 ![0] bcast_S2048_S2048x1_0)
  :: StableHlo.TRef.unary (.of main_call0_v3 : StableHlo.TRef sig ⟨S2048x1, .f32⟩) (.of main_call0_v4 : StableHlo.TRef sig ⟨S2048x30522, .f32⟩) (broadcastInDim S2048x30522 ![0, 1] bcast_S2048x1_S2048x30522_0_1)
  :: StableHlo.TRef.binary (.of main_arg0 : StableHlo.TRef sig ⟨S2048x30522, .f32⟩) (.of main_call0_v4 : StableHlo.TRef sig ⟨S2048x30522, .f32⟩) (.of main_call0_v5 : StableHlo.TRef sig ⟨S2048x30522, .f32⟩) subf
  :: StableHlo.TRef.unary (.of main_call0_v5 : StableHlo.TRef sig ⟨S2048x30522, .f32⟩) (.of main_call0_v6 : StableHlo.TRef sig ⟨S2048x30522, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S2048x30522, .f32⟩) (.of main_call0_cst_1 : StableHlo.TRef sig ⟨S_, .f32⟩) (.of main_call0_v7 : StableHlo.TRef sig ⟨S2048, .f32⟩) (fun x v => Host.reduceAdd x v reducesTo_S2048x30522_S2048_d1 h_S_)
  :: StableHlo.TRef.unary (.of main_call0_v7 : StableHlo.TRef sig ⟨S2048, .f32⟩) (.of main_call0_v8 : StableHlo.TRef sig ⟨S2048x1, .f32⟩) (broadcastInDim S2048x1 ![0] bcast_S2048_S2048x1_0)
  :: StableHlo.TRef.unary (.of main_call0_v8 : StableHlo.TRef sig ⟨S2048x1, .f32⟩) (.of main_call0_v9 : StableHlo.TRef sig ⟨S2048x1, .f32⟩) Host.log
  :: StableHlo.TRef.unary (.of main_call0_v9 : StableHlo.TRef sig ⟨S2048x1, .f32⟩) (.of main_call0_v10 : StableHlo.TRef sig ⟨S2048x30522, .f32⟩) (broadcastInDim S2048x30522 ![0, 1] bcast_S2048x1_S2048x30522_0_1)
  :: StableHlo.TRef.binary (.of main_call0_v5 : StableHlo.TRef sig ⟨S2048x30522, .f32⟩) (.of main_call0_v10 : StableHlo.TRef sig ⟨S2048x30522, .f32⟩) (.of main_v0 : StableHlo.TRef sig ⟨S2048x30522, .f32⟩) subf
  :: [] )
set_option maxHeartbeats 40000000 in
theorem seg_ls_sub : (seg_ls : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
set_option maxHeartbeats 40000000 in
theorem seg_ls_fresh : (seg_ls : List (HloOp τ sig (Elt F))).Forall fun op => op.fresh = ∅ :=
  ⟨rfl, rfl, rfl, rfl, rfl, rfl, rfl, rfl, rfl, rfl, rfl, rfl, rfl, rfl, rfl⟩

set_option maxHeartbeats 40000000 in
/-- %cst … %17: the constant distribution and the scatter that sets the target column of each row. (23 operations) -/
abbrev seg_td : List (HloOp τ sig (Elt F)) :=
  ( StableHlo.nullary main_cst (constant S_ .f32 0x36DBE0AF#32)
  :: StableHlo.unary main_cst main_v1 (broadcastInDim S2048x30522 ![] bcast_S_S2048x30522 : (⟨S_, .f32⟩ : BufTy).Contents (Elt F) → (⟨S2048x30522, .f32⟩ : BufTy).Contents (Elt F))
  :: StableHlo.nullary main_v2 (iotaInDim S2048 32 0)
  :: StableHlo.nullary main_c (constantI S_ 32 0#32)
  :: StableHlo.unary main_c main_v3 (broadcastInDim S2048 ![] bcast_S_S2048 : (⟨S_, .i32⟩ : BufTy).Contents (Elt F) → (⟨S2048, .i32⟩ : BufTy).Contents (Elt F))
  :: StableHlo.binary main_v2 main_v3 main_v4 (cmpi .slt : (⟨S2048, .i32⟩ : BufTy).Contents (Elt F) → (⟨S2048, .i32⟩ : BufTy).Contents (Elt F) → (⟨S2048, .i1⟩ : BufTy).Contents (Elt F))
  :: StableHlo.nullary main_c_0 (constantI S_ 32 2048#32)
  :: StableHlo.unary main_c_0 main_v5 (broadcastInDim S2048 ![] bcast_S_S2048 : (⟨S_, .i32⟩ : BufTy).Contents (Elt F) → (⟨S2048, .i32⟩ : BufTy).Contents (Elt F))
  :: StableHlo.binary main_v2 main_v5 main_v6 (addi : (⟨S2048, .i32⟩ : BufTy).Contents (Elt F) → (⟨S2048, .i32⟩ : BufTy).Contents (Elt F) → (⟨S2048, .i32⟩ : BufTy).Contents (Elt F))
  :: StableHlo.ternary main_v4 main_v6 main_v2 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_1 (constantI S_ 32 0#32)
  :: StableHlo.unary main_c_1 main_v8 (broadcastInDim S2048 ![] bcast_S_S2048 : (⟨S_, .i32⟩ : BufTy).Contents (Elt F) → (⟨S2048, .i32⟩ : BufTy).Contents (Elt F))
  :: StableHlo.binary main_arg1 main_v8 main_v9 (cmpi .slt : (⟨S2048, .i32⟩ : BufTy).Contents (Elt F) → (⟨S2048, .i32⟩ : BufTy).Contents (Elt F) → (⟨S2048, .i1⟩ : BufTy).Contents (Elt F))
  :: StableHlo.nullary main_c_2 (constantI S_ 32 30522#32)
  :: StableHlo.unary main_c_2 main_v10 (broadcastInDim S2048 ![] bcast_S_S2048 : (⟨S_, .i32⟩ : BufTy).Contents (Elt F) → (⟨S2048, .i32⟩ : BufTy).Contents (Elt F))
  :: StableHlo.binary main_arg1 main_v10 main_v11 (addi : (⟨S2048, .i32⟩ : BufTy).Contents (Elt F) → (⟨S2048, .i32⟩ : BufTy).Contents (Elt F) → (⟨S2048, .i32⟩ : BufTy).Contents (Elt F))
  :: StableHlo.ternary main_v9 main_v11 main_arg1 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v7 main_v13 (broadcastInDim S2048x1 ![0] bcast_S2048_S2048x1_0 : (⟨S2048, .i32⟩ : BufTy).Contents (Elt F) → (⟨S2048x1, .i32⟩ : BufTy).Contents (Elt F))
  :: StableHlo.unary main_v12 main_v14 (broadcastInDim S2048x1 ![0] bcast_S2048_S2048x1_0 : (⟨S2048, .i32⟩ : BufTy).Contents (Elt F) → (⟨S2048x1, .i32⟩ : BufTy).Contents (Elt F))
  :: StableHlo.binary main_v13 main_v14 main_v15 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.nullary main_cst_3 (constant S_ .f32 0x3F4CCCCD#32)
  :: StableHlo.unary main_cst_3 main_v16 (broadcastInDim S2048 ![] bcast_S_S2048 : (⟨S_, .f32⟩ : BufTy).Contents (Elt F) → (⟨S2048, .f32⟩ : BufTy).Contents (Elt F))
  :: StableHlo.ternary main_v1 main_v15 main_v16 main_v17 ((fun x i u => Host.scatter scatter_S2048x30522_S2048x2_S2048_n_01_01_1 (fun _ b => b) x i u) : (⟨S2048x30522, .f32⟩ : BufTy).Contents (Elt F) → (⟨S2048x2, .i32⟩ : BufTy).Contents (Elt F) → (⟨S2048, .f32⟩ : BufTy).Contents (Elt F) → (⟨S2048x30522, .f32⟩ : BufTy).Contents (Elt F))
  :: [] )
set_option maxHeartbeats 40000000 in
theorem seg_td_sub : (seg_td : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
set_option maxHeartbeats 40000000 in
theorem seg_td_fresh : (seg_td : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxHeartbeats 40000000 in
/-- %c_4 … %24: the per-row weight gathered at the (wrapped) target. (9 operations) -/
abbrev seg_w : List (HloOp τ sig (Elt F)) :=
  ( StableHlo.nullary main_c_4 (constantI S_ 32 0#32)
  :: StableHlo.unary main_c_4 main_v18 (broadcastInDim S2048 ![] bcast_S_S2048 : (⟨S_, .i32⟩ : BufTy).Contents (Elt F) → (⟨S2048, .i32⟩ : BufTy).Contents (Elt F))
  :: StableHlo.binary main_arg1 main_v18 main_v19 (cmpi .slt : (⟨S2048, .i32⟩ : BufTy).Contents (Elt F) → (⟨S2048, .i32⟩ : BufTy).Contents (Elt F) → (⟨S2048, .i1⟩ : BufTy).Contents (Elt F))
  :: StableHlo.nullary main_c_5 (constantI S_ 32 30522#32)
  :: StableHlo.unary main_c_5 main_v20 (broadcastInDim S2048 ![] bcast_S_S2048 : (⟨S_, .i32⟩ : BufTy).Contents (Elt F) → (⟨S2048, .i32⟩ : BufTy).Contents (Elt F))
  :: StableHlo.binary main_arg1 main_v20 main_v21 (addi : (⟨S2048, .i32⟩ : BufTy).Contents (Elt F) → (⟨S2048, .i32⟩ : BufTy).Contents (Elt F) → (⟨S2048, .i32⟩ : BufTy).Contents (Elt F))
  :: StableHlo.ternary main_v19 main_v21 main_arg1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v22 main_v23 (broadcastInDim S2048x1 ![0] bcast_S2048_S2048x1_0 : (⟨S2048, .i32⟩ : BufTy).Contents (Elt F) → (⟨S2048x1, .i32⟩ : BufTy).Contents (Elt F))
  :: StableHlo.binary main_arg5 main_v23 main_v24 ((fun x i => Host.gather gather_S30522_S2048x1_S2048_n_0_n_n_0_1_1 x i) : (⟨S30522, .f32⟩ : BufTy).Contents (Elt F) → (⟨S2048x1, .i32⟩ : BufTy).Contents (Elt F) → (⟨S2048, .f32⟩ : BufTy).Contents (Elt F))
  :: [] )
set_option maxHeartbeats 40000000 in
theorem seg_w_sub : (seg_w : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxHeartbeats 40000000 in
theorem seg_w_fresh : (seg_w : List (HloOp τ sig (Elt F))).Forall fun op => op.fresh = ∅ :=
  ⟨rfl, rfl, rfl, rfl, rfl, rfl, rfl, rfl, rfl⟩

set_option maxHeartbeats 40000000 in
/-- %25 … %33: the weighted cross-entropy row sums and their normalised total. (14 operations) -/
abbrev seg_mle : List (HloOp τ sig (Elt F)) :=
  ( StableHlo.unary main_v17 main_v25 (Host.negf : (⟨S2048x30522, .f32⟩ : BufTy).Contents (Elt F) → (⟨S2048x30522, .f32⟩ : BufTy).Contents (Elt F))
  :: StableHlo.binary main_v25 main_v0 main_v26 (mulf : (⟨S2048x30522, .f32⟩ : BufTy).Contents (Elt F) → (⟨S2048x30522, .f32⟩ : BufTy).Contents (Elt F) → (⟨S2048x30522, .f32⟩ : BufTy).Contents (Elt F))
  :: StableHlo.nullary main_cst_6 (constant S_ .f32 0x00000000#32)
  :: StableHlo.binary main_v26 main_cst_6 main_v27 ((fun x v => Host.reduceAdd x v reducesTo_S2048x30522_S2048_d1 h_S_) : (⟨S2048x30522, .f32⟩ : BufTy).Contents (Elt F) → (⟨S_, .f32⟩ : BufTy).Contents (Elt F) → (⟨S2048, .f32⟩ : BufTy).Contents (Elt F))
  :: StableHlo.binary main_v27 main_v24 main_v28 (mulf : (⟨S2048, .f32⟩ : BufTy).Contents (Elt F) → (⟨S2048, .f32⟩ : BufTy).Contents (Elt F) → (⟨S2048, .f32⟩ : BufTy).Contents (Elt F))
  :: StableHlo.nullary main_cst_7 (constant S_ .f32 0x00000000#32)
  :: StableHlo.binary main_v28 main_cst_7 main_v29 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.nullary main_cst_8 (constant S_ .f32 0x45000000#32)
  :: StableHlo.binary main_v29 main_cst_8 main_v30 (Host.divf : (⟨S_, .f32⟩ : BufTy).Contents (Elt F) → (⟨S_, .f32⟩ : BufTy).Contents (Elt F) → (⟨S_, .f32⟩ : BufTy).Contents (Elt F))
  :: StableHlo.nullary main_cst_9 (constant S_ .f32 0x45000000#32)
  :: StableHlo.binary main_v30 main_cst_9 main_v31 (mulf : (⟨S_, .f32⟩ : BufTy).Contents (Elt F) → (⟨S_, .f32⟩ : BufTy).Contents (Elt F) → (⟨S_, .f32⟩ : BufTy).Contents (Elt F))
  :: StableHlo.nullary main_cst_10 (constant S_ .f32 0x00000000#32)
  :: StableHlo.binary main_v24 main_cst_10 main_v32 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.binary main_v31 main_v32 main_v33 (Host.divf : (⟨S_, .f32⟩ : BufTy).Contents (Elt F) → (⟨S_, .f32⟩ : BufTy).Contents (Elt F) → (⟨S_, .f32⟩ : BufTy).Contents (Elt F))
  :: [] )
set_option maxHeartbeats 40000000 in
theorem seg_mle_sub : (seg_mle : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
set_option maxHeartbeats 40000000 in
theorem seg_mle_fresh : (seg_mle : List (HloOp τ sig (Elt F))).Forall fun op => op.fresh = ∅ :=
  ⟨rfl, rfl, rfl, rfl, rfl, rfl, rfl, rfl, rfl, rfl, rfl, rfl, rfl, rfl⟩

set_option maxHeartbeats 40000000 in
/-- %34, %35: the attention mask converted and multiplied in. (2 operations) -/
abbrev seg_att : List (HloOp τ sig (Elt F)) :=
  [ StableHlo.unary main_arg2 main_v34 (sitofp .f32 : (⟨S64x128, .i32⟩ : BufTy).Contents (Elt F) → (⟨S64x128, .f32⟩ : BufTy).Contents (Elt F)),
    StableHlo.binary main_arg3 main_v34 main_v35 (mulf : (⟨S64x128, .f32⟩ : BufTy).Contents (Elt F) → (⟨S64x128, .f32⟩ : BufTy).Contents (Elt F) → (⟨S64x128, .f32⟩ : BufTy).Contents (Elt F)) ]
set_option maxHeartbeats 40000000 in
theorem seg_att_sub : (seg_att : List (HloOp τ sig (Elt F))).Forall fun op => op.bufs ⊆ StableHlo.tcRefs τ sig :=
  ⟨StableHlo.unary_bufs_sub .., StableHlo.binary_bufs_sub ..⟩
set_option maxHeartbeats 40000000 in
theorem seg_att_fresh : (seg_att : List (HloOp τ sig (Elt F))).Forall fun op => op.fresh = ∅ :=
  ⟨rfl, rfl⟩

set_option maxHeartbeats 40000000 in
/-- %c_11 … %53: the positions of the marked tokens — cumulative count, clipped scatter of ones, second cumulative count, floor-divisions and remainders. (106 operations) -/
abbrev seg_nz : List (HloOp τ sig (Elt F)) :=
  ( StableHlo.nullary main_c_11 (constantI S_ 32 103#32)
  :: StableHlo.unary main_c_11 main_v36 (broadcastInDim S64x128 ![] bcast_S_S64x128 : (⟨S_, .i32⟩ : BufTy).Contents (Elt F) → (⟨S64x128, .i32⟩ : BufTy).Contents (Elt F))
  :: StableHlo.binary main_arg4 main_v36 main_v37 (cmpi .eq : (⟨S64x128, .i32⟩ : BufTy).Contents (Elt F) → (⟨S64x128, .i32⟩ : BufTy).Contents (Elt F) → (⟨S64x128, .i1⟩ : BufTy).Contents (Elt F))
  :: StableHlo.TRef.reshape (.of main_v37 : StableHlo.TRef sig ⟨S64x128, .i1⟩) (.of main_call1_v0 : StableHlo.TRef sig ⟨S8192, .i1⟩) rfl shapeCasts_S64x128_S8192
  :: StableHlo.TRef.unary (.of main_call1_v0 : StableHlo.TRef sig ⟨S8192, .i1⟩) (.of main_call1_v1 : StableHlo.TRef sig ⟨S8192, .i32⟩) (extui 32 · natLt_1_32)
  :: StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_call1_v1 : StableHlo.TRef sig ⟨S8192, .i32⟩) (.of main_call1_call0_v0 : StableHlo.TRef sig ⟨S_, .i32⟩) (.of main_v38 : StableHlo.TRef sig ⟨S8192, .i32⟩) (fun x v => Host.reduceWindow IntOp.addi ![8192] ![1] ![8191] ![0] x v reduceWindows_S8192_S8192_w8192s1p8191_0 h_S_)
  :: StableHlo.nullary main_c_12 (constantI S_ 32 0#32)
  :: StableHlo.unary main_c_12 main_v39 (broadcastInDim S2048 ![] bcast_S_S2048 : (⟨S_, .i32⟩ : BufTy).Contents (Elt F) → (⟨S2048, .i32⟩ : BufTy).Contents (Elt F))
  :: StableHlo.nullary main_c_13 (constantI S_ 32 0#32)
  :: StableHlo.TRef.unary (.of main_c_13 : StableHlo.TRef sig ⟨S_, .i32⟩) (.of main_call2_v0 : StableHlo.TRef sig ⟨S_, .i32⟩) id
  :: StableHlo.TRef.unary (.of main_call2_v0 : StableHlo.TRef sig ⟨S_, .i32⟩) (.of main_call2_v1 : StableHlo.TRef sig ⟨S8192, .i32⟩) (broadcastInDim S8192 ![] bcast_S_S8192)
  :: StableHlo.TRef.binary (.of main_call2_v1 : StableHlo.TRef sig ⟨S8192, .i32⟩) (.of main_v38 : StableHlo.TRef sig ⟨S8192, .i32⟩) (.of main_v40 : StableHlo.TRef sig ⟨S8192, .i32⟩) maxsi
  :: StableHlo.nullary main_c_14 (constantI S_ 32 0#32)
  :: StableHlo.unary main_c_14 main_v41 (broadcastInDim S8192 ![] bcast_S_S8192 : (⟨S_, .i32⟩ : BufTy).Contents (Elt F) → (⟨S8192, .i32⟩ : BufTy).Contents (Elt F))
  :: StableHlo.binary main_v40 main_v41 main_v42 (cmpi .slt : (⟨S8192, .i32⟩ : BufTy).Contents (Elt F) → (⟨S8192, .i32⟩ : BufTy).Contents (Elt F) → (⟨S8192, .i1⟩ : BufTy).Contents (Elt F))
  :: StableHlo.nullary main_c_15 (constantI S_ 32 2048#32)
  :: StableHlo.unary main_c_15 main_v43 (broadcastInDim S8192 ![] bcast_S_S8192 : (⟨S_, .i32⟩ : BufTy).Contents (Elt F) → (⟨S8192, .i32⟩ : BufTy).Contents (Elt F))
  :: StableHlo.binary main_v40 main_v43 main_v44 (addi : (⟨S8192, .i32⟩ : BufTy).Contents (Elt F) → (⟨S8192, .i32⟩ : BufTy).Contents (Elt F) → (⟨S8192, .i32⟩ : BufTy).Contents (Elt F))
  :: StableHlo.ternary main_v42 main_v44 main_v40 main_v45 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v45 main_v46 (broadcastInDim S8192x1 ![0] bcast_S8192_S8192x1_0 : (⟨S8192, .i32⟩ : BufTy).Contents (Elt F) → (⟨S8192x1, .i32⟩ : BufTy).Contents (Elt F))
  :: StableHlo.nullary main_c_16 (constantI S_ 32 1#32)
  :: StableHlo.unary main_c_16 main_v47 (broadcastInDim S8192 ![] bcast_S_S8192 : (⟨S_, .i32⟩ : BufTy).Contents (Elt F) → (⟨S8192, .i32⟩ : BufTy).Contents (Elt F))
  :: StableHlo.ternary main_v39 main_v46 main_v47 main_v48 ((fun x i u => Host.scatter scatter_S2048_S8192x1_S8192_n_0_0_1 IntOp.addi x i u) : (⟨S2048, .i32⟩ : BufTy).Contents (Elt F) → (⟨S8192x1, .i32⟩ : BufTy).Contents (Elt F) → (⟨S8192, .i32⟩ : BufTy).Contents (Elt F) → (⟨S2048, .i32⟩ : BufTy).Contents (Elt F))
  :: StableHlo.TRef.nullary (.of main_call3_call0_c : StableHlo.TRef sig ⟨S_, .i32⟩) (constantI S_ 32 0#32)
  :: StableHlo.TRef.unary (.of main_call3_call0_c : StableHlo.TRef sig ⟨S_, .i32⟩) (.of main_call3_call0_v0 : StableHlo.TRef sig ⟨S_, .i32⟩) (broadcastInDim S_ ![] bcast_S_S_)
  :: StableHlo.TRef.binary (.of main_v48 : StableHlo.TRef sig ⟨S2048, .i32⟩) (.of main_call3_call0_v0 : StableHlo.TRef sig ⟨S_, .i32⟩) (.of main_v49 : StableHlo.TRef sig ⟨S2048, .i32⟩) (fun x v => Host.reduceWindow IntOp.addi ![2048] ![1] ![2047] ![0] x v reduceWindows_S2048_S2048_w2048s1p2047_0 h_S_)
  :: StableHlo.nullary main_c_17 (constantI S_ 32 128#32)
  :: StableHlo.TRef.unary (.of main_c_17 : StableHlo.TRef sig ⟨S_, .i32⟩) (.of main_call4_v0 : StableHlo.TRef sig ⟨S2048, .i32⟩) (broadcastInDim S2048 ![] bcast_S_S2048)
  :: StableHlo.TRef.binary (.of main_v49 : StableHlo.TRef sig ⟨S2048, .i32⟩) (.of main_call4_v0 : StableHlo.TRef sig ⟨S2048, .i32⟩) (.of main_call4_v1 : StableHlo.TRef sig ⟨S2048, .i32⟩) Host.divsi
  :: StableHlo.TRef.unary (.of main_v49 : StableHlo.TRef sig ⟨S2048, .i32⟩) (.of main_call4_v2 : StableHlo.TRef sig ⟨S2048, .i32⟩) signi
  :: StableHlo.TRef.unary (.of main_c_17 : StableHlo.TRef sig ⟨S_, .i32⟩) (.of main_call4_v3 : StableHlo.TRef sig ⟨S_, .i32⟩) signi
  :: StableHlo.TRef.unary (.of main_call4_v3 : StableHlo.TRef sig ⟨S_, .i32⟩) (.of main_call4_v4 : StableHlo.TRef sig ⟨S2048, .i32⟩) (broadcastInDim S2048 ![] bcast_S_S2048)
  :: StableHlo.TRef.binary (.of main_call4_v2 : StableHlo.TRef sig ⟨S2048, .i32⟩) (.of main_call4_v4 : StableHlo.TRef sig ⟨S2048, .i32⟩) (.of main_call4_v5 : StableHlo.TRef sig ⟨S2048, .i1⟩) (cmpi .ne)
  :: StableHlo.TRef.unary (.of main_c_17 : StableHlo.TRef sig ⟨S_, .i32⟩) (.of main_call4_v6 : StableHlo.TRef sig ⟨S2048, .i32⟩) (broadcastInDim S2048 ![] bcast_S_S2048)
  :: StableHlo.TRef.binary (.of main_v49 : StableHlo.TRef sig ⟨S2048, .i32⟩) (.of main_call4_v6 : StableHlo.TRef sig ⟨S2048, .i32⟩) (.of main_call4_v7 : StableHlo.TRef sig ⟨S2048, .i32⟩) Host.remsi
  :: StableHlo.TRef.nullary (.of main_call4_c : StableHlo.TRef sig ⟨S_, .i32⟩) (constantI S_ 32 0#32)
  :: StableHlo.TRef.unary (.of main_call4_c : StableHlo.TRef sig ⟨S_, .i32⟩) (.of main_call4_v8 : StableHlo.TRef sig ⟨S2048, .i32⟩) (broadcastInDim S2048 ![] bcast_S_S2048)
  :: StableHlo.TRef.binary (.of main_call4_v7 : StableHlo.TRef sig ⟨S2048, .i32⟩) (.of main_call4_v8 : StableHlo.TRef sig ⟨S2048, .i32⟩) (.of main_call4_v9 : StableHlo.TRef sig ⟨S2048, .i1⟩) (cmpi .ne)
  :: StableHlo.TRef.binary (.of main_call4_v5 : StableHlo.TRef sig ⟨S2048, .i1⟩) (.of main_call4_v9 : StableHlo.TRef sig ⟨S2048, .i1⟩) (.of main_call4_v10 : StableHlo.TRef sig ⟨S2048, .i1⟩) andi
  :: StableHlo.TRef.nullary (.of main_call4_c_0 : StableHlo.TRef sig ⟨S_, .i32⟩) (constantI S_ 32 1#32)
  :: StableHlo.TRef.unary (.of main_call4_c_0 : StableHlo.TRef sig ⟨S_, .i32⟩) (.of main_call4_v11 : StableHlo.TRef sig ⟨S2048, .i32⟩) (broadcastInDim S2048 ![] bcast_S_S2048)
  :: StableHlo.TRef.binary (.of main_call4_v1 : StableHlo.TRef sig ⟨S2048, .i32⟩) (.of main_call4_v11 : StableHlo.TRef sig ⟨S2048, .i32⟩) (.of main_call4_v12 : StableHlo.TRef sig ⟨S2048, .i32⟩) subi
  :: StableHlo.TRef.ternary (.of main_call4_v10 : StableHlo.TRef sig ⟨S2048, .i1⟩) (.of main_call4_v12 : StableHlo.TRef sig ⟨S2048, .i32⟩) (.of main_call4_v1 : StableHlo.TRef sig ⟨S2048, .i32⟩) (.of main_v50 : StableHlo.TRef sig ⟨S2048, .i32⟩) select
  :: StableHlo.nullary main_c_18 (constantI S_ 32 64#32)
  :: StableHlo.TRef.unary (.of main_c_18 : StableHlo.TRef sig ⟨S_, .i32⟩) (.of main_call5_v0 : StableHlo.TRef sig ⟨S_, .i32⟩) id
  :: StableHlo.TRef.nullary (.of main_call5_c : StableHlo.TRef sig ⟨S_, .i32⟩) (constantI S_ 32 0#32)
  :: StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq)
  :: StableHlo.TRef.nullary (.of main_call5_c_0 : StableHlo.TRef sig ⟨S_, .i32⟩) (constantI S_ 32 1#32)
  :: StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select
  :: StableHlo.TRef.unary (.of main_call5_v2 : StableHlo.TRef sig ⟨S_, .i32⟩) (.of main_call5_v3 : StableHlo.TRef sig ⟨S2048, .i32⟩) (broadcastInDim S2048 ![] bcast_S_S2048)
  :: StableHlo.TRef.binary (.of main_v50 : StableHlo.TRef sig ⟨S2048, .i32⟩) (.of main_call5_v3 : StableHlo.TRef sig ⟨S2048, .i32⟩) (.of main_call5_v4 : StableHlo.TRef sig ⟨S2048, .i32⟩) Host.remsi
  :: StableHlo.TRef.nullary (.of main_call5_c_1 : StableHlo.TRef sig ⟨S_, .i32⟩) (constantI S_ 32 0#32)
  :: StableHlo.TRef.unary (.of main_call5_c_1 : StableHlo.TRef sig ⟨S_, .i32⟩) (.of main_call5_v5 : StableHlo.TRef sig ⟨S2048, .i32⟩) (broadcastInDim S2048 ![] bcast_S_S2048)
  :: StableHlo.TRef.binary (.of main_call5_v4 : StableHlo.TRef sig ⟨S2048, .i32⟩) (.of main_call5_v5 : StableHlo.TRef sig ⟨S2048, .i32⟩) (.of main_call5_v6 : StableHlo.TRef sig ⟨S2048, .i1⟩) (cmpi .ne)
  :: StableHlo.TRef.nullary (.of main_call5_c_2 : StableHlo.TRef sig ⟨S_, .i32⟩) (constantI S_ 32 0#32)
  :: StableHlo.TRef.unary (.of main_call5_c_2 : StableHlo.TRef sig ⟨S_, .i32⟩) (.of main_call5_v7 : StableHlo.TRef sig ⟨S2048, .i32⟩) (broadcastInDim S2048 ![] bcast_S_S2048)
  :: StableHlo.TRef.binary (.of main_call5_v4 : StableHlo.TRef sig ⟨S2048, .i32⟩) (.of main_call5_v7 : StableHlo.TRef sig ⟨S2048, .i32⟩) (.of main_call5_v8 : StableHlo.TRef sig ⟨S2048, .i1⟩) (cmpi .slt)
  :: StableHlo.TRef.nullary (.of main_call5_c_3 : StableHlo.TRef sig ⟨S_, .i32⟩) (constantI S_ 32 0#32)
  :: StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt)
  :: StableHlo.TRef.unary (.of main_call5_v9 : StableHlo.TRef sig ⟨S_, .i1⟩) (.of main_call5_v10 : StableHlo.TRef sig ⟨S2048, .i1⟩) (broadcastInDim S2048 ![] bcast_S_S2048)
  :: StableHlo.TRef.binary (.of main_call5_v8 : StableHlo.TRef sig ⟨S2048, .i1⟩) (.of main_call5_v10 : StableHlo.TRef sig ⟨S2048, .i1⟩) (.of main_call5_v11 : StableHlo.TRef sig ⟨S2048, .i1⟩) (cmpi .ne)
  :: StableHlo.TRef.binary (.of main_call5_v11 : StableHlo.TRef sig ⟨S2048, .i1⟩) (.of main_call5_v6 : StableHlo.TRef sig ⟨S2048, .i1⟩) (.of main_call5_v12 : StableHlo.TRef sig ⟨S2048, .i1⟩) andi
  :: StableHlo.TRef.unary (.of main_call5_v2 : StableHlo.TRef sig ⟨S_, .i32⟩) (.of main_call5_v13 : StableHlo.TRef sig ⟨S2048, .i32⟩) (broadcastInDim S2048 ![] bcast_S_S2048)
  :: StableHlo.TRef.binary (.of main_call5_v4 : StableHlo.TRef sig ⟨S2048, .i32⟩) (.of main_call5_v13 : StableHlo.TRef sig ⟨S2048, .i32⟩) (.of main_call5_v14 : StableHlo.TRef sig ⟨S2048, .i32⟩) addi
  :: StableHlo.TRef.ternary (.of main_call5_v12 : StableHlo.TRef sig ⟨S2048, .i1⟩) (.of main_call5_v14 : StableHlo.TRef sig ⟨S2048, .i32⟩) (.of main_call5_v4 : StableHlo.TRef sig ⟨S2048, .i32⟩) (.of main_v51 : StableHlo.TRef sig ⟨S2048, .i32⟩) select
  :: StableHlo.nullary main_c_19 (constantI S_ 32 1#32)
  :: StableHlo.TRef.unary (.of main_c_19 : StableHlo.TRef sig ⟨S_, .i32⟩) (.of main_call6_v0 : StableHlo.TRef sig ⟨S2048, .i32⟩) (broadcastInDim S2048 ![] bcast_S_S2048)
  :: StableHlo.TRef.binary (.of main_v49 : StableHlo.TRef sig ⟨S2048, .i32⟩) (.of main_call6_v0 : StableHlo.TRef sig ⟨S2048, .i32⟩) (.of main_call6_v1 : StableHlo.TRef sig ⟨S2048, .i32⟩) Host.divsi
  :: StableHlo.TRef.unary (.of main_v49 : StableHlo.TRef sig ⟨S2048, .i32⟩) (.of main_call6_v2 : StableHlo.TRef sig ⟨S2048, .i32⟩) signi
  :: StableHlo.TRef.unary (.of main_c_19 : StableHlo.TRef sig ⟨S_, .i32⟩) (.of main_call6_v3 : StableHlo.TRef sig ⟨S_, .i32⟩) signi
  :: StableHlo.TRef.unary (.of main_call6_v3 : StableHlo.TRef sig ⟨S_, .i32⟩) (.of main_call6_v4 : StableHlo.TRef sig ⟨S2048, .i32⟩) (broadcastInDim S2048 ![] bcast_S_S2048)
  :: StableHlo.TRef.binary (.of main_call6_v2 : StableHlo.TRef sig ⟨S2048, .i32⟩) (.of main_call6_v4 : StableHlo.TRef sig ⟨S2048, .i32⟩) (.of main_call6_v5 : StableHlo.TRef sig ⟨S2048, .i1⟩) (cmpi .ne)
  :: StableHlo.TRef.unary (.of main_c_19 : StableHlo.TRef sig ⟨S_, .i32⟩) (.of main_call6_v6 : StableHlo.TRef sig ⟨S2048, .i32⟩) (broadcastInDim S2048 ![] bcast_S_S2048)
  :: StableHlo.TRef.binary (.of main_v49 : StableHlo.TRef sig ⟨S2048, .i32⟩) (.of main_call6_v6 : StableHlo.TRef sig ⟨S2048, .i32⟩) (.of main_call6_v7 : StableHlo.TRef sig ⟨S2048, .i32⟩) Host.remsi
  :: StableHlo.TRef.nullary (.of main_call6_c : StableHlo.TRef sig ⟨S_, .i32⟩) (constantI S_ 32 0#32)
  :: StableHlo.TRef.unary (.of main_call6_c : StableHlo.TRef sig ⟨S_, .i32⟩) (.of main_call6_v8 : StableHlo.TRef sig ⟨S2048, .i32⟩) (broadcastInDim S2048 ![] bcast_S_S2048)
  :: StableHlo.TRef.binary (.of main_call6_v7 : StableHlo.TRef sig ⟨S2048, .i32⟩) (.of main_call6_v8 : StableHlo.TRef sig ⟨S2048, .i32⟩) (.of main_call6_v9 : StableHlo.TRef sig ⟨S2048, .i1⟩) (cmpi .ne)
  :: StableHlo.TRef.binary (.of main_call6_v5 : StableHlo.TRef sig ⟨S2048, .i1⟩) (.of main_call6_v9 : StableHlo.TRef sig ⟨S2048, .i1⟩) (.of main_call6_v10 : StableHlo.TRef sig ⟨S2048, .i1⟩) andi
  :: StableHlo.TRef.nullary (.of main_call6_c_0 : StableHlo.TRef sig ⟨S_, .i32⟩) (constantI S_ 32 1#32)
  :: StableHlo.TRef.unary (.of main_call6_c_0 : StableHlo.TRef sig ⟨S_, .i32⟩) (.of main_call6_v11 : StableHlo.TRef sig ⟨S2048, .i32⟩) (broadcastInDim S2048 ![] bcast_S_S2048)
  :: StableHlo.TRef.binary (.of main_call6_v1 : StableHlo.TRef sig ⟨S2048, .i32⟩) (.of main_call6_v11 : StableHlo.TRef sig ⟨S2048, .i32⟩) (.of main_call6_v12 : StableHlo.TRef sig ⟨S2048, .i32⟩) subi
  :: StableHlo.TRef.ternary (.of main_call6_v10 : StableHlo.TRef sig ⟨S2048, .i1⟩) (.of main_call6_v12 : StableHlo.TRef sig ⟨S2048, .i32⟩) (.of main_call6_v1 : StableHlo.TRef sig ⟨S2048, .i32⟩) (.of main_v52 : StableHlo.TRef sig ⟨S2048, .i32⟩) select
  :: StableHlo.nullary main_c_20 (constantI S_ 32 128#32)
  :: StableHlo.TRef.unary (.of main_c_20 : StableHlo.TRef sig ⟨S_, .i32⟩) (.of main_call7_v0 : StableHlo.TRef sig ⟨S_, .i32⟩) id
  :: StableHlo.TRef.nullary (.of main_call7_c : StableHlo.TRef sig ⟨S_, .i32⟩) (constantI S_ 32 0#32)
  :: StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq)
  :: StableHlo.TRef.nullary (.of main_call7_c_0 : StableHlo.TRef sig ⟨S_, .i32⟩) (constantI S_ 32 1#32)
  :: StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select
  :: StableHlo.TRef.unary (.of main_call7_v2 : StableHlo.TRef sig ⟨S_, .i32⟩) (.of main_call7_v3 : StableHlo.TRef sig ⟨S2048, .i32⟩) (broadcastInDim S2048 ![] bcast_S_S2048)
  :: StableHlo.TRef.binary (.of main_v52 : StableHlo.TRef sig ⟨S2048, .i32⟩) (.of main_call7_v3 : StableHlo.TRef sig ⟨S2048, .i32⟩) (.of main_call7_v4 : StableHlo.TRef sig ⟨S2048, .i32⟩) Host.remsi
  :: StableHlo.TRef.nullary (.of main_call7_c_1 : StableHlo.TRef sig ⟨S_, .i32⟩) (constantI S_ 32 0#32)
  :: StableHlo.TRef.unary (.of main_call7_c_1 : StableHlo.TRef sig ⟨S_, .i32⟩) (.of main_call7_v5 : StableHlo.TRef sig ⟨S2048, .i32⟩) (broadcastInDim S2048 ![] bcast_S_S2048)
  :: StableHlo.TRef.binary (.of main_call7_v4 : StableHlo.TRef sig ⟨S2048, .i32⟩) (.of main_call7_v5 : StableHlo.TRef sig ⟨S2048, .i32⟩) (.of main_call7_v6 : StableHlo.TRef sig ⟨S2048, .i1⟩) (cmpi .ne)
  :: StableHlo.TRef.nullary (.of main_call7_c_2 : StableHlo.TRef sig ⟨S_, .i32⟩) (constantI S_ 32 0#32)
  :: StableHlo.TRef.unary (.of main_call7_c_2 : StableHlo.TRef sig ⟨S_, .i32⟩) (.of main_call7_v7 : StableHlo.TRef sig ⟨S2048, .i32⟩) (broadcastInDim S2048 ![] bcast_S_S2048)
  :: StableHlo.TRef.binary (.of main_call7_v4 : StableHlo.TRef sig ⟨S2048, .i32⟩) (.of main_call7_v7 : StableHlo.TRef sig ⟨S2048, .i32⟩) (.of main_call7_v8 : StableHlo.TRef sig ⟨S2048, .i1⟩) (cmpi .slt)
  :: StableHlo.TRef.nullary (.of main_call7_c_3 : StableHlo.TRef sig ⟨S_, .i32⟩) (constantI S_ 32 0#32)
  :: StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt)
  :: StableHlo.TRef.unary (.of main_call7_v9 : StableHlo.TRef sig ⟨S_, .i1⟩) (.of main_call7_v10 : StableHlo.TRef sig ⟨S2048, .i1⟩) (broadcastInDim S2048 ![] bcast_S_S2048)
  :: StableHlo.TRef.binary (.of main_call7_v8 : StableHlo.TRef sig ⟨S2048, .i1⟩) (.of main_call7_v10 : StableHlo.TRef sig ⟨S2048, .i1⟩) (.of main_call7_v11 : StableHlo.TRef sig ⟨S2048, .i1⟩) (cmpi .ne)
  :: StableHlo.TRef.binary (.of main_call7_v11 : StableHlo.TRef sig ⟨S2048, .i1⟩) (.of main_call7_v6 : StableHlo.TRef sig ⟨S2048, .i1⟩) (.of main_call7_v12 : StableHlo.TRef sig ⟨S2048, .i1⟩) andi
  :: StableHlo.TRef.unary (.of main_call7_v2 : StableHlo.TRef sig ⟨S_, .i32⟩) (.of main_call7_v13 : StableHlo.TRef sig ⟨S2048, .i32⟩) (broadcastInDim S2048 ![] bcast_S_S2048)
  :: StableHlo.TRef.binary (.of main_call7_v4 : StableHlo.TRef sig ⟨S2048, .i32⟩) (.of main_call7_v13 : StableHlo.TRef sig ⟨S2048, .i32⟩) (.of main_call7_v14 : StableHlo.TRef sig ⟨S2048, .i32⟩) addi
  :: StableHlo.TRef.ternary (.of main_call7_v12 : StableHlo.TRef sig ⟨S2048, .i1⟩) (.of main_call7_v14 : StableHlo.TRef sig ⟨S2048, .i32⟩) (.of main_call7_v4 : StableHlo.TRef sig ⟨S2048, .i32⟩) (.of main_v53 : StableHlo.TRef sig ⟨S2048, .i32⟩) select
  :: [] )
set_option maxHeartbeats 40000000 in
theorem seg_nz_sub : (seg_nz : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in
theorem seg_nz_fresh : (seg_nz : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- %54 … %68: the row gathers at the found positions. (19 operations) -/
abbrev seg_g : List (HloOp τ sig (Elt F)) :=
  ( StableHlo.nullary main_v54 (iotaInDim S2048 32 0)
  :: StableHlo.nullary main_c_21 (constantI S_ 32 0#32)
  :: StableHlo.unary main_c_21 main_v55 (broadcastInDim S2048 ![] bcast_S_S2048 : (⟨S_, .i32⟩ : BufTy).Contents (Elt F) → (⟨S2048, .i32⟩ : BufTy).Contents (Elt F))
  :: StableHlo.binary main_v51 main_v55 main_v56 (cmpi .slt : (⟨S2048, .i32⟩ : BufTy).Contents (Elt F) → (⟨S2048, .i32⟩ : BufTy).Contents (Elt F) → (⟨S2048, .i1⟩ : BufTy).Contents (Elt F))
  :: StableHlo.nullary main_c_22 (constantI S_ 32 64#32)
  :: StableHlo.unary main_c_22 main_v57 (broadcastInDim S2048 ![] bcast_S_S2048 : (⟨S_, .i32⟩ : BufTy).Contents (Elt F) → (⟨S2048, .i32⟩ : BufTy).Contents (Elt F))
  :: StableHlo.binary main_v51 main_v57 main_v58 (addi : (⟨S2048, .i32⟩ : BufTy).Contents (Elt F) → (⟨S2048, .i32⟩ : BufTy).Contents (Elt F) → (⟨S2048, .i32⟩ : BufTy).Contents (Elt F))
  :: StableHlo.ternary main_v56 main_v58 main_v51 main_v59 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v59 main_v60 (broadcastInDim S2048x1 ![0] bcast_S2048_S2048x1_0 : (⟨S2048, .i32⟩ : BufTy).Contents (Elt F) → (⟨S2048x1, .i32⟩ : BufTy).Contents (Elt F))
  :: StableHlo.binary main_arg3 main_v60 main_v61 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F))
  :: StableHlo.nullary main_c_23 (constantI S_ 32 0#32)
  :: StableHlo.unary main_c_23 main_v62 (broadcastInDim S2048 ![] bcast_S_S2048 : (⟨S_, .i32⟩ : BufTy).Contents (Elt F) → (⟨S2048, .i32⟩ : BufTy).Contents (Elt F))
  :: StableHlo.binary main_v51 main_v62 main_v63 (cmpi .slt : (⟨S2048, .i32⟩ : BufTy).Contents (Elt F) → (⟨S2048, .i32⟩ : BufTy).Contents (Elt F) → (⟨S2048, .i1⟩ : BufTy).Contents (Elt F))
  :: StableHlo.nullary main_c_24 (constantI S_ 32 64#32)
  :: StableHlo.unary main_c_24 main_v64 (broadcastInDim S2048 ![] bcast_S_S2048 : (⟨S_, .i32⟩ : BufTy).Contents (Elt F) → (⟨S2048, .i32⟩ : BufTy).Contents (Elt F))
  :: StableHlo.binary main_v51 main_v64 main_v65 (addi : (⟨S2048, .i32⟩ : BufTy).Contents (Elt F) → (⟨S2048, .i32⟩ : BufTy).Contents (Elt F) → (⟨S2048, .i32⟩ : BufTy).Contents (Elt F))
  :: StableHlo.ternary main_v63 main_v65 main_v51 main_v66 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v66 main_v67 (broadcastInDim S2048x1 ![0] bcast_S2048_S2048x1_0 : (⟨S2048, .i32⟩ : BufTy).Contents (Elt F) → (⟨S2048x1, .i32⟩ : BufTy).Contents (Elt F))
  :: StableHlo.binary main_v35 main_v67 main_v68 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F))
  :: [] )
set_option maxHeartbeats 40000000 in
theorem seg_g_sub : (seg_g : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxHeartbeats 40000000 in
theorem seg_g_fresh : (seg_g : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxHeartbeats 40000000 in
/-- %c_25 … %88: the element gathers and the comparison masks. (24 operations) -/
abbrev seg_mid : List (HloOp τ sig (Elt F)) :=
  ( StableHlo.nullary main_c_25 (constantI S_ 32 0#32)
  :: StableHlo.unary main_c_25 main_v69 (broadcastInDim S2048 ![] bcast_S_S2048 : (⟨S_, .i32⟩ : BufTy).Contents (Elt F) → (⟨S2048, .i32⟩ : BufTy).Contents (Elt F))
  :: StableHlo.binary main_v54 main_v69 main_v70 (cmpi .slt : (⟨S2048, .i32⟩ : BufTy).Contents (Elt F) → (⟨S2048, .i32⟩ : BufTy).Contents (Elt F) → (⟨S2048, .i1⟩ : BufTy).Contents (Elt F))
  :: StableHlo.nullary main_c_26 (constantI S_ 32 2048#32)
  :: StableHlo.unary main_c_26 main_v71 (broadcastInDim S2048 ![] bcast_S_S2048 : (⟨S_, .i32⟩ : BufTy).Contents (Elt F) → (⟨S2048, .i32⟩ : BufTy).Contents (Elt F))
  :: StableHlo.binary main_v54 main_v71 main_v72 (addi : (⟨S2048, .i32⟩ : BufTy).Contents (Elt F) → (⟨S2048, .i32⟩ : BufTy).Contents (Elt F) → (⟨S2048, .i32⟩ : BufTy).Contents (Elt F))
  :: StableHlo.ternary main_v70 main_v72 main_v54 main_v73 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_27 (constantI S_ 32 0#32)
  :: StableHlo.unary main_c_27 main_v74 (broadcastInDim S2048 ![] bcast_S_S2048 : (⟨S_, .i32⟩ : BufTy).Contents (Elt F) → (⟨S2048, .i32⟩ : BufTy).Contents (Elt F))
  :: StableHlo.binary main_v53 main_v74 main_v75 (cmpi .slt : (⟨S2048, .i32⟩ : BufTy).Contents (Elt F) → (⟨S2048, .i32⟩ : BufTy).Contents (Elt F) → (⟨S2048, .i1⟩ : BufTy).Contents (Elt F))
  :: StableHlo.nullary main_c_28 (constantI S_ 32 128#32)
  :: StableHlo.unary main_c_28 main_v76 (broadcastInDim S2048 ![] bcast_S_S2048 : (⟨S_, .i32⟩ : BufTy).Contents (Elt F) → (⟨S2048, .i32⟩ : BufTy).Contents (Elt F))
  :: StableHlo.binary main_v53 main_v76 main_v77 (addi : (⟨S2048, .i32⟩ : BufTy).Contents (Elt F) → (⟨S2048, .i32⟩ : BufTy).Contents (Elt F) → (⟨S2048, .i32⟩ : BufTy).Contents (Elt F))
  :: StableHlo.ternary main_v75 main_v77 main_v53 main_v78 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v73 main_v79 (broadcastInDim S2048x1 ![0] bcast_S2048_S2048x1_0 : (⟨S2048, .i32⟩ : BufTy).Contents (Elt F) → (⟨S2048x1, .i32⟩ : BufTy).Contents (Elt F))
  :: StableHlo.unary main_v78 main_v80 (broadcastInDim S2048x1 ![0] bcast_S2048_S2048x1_0 : (⟨S2048, .i32⟩ : BufTy).Contents (Elt F) → (⟨S2048x1, .i32⟩ : BufTy).Contents (Elt F))
  :: StableHlo.binary main_v79 main_v80 main_v81 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v68 main_v81 main_v82 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F))
  :: StableHlo.unary main_v82 main_v83 (broadcastInDim S2048x1 ![0] bcast_S2048_S2048x1_0 : (⟨S2048, .f32⟩ : BufTy).Contents (Elt F) → (⟨S2048x1, .f32⟩ : BufTy).Contents (Elt F))
  :: StableHlo.unary main_v83 main_v84 (broadcastInDim S2048x128 ![0, 1] bcast_S2048x1_S2048x128_0_1 : (⟨S2048x1, .f32⟩ : BufTy).Contents (Elt F) → (⟨S2048x128, .f32⟩ : BufTy).Contents (Elt F))
  :: StableHlo.binary main_v68 main_v84 main_v85 (cmpf .oeq : (⟨S2048x128, .f32⟩ : BufTy).Contents (Elt F) → (⟨S2048x128, .f32⟩ : BufTy).Contents (Elt F) → (⟨S2048x128, .i1⟩ : BufTy).Contents (Elt F))
  :: StableHlo.unary main_v85 main_v86 (uitofp .f32 : (⟨S2048x128, .i1⟩ : BufTy).Contents (Elt F) → (⟨S2048x128, .f32⟩ : BufTy).Contents (Elt F))
  :: StableHlo.binary main_v61 main_v86 main_v87 (subf : (⟨S2048x128, .f32⟩ : BufTy).Contents (Elt F) → (⟨S2048x128, .f32⟩ : BufTy).Contents (Elt F) → (⟨S2048x128, .f32⟩ : BufTy).Contents (Elt F))
  :: StableHlo.binary main_v68 main_v87 main_v88 (mulf : (⟨S2048x128, .f32⟩ : BufTy).Contents (Elt F) → (⟨S2048x128, .f32⟩ : BufTy).Contents (Elt F) → (⟨S2048x128, .f32⟩ : BufTy).Contents (Elt F))
  :: [] )
set_option maxHeartbeats 40000000 in
theorem seg_mid_sub : (seg_mid : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub ..⟩
set_option maxHeartbeats 40000000 in
theorem seg_mid_fresh : (seg_mid : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

set_option maxHeartbeats 40000000 in
/-- %c_29 … %121: the shifted gather, the roll by one column, the two selections, the candidates converted to integers. (44 operations) -/
abbrev seg_chain : List (HloOp τ sig (Elt F)) :=
  ( StableHlo.nullary main_c_29 (constantI S_ 32 1#32)
  :: StableHlo.unary main_c_29 main_v89 (broadcastInDim S2048 ![] bcast_S_S2048 : (⟨S_, .i32⟩ : BufTy).Contents (Elt F) → (⟨S2048, .i32⟩ : BufTy).Contents (Elt F))
  :: StableHlo.binary main_v53 main_v89 main_v90 (subi : (⟨S2048, .i32⟩ : BufTy).Contents (Elt F) → (⟨S2048, .i32⟩ : BufTy).Contents (Elt F) → (⟨S2048, .i32⟩ : BufTy).Contents (Elt F))
  :: StableHlo.nullary main_c_30 (constantI S_ 32 0#32)
  :: StableHlo.unary main_c_30 main_v91 (broadcastInDim S2048 ![] bcast_S_S2048 : (⟨S_, .i32⟩ : BufTy).Contents (Elt F) → (⟨S2048, .i32⟩ : BufTy).Contents (Elt F))
  :: StableHlo.binary main_v54 main_v91 main_v92 (cmpi .slt : (⟨S2048, .i32⟩ : BufTy).Contents (Elt F) → (⟨S2048, .i32⟩ : BufTy).Contents (Elt F) → (⟨S2048, .i1⟩ : BufTy).Contents (Elt F))
  :: StableHlo.nullary main_c_31 (constantI S_ 32 2048#32)
  :: StableHlo.unary main_c_31 main_v93 (broadcastInDim S2048 ![] bcast_S_S2048 : (⟨S_, .i32⟩ : BufTy).Contents (Elt F) → (⟨S2048, .i32⟩ : BufTy).Contents (Elt F))
  :: StableHlo.binary main_v54 main_v93 main_v94 (addi : (⟨S2048, .i32⟩ : BufTy).Contents (Elt F) → (⟨S2048, .i32⟩ : BufTy).Contents (Elt F) → (⟨S2048, .i32⟩ : BufTy).Contents (Elt F))
  :: StableHlo.ternary main_v92 main_v94 main_v54 main_v95 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_32 (constantI S_ 32 0#32)
  :: StableHlo.unary main_c_32 main_v96 (broadcastInDim S2048 ![] bcast_S_S2048 : (⟨S_, .i32⟩ : BufTy).Contents (Elt F) → (⟨S2048, .i32⟩ : BufTy).Contents (Elt F))
  :: StableHlo.binary main_v90 main_v96 main_v97 (cmpi .slt : (⟨S2048, .i32⟩ : BufTy).Contents (Elt F) → (⟨S2048, .i32⟩ : BufTy).Contents (Elt F) → (⟨S2048, .i1⟩ : BufTy).Contents (Elt F))
  :: StableHlo.nullary main_c_33 (constantI S_ 32 128#32)
  :: StableHlo.unary main_c_33 main_v98 (broadcastInDim S2048 ![] bcast_S_S2048 : (⟨S_, .i32⟩ : BufTy).Contents (Elt F) → (⟨S2048, .i32⟩ : BufTy).Contents (Elt F))
  :: StableHlo.binary main_v90 main_v98 main_v99 (addi : (⟨S2048, .i32⟩ : BufTy).Contents (Elt F) → (⟨S2048, .i32⟩ : BufTy).Contents (Elt F) → (⟨S2048, .i32⟩ : BufTy).Contents (Elt F))
  :: StableHlo.ternary main_v97 main_v99 main_v90 main_v100 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v95 main_v101 (broadcastInDim S2048x1 ![0] bcast_S2048_S2048x1_0 : (⟨S2048, .i32⟩ : BufTy).Contents (Elt F) → (⟨S2048x1, .i32⟩ : BufTy).Contents (Elt F))
  :: StableHlo.unary main_v100 main_v102 (broadcastInDim S2048x1 ![0] bcast_S2048_S2048x1_0 : (⟨S2048, .i32⟩ : BufTy).Contents (Elt F) → (⟨S2048x1, .i32⟩ : BufTy).Contents (Elt F))
  :: StableHlo.binary main_v101 main_v102 main_v103 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v88 main_v103 main_v104 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F))
  :: StableHlo.unary main_v104 main_v105 (broadcastInDim S2048x1 ![0] bcast_S2048_S2048x1_0 : (⟨S2048, .f32⟩ : BufTy).Contents (Elt F) → (⟨S2048x1, .f32⟩ : BufTy).Contents (Elt F))
  :: StableHlo.unary main_v105 main_v106 (broadcastInDim S2048x128 ![0, 1] bcast_S2048x1_S2048x128_0_1 : (⟨S2048x1, .f32⟩ : BufTy).Contents (Elt F) → (⟨S2048x128, .f32⟩ : BufTy).Contents (Elt F))
  :: StableHlo.binary main_v88 main_v106 main_v107 (cmpf .oeq : (⟨S2048x128, .f32⟩ : BufTy).Contents (Elt F) → (⟨S2048x128, .f32⟩ : BufTy).Contents (Elt F) → (⟨S2048x128, .i1⟩ : BufTy).Contents (Elt F))
  :: StableHlo.unary main_v107 main_v108 (uitofp .f32 : (⟨S2048x128, .i1⟩ : BufTy).Contents (Elt F) → (⟨S2048x128, .f32⟩ : BufTy).Contents (Elt F))
  :: StableHlo.TRef.unary (.of main_v108 : StableHlo.TRef sig ⟨S2048x128, .f32⟩) (.of main_call8_v0 : StableHlo.TRef sig ⟨S2048x1, .f32⟩) (extractStridedSlice S2048x1 ![0, 127] · slices_S2048x128_S2048x1_0_127)
  :: StableHlo.TRef.unary (.of main_v108 : StableHlo.TRef sig ⟨S2048x128, .f32⟩) (.of main_call8_v1 : StableHlo.TRef sig ⟨S2048x127, .f32⟩) (extractStridedSlice S2048x127 ![0, 0] · slices_S2048x128_S2048x127_0_0)
  :: StableHlo.TRef.binary (.of main_call8_v0 : StableHlo.TRef sig ⟨S2048x1, .f32⟩) (.of main_call8_v1 : StableHlo.TRef sig ⟨S2048x127, .f32⟩) (.of main_v109 : StableHlo.TRef sig ⟨S2048x128, .f32⟩) (fun a b => concatenate S2048x128 1 [⟨S2048x1, a⟩, ⟨S2048x127, b⟩] concatenates_S2048x1_S2048x127_S2048x128_d1)
  :: StableHlo.binary main_v109 main_v87 main_v110 (mulf : (⟨S2048x128, .f32⟩ : BufTy).Contents (Elt F) → (⟨S2048x128, .f32⟩ : BufTy).Contents (Elt F) → (⟨S2048x128, .f32⟩ : BufTy).Contents (Elt F))
  :: StableHlo.binary main_v87 main_v110 main_v111 (addf : (⟨S2048x128, .f32⟩ : BufTy).Contents (Elt F) → (⟨S2048x128, .f32⟩ : BufTy).Contents (Elt F) → (⟨S2048x128, .f32⟩ : BufTy).Contents (Elt F))
  :: StableHlo.nullary main_cst_34 (constant S_ .f32 0x00000000#32)
  :: StableHlo.unary main_cst_34 main_v112 (broadcastInDim S2048x128 ![] bcast_S_S2048x128 : (⟨S_, .f32⟩ : BufTy).Contents (Elt F) → (⟨S2048x128, .f32⟩ : BufTy).Contents (Elt F))
  :: StableHlo.binary main_v111 main_v112 main_v113 (cmpf .une : (⟨S2048x128, .f32⟩ : BufTy).Contents (Elt F) → (⟨S2048x128, .f32⟩ : BufTy).Contents (Elt F) → (⟨S2048x128, .i1⟩ : BufTy).Contents (Elt F))
  :: StableHlo.unary main_v113 main_v114 (uitofp .f32 : (⟨S2048x128, .i1⟩ : BufTy).Contents (Elt F) → (⟨S2048x128, .f32⟩ : BufTy).Contents (Elt F))
  :: StableHlo.binary main_v68 main_v114 main_v115 (mulf : (⟨S2048x128, .f32⟩ : BufTy).Contents (Elt F) → (⟨S2048x128, .f32⟩ : BufTy).Contents (Elt F) → (⟨S2048x128, .f32⟩ : BufTy).Contents (Elt F))
  :: StableHlo.nullary main_c_35 (constantI S_ 32 0#32)
  :: StableHlo.unary main_c_35 main_v116 (broadcastInDim S2048 ![] bcast_S_S2048 : (⟨S_, .i32⟩ : BufTy).Contents (Elt F) → (⟨S2048, .i32⟩ : BufTy).Contents (Elt F))
  :: StableHlo.binary main_v53 main_v116 main_v117 (cmpi .sgt : (⟨S2048, .i32⟩ : BufTy).Contents (Elt F) → (⟨S2048, .i32⟩ : BufTy).Contents (Elt F) → (⟨S2048, .i1⟩ : BufTy).Contents (Elt F))
  :: StableHlo.unary main_v117 main_v118 (broadcastInDim S2048x1 ![0] bcast_S2048_S2048x1_0 : (⟨S2048, .i1⟩ : BufTy).Contents (Elt F) → (⟨S2048x1, .i1⟩ : BufTy).Contents (Elt F))
  :: StableHlo.TRef.unary (.of main_v118 : StableHlo.TRef sig ⟨S2048x1, .i1⟩) (.of main_call9_v0 : StableHlo.TRef sig ⟨S2048x128, .i1⟩) (broadcastInDim S2048x128 ![0, 1] bcast_S2048x1_S2048x128_0_1)
  :: StableHlo.TRef.ternary (.of main_call9_v0 : StableHlo.TRef sig ⟨S2048x128, .i1⟩) (.of main_v111 : StableHlo.TRef sig ⟨S2048x128, .f32⟩) (.of main_v87 : StableHlo.TRef sig ⟨S2048x128, .f32⟩) (.of main_v119 : StableHlo.TRef sig ⟨S2048x128, .f32⟩) select
  :: StableHlo.TRef.unary (.of main_v118 : StableHlo.TRef sig ⟨S2048x1, .i1⟩) (.of main_call10_v0 : StableHlo.TRef sig ⟨S2048x128, .i1⟩) (broadcastInDim S2048x128 ![0, 1] bcast_S2048x1_S2048x128_0_1)
  :: StableHlo.TRef.ternary (.of main_call10_v0 : StableHlo.TRef sig ⟨S2048x128, .i1⟩) (.of main_v115 : StableHlo.TRef sig ⟨S2048x128, .f32⟩) (.of main_v88 : StableHlo.TRef sig ⟨S2048x128, .f32⟩) (.of main_v120 : StableHlo.TRef sig ⟨S2048x128, .f32⟩) select
  :: StableHlo.unary main_v120 main_v121 (fptosi 32 : (⟨S2048x128, .f32⟩ : BufTy).Contents (Elt F) → (⟨S2048x128, .i32⟩ : BufTy).Contents (Elt F))
  :: [] )
set_option maxHeartbeats 40000000 in
theorem seg_chain_sub : (seg_chain : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.ternary_bufs_sub .., StableHlo.unary_bufs_sub ..⟩
set_option maxHeartbeats 40000000 in
theorem seg_chain_fresh : (seg_chain : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- %cst_36 … %137: the zero table and the (row, column) index pairs. (21 operations) -/
abbrev seg_idx : List (HloOp τ sig (Elt F)) :=
  ( StableHlo.nullary main_cst_36 (constant S_ .f32 0x00000000#32)
  :: StableHlo.unary main_cst_36 main_v122 (broadcastInDim S2048x30522 ![] bcast_S_S2048x30522 : (⟨S_, .f32⟩ : BufTy).Contents (Elt F) → (⟨S2048x30522, .f32⟩ : BufTy).Contents (Elt F))
  :: StableHlo.unary main_v54 main_v123 (broadcastInDim S2048x1 ![0] bcast_S2048_S2048x1_0 : (⟨S2048, .i32⟩ : BufTy).Contents (Elt F) → (⟨S2048x1, .i32⟩ : BufTy).Contents (Elt F))
  :: StableHlo.nullary main_c_37 (constantI S_ 32 0#32)
  :: StableHlo.unary main_c_37 main_v124 (broadcastInDim S2048x1 ![] bcast_S_S2048x1 : (⟨S_, .i32⟩ : BufTy).Contents (Elt F) → (⟨S2048x1, .i32⟩ : BufTy).Contents (Elt F))
  :: StableHlo.binary main_v123 main_v124 main_v125 (cmpi .slt : (⟨S2048x1, .i32⟩ : BufTy).Contents (Elt F) → (⟨S2048x1, .i32⟩ : BufTy).Contents (Elt F) → (⟨S2048x1, .i1⟩ : BufTy).Contents (Elt F))
  :: StableHlo.nullary main_c_38 (constantI S_ 32 2048#32)
  :: StableHlo.unary main_c_38 main_v126 (broadcastInDim S2048x1 ![] bcast_S_S2048x1 : (⟨S_, .i32⟩ : BufTy).Contents (Elt F) → (⟨S2048x1, .i32⟩ : BufTy).Contents (Elt F))
  :: StableHlo.binary main_v123 main_v126 main_v127 (addi : (⟨S2048x1, .i32⟩ : BufTy).Contents (Elt F) → (⟨S2048x1, .i32⟩ : BufTy).Contents (Elt F) → (⟨S2048x1, .i32⟩ : BufTy).Contents (Elt F))
  :: StableHlo.ternary main_v125 main_v127 main_v123 main_v128 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F))
  :: StableHlo.nullary main_c_39 (constantI S_ 32 0#32)
  :: StableHlo.unary main_c_39 main_v129 (broadcastInDim S2048x128 ![] bcast_S_S2048x128 : (⟨S_, .i32⟩ : BufTy).Contents (Elt F) → (⟨S2048x128, .i32⟩ : BufTy).Contents (Elt F))
  :: StableHlo.binary main_v121 main_v129 main_v130 (cmpi .slt : (⟨S2048x128, .i32⟩ : BufTy).Contents (Elt F) → (⟨S2048x128, .i32⟩ : BufTy).Contents (Elt F) → (⟨S2048x128, .i1⟩ : BufTy).Contents (Elt F))
  :: StableHlo.nullary main_c_40 (constantI S_ 32 30522#32)
  :: StableHlo.unary main_c_40 main_v131 (broadcastInDim S2048x128 ![] bcast_S_S2048x128 : (⟨S_, .i32⟩ : BufTy).Contents (Elt F) → (⟨S2048x128, .i32⟩ : BufTy).Contents (Elt F))
  :: StableHlo.binary main_v121 main_v131 main_v132 (addi : (⟨S2048x128, .i32⟩ : BufTy).Contents (Elt F) → (⟨S2048x128, .i32⟩ : BufTy).Contents (Elt F) → (⟨S2048x128, .i32⟩ : BufTy).Contents (Elt F))
  :: StableHlo.ternary main_v130 main_v132 main_v121 main_v133 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F))
  :: StableHlo.unary main_v128 main_v134 (broadcastInDim S2048x128 ![0, 1] bcast_S2048x1_S2048x128_0_1 : (⟨S2048x1, .i32⟩ : BufTy).Contents (Elt F) → (⟨S2048x128, .i32⟩ : BufTy).Contents (Elt F))
  :: StableHlo.unary main_v134 main_v135 (broadcastInDim S2048x128x1 ![0, 1] bcast_S2048x128_S2048x128x1_0_1 : (⟨S2048x128, .i32⟩ : BufTy).Contents (Elt F) → (⟨S2048x128x1, .i32⟩ : BufTy).Contents (Elt F))
  :: StableHlo.unary main_v133 main_v136 (broadcastInDim S2048x128x1 ![0, 1] bcast_S2048x128_S2048x128x1_0_1 : (⟨S2048x128, .i32⟩ : BufTy).Contents (Elt F) → (⟨S2048x128x1, .i32⟩ : BufTy).Contents (Elt F))
  :: StableHlo.binary main_v135 main_v136 main_v137 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F))
  :: [] )
set_option maxHeartbeats 40000000 in
theorem seg_idx_sub : (seg_idx : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub ..⟩
set_option maxHeartbeats 40000000 in
theorem seg_idx_fresh : (seg_idx : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxHeartbeats 40000000 in
/-- %138: the scatter-add of the candidate weights. (1 operation) -/
abbrev seg_sa : List (HloOp τ sig (Elt F)) :=
  [ StableHlo.ternary main_v122 main_v137 main_v119 main_v138 ((fun x i u => Host.scatterAdd scatter_S2048x30522_S2048x128x2_S2048x128_n_01_01_2 x i u) : (⟨S2048x30522, .f32⟩ : BufTy).Contents (Elt F) → (⟨S2048x128x2, .i32⟩ : BufTy).Contents (Elt F) → (⟨S2048x128, .f32⟩ : BufTy).Contents (Elt F) → (⟨S2048x30522, .f32⟩ : BufTy).Contents (Elt F)) ]
set_option maxHeartbeats 40000000 in
theorem seg_sa_sub : (seg_sa : List (HloOp τ sig (Elt F))).Forall fun op => op.bufs ⊆ StableHlo.tcRefs τ sig :=
  StableHlo.ternary_bufs_sub ..
set_option maxHeartbeats 40000000 in
theorem seg_sa_fresh : (seg_sa : List (HloOp τ sig (Elt F))).Forall fun op => op.fresh = ∅ :=
  rfl

set_option maxHeartbeats 40000000 in
/-- %139 … %148: the unlikelihood term: -log(max(1 - exp(logp), eps)) weighted, summed, divided. (14 operations) -/
abbrev seg_ul : List (HloOp τ sig (Elt F)) :=
  ( StableHlo.unary main_v0 main_v139 (Host.exp : (⟨S2048x30522, .f32⟩ : BufTy).Contents (Elt F) → (⟨S2048x30522, .f32⟩ : BufTy).Contents (Elt F))
  :: StableHlo.nullary main_cst_41 (constant S_ .f32 0x3F800000#32)
  :: StableHlo.unary main_cst_41 main_v140 (broadcastInDim S2048x30522 ![] bcast_S_S2048x30522 : (⟨S_, .f32⟩ : BufTy).Contents (Elt F) → (⟨S2048x30522, .f32⟩ : BufTy).Contents (Elt F))
  :: StableHlo.binary main_v140 main_v139 main_v141 (subf : (⟨S2048x30522, .f32⟩ : BufTy).Contents (Elt F) → (⟨S2048x30522, .f32⟩ : BufTy).Contents (Elt F) → (⟨S2048x30522, .f32⟩ : BufTy).Contents (Elt F))
  :: StableHlo.nullary main_cst_42 (constant S_ .f32 0x3727C5AC#32)
  :: StableHlo.unary main_cst_42 main_v142 (broadcastInDim S2048x30522 ![] bcast_S_S2048x30522 : (⟨S_, .f32⟩ : BufTy).Contents (Elt F) → (⟨S2048x30522, .f32⟩ : BufTy).Contents (Elt F))
  :: StableHlo.binary main_v141 main_v142 main_v143 (maximumf : (⟨S2048x30522, .f32⟩ : BufTy).Contents (Elt F) → (⟨S2048x30522, .f32⟩ : BufTy).Contents (Elt F) → (⟨S2048x30522, .f32⟩ : BufTy).Contents (Elt F))
  :: StableHlo.unary main_v143 main_v144 (Host.log : (⟨S2048x30522, .f32⟩ : BufTy).Contents (Elt F) → (⟨S2048x30522, .f32⟩ : BufTy).Contents (Elt F))
  :: StableHlo.unary main_v144 main_v145 (Host.negf : (⟨S2048x30522, .f32⟩ : BufTy).Contents (Elt F) → (⟨S2048x30522, .f32⟩ : BufTy).Contents (Elt F))
  :: StableHlo.binary main_v145 main_v138 main_v146 (mulf : (⟨S2048x30522, .f32⟩ : BufTy).Contents (Elt F) → (⟨S2048x30522, .f32⟩ : BufTy).Contents (Elt F) → (⟨S2048x30522, .f32⟩ : BufTy).Contents (Elt F))
  :: StableHlo.nullary main_cst_43 (constant S_ .f32 0x00000000#32)
  :: StableHlo.binary main_v146 main_cst_43 main_v147 ((fun x v => Host.reduceAdd x v reducesTo_S2048x30522_S_d0_1 h_S_) : (⟨S2048x30522, .f32⟩ : BufTy).Contents (Elt F) → (⟨S_, .f32⟩ : BufTy).Contents (Elt F) → (⟨S_, .f32⟩ : BufTy).Contents (Elt F))
  :: StableHlo.nullary main_cst_44 (constant S_ .f32 0x45000000#32)
  :: StableHlo.binary main_v147 main_cst_44 main_v148 (Host.divf : (⟨S_, .f32⟩ : BufTy).Contents (Elt F) → (⟨S_, .f32⟩ : BufTy).Contents (Elt F) → (⟨S_, .f32⟩ : BufTy).Contents (Elt F))
  :: [] )
set_option maxHeartbeats 40000000 in
theorem seg_ul_sub : (seg_ul : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub ..⟩
set_option maxHeartbeats 40000000 in
theorem seg_ul_fresh : (seg_ul : List (HloOp τ sig (Elt F))).Forall fun op => op.fresh = ∅ :=
  ⟨rfl, rfl, rfl, rfl, rfl, rfl, rfl, rfl, rfl, rfl, rfl, rfl, rfl, rfl⟩

set_option maxHeartbeats 40000000 in
/-- %cst_45 … %150: the two terms added. (3 operations) -/
abbrev seg_fin : List (HloOp τ sig (Elt F)) :=
  [ StableHlo.nullary main_cst_45 (constant S_ .f32 0x3F800000#32),
    StableHlo.binary main_cst_45 main_v148 main_v149 (mulf : (⟨S_, .f32⟩ : BufTy).Contents (Elt F) → (⟨S_, .f32⟩ : BufTy).Contents (Elt F) → (⟨S_, .f32⟩ : BufTy).Contents (Elt F)),
    StableHlo.binary main_v33 main_v149 main_v150 (addf : (⟨S_, .f32⟩ : BufTy).Contents (Elt F) → (⟨S_, .f32⟩ : BufTy).Contents (Elt F) → (⟨S_, .f32⟩ : BufTy).Contents (Elt F)) ]
set_option maxHeartbeats 40000000 in
theorem seg_fin_sub : (seg_fin : List (HloOp τ sig (Elt F))).Forall fun op => op.bufs ⊆ StableHlo.tcRefs τ sig :=
  ⟨StableHlo.nullary_bufs_sub .., StableHlo.binary_bufs_sub .., StableHlo.binary_bufs_sub ..⟩
set_option maxHeartbeats 40000000 in
theorem seg_fin_fresh : (seg_fin : List (HloOp τ sig (Elt F))).Forall fun op => op.fresh = ∅ :=
  ⟨rfl, rfl, rfl⟩

/-- All 295 operations of @main, the calls unfolded, in order: the segments one after the other (by ++). -/
abbrev ops : List (HloOp τ sig (Elt F)) :=
  seg_ls ++ seg_td ++ seg_w ++ seg_mle ++ seg_att ++ seg_nz ++ seg_g ++ seg_mid ++ seg_chain ++ seg_idx ++ seg_sa ++ seg_ul ++ seg_fin

/-! ## @main's windows as chains of stretches

Each window of @main is cut where a call begins and ends: a stretch is either consecutive operations of @main
or all the operations of one call. A window is the chain of its stretches, and @main the chain of all of them. -/

set_option maxHeartbeats 40000000 in
/-- 15 operations of @log_softmax, window 0. -/
abbrev w0_s0 : List (HloOp τ sig (Elt F)) :=
  ( StableHlo.TRef.nullary (.of main_call0_cst : StableHlo.TRef sig ⟨S_, .f32⟩) (constant S_ .f32 0xFF800000#32)
  :: StableHlo.TRef.binary (.of main_arg0 : StableHlo.TRef sig ⟨S2048x30522, .f32⟩) (.of main_call0_cst : StableHlo.TRef sig ⟨S_, .f32⟩) (.of main_call0_v0 : StableHlo.TRef sig ⟨S2048, .f32⟩) (fun x v => Host.reduce FloatOps.maximumf x v reducesTo_S2048x30522_S2048_d1 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S2048, .f32⟩) (broadcastInDim S2048 ![] bcast_S_S2048)
  :: StableHlo.TRef.binary (.of main_call0_v1 : StableHlo.TRef sig ⟨S2048, .f32⟩) (.of main_call0_v0 : StableHlo.TRef sig ⟨S2048, .f32⟩) (.of main_call0_v2 : StableHlo.TRef sig ⟨S2048, .f32⟩) maximumf
  :: StableHlo.TRef.unary (.of main_call0_v2 : StableHlo.TRef sig ⟨S2048, .f32⟩) (.of main_call0_v3 : StableHlo.TRef sig ⟨S2048x1, .f32⟩) (broadcastInDim S2048x1 ![0] bcast_S2048_S2048x1_0)
  :: StableHlo.TRef.unary (.of main_call0_v3 : StableHlo.TRef sig ⟨S2048x1, .f32⟩) (.of main_call0_v4 : StableHlo.TRef sig ⟨S2048x30522, .f32⟩) (broadcastInDim S2048x30522 ![0, 1] bcast_S2048x1_S2048x30522_0_1)
  :: StableHlo.TRef.binary (.of main_arg0 : StableHlo.TRef sig ⟨S2048x30522, .f32⟩) (.of main_call0_v4 : StableHlo.TRef sig ⟨S2048x30522, .f32⟩) (.of main_call0_v5 : StableHlo.TRef sig ⟨S2048x30522, .f32⟩) subf
  :: StableHlo.TRef.unary (.of main_call0_v5 : StableHlo.TRef sig ⟨S2048x30522, .f32⟩) (.of main_call0_v6 : StableHlo.TRef sig ⟨S2048x30522, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S2048x30522, .f32⟩) (.of main_call0_cst_1 : StableHlo.TRef sig ⟨S_, .f32⟩) (.of main_call0_v7 : StableHlo.TRef sig ⟨S2048, .f32⟩) (fun x v => Host.reduceAdd x v reducesTo_S2048x30522_S2048_d1 h_S_)
  :: StableHlo.TRef.unary (.of main_call0_v7 : StableHlo.TRef sig ⟨S2048, .f32⟩) (.of main_call0_v8 : StableHlo.TRef sig ⟨S2048x1, .f32⟩) (broadcastInDim S2048x1 ![0] bcast_S2048_S2048x1_0)
  :: StableHlo.TRef.unary (.of main_call0_v8 : StableHlo.TRef sig ⟨S2048x1, .f32⟩) (.of main_call0_v9 : StableHlo.TRef sig ⟨S2048x1, .f32⟩) Host.log
  :: StableHlo.TRef.unary (.of main_call0_v9 : StableHlo.TRef sig ⟨S2048x1, .f32⟩) (.of main_call0_v10 : StableHlo.TRef sig ⟨S2048x30522, .f32⟩) (broadcastInDim S2048x30522 ![0, 1] bcast_S2048x1_S2048x30522_0_1)
  :: StableHlo.TRef.binary (.of main_call0_v5 : StableHlo.TRef sig ⟨S2048x30522, .f32⟩) (.of main_call0_v10 : StableHlo.TRef sig ⟨S2048x30522, .f32⟩) (.of main_v0 : StableHlo.TRef sig ⟨S2048x30522, .f32⟩) subf
  :: [] )

set_option maxHeartbeats 40000000 in
/-- 51 operations of @main, window 0. -/
abbrev w0_s1 : List (HloOp τ sig (Elt F)) :=
  ( StableHlo.nullary main_cst (constant S_ .f32 0x36DBE0AF#32)
  :: StableHlo.unary main_cst main_v1 (broadcastInDim S2048x30522 ![] bcast_S_S2048x30522 : (⟨S_, .f32⟩ : BufTy).Contents (Elt F) → (⟨S2048x30522, .f32⟩ : BufTy).Contents (Elt F))
  :: StableHlo.nullary main_v2 (iotaInDim S2048 32 0)
  :: StableHlo.nullary main_c (constantI S_ 32 0#32)
  :: StableHlo.unary main_c main_v3 (broadcastInDim S2048 ![] bcast_S_S2048 : (⟨S_, .i32⟩ : BufTy).Contents (Elt F) → (⟨S2048, .i32⟩ : BufTy).Contents (Elt F))
  :: StableHlo.binary main_v2 main_v3 main_v4 (cmpi .slt : (⟨S2048, .i32⟩ : BufTy).Contents (Elt F) → (⟨S2048, .i32⟩ : BufTy).Contents (Elt F) → (⟨S2048, .i1⟩ : BufTy).Contents (Elt F))
  :: StableHlo.nullary main_c_0 (constantI S_ 32 2048#32)
  :: StableHlo.unary main_c_0 main_v5 (broadcastInDim S2048 ![] bcast_S_S2048 : (⟨S_, .i32⟩ : BufTy).Contents (Elt F) → (⟨S2048, .i32⟩ : BufTy).Contents (Elt F))
  :: StableHlo.binary main_v2 main_v5 main_v6 (addi : (⟨S2048, .i32⟩ : BufTy).Contents (Elt F) → (⟨S2048, .i32⟩ : BufTy).Contents (Elt F) → (⟨S2048, .i32⟩ : BufTy).Contents (Elt F))
  :: StableHlo.ternary main_v4 main_v6 main_v2 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_1 (constantI S_ 32 0#32)
  :: StableHlo.unary main_c_1 main_v8 (broadcastInDim S2048 ![] bcast_S_S2048 : (⟨S_, .i32⟩ : BufTy).Contents (Elt F) → (⟨S2048, .i32⟩ : BufTy).Contents (Elt F))
  :: StableHlo.binary main_arg1 main_v8 main_v9 (cmpi .slt : (⟨S2048, .i32⟩ : BufTy).Contents (Elt F) → (⟨S2048, .i32⟩ : BufTy).Contents (Elt F) → (⟨S2048, .i1⟩ : BufTy).Contents (Elt F))
  :: StableHlo.nullary main_c_2 (constantI S_ 32 30522#32)
  :: StableHlo.unary main_c_2 main_v10 (broadcastInDim S2048 ![] bcast_S_S2048 : (⟨S_, .i32⟩ : BufTy).Contents (Elt F) → (⟨S2048, .i32⟩ : BufTy).Contents (Elt F))
  :: StableHlo.binary main_arg1 main_v10 main_v11 (addi : (⟨S2048, .i32⟩ : BufTy).Contents (Elt F) → (⟨S2048, .i32⟩ : BufTy).Contents (Elt F) → (⟨S2048, .i32⟩ : BufTy).Contents (Elt F))
  :: StableHlo.ternary main_v9 main_v11 main_arg1 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v7 main_v13 (broadcastInDim S2048x1 ![0] bcast_S2048_S2048x1_0 : (⟨S2048, .i32⟩ : BufTy).Contents (Elt F) → (⟨S2048x1, .i32⟩ : BufTy).Contents (Elt F))
  :: StableHlo.unary main_v12 main_v14 (broadcastInDim S2048x1 ![0] bcast_S2048_S2048x1_0 : (⟨S2048, .i32⟩ : BufTy).Contents (Elt F) → (⟨S2048x1, .i32⟩ : BufTy).Contents (Elt F))
  :: StableHlo.binary main_v13 main_v14 main_v15 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.nullary main_cst_3 (constant S_ .f32 0x3F4CCCCD#32)
  :: StableHlo.unary main_cst_3 main_v16 (broadcastInDim S2048 ![] bcast_S_S2048 : (⟨S_, .f32⟩ : BufTy).Contents (Elt F) → (⟨S2048, .f32⟩ : BufTy).Contents (Elt F))
  :: StableHlo.ternary main_v1 main_v15 main_v16 main_v17 ((fun x i u => Host.scatter scatter_S2048x30522_S2048x2_S2048_n_01_01_1 (fun _ b => b) x i u) : (⟨S2048x30522, .f32⟩ : BufTy).Contents (Elt F) → (⟨S2048x2, .i32⟩ : BufTy).Contents (Elt F) → (⟨S2048, .f32⟩ : BufTy).Contents (Elt F) → (⟨S2048x30522, .f32⟩ : BufTy).Contents (Elt F))
  :: StableHlo.nullary main_c_4 (constantI S_ 32 0#32)
  :: StableHlo.unary main_c_4 main_v18 (broadcastInDim S2048 ![] bcast_S_S2048 : (⟨S_, .i32⟩ : BufTy).Contents (Elt F) → (⟨S2048, .i32⟩ : BufTy).Contents (Elt F))
  :: StableHlo.binary main_arg1 main_v18 main_v19 (cmpi .slt : (⟨S2048, .i32⟩ : BufTy).Contents (Elt F) → (⟨S2048, .i32⟩ : BufTy).Contents (Elt F) → (⟨S2048, .i1⟩ : BufTy).Contents (Elt F))
  :: StableHlo.nullary main_c_5 (constantI S_ 32 30522#32)
  :: StableHlo.unary main_c_5 main_v20 (broadcastInDim S2048 ![] bcast_S_S2048 : (⟨S_, .i32⟩ : BufTy).Contents (Elt F) → (⟨S2048, .i32⟩ : BufTy).Contents (Elt F))
  :: StableHlo.binary main_arg1 main_v20 main_v21 (addi : (⟨S2048, .i32⟩ : BufTy).Contents (Elt F) → (⟨S2048, .i32⟩ : BufTy).Contents (Elt F) → (⟨S2048, .i32⟩ : BufTy).Contents (Elt F))
  :: StableHlo.ternary main_v19 main_v21 main_arg1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v22 main_v23 (broadcastInDim S2048x1 ![0] bcast_S2048_S2048x1_0 : (⟨S2048, .i32⟩ : BufTy).Contents (Elt F) → (⟨S2048x1, .i32⟩ : BufTy).Contents (Elt F))
  :: StableHlo.binary main_arg5 main_v23 main_v24 ((fun x i => Host.gather gather_S30522_S2048x1_S2048_n_0_n_n_0_1_1 x i) : (⟨S30522, .f32⟩ : BufTy).Contents (Elt F) → (⟨S2048x1, .i32⟩ : BufTy).Contents (Elt F) → (⟨S2048, .f32⟩ : BufTy).Contents (Elt F))
  :: StableHlo.unary main_v17 main_v25 (Host.negf : (⟨S2048x30522, .f32⟩ : BufTy).Contents (Elt F) → (⟨S2048x30522, .f32⟩ : BufTy).Contents (Elt F))
  :: StableHlo.binary main_v25 main_v0 main_v26 (mulf : (⟨S2048x30522, .f32⟩ : BufTy).Contents (Elt F) → (⟨S2048x30522, .f32⟩ : BufTy).Contents (Elt F) → (⟨S2048x30522, .f32⟩ : BufTy).Contents (Elt F))
  :: StableHlo.nullary main_cst_6 (constant S_ .f32 0x00000000#32)
  :: StableHlo.binary main_v26 main_cst_6 main_v27 ((fun x v => Host.reduceAdd x v reducesTo_S2048x30522_S2048_d1 h_S_) : (⟨S2048x30522, .f32⟩ : BufTy).Contents (Elt F) → (⟨S_, .f32⟩ : BufTy).Contents (Elt F) → (⟨S2048, .f32⟩ : BufTy).Contents (Elt F))
  :: StableHlo.binary main_v27 main_v24 main_v28 (mulf : (⟨S2048, .f32⟩ : BufTy).Contents (Elt F) → (⟨S2048, .f32⟩ : BufTy).Contents (Elt F) → (⟨S2048, .f32⟩ : BufTy).Contents (Elt F))
  :: StableHlo.nullary main_cst_7 (constant S_ .f32 0x00000000#32)
  :: StableHlo.binary main_v28 main_cst_7 main_v29 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.nullary main_cst_8 (constant S_ .f32 0x45000000#32)
  :: StableHlo.binary main_v29 main_cst_8 main_v30 (Host.divf : (⟨S_, .f32⟩ : BufTy).Contents (Elt F) → (⟨S_, .f32⟩ : BufTy).Contents (Elt F) → (⟨S_, .f32⟩ : BufTy).Contents (Elt F))
  :: StableHlo.nullary main_cst_9 (constant S_ .f32 0x45000000#32)
  :: StableHlo.binary main_v30 main_cst_9 main_v31 (mulf : (⟨S_, .f32⟩ : BufTy).Contents (Elt F) → (⟨S_, .f32⟩ : BufTy).Contents (Elt F) → (⟨S_, .f32⟩ : BufTy).Contents (Elt F))
  :: StableHlo.nullary main_cst_10 (constant S_ .f32 0x00000000#32)
  :: StableHlo.binary main_v24 main_cst_10 main_v32 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.binary main_v31 main_v32 main_v33 (Host.divf : (⟨S_, .f32⟩ : BufTy).Contents (Elt F) → (⟨S_, .f32⟩ : BufTy).Contents (Elt F) → (⟨S_, .f32⟩ : BufTy).Contents (Elt F))
  :: StableHlo.unary main_arg2 main_v34 (sitofp .f32 : (⟨S64x128, .i32⟩ : BufTy).Contents (Elt F) → (⟨S64x128, .f32⟩ : BufTy).Contents (Elt F))
  :: StableHlo.binary main_arg3 main_v34 main_v35 (mulf : (⟨S64x128, .f32⟩ : BufTy).Contents (Elt F) → (⟨S64x128, .f32⟩ : BufTy).Contents (Elt F) → (⟨S64x128, .f32⟩ : BufTy).Contents (Elt F))
  :: StableHlo.nullary main_c_11 (constantI S_ 32 103#32)
  :: StableHlo.unary main_c_11 main_v36 (broadcastInDim S64x128 ![] bcast_S_S64x128 : (⟨S_, .i32⟩ : BufTy).Contents (Elt F) → (⟨S64x128, .i32⟩ : BufTy).Contents (Elt F))
  :: StableHlo.binary main_arg4 main_v36 main_v37 (cmpi .eq : (⟨S64x128, .i32⟩ : BufTy).Contents (Elt F) → (⟨S64x128, .i32⟩ : BufTy).Contents (Elt F) → (⟨S64x128, .i1⟩ : BufTy).Contents (Elt F))
  :: [] )

set_option maxHeartbeats 40000000 in
/-- 5 operations of @cumsum, window 0. -/
abbrev w0_s2 : List (HloOp τ sig (Elt F)) :=
  [ StableHlo.TRef.reshape (.of main_v37 : StableHlo.TRef sig ⟨S64x128, .i1⟩) (.of main_call1_v0 : StableHlo.TRef sig ⟨S8192, .i1⟩) rfl shapeCasts_S64x128_S8192,
    StableHlo.TRef.unary (.of main_call1_v0 : StableHlo.TRef sig ⟨S8192, .i1⟩) (.of main_call1_v1 : StableHlo.TRef sig ⟨S8192, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S8192, .i32⟩) (.of main_call1_call0_v0 : StableHlo.TRef sig ⟨S_, .i32⟩) (.of main_v38 : StableHlo.TRef sig ⟨S8192, .i32⟩) (fun x v => Host.reduceWindow IntOp.addi ![8192] ![1] ![8191] ![0] x v reduceWindows_S8192_S8192_w8192s1p8191_0 h_S_) ]

set_option maxHeartbeats 40000000 in
/-- 3 operations of @main, window 0. -/
abbrev w0_s3 : List (HloOp τ sig (Elt F)) :=
  [ StableHlo.nullary main_c_12 (constantI S_ 32 0#32),
    StableHlo.unary main_c_12 main_v39 (broadcastInDim S2048 ![] bcast_S_S2048 : (⟨S_, .i32⟩ : BufTy).Contents (Elt F) → (⟨S2048, .i32⟩ : BufTy).Contents (Elt F)),
    StableHlo.nullary main_c_13 (constantI S_ 32 0#32) ]

set_option maxHeartbeats 40000000 in
/-- 3 operations of @clip, window 0. -/
abbrev w0_s4 : List (HloOp τ sig (Elt F)) :=
  [ StableHlo.TRef.unary (.of main_c_13 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192, .i32⟩) (broadcastInDim S8192 ![] bcast_S_S8192),
    StableHlo.TRef.binary (.of main_call2_v1 : StableHlo.TRef sig ⟨S8192, .i32⟩) (.of main_v38 : StableHlo.TRef sig ⟨S8192, .i32⟩) (.of main_v40 : StableHlo.TRef sig ⟨S8192, .i32⟩) maxsi ]

set_option maxHeartbeats 40000000 in
/-- 3 operations of @main, window 0. -/
abbrev w0_s5 : List (HloOp τ sig (Elt F)) :=
  [ StableHlo.nullary main_c_14 (constantI S_ 32 0#32),
    StableHlo.unary main_c_14 main_v41 (broadcastInDim S8192 ![] bcast_S_S8192 : (⟨S_, .i32⟩ : BufTy).Contents (Elt F) → (⟨S8192, .i32⟩ : BufTy).Contents (Elt F)),
    StableHlo.binary main_v40 main_v41 main_v42 (cmpi .slt : (⟨S8192, .i32⟩ : BufTy).Contents (Elt F) → (⟨S8192, .i32⟩ : BufTy).Contents (Elt F) → (⟨S8192, .i1⟩ : BufTy).Contents (Elt F)) ]

set_option maxHeartbeats 40000000 in
/-- 8 operations of @main, window 1. -/
abbrev w1_s0 : List (HloOp τ sig (Elt F)) :=
  [ StableHlo.nullary main_c_15 (constantI S_ 32 2048#32),
    StableHlo.unary main_c_15 main_v43 (broadcastInDim S8192 ![] bcast_S_S8192 : (⟨S_, .i32⟩ : BufTy).Contents (Elt F) → (⟨S8192, .i32⟩ : BufTy).Contents (Elt F)),
    StableHlo.binary main_v40 main_v43 main_v44 (addi : (⟨S8192, .i32⟩ : BufTy).Contents (Elt F) → (⟨S8192, .i32⟩ : BufTy).Contents (Elt F) → (⟨S8192, .i32⟩ : BufTy).Contents (Elt F)),
    StableHlo.ternary main_v42 main_v44 main_v40 main_v45 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v45 main_v46 (broadcastInDim S8192x1 ![0] bcast_S8192_S8192x1_0 : (⟨S8192, .i32⟩ : BufTy).Contents (Elt F) → (⟨S8192x1, .i32⟩ : BufTy).Contents (Elt F)),
    StableHlo.nullary main_c_16 (constantI S_ 32 1#32),
    StableHlo.unary main_c_16 main_v47 (broadcastInDim S8192 ![] bcast_S_S8192 : (⟨S_, .i32⟩ : BufTy).Contents (Elt F) → (⟨S8192, .i32⟩ : BufTy).Contents (Elt F)),
    StableHlo.ternary main_v39 main_v46 main_v47 main_v48 ((fun x i u => Host.scatter scatter_S2048_S8192x1_S8192_n_0_0_1 IntOp.addi x i u) : (⟨S2048, .i32⟩ : BufTy).Contents (Elt F) → (⟨S8192x1, .i32⟩ : BufTy).Contents (Elt F) → (⟨S8192, .i32⟩ : BufTy).Contents (Elt F) → (⟨S2048, .i32⟩ : BufTy).Contents (Elt F)) ]

set_option maxHeartbeats 40000000 in
/-- 3 operations of @cumsum_1, window 1. -/
abbrev w1_s1 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v48 : StableHlo.TRef sig ⟨S2048, .i32⟩) (.of main_call3_call0_v0 : StableHlo.TRef sig ⟨S_, .i32⟩) (.of main_v49 : StableHlo.TRef sig ⟨S2048, .i32⟩) (fun x v => Host.reduceWindow IntOp.addi ![2048] ![1] ![2047] ![0] x v reduceWindows_S2048_S2048_w2048s1p2047_0 h_S_) ]

set_option maxHeartbeats 40000000 in
/-- 1 operation of @main, window 1. -/
abbrev w1_s2 : List (HloOp τ sig (Elt F)) :=
  [ StableHlo.nullary main_c_17 (constantI S_ 32 128#32) ]

set_option maxHeartbeats 40000000 in
/-- 16 operations of @floor_divide, window 1. -/
abbrev w1_s3 : List (HloOp τ sig (Elt F)) :=
  ( StableHlo.TRef.unary (.of main_c_17 : StableHlo.TRef sig ⟨S_, .i32⟩) (.of main_call4_v0 : StableHlo.TRef sig ⟨S2048, .i32⟩) (broadcastInDim S2048 ![] bcast_S_S2048)
  :: StableHlo.TRef.binary (.of main_v49 : StableHlo.TRef sig ⟨S2048, .i32⟩) (.of main_call4_v0 : StableHlo.TRef sig ⟨S2048, .i32⟩) (.of main_call4_v1 : StableHlo.TRef sig ⟨S2048, .i32⟩) Host.divsi
  :: StableHlo.TRef.unary (.of main_v49 : StableHlo.TRef sig ⟨S2048, .i32⟩) (.of main_call4_v2 : StableHlo.TRef sig ⟨S2048, .i32⟩) signi
  :: StableHlo.TRef.unary (.of main_c_17 : StableHlo.TRef sig ⟨S_, .i32⟩) (.of main_call4_v3 : StableHlo.TRef sig ⟨S_, .i32⟩) signi
  :: StableHlo.TRef.unary (.of main_call4_v3 : StableHlo.TRef sig ⟨S_, .i32⟩) (.of main_call4_v4 : StableHlo.TRef sig ⟨S2048, .i32⟩) (broadcastInDim S2048 ![] bcast_S_S2048)
  :: StableHlo.TRef.binary (.of main_call4_v2 : StableHlo.TRef sig ⟨S2048, .i32⟩) (.of main_call4_v4 : StableHlo.TRef sig ⟨S2048, .i32⟩) (.of main_call4_v5 : StableHlo.TRef sig ⟨S2048, .i1⟩) (cmpi .ne)
  :: StableHlo.TRef.unary (.of main_c_17 : StableHlo.TRef sig ⟨S_, .i32⟩) (.of main_call4_v6 : StableHlo.TRef sig ⟨S2048, .i32⟩) (broadcastInDim S2048 ![] bcast_S_S2048)
  :: StableHlo.TRef.binary (.of main_v49 : StableHlo.TRef sig ⟨S2048, .i32⟩) (.of main_call4_v6 : StableHlo.TRef sig ⟨S2048, .i32⟩) (.of main_call4_v7 : StableHlo.TRef sig ⟨S2048, .i32⟩) Host.remsi
  :: StableHlo.TRef.nullary (.of main_call4_c : StableHlo.TRef sig ⟨S_, .i32⟩) (constantI S_ 32 0#32)
  :: StableHlo.TRef.unary (.of main_call4_c : StableHlo.TRef sig ⟨S_, .i32⟩) (.of main_call4_v8 : StableHlo.TRef sig ⟨S2048, .i32⟩) (broadcastInDim S2048 ![] bcast_S_S2048)
  :: StableHlo.TRef.binary (.of main_call4_v7 : StableHlo.TRef sig ⟨S2048, .i32⟩) (.of main_call4_v8 : StableHlo.TRef sig ⟨S2048, .i32⟩) (.of main_call4_v9 : StableHlo.TRef sig ⟨S2048, .i1⟩) (cmpi .ne)
  :: StableHlo.TRef.binary (.of main_call4_v5 : StableHlo.TRef sig ⟨S2048, .i1⟩) (.of main_call4_v9 : StableHlo.TRef sig ⟨S2048, .i1⟩) (.of main_call4_v10 : StableHlo.TRef sig ⟨S2048, .i1⟩) andi
  :: StableHlo.TRef.nullary (.of main_call4_c_0 : StableHlo.TRef sig ⟨S_, .i32⟩) (constantI S_ 32 1#32)
  :: StableHlo.TRef.unary (.of main_call4_c_0 : StableHlo.TRef sig ⟨S_, .i32⟩) (.of main_call4_v11 : StableHlo.TRef sig ⟨S2048, .i32⟩) (broadcastInDim S2048 ![] bcast_S_S2048)
  :: StableHlo.TRef.binary (.of main_call4_v1 : StableHlo.TRef sig ⟨S2048, .i32⟩) (.of main_call4_v11 : StableHlo.TRef sig ⟨S2048, .i32⟩) (.of main_call4_v12 : StableHlo.TRef sig ⟨S2048, .i32⟩) subi
  :: StableHlo.TRef.ternary (.of main_call4_v10 : StableHlo.TRef sig ⟨S2048, .i1⟩) (.of main_call4_v12 : StableHlo.TRef sig ⟨S2048, .i32⟩) (.of main_call4_v1 : StableHlo.TRef sig ⟨S2048, .i32⟩) (.of main_v50 : StableHlo.TRef sig ⟨S2048, .i32⟩) select
  :: [] )

set_option maxHeartbeats 40000000 in
/-- 1 operation of @main, window 1. -/
abbrev w1_s4 : List (HloOp τ sig (Elt F)) :=
  [ StableHlo.nullary main_c_18 (constantI S_ 32 64#32) ]

set_option maxHeartbeats 40000000 in
/-- 21 operations of @remainder, window 1. -/
abbrev w1_s5 : List (HloOp τ sig (Elt F)) :=
  ( StableHlo.TRef.unary (.of main_c_18 : StableHlo.TRef sig ⟨S_, .i32⟩) (.of main_call5_v0 : StableHlo.TRef sig ⟨S_, .i32⟩) id
  :: StableHlo.TRef.nullary (.of main_call5_c : StableHlo.TRef sig ⟨S_, .i32⟩) (constantI S_ 32 0#32)
  :: StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq)
  :: StableHlo.TRef.nullary (.of main_call5_c_0 : StableHlo.TRef sig ⟨S_, .i32⟩) (constantI S_ 32 1#32)
  :: StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select
  :: StableHlo.TRef.unary (.of main_call5_v2 : StableHlo.TRef sig ⟨S_, .i32⟩) (.of main_call5_v3 : StableHlo.TRef sig ⟨S2048, .i32⟩) (broadcastInDim S2048 ![] bcast_S_S2048)
  :: StableHlo.TRef.binary (.of main_v50 : StableHlo.TRef sig ⟨S2048, .i32⟩) (.of main_call5_v3 : StableHlo.TRef sig ⟨S2048, .i32⟩) (.of main_call5_v4 : StableHlo.TRef sig ⟨S2048, .i32⟩) Host.remsi
  :: StableHlo.TRef.nullary (.of main_call5_c_1 : StableHlo.TRef sig ⟨S_, .i32⟩) (constantI S_ 32 0#32)
  :: StableHlo.TRef.unary (.of main_call5_c_1 : StableHlo.TRef sig ⟨S_, .i32⟩) (.of main_call5_v5 : StableHlo.TRef sig ⟨S2048, .i32⟩) (broadcastInDim S2048 ![] bcast_S_S2048)
  :: StableHlo.TRef.binary (.of main_call5_v4 : StableHlo.TRef sig ⟨S2048, .i32⟩) (.of main_call5_v5 : StableHlo.TRef sig ⟨S2048, .i32⟩) (.of main_call5_v6 : StableHlo.TRef sig ⟨S2048, .i1⟩) (cmpi .ne)
  :: StableHlo.TRef.nullary (.of main_call5_c_2 : StableHlo.TRef sig ⟨S_, .i32⟩) (constantI S_ 32 0#32)
  :: StableHlo.TRef.unary (.of main_call5_c_2 : StableHlo.TRef sig ⟨S_, .i32⟩) (.of main_call5_v7 : StableHlo.TRef sig ⟨S2048, .i32⟩) (broadcastInDim S2048 ![] bcast_S_S2048)
  :: StableHlo.TRef.binary (.of main_call5_v4 : StableHlo.TRef sig ⟨S2048, .i32⟩) (.of main_call5_v7 : StableHlo.TRef sig ⟨S2048, .i32⟩) (.of main_call5_v8 : StableHlo.TRef sig ⟨S2048, .i1⟩) (cmpi .slt)
  :: StableHlo.TRef.nullary (.of main_call5_c_3 : StableHlo.TRef sig ⟨S_, .i32⟩) (constantI S_ 32 0#32)
  :: StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt)
  :: StableHlo.TRef.unary (.of main_call5_v9 : StableHlo.TRef sig ⟨S_, .i1⟩) (.of main_call5_v10 : StableHlo.TRef sig ⟨S2048, .i1⟩) (broadcastInDim S2048 ![] bcast_S_S2048)
  :: StableHlo.TRef.binary (.of main_call5_v8 : StableHlo.TRef sig ⟨S2048, .i1⟩) (.of main_call5_v10 : StableHlo.TRef sig ⟨S2048, .i1⟩) (.of main_call5_v11 : StableHlo.TRef sig ⟨S2048, .i1⟩) (cmpi .ne)
  :: StableHlo.TRef.binary (.of main_call5_v11 : StableHlo.TRef sig ⟨S2048, .i1⟩) (.of main_call5_v6 : StableHlo.TRef sig ⟨S2048, .i1⟩) (.of main_call5_v12 : StableHlo.TRef sig ⟨S2048, .i1⟩) andi
  :: StableHlo.TRef.unary (.of main_call5_v2 : StableHlo.TRef sig ⟨S_, .i32⟩) (.of main_call5_v13 : StableHlo.TRef sig ⟨S2048, .i32⟩) (broadcastInDim S2048 ![] bcast_S_S2048)
  :: StableHlo.TRef.binary (.of main_call5_v4 : StableHlo.TRef sig ⟨S2048, .i32⟩) (.of main_call5_v13 : StableHlo.TRef sig ⟨S2048, .i32⟩) (.of main_call5_v14 : StableHlo.TRef sig ⟨S2048, .i32⟩) addi
  :: StableHlo.TRef.ternary (.of main_call5_v12 : StableHlo.TRef sig ⟨S2048, .i1⟩) (.of main_call5_v14 : StableHlo.TRef sig ⟨S2048, .i32⟩) (.of main_call5_v4 : StableHlo.TRef sig ⟨S2048, .i32⟩) (.of main_v51 : StableHlo.TRef sig ⟨S2048, .i32⟩) select
  :: [] )

set_option maxHeartbeats 40000000 in
/-- 1 operation of @main, window 1. -/
abbrev w1_s6 : List (HloOp τ sig (Elt F)) :=
  [ StableHlo.nullary main_c_19 (constantI S_ 32 1#32) ]

set_option maxHeartbeats 40000000 in
/-- 16 operations of @floor_divide, window 1. -/
abbrev w1_s7 : List (HloOp τ sig (Elt F)) :=
  ( StableHlo.TRef.unary (.of main_c_19 : StableHlo.TRef sig ⟨S_, .i32⟩) (.of main_call6_v0 : StableHlo.TRef sig ⟨S2048, .i32⟩) (broadcastInDim S2048 ![] bcast_S_S2048)
  :: StableHlo.TRef.binary (.of main_v49 : StableHlo.TRef sig ⟨S2048, .i32⟩) (.of main_call6_v0 : StableHlo.TRef sig ⟨S2048, .i32⟩) (.of main_call6_v1 : StableHlo.TRef sig ⟨S2048, .i32⟩) Host.divsi
  :: StableHlo.TRef.unary (.of main_v49 : StableHlo.TRef sig ⟨S2048, .i32⟩) (.of main_call6_v2 : StableHlo.TRef sig ⟨S2048, .i32⟩) signi
  :: StableHlo.TRef.unary (.of main_c_19 : StableHlo.TRef sig ⟨S_, .i32⟩) (.of main_call6_v3 : StableHlo.TRef sig ⟨S_, .i32⟩) signi
  :: StableHlo.TRef.unary (.of main_call6_v3 : StableHlo.TRef sig ⟨S_, .i32⟩) (.of main_call6_v4 : StableHlo.TRef sig ⟨S2048, .i32⟩) (broadcastInDim S2048 ![] bcast_S_S2048)
  :: StableHlo.TRef.binary (.of main_call6_v2 : StableHlo.TRef sig ⟨S2048, .i32⟩) (.of main_call6_v4 : StableHlo.TRef sig ⟨S2048, .i32⟩) (.of main_call6_v5 : StableHlo.TRef sig ⟨S2048, .i1⟩) (cmpi .ne)
  :: StableHlo.TRef.unary (.of main_c_19 : StableHlo.TRef sig ⟨S_, .i32⟩) (.of main_call6_v6 : StableHlo.TRef sig ⟨S2048, .i32⟩) (broadcastInDim S2048 ![] bcast_S_S2048)
  :: StableHlo.TRef.binary (.of main_v49 : StableHlo.TRef sig ⟨S2048, .i32⟩) (.of main_call6_v6 : StableHlo.TRef sig ⟨S2048, .i32⟩) (.of main_call6_v7 : StableHlo.TRef sig ⟨S2048, .i32⟩) Host.remsi
  :: StableHlo.TRef.nullary (.of main_call6_c : StableHlo.TRef sig ⟨S_, .i32⟩) (constantI S_ 32 0#32)
  :: StableHlo.TRef.unary (.of main_call6_c : StableHlo.TRef sig ⟨S_, .i32⟩) (.of main_call6_v8 : StableHlo.TRef sig ⟨S2048, .i32⟩) (broadcastInDim S2048 ![] bcast_S_S2048)
  :: StableHlo.TRef.binary (.of main_call6_v7 : StableHlo.TRef sig ⟨S2048, .i32⟩) (.of main_call6_v8 : StableHlo.TRef sig ⟨S2048, .i32⟩) (.of main_call6_v9 : StableHlo.TRef sig ⟨S2048, .i1⟩) (cmpi .ne)
  :: StableHlo.TRef.binary (.of main_call6_v5 : StableHlo.TRef sig ⟨S2048, .i1⟩) (.of main_call6_v9 : StableHlo.TRef sig ⟨S2048, .i1⟩) (.of main_call6_v10 : StableHlo.TRef sig ⟨S2048, .i1⟩) andi
  :: StableHlo.TRef.nullary (.of main_call6_c_0 : StableHlo.TRef sig ⟨S_, .i32⟩) (constantI S_ 32 1#32)
  :: StableHlo.TRef.unary (.of main_call6_c_0 : StableHlo.TRef sig ⟨S_, .i32⟩) (.of main_call6_v11 : StableHlo.TRef sig ⟨S2048, .i32⟩) (broadcastInDim S2048 ![] bcast_S_S2048)
  :: StableHlo.TRef.binary (.of main_call6_v1 : StableHlo.TRef sig ⟨S2048, .i32⟩) (.of main_call6_v11 : StableHlo.TRef sig ⟨S2048, .i32⟩) (.of main_call6_v12 : StableHlo.TRef sig ⟨S2048, .i32⟩) subi
  :: StableHlo.TRef.ternary (.of main_call6_v10 : StableHlo.TRef sig ⟨S2048, .i1⟩) (.of main_call6_v12 : StableHlo.TRef sig ⟨S2048, .i32⟩) (.of main_call6_v1 : StableHlo.TRef sig ⟨S2048, .i32⟩) (.of main_v52 : StableHlo.TRef sig ⟨S2048, .i32⟩) select
  :: [] )

set_option maxHeartbeats 40000000 in
/-- 1 operation of @main, window 1. -/
abbrev w1_s8 : List (HloOp τ sig (Elt F)) :=
  [ StableHlo.nullary main_c_20 (constantI S_ 32 128#32) ]

set_option maxHeartbeats 40000000 in
/-- 21 operations of @remainder, window 1. -/
abbrev w1_s9 : List (HloOp τ sig (Elt F)) :=
  ( StableHlo.TRef.unary (.of main_c_20 : StableHlo.TRef sig ⟨S_, .i32⟩) (.of main_call7_v0 : StableHlo.TRef sig ⟨S_, .i32⟩) id
  :: StableHlo.TRef.nullary (.of main_call7_c : StableHlo.TRef sig ⟨S_, .i32⟩) (constantI S_ 32 0#32)
  :: StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq)
  :: StableHlo.TRef.nullary (.of main_call7_c_0 : StableHlo.TRef sig ⟨S_, .i32⟩) (constantI S_ 32 1#32)
  :: StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select
  :: StableHlo.TRef.unary (.of main_call7_v2 : StableHlo.TRef sig ⟨S_, .i32⟩) (.of main_call7_v3 : StableHlo.TRef sig ⟨S2048, .i32⟩) (broadcastInDim S2048 ![] bcast_S_S2048)
  :: StableHlo.TRef.binary (.of main_v52 : StableHlo.TRef sig ⟨S2048, .i32⟩) (.of main_call7_v3 : StableHlo.TRef sig ⟨S2048, .i32⟩) (.of main_call7_v4 : StableHlo.TRef sig ⟨S2048, .i32⟩) Host.remsi
  :: StableHlo.TRef.nullary (.of main_call7_c_1 : StableHlo.TRef sig ⟨S_, .i32⟩) (constantI S_ 32 0#32)
  :: StableHlo.TRef.unary (.of main_call7_c_1 : StableHlo.TRef sig ⟨S_, .i32⟩) (.of main_call7_v5 : StableHlo.TRef sig ⟨S2048, .i32⟩) (broadcastInDim S2048 ![] bcast_S_S2048)
  :: StableHlo.TRef.binary (.of main_call7_v4 : StableHlo.TRef sig ⟨S2048, .i32⟩) (.of main_call7_v5 : StableHlo.TRef sig ⟨S2048, .i32⟩) (.of main_call7_v6 : StableHlo.TRef sig ⟨S2048, .i1⟩) (cmpi .ne)
  :: StableHlo.TRef.nullary (.of main_call7_c_2 : StableHlo.TRef sig ⟨S_, .i32⟩) (constantI S_ 32 0#32)
  :: StableHlo.TRef.unary (.of main_call7_c_2 : StableHlo.TRef sig ⟨S_, .i32⟩) (.of main_call7_v7 : StableHlo.TRef sig ⟨S2048, .i32⟩) (broadcastInDim S2048 ![] bcast_S_S2048)
  :: StableHlo.TRef.binary (.of main_call7_v4 : StableHlo.TRef sig ⟨S2048, .i32⟩) (.of main_call7_v7 : StableHlo.TRef sig ⟨S2048, .i32⟩) (.of main_call7_v8 : StableHlo.TRef sig ⟨S2048, .i1⟩) (cmpi .slt)
  :: StableHlo.TRef.nullary (.of main_call7_c_3 : StableHlo.TRef sig ⟨S_, .i32⟩) (constantI S_ 32 0#32)
  :: StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt)
  :: StableHlo.TRef.unary (.of main_call7_v9 : StableHlo.TRef sig ⟨S_, .i1⟩) (.of main_call7_v10 : StableHlo.TRef sig ⟨S2048, .i1⟩) (broadcastInDim S2048 ![] bcast_S_S2048)
  :: StableHlo.TRef.binary (.of main_call7_v8 : StableHlo.TRef sig ⟨S2048, .i1⟩) (.of main_call7_v10 : StableHlo.TRef sig ⟨S2048, .i1⟩) (.of main_call7_v11 : StableHlo.TRef sig ⟨S2048, .i1⟩) (cmpi .ne)
  :: StableHlo.TRef.binary (.of main_call7_v11 : StableHlo.TRef sig ⟨S2048, .i1⟩) (.of main_call7_v6 : StableHlo.TRef sig ⟨S2048, .i1⟩) (.of main_call7_v12 : StableHlo.TRef sig ⟨S2048, .i1⟩) andi
  :: StableHlo.TRef.unary (.of main_call7_v2 : StableHlo.TRef sig ⟨S_, .i32⟩) (.of main_call7_v13 : StableHlo.TRef sig ⟨S2048, .i32⟩) (broadcastInDim S2048 ![] bcast_S_S2048)
  :: StableHlo.TRef.binary (.of main_call7_v4 : StableHlo.TRef sig ⟨S2048, .i32⟩) (.of main_call7_v13 : StableHlo.TRef sig ⟨S2048, .i32⟩) (.of main_call7_v14 : StableHlo.TRef sig ⟨S2048, .i32⟩) addi
  :: StableHlo.TRef.ternary (.of main_call7_v12 : StableHlo.TRef sig ⟨S2048, .i1⟩) (.of main_call7_v14 : StableHlo.TRef sig ⟨S2048, .i32⟩) (.of main_call7_v4 : StableHlo.TRef sig ⟨S2048, .i32⟩) (.of main_v53 : StableHlo.TRef sig ⟨S2048, .i32⟩) select
  :: [] )

set_option maxHeartbeats 40000000 in
/-- 43 operations of @main, window 1. -/
abbrev w1_s10 : List (HloOp τ sig (Elt F)) :=
  ( StableHlo.nullary main_v54 (iotaInDim S2048 32 0)
  :: StableHlo.nullary main_c_21 (constantI S_ 32 0#32)
  :: StableHlo.unary main_c_21 main_v55 (broadcastInDim S2048 ![] bcast_S_S2048 : (⟨S_, .i32⟩ : BufTy).Contents (Elt F) → (⟨S2048, .i32⟩ : BufTy).Contents (Elt F))
  :: StableHlo.binary main_v51 main_v55 main_v56 (cmpi .slt : (⟨S2048, .i32⟩ : BufTy).Contents (Elt F) → (⟨S2048, .i32⟩ : BufTy).Contents (Elt F) → (⟨S2048, .i1⟩ : BufTy).Contents (Elt F))
  :: StableHlo.nullary main_c_22 (constantI S_ 32 64#32)
  :: StableHlo.unary main_c_22 main_v57 (broadcastInDim S2048 ![] bcast_S_S2048 : (⟨S_, .i32⟩ : BufTy).Contents (Elt F) → (⟨S2048, .i32⟩ : BufTy).Contents (Elt F))
  :: StableHlo.binary main_v51 main_v57 main_v58 (addi : (⟨S2048, .i32⟩ : BufTy).Contents (Elt F) → (⟨S2048, .i32⟩ : BufTy).Contents (Elt F) → (⟨S2048, .i32⟩ : BufTy).Contents (Elt F))
  :: StableHlo.ternary main_v56 main_v58 main_v51 main_v59 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v59 main_v60 (broadcastInDim S2048x1 ![0] bcast_S2048_S2048x1_0 : (⟨S2048, .i32⟩ : BufTy).Contents (Elt F) → (⟨S2048x1, .i32⟩ : BufTy).Contents (Elt F))
  :: StableHlo.binary main_arg3 main_v60 main_v61 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F))
  :: StableHlo.nullary main_c_23 (constantI S_ 32 0#32)
  :: StableHlo.unary main_c_23 main_v62 (broadcastInDim S2048 ![] bcast_S_S2048 : (⟨S_, .i32⟩ : BufTy).Contents (Elt F) → (⟨S2048, .i32⟩ : BufTy).Contents (Elt F))
  :: StableHlo.binary main_v51 main_v62 main_v63 (cmpi .slt : (⟨S2048, .i32⟩ : BufTy).Contents (Elt F) → (⟨S2048, .i32⟩ : BufTy).Contents (Elt F) → (⟨S2048, .i1⟩ : BufTy).Contents (Elt F))
  :: StableHlo.nullary main_c_24 (constantI S_ 32 64#32)
  :: StableHlo.unary main_c_24 main_v64 (broadcastInDim S2048 ![] bcast_S_S2048 : (⟨S_, .i32⟩ : BufTy).Contents (Elt F) → (⟨S2048, .i32⟩ : BufTy).Contents (Elt F))
  :: StableHlo.binary main_v51 main_v64 main_v65 (addi : (⟨S2048, .i32⟩ : BufTy).Contents (Elt F) → (⟨S2048, .i32⟩ : BufTy).Contents (Elt F) → (⟨S2048, .i32⟩ : BufTy).Contents (Elt F))
  :: StableHlo.ternary main_v63 main_v65 main_v51 main_v66 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v66 main_v67 (broadcastInDim S2048x1 ![0] bcast_S2048_S2048x1_0 : (⟨S2048, .i32⟩ : BufTy).Contents (Elt F) → (⟨S2048x1, .i32⟩ : BufTy).Contents (Elt F))
  :: StableHlo.binary main_v35 main_v67 main_v68 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F))
  :: StableHlo.nullary main_c_25 (constantI S_ 32 0#32)
  :: StableHlo.unary main_c_25 main_v69 (broadcastInDim S2048 ![] bcast_S_S2048 : (⟨S_, .i32⟩ : BufTy).Contents (Elt F) → (⟨S2048, .i32⟩ : BufTy).Contents (Elt F))
  :: StableHlo.binary main_v54 main_v69 main_v70 (cmpi .slt : (⟨S2048, .i32⟩ : BufTy).Contents (Elt F) → (⟨S2048, .i32⟩ : BufTy).Contents (Elt F) → (⟨S2048, .i1⟩ : BufTy).Contents (Elt F))
  :: StableHlo.nullary main_c_26 (constantI S_ 32 2048#32)
  :: StableHlo.unary main_c_26 main_v71 (broadcastInDim S2048 ![] bcast_S_S2048 : (⟨S_, .i32⟩ : BufTy).Contents (Elt F) → (⟨S2048, .i32⟩ : BufTy).Contents (Elt F))
  :: StableHlo.binary main_v54 main_v71 main_v72 (addi : (⟨S2048, .i32⟩ : BufTy).Contents (Elt F) → (⟨S2048, .i32⟩ : BufTy).Contents (Elt F) → (⟨S2048, .i32⟩ : BufTy).Contents (Elt F))
  :: StableHlo.ternary main_v70 main_v72 main_v54 main_v73 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_27 (constantI S_ 32 0#32)
  :: StableHlo.unary main_c_27 main_v74 (broadcastInDim S2048 ![] bcast_S_S2048 : (⟨S_, .i32⟩ : BufTy).Contents (Elt F) → (⟨S2048, .i32⟩ : BufTy).Contents (Elt F))
  :: StableHlo.binary main_v53 main_v74 main_v75 (cmpi .slt : (⟨S2048, .i32⟩ : BufTy).Contents (Elt F) → (⟨S2048, .i32⟩ : BufTy).Contents (Elt F) → (⟨S2048, .i1⟩ : BufTy).Contents (Elt F))
  :: StableHlo.nullary main_c_28 (constantI S_ 32 128#32)
  :: StableHlo.unary main_c_28 main_v76 (broadcastInDim S2048 ![] bcast_S_S2048 : (⟨S_, .i32⟩ : BufTy).Contents (Elt F) → (⟨S2048, .i32⟩ : BufTy).Contents (Elt F))
  :: StableHlo.binary main_v53 main_v76 main_v77 (addi : (⟨S2048, .i32⟩ : BufTy).Contents (Elt F) → (⟨S2048, .i32⟩ : BufTy).Contents (Elt F) → (⟨S2048, .i32⟩ : BufTy).Contents (Elt F))
  :: StableHlo.ternary main_v75 main_v77 main_v53 main_v78 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v73 main_v79 (broadcastInDim S2048x1 ![0] bcast_S2048_S2048x1_0 : (⟨S2048, .i32⟩ : BufTy).Contents (Elt F) → (⟨S2048x1, .i32⟩ : BufTy).Contents (Elt F))
  :: StableHlo.unary main_v78 main_v80 (broadcastInDim S2048x1 ![0] bcast_S2048_S2048x1_0 : (⟨S2048, .i32⟩ : BufTy).Contents (Elt F) → (⟨S2048x1, .i32⟩ : BufTy).Contents (Elt F))
  :: StableHlo.binary main_v79 main_v80 main_v81 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v68 main_v81 main_v82 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F))
  :: StableHlo.unary main_v82 main_v83 (broadcastInDim S2048x1 ![0] bcast_S2048_S2048x1_0 : (⟨S2048, .f32⟩ : BufTy).Contents (Elt F) → (⟨S2048x1, .f32⟩ : BufTy).Contents (Elt F))
  :: StableHlo.unary main_v83 main_v84 (broadcastInDim S2048x128 ![0, 1] bcast_S2048x1_S2048x128_0_1 : (⟨S2048x1, .f32⟩ : BufTy).Contents (Elt F) → (⟨S2048x128, .f32⟩ : BufTy).Contents (Elt F))
  :: StableHlo.binary main_v68 main_v84 main_v85 (cmpf .oeq : (⟨S2048x128, .f32⟩ : BufTy).Contents (Elt F) → (⟨S2048x128, .f32⟩ : BufTy).Contents (Elt F) → (⟨S2048x128, .i1⟩ : BufTy).Contents (Elt F))
  :: StableHlo.unary main_v85 main_v86 (uitofp .f32 : (⟨S2048x128, .i1⟩ : BufTy).Contents (Elt F) → (⟨S2048x128, .f32⟩ : BufTy).Contents (Elt F))
  :: StableHlo.binary main_v61 main_v86 main_v87 (subf : (⟨S2048x128, .f32⟩ : BufTy).Contents (Elt F) → (⟨S2048x128, .f32⟩ : BufTy).Contents (Elt F) → (⟨S2048x128, .f32⟩ : BufTy).Contents (Elt F))
  :: StableHlo.binary main_v68 main_v87 main_v88 (mulf : (⟨S2048x128, .f32⟩ : BufTy).Contents (Elt F) → (⟨S2048x128, .f32⟩ : BufTy).Contents (Elt F) → (⟨S2048x128, .f32⟩ : BufTy).Contents (Elt F))
  :: [] )

set_option maxHeartbeats 40000000 in
/-- 25 operations of @main, window 2. -/
abbrev w2_s0 : List (HloOp τ sig (Elt F)) :=
  ( StableHlo.nullary main_c_29 (constantI S_ 32 1#32)
  :: StableHlo.unary main_c_29 main_v89 (broadcastInDim S2048 ![] bcast_S_S2048 : (⟨S_, .i32⟩ : BufTy).Contents (Elt F) → (⟨S2048, .i32⟩ : BufTy).Contents (Elt F))
  :: StableHlo.binary main_v53 main_v89 main_v90 (subi : (⟨S2048, .i32⟩ : BufTy).Contents (Elt F) → (⟨S2048, .i32⟩ : BufTy).Contents (Elt F) → (⟨S2048, .i32⟩ : BufTy).Contents (Elt F))
  :: StableHlo.nullary main_c_30 (constantI S_ 32 0#32)
  :: StableHlo.unary main_c_30 main_v91 (broadcastInDim S2048 ![] bcast_S_S2048 : (⟨S_, .i32⟩ : BufTy).Contents (Elt F) → (⟨S2048, .i32⟩ : BufTy).Contents (Elt F))
  :: StableHlo.binary main_v54 main_v91 main_v92 (cmpi .slt : (⟨S2048, .i32⟩ : BufTy).Contents (Elt F) → (⟨S2048, .i32⟩ : BufTy).Contents (Elt F) → (⟨S2048, .i1⟩ : BufTy).Contents (Elt F))
  :: StableHlo.nullary main_c_31 (constantI S_ 32 2048#32)
  :: StableHlo.unary main_c_31 main_v93 (broadcastInDim S2048 ![] bcast_S_S2048 : (⟨S_, .i32⟩ : BufTy).Contents (Elt F) → (⟨S2048, .i32⟩ : BufTy).Contents (Elt F))
  :: StableHlo.binary main_v54 main_v93 main_v94 (addi : (⟨S2048, .i32⟩ : BufTy).Contents (Elt F) → (⟨S2048, .i32⟩ : BufTy).Contents (Elt F) → (⟨S2048, .i32⟩ : BufTy).Contents (Elt F))
  :: StableHlo.ternary main_v92 main_v94 main_v54 main_v95 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_32 (constantI S_ 32 0#32)
  :: StableHlo.unary main_c_32 main_v96 (broadcastInDim S2048 ![] bcast_S_S2048 : (⟨S_, .i32⟩ : BufTy).Contents (Elt F) → (⟨S2048, .i32⟩ : BufTy).Contents (Elt F))
  :: StableHlo.binary main_v90 main_v96 main_v97 (cmpi .slt : (⟨S2048, .i32⟩ : BufTy).Contents (Elt F) → (⟨S2048, .i32⟩ : BufTy).Contents (Elt F) → (⟨S2048, .i1⟩ : BufTy).Contents (Elt F))
  :: StableHlo.nullary main_c_33 (constantI S_ 32 128#32)
  :: StableHlo.unary main_c_33 main_v98 (broadcastInDim S2048 ![] bcast_S_S2048 : (⟨S_, .i32⟩ : BufTy).Contents (Elt F) → (⟨S2048, .i32⟩ : BufTy).Contents (Elt F))
  :: StableHlo.binary main_v90 main_v98 main_v99 (addi : (⟨S2048, .i32⟩ : BufTy).Contents (Elt F) → (⟨S2048, .i32⟩ : BufTy).Contents (Elt F) → (⟨S2048, .i32⟩ : BufTy).Contents (Elt F))
  :: StableHlo.ternary main_v97 main_v99 main_v90 main_v100 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v95 main_v101 (broadcastInDim S2048x1 ![0] bcast_S2048_S2048x1_0 : (⟨S2048, .i32⟩ : BufTy).Contents (Elt F) → (⟨S2048x1, .i32⟩ : BufTy).Contents (Elt F))
  :: StableHlo.unary main_v100 main_v102 (broadcastInDim S2048x1 ![0] bcast_S2048_S2048x1_0 : (⟨S2048, .i32⟩ : BufTy).Contents (Elt F) → (⟨S2048x1, .i32⟩ : BufTy).Contents (Elt F))
  :: StableHlo.binary main_v101 main_v102 main_v103 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v88 main_v103 main_v104 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F))
  :: StableHlo.unary main_v104 main_v105 (broadcastInDim S2048x1 ![0] bcast_S2048_S2048x1_0 : (⟨S2048, .f32⟩ : BufTy).Contents (Elt F) → (⟨S2048x1, .f32⟩ : BufTy).Contents (Elt F))
  :: StableHlo.unary main_v105 main_v106 (broadcastInDim S2048x128 ![0, 1] bcast_S2048x1_S2048x128_0_1 : (⟨S2048x1, .f32⟩ : BufTy).Contents (Elt F) → (⟨S2048x128, .f32⟩ : BufTy).Contents (Elt F))
  :: StableHlo.binary main_v88 main_v106 main_v107 (cmpf .oeq : (⟨S2048x128, .f32⟩ : BufTy).Contents (Elt F) → (⟨S2048x128, .f32⟩ : BufTy).Contents (Elt F) → (⟨S2048x128, .i1⟩ : BufTy).Contents (Elt F))
  :: StableHlo.unary main_v107 main_v108 (uitofp .f32 : (⟨S2048x128, .i1⟩ : BufTy).Contents (Elt F) → (⟨S2048x128, .f32⟩ : BufTy).Contents (Elt F))
  :: [] )

set_option maxHeartbeats 40000000 in
/-- 3 operations of @roll_static, window 2. -/
abbrev w2_s1 : List (HloOp τ sig (Elt F)) :=
  [ StableHlo.TRef.unary (.of main_v108 : StableHlo.TRef sig ⟨S2048x128, .f32⟩) (.of main_call8_v0 : StableHlo.TRef sig ⟨S2048x1, .f32⟩) (extractStridedSlice S2048x1 ![0, 127] · slices_S2048x128_S2048x1_0_127),
    StableHlo.TRef.unary (.of main_v108 : StableHlo.TRef sig ⟨S2048x128, .f32⟩) (.of main_call8_v1 : StableHlo.TRef sig ⟨S2048x127, .f32⟩) (extractStridedSlice S2048x127 ![0, 0] · slices_S2048x128_S2048x127_0_0),
    StableHlo.TRef.binary (.of main_call8_v0 : StableHlo.TRef sig ⟨S2048x1, .f32⟩) (.of main_call8_v1 : StableHlo.TRef sig ⟨S2048x127, .f32⟩) (.of main_v109 : StableHlo.TRef sig ⟨S2048x128, .f32⟩) (fun a b => concatenate S2048x128 1 [⟨S2048x1, a⟩, ⟨S2048x127, b⟩] concatenates_S2048x1_S2048x127_S2048x128_d1) ]

set_option maxHeartbeats 40000000 in
/-- 11 operations of @main, window 2. -/
abbrev w2_s2 : List (HloOp τ sig (Elt F)) :=
  ( StableHlo.binary main_v109 main_v87 main_v110 (mulf : (⟨S2048x128, .f32⟩ : BufTy).Contents (Elt F) → (⟨S2048x128, .f32⟩ : BufTy).Contents (Elt F) → (⟨S2048x128, .f32⟩ : BufTy).Contents (Elt F))
  :: StableHlo.binary main_v87 main_v110 main_v111 (addf : (⟨S2048x128, .f32⟩ : BufTy).Contents (Elt F) → (⟨S2048x128, .f32⟩ : BufTy).Contents (Elt F) → (⟨S2048x128, .f32⟩ : BufTy).Contents (Elt F))
  :: StableHlo.nullary main_cst_34 (constant S_ .f32 0x00000000#32)
  :: StableHlo.unary main_cst_34 main_v112 (broadcastInDim S2048x128 ![] bcast_S_S2048x128 : (⟨S_, .f32⟩ : BufTy).Contents (Elt F) → (⟨S2048x128, .f32⟩ : BufTy).Contents (Elt F))
  :: StableHlo.binary main_v111 main_v112 main_v113 (cmpf .une : (⟨S2048x128, .f32⟩ : BufTy).Contents (Elt F) → (⟨S2048x128, .f32⟩ : BufTy).Contents (Elt F) → (⟨S2048x128, .i1⟩ : BufTy).Contents (Elt F))
  :: StableHlo.unary main_v113 main_v114 (uitofp .f32 : (⟨S2048x128, .i1⟩ : BufTy).Contents (Elt F) → (⟨S2048x128, .f32⟩ : BufTy).Contents (Elt F))
  :: StableHlo.binary main_v68 main_v114 main_v115 (mulf : (⟨S2048x128, .f32⟩ : BufTy).Contents (Elt F) → (⟨S2048x128, .f32⟩ : BufTy).Contents (Elt F) → (⟨S2048x128, .f32⟩ : BufTy).Contents (Elt F))
  :: StableHlo.nullary main_c_35 (constantI S_ 32 0#32)
  :: StableHlo.unary main_c_35 main_v116 (broadcastInDim S2048 ![] bcast_S_S2048 : (⟨S_, .i32⟩ : BufTy).Contents (Elt F) → (⟨S2048, .i32⟩ : BufTy).Contents (Elt F))
  :: StableHlo.binary main_v53 main_v116 main_v117 (cmpi .sgt : (⟨S2048, .i32⟩ : BufTy).Contents (Elt F) → (⟨S2048, .i32⟩ : BufTy).Contents (Elt F) → (⟨S2048, .i1⟩ : BufTy).Contents (Elt F))
  :: StableHlo.unary main_v117 main_v118 (broadcastInDim S2048x1 ![0] bcast_S2048_S2048x1_0 : (⟨S2048, .i1⟩ : BufTy).Contents (Elt F) → (⟨S2048x1, .i1⟩ : BufTy).Contents (Elt F))
  :: [] )

set_option maxHeartbeats 40000000 in
/-- 2 operations of @where_4, window 2. -/
abbrev w2_s3 : List (HloOp τ sig (Elt F)) :=
  [ StableHlo.TRef.unary (.of main_v118 : StableHlo.TRef sig ⟨S2048x1, .i1⟩) (.of main_call9_v0 : StableHlo.TRef sig ⟨S2048x128, .i1⟩) (broadcastInDim S2048x128 ![0, 1] bcast_S2048x1_S2048x128_0_1),
    StableHlo.TRef.ternary (.of main_call9_v0 : StableHlo.TRef sig ⟨S2048x128, .i1⟩) (.of main_v111 : StableHlo.TRef sig ⟨S2048x128, .f32⟩) (.of main_v87 : StableHlo.TRef sig ⟨S2048x128, .f32⟩) (.of main_v119 : StableHlo.TRef sig ⟨S2048x128, .f32⟩) select ]

set_option maxHeartbeats 40000000 in
/-- 2 operations of @where_4, window 2. -/
abbrev w2_s4 : List (HloOp τ sig (Elt F)) :=
  [ StableHlo.TRef.unary (.of main_v118 : StableHlo.TRef sig ⟨S2048x1, .i1⟩) (.of main_call10_v0 : StableHlo.TRef sig ⟨S2048x128, .i1⟩) (broadcastInDim S2048x128 ![0, 1] bcast_S2048x1_S2048x128_0_1),
    StableHlo.TRef.ternary (.of main_call10_v0 : StableHlo.TRef sig ⟨S2048x128, .i1⟩) (.of main_v115 : StableHlo.TRef sig ⟨S2048x128, .f32⟩) (.of main_v88 : StableHlo.TRef sig ⟨S2048x128, .f32⟩) (.of main_v120 : StableHlo.TRef sig ⟨S2048x128, .f32⟩) select ]

set_option maxHeartbeats 40000000 in
/-- 21 operations of @main, window 2. -/
abbrev w2_s5 : List (HloOp τ sig (Elt F)) :=
  ( StableHlo.unary main_v120 main_v121 (fptosi 32 : (⟨S2048x128, .f32⟩ : BufTy).Contents (Elt F) → (⟨S2048x128, .i32⟩ : BufTy).Contents (Elt F))
  :: StableHlo.nullary main_cst_36 (constant S_ .f32 0x00000000#32)
  :: StableHlo.unary main_cst_36 main_v122 (broadcastInDim S2048x30522 ![] bcast_S_S2048x30522 : (⟨S_, .f32⟩ : BufTy).Contents (Elt F) → (⟨S2048x30522, .f32⟩ : BufTy).Contents (Elt F))
  :: StableHlo.unary main_v54 main_v123 (broadcastInDim S2048x1 ![0] bcast_S2048_S2048x1_0 : (⟨S2048, .i32⟩ : BufTy).Contents (Elt F) → (⟨S2048x1, .i32⟩ : BufTy).Contents (Elt F))
  :: StableHlo.nullary main_c_37 (constantI S_ 32 0#32)
  :: StableHlo.unary main_c_37 main_v124 (broadcastInDim S2048x1 ![] bcast_S_S2048x1 : (⟨S_, .i32⟩ : BufTy).Contents (Elt F) → (⟨S2048x1, .i32⟩ : BufTy).Contents (Elt F))
  :: StableHlo.binary main_v123 main_v124 main_v125 (cmpi .slt : (⟨S2048x1, .i32⟩ : BufTy).Contents (Elt F) → (⟨S2048x1, .i32⟩ : BufTy).Contents (Elt F) → (⟨S2048x1, .i1⟩ : BufTy).Contents (Elt F))
  :: StableHlo.nullary main_c_38 (constantI S_ 32 2048#32)
  :: StableHlo.unary main_c_38 main_v126 (broadcastInDim S2048x1 ![] bcast_S_S2048x1 : (⟨S_, .i32⟩ : BufTy).Contents (Elt F) → (⟨S2048x1, .i32⟩ : BufTy).Contents (Elt F))
  :: StableHlo.binary main_v123 main_v126 main_v127 (addi : (⟨S2048x1, .i32⟩ : BufTy).Contents (Elt F) → (⟨S2048x1, .i32⟩ : BufTy).Contents (Elt F) → (⟨S2048x1, .i32⟩ : BufTy).Contents (Elt F))
  :: StableHlo.ternary main_v125 main_v127 main_v123 main_v128 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F))
  :: StableHlo.nullary main_c_39 (constantI S_ 32 0#32)
  :: StableHlo.unary main_c_39 main_v129 (broadcastInDim S2048x128 ![] bcast_S_S2048x128 : (⟨S_, .i32⟩ : BufTy).Contents (Elt F) → (⟨S2048x128, .i32⟩ : BufTy).Contents (Elt F))
  :: StableHlo.binary main_v121 main_v129 main_v130 (cmpi .slt : (⟨S2048x128, .i32⟩ : BufTy).Contents (Elt F) → (⟨S2048x128, .i32⟩ : BufTy).Contents (Elt F) → (⟨S2048x128, .i1⟩ : BufTy).Contents (Elt F))
  :: StableHlo.nullary main_c_40 (constantI S_ 32 30522#32)
  :: StableHlo.unary main_c_40 main_v131 (broadcastInDim S2048x128 ![] bcast_S_S2048x128 : (⟨S_, .i32⟩ : BufTy).Contents (Elt F) → (⟨S2048x128, .i32⟩ : BufTy).Contents (Elt F))
  :: StableHlo.binary main_v121 main_v131 main_v132 (addi : (⟨S2048x128, .i32⟩ : BufTy).Contents (Elt F) → (⟨S2048x128, .i32⟩ : BufTy).Contents (Elt F) → (⟨S2048x128, .i32⟩ : BufTy).Contents (Elt F))
  :: StableHlo.ternary main_v130 main_v132 main_v121 main_v133 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F))
  :: StableHlo.unary main_v128 main_v134 (broadcastInDim S2048x128 ![0, 1] bcast_S2048x1_S2048x128_0_1 : (⟨S2048x1, .i32⟩ : BufTy).Contents (Elt F) → (⟨S2048x128, .i32⟩ : BufTy).Contents (Elt F))
  :: StableHlo.unary main_v134 main_v135 (broadcastInDim S2048x128x1 ![0, 1] bcast_S2048x128_S2048x128x1_0_1 : (⟨S2048x128, .i32⟩ : BufTy).Contents (Elt F) → (⟨S2048x128x1, .i32⟩ : BufTy).Contents (Elt F))
  :: StableHlo.unary main_v133 main_v136 (broadcastInDim S2048x128x1 ![0, 1] bcast_S2048x128_S2048x128x1_0_1 : (⟨S2048x128, .i32⟩ : BufTy).Contents (Elt F) → (⟨S2048x128x1, .i32⟩ : BufTy).Contents (Elt F))
  :: [] )

set_option maxHeartbeats 40000000 in
/-- 19 operations of @main, window 3. -/
abbrev w3_s0 : List (HloOp τ sig (Elt F)) :=
  ( StableHlo.binary main_v135 main_v136 main_v137 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F))
  :: StableHlo.ternary main_v122 main_v137 main_v119 main_v138 ((fun x i u => Host.scatterAdd scatter_S2048x30522_S2048x128x2_S2048x128_n_01_01_2 x i u) : (⟨S2048x30522, .f32⟩ : BufTy).Contents (Elt F) → (⟨S2048x128x2, .i32⟩ : BufTy).Contents (Elt F) → (⟨S2048x128, .f32⟩ : BufTy).Contents (Elt F) → (⟨S2048x30522, .f32⟩ : BufTy).Contents (Elt F))
  :: StableHlo.unary main_v0 main_v139 (Host.exp : (⟨S2048x30522, .f32⟩ : BufTy).Contents (Elt F) → (⟨S2048x30522, .f32⟩ : BufTy).Contents (Elt F))
  :: StableHlo.nullary main_cst_41 (constant S_ .f32 0x3F800000#32)
  :: StableHlo.unary main_cst_41 main_v140 (broadcastInDim S2048x30522 ![] bcast_S_S2048x30522 : (⟨S_, .f32⟩ : BufTy).Contents (Elt F) → (⟨S2048x30522, .f32⟩ : BufTy).Contents (Elt F))
  :: StableHlo.binary main_v140 main_v139 main_v141 (subf : (⟨S2048x30522, .f32⟩ : BufTy).Contents (Elt F) → (⟨S2048x30522, .f32⟩ : BufTy).Contents (Elt F) → (⟨S2048x30522, .f32⟩ : BufTy).Contents (Elt F))
  :: StableHlo.nullary main_cst_42 (constant S_ .f32 0x3727C5AC#32)
  :: StableHlo.unary main_cst_42 main_v142 (broadcastInDim S2048x30522 ![] bcast_S_S2048x30522 : (⟨S_, .f32⟩ : BufTy).Contents (Elt F) → (⟨S2048x30522, .f32⟩ : BufTy).Contents (Elt F))
  :: StableHlo.binary main_v141 main_v142 main_v143 (maximumf : (⟨S2048x30522, .f32⟩ : BufTy).Contents (Elt F) → (⟨S2048x30522, .f32⟩ : BufTy).Contents (Elt F) → (⟨S2048x30522, .f32⟩ : BufTy).Contents (Elt F))
  :: StableHlo.unary main_v143 main_v144 (Host.log : (⟨S2048x30522, .f32⟩ : BufTy).Contents (Elt F) → (⟨S2048x30522, .f32⟩ : BufTy).Contents (Elt F))
  :: StableHlo.unary main_v144 main_v145 (Host.negf : (⟨S2048x30522, .f32⟩ : BufTy).Contents (Elt F) → (⟨S2048x30522, .f32⟩ : BufTy).Contents (Elt F))
  :: StableHlo.binary main_v145 main_v138 main_v146 (mulf : (⟨S2048x30522, .f32⟩ : BufTy).Contents (Elt F) → (⟨S2048x30522, .f32⟩ : BufTy).Contents (Elt F) → (⟨S2048x30522, .f32⟩ : BufTy).Contents (Elt F))
  :: StableHlo.nullary main_cst_43 (constant S_ .f32 0x00000000#32)
  :: StableHlo.binary main_v146 main_cst_43 main_v147 ((fun x v => Host.reduceAdd x v reducesTo_S2048x30522_S_d0_1 h_S_) : (⟨S2048x30522, .f32⟩ : BufTy).Contents (Elt F) → (⟨S_, .f32⟩ : BufTy).Contents (Elt F) → (⟨S_, .f32⟩ : BufTy).Contents (Elt F))
  :: StableHlo.nullary main_cst_44 (constant S_ .f32 0x45000000#32)
  :: StableHlo.binary main_v147 main_cst_44 main_v148 (Host.divf : (⟨S_, .f32⟩ : BufTy).Contents (Elt F) → (⟨S_, .f32⟩ : BufTy).Contents (Elt F) → (⟨S_, .f32⟩ : BufTy).Contents (Elt F))
  :: StableHlo.nullary main_cst_45 (constant S_ .f32 0x3F800000#32)
  :: StableHlo.binary main_cst_45 main_v148 main_v149 (mulf : (⟨S_, .f32⟩ : BufTy).Contents (Elt F) → (⟨S_, .f32⟩ : BufTy).Contents (Elt F) → (⟨S_, .f32⟩ : BufTy).Contents (Elt F))
  :: StableHlo.binary main_v33 main_v149 main_v150 (addf : (⟨S_, .f32⟩ : BufTy).Contents (Elt F) → (⟨S_, .f32⟩ : BufTy).Contents (Elt F) → (⟨S_, .f32⟩ : BufTy).Contents (Elt F))
  :: [] )

set_option maxHeartbeats 40000000 in
theorem main_part0_chain (c : Dev nD) : main_part0 (F := F) c = (Pipeline.chainK
  [ StableHlo.seq w0_s0,
    StableHlo.seq w0_s1,
    StableHlo.seq w0_s2,
    StableHlo.seq w0_s3,
    StableHlo.seq w0_s4 ]
  (StableHlo.seq w0_s5) : Prog (TpuEff nD τ sig (Elt F) (Pipeline.Sig Λ₀ (Fin 0) fun p => (pcfgs (F := F) p).Adm) .tc) PUnit) := by
  chain_rfl

set_option maxHeartbeats 40000000 in
theorem main_part1_chain (c : Dev nD) : main_part1 (F := F) c = (Pipeline.chainK
  [ StableHlo.seq w1_s0,
    StableHlo.seq w1_s1,
    StableHlo.seq w1_s2,
    StableHlo.seq w1_s3,
    StableHlo.seq w1_s4,
    StableHlo.seq w1_s5,
    StableHlo.seq w1_s6,
    StableHlo.seq w1_s7,
    StableHlo.seq w1_s8,
    StableHlo.seq w1_s9 ]
  (StableHlo.seq w1_s10) : Prog (TpuEff nD τ sig (Elt F) (Pipeline.Sig Λ₀ (Fin 0) fun p => (pcfgs (F := F) p).Adm) .tc) PUnit) := by
  chain_rfl

set_option maxHeartbeats 40000000 in
theorem main_part2_chain (c : Dev nD) : main_part2 (F := F) c = (Pipeline.chainK
  [ StableHlo.seq w2_s0,
    StableHlo.seq w2_s1,
    StableHlo.seq w2_s2,
    StableHlo.seq w2_s3,
    StableHlo.seq w2_s4 ]
  (StableHlo.seq w2_s5) : Prog (TpuEff nD τ sig (Elt F) (Pipeline.Sig Λ₀ (Fin 0) fun p => (pcfgs (F := F) p).Adm) .tc) PUnit) := by
  chain_rfl

set_option maxHeartbeats 40000000 in
theorem main_part3_chain (c : Dev nD) : main_part3 (F := F) c = (Pipeline.chain
  [ StableHlo.seq w3_s0 ] : Prog (TpuEff nD τ sig (Elt F) (Pipeline.Sig Λ₀ (Fin 0) fun p => (pcfgs (F := F) p).Adm) .tc) PUnit) := by
  chain_rfl

/-- The stretches of all four windows, in order. -/
abbrev stretches : List (List (HloOp τ sig (Elt F))) :=
  [ w0_s0, w0_s1, w0_s2, w0_s3, w0_s4, w0_s5, w1_s0, w1_s1, w1_s2, w1_s3, w1_s4, w1_s5, w1_s6, w1_s7, w1_s8, w1_s9, w1_s10, w2_s0, w2_s1, w2_s2, w2_s3, w2_s4, w2_s5, w3_s0 ]

set_option maxHeartbeats 40000000 in
/-- @main is the chain of its windows' stretches. -/
theorem main_chain (c : Dev nD) : main (F := F) c = (Pipeline.chain
  [ StableHlo.seq w0_s0,
    StableHlo.seq w0_s1,
    StableHlo.seq w0_s2,
    StableHlo.seq w0_s3,
    StableHlo.seq w0_s4,
    StableHlo.seq w0_s5,
    StableHlo.seq w1_s0,
    StableHlo.seq w1_s1,
    StableHlo.seq w1_s2,
    StableHlo.seq w1_s3,
    StableHlo.seq w1_s4,
    StableHlo.seq w1_s5,
    StableHlo.seq w1_s6,
    StableHlo.seq w1_s7,
    StableHlo.seq w1_s8,
    StableHlo.seq w1_s9,
    StableHlo.seq w1_s10,
    StableHlo.seq w2_s0,
    StableHlo.seq w2_s1,
    StableHlo.seq w2_s2,
    StableHlo.seq w2_s3,
    StableHlo.seq w2_s4,
    StableHlo.seq w2_s5,
    StableHlo.seq w3_s0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain,
    main_part0_chain, Pipeline.chainK_bind_chain]
  chain_rfl

/-! ## From the chain of stretches to one line -/

/-- A chain of lines is the line of their concatenation. -/
theorem chain_seq {nD : Nat} {τ : Topo} {sig : RefSig} {Val : EltTy → Type} {Λ : Labels}
    (ls : List (List (HloOp τ sig Val))) :
    Pipeline.chain (ls.map fun l => (StableHlo.seq l : Prog (TpuEff nD τ sig Val Λ .tc) PUnit)) = StableHlo.seq ls.flatten := by
  induction ls with
  | nil => rfl
  | cons l ls ih => simp only [List.map_cons, Pipeline.chain_cons, List.flatten_cons, StableHlo.seq_append, ih]

set_option maxHeartbeats 40000000 in
/-- The stretches, concatenated, are the segments, concatenated: the same operations in the same order. -/
theorem stretches_flatten : (stretches : List (List (HloOp τ sig (Elt F)))).flatten = ops := by
  chain_rfl

set_option maxHeartbeats 40000000 in
/-- @main is the straight line of `ops`. -/
theorem main_eq (c : Dev nD) : main (F := F) c = StableHlo.seq ops := by
  rw [main_chain c]
  exact (chain_seq (stretches (F := F))).trans (congrArg _ stretches_flatten)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  (List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨seg_ls_sub, seg_td_sub⟩), seg_w_sub⟩), seg_mle_sub⟩), seg_att_sub⟩), seg_nz_sub⟩), seg_g_sub⟩), seg_mid_sub⟩), seg_chain_sub⟩), seg_idx_sub⟩), seg_sa_sub⟩), seg_ul_sub⟩), seg_fin_sub⟩)

/-- Every operation determines its results. -/
theorem ops_fresh : (ops : List (HloOp τ sig (Elt F))).Forall fun op => op.fresh = ∅ :=
  (List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨(List.forall_append.2 ⟨seg_ls_fresh, seg_td_fresh⟩), seg_w_fresh⟩), seg_mle_fresh⟩), seg_att_fresh⟩), seg_nz_fresh⟩), seg_g_fresh⟩), seg_mid_fresh⟩), seg_chain_fresh⟩), seg_idx_fresh⟩), seg_sa_fresh⟩), seg_ul_fresh⟩), seg_fin_fresh⟩)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ
    (fun _ => List.forall_iff_forall_mem.1 ops_fresh)

/-- The fold over two lines in a row is the second's fold of the first's. -/
theorem after_append_lines {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by rw [List.cons_append, StableHlo.after_cons, StableHlo.after_cons, after_append_lines l₁ l₂]

/-- The fold over all the operations is the segments' folds, one after the other. -/
theorem after_ops (V : Valuation τ sig (Elt F)) :
    StableHlo.after ops V
      = StableHlo.after seg_fin (StableHlo.after seg_ul (StableHlo.after seg_sa (StableHlo.after seg_idx (StableHlo.after seg_chain (StableHlo.after seg_mid (StableHlo.after seg_g (StableHlo.after seg_nz (StableHlo.after seg_att (StableHlo.after seg_mle (StableHlo.after seg_w (StableHlo.after seg_td (StableHlo.after seg_ls V)))))))))))) := by
  simp only [ops, after_append_lines]

end Cert.ReferenceIdeal.Hand

end
-- ==== Proof.RefFrame.lean ====
import proofs.«425233_j52278341926994_2_alg».proof.Proof.RefRun

/-!
# The reference program writes none of its arguments

No line of the reference writes an argument buffer, so after the whole run each argument holds what it held at launch.
-/

set_option maxRecDepth 16384

noncomputable section

namespace Cert.ReferenceIdeal.Frame

open Cert.ReferenceIdeal Cert.ReferenceIdeal.Gen Cert.ReferenceIdeal.Hand Idealize.ShloMosaic Idealize.ShloMosaic.TcCoe Idealize.ShloMosaic.StableHlo

variable {F : FTy → Type} [FloatOps F] (Vr : Valuation τ sig (Elt F))

set_option maxHeartbeats 40000000 in
theorem arg0_kept : after (Hand.ops (F := F)) Vr (Proc.devRef .tc main_arg0) = Vr (Proc.devRef .tc main_arg0) := by
  rw [Hand.after_ops]
  after_results_simp

set_option maxHeartbeats 40000000 in
theorem arg1_kept : after (Hand.ops (F := F)) Vr (Proc.devRef .tc main_arg1) = Vr (Proc.devRef .tc main_arg1) := by
  rw [Hand.after_ops]
  after_results_simp

set_option maxHeartbeats 40000000 in
theorem arg2_kept : after (Hand.ops (F := F)) Vr (Proc.devRef .tc main_arg2) = Vr (Proc.devRef .tc main_arg2) := by
  rw [Hand.after_ops]
  after_results_simp

set_option maxHeartbeats 40000000 in
theorem arg3_kept : after (Hand.ops (F := F)) Vr (Proc.devRef .tc main_arg3) = Vr (Proc.devRef .tc main_arg3) := by
  rw [Hand.after_ops]
  after_results_simp

set_option maxHeartbeats 40000000 in
theorem arg4_kept : after (Hand.ops (F := F)) Vr (Proc.devRef .tc main_arg4) = Vr (Proc.devRef .tc main_arg4) := by
  rw [Hand.after_ops]
  after_results_simp

set_option maxHeartbeats 40000000 in
theorem arg5_kept : after (Hand.ops (F := F)) Vr (Proc.devRef .tc main_arg5) = Vr (Proc.devRef .tc main_arg5) := by
  rw [Hand.after_ops]
  after_results_simp

end Cert.ReferenceIdeal.Frame

end
-- ==== Proof.KernelTail.lean ====
import proofs.«425233_j52278341926994_2_alg».proof.Proof.Gen.KernelIdeal.Frame
import Idealize.ShloMosaic.Lib.StableHlo.Run

/-!
# The kernel program's host lines after the region, in four stretches

After the region the program sums the per-row losses and the gathered weights and divides (the likelihood term), builds the
index pairs (row, candidate column), gathers the logits there and sums the penalties (the unlikelihood term), and adds the
two. Each stretch's result is read as a term over the contents the stretch starts from.
-/

set_option maxRecDepth 16384

noncomputable section

namespace Cert.KernelIdeal.Tail

open Idealize.ShloMosaic Idealize.ShloMosaic.TcCoe Idealize.ShloMosaic.StableHlo Cert.KernelIdeal Cert.KernelIdeal.Gen

variable {F : FTy → Type} [FloatOps F] [Named F]

/-- The likelihood term: the two sums and their quotient. -/
abbrev T1 : List (HloOp τ sig (Elt F)) :=
  [ StableHlo.nullary main_cst_27 (constant S_ .f32 0x00000000#32),
    StableHlo.binary main_v97 main_cst_27 main_v101 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_28 (constant S_ .f32 0x00000000#32),
    StableHlo.binary main_v100_0 main_cst_28 main_v102 ((fun x v => Host.reduceAdd x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v102 main_v101 main_v103 (Host.divf : (⟨S_, .f32⟩ : BufTy).Contents (Elt F) → (⟨S_, .f32⟩ : BufTy).Contents (Elt F) → (⟨S_, .f32⟩ : BufTy).Contents (Elt F)) ]

/-- The index pairs (row, candidate column). -/
abbrev T2 : List (HloOp τ sig (Elt F)) :=
  [ StableHlo.nullary main_v104 (iotaInDim S2048 32 0),
    StableHlo.unary main_v104 main_v105 (broadcastInDim S2048x1 ![0] bcast_S2048_S2048x1_0 : (⟨S2048, .i32⟩ : BufTy).Contents (Elt F) → (⟨S2048x1, .i32⟩ : BufTy).Contents (Elt F)),
    StableHlo.nullary main_c_29 (constantI S_ 32 0#32),
    StableHlo.unary main_c_29 main_v106 (broadcastInDim S2048x1 ![] bcast_S_S2048x1 : (⟨S_, .i32⟩ : BufTy).Contents (Elt F) → (⟨S2048x1, .i32⟩ : BufTy).Contents (Elt F)),
    StableHlo.binary main_v105 main_v106 main_v107 (cmpi .slt : (⟨S2048x1, .i32⟩ : BufTy).Contents (Elt F) → (⟨S2048x1, .i32⟩ : BufTy).Contents (Elt F) → (⟨S2048x1, .i1⟩ : BufTy).Contents (Elt F)),
    StableHlo.nullary main_c_30 (constantI S_ 32 2048#32),
    StableHlo.unary main_c_30 main_v108 (broadcastInDim S2048x1 ![] bcast_S_S2048x1 : (⟨S_, .i32⟩ : BufTy).Contents (Elt F) → (⟨S2048x1, .i32⟩ : BufTy).Contents (Elt F)),
    StableHlo.binary main_v105 main_v108 main_v109 (addi : (⟨S2048x1, .i32⟩ : BufTy).Contents (Elt F) → (⟨S2048x1, .i32⟩ : BufTy).Contents (Elt F) → (⟨S2048x1, .i32⟩ : BufTy).Contents (Elt F)),
    StableHlo.ternary main_v107 main_v109 main_v105 main_v110 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    StableHlo.nullary main_c_31 (constantI S_ 32 0#32),
    StableHlo.unary main_c_31 main_v111 (broadcastInDim S2048x128 ![] bcast_S_S2048x128 : (⟨S_, .i32⟩ : BufTy).Contents (Elt F) → (⟨S2048x128, .i32⟩ : BufTy).Contents (Elt F)),
    StableHlo.binary main_v90 main_v111 main_v112 (cmpi .slt : (⟨S2048x128, .i32⟩ : BufTy).Contents (Elt F) → (⟨S2048x128, .i32⟩ : BufTy).Contents (Elt F) → (⟨S2048x128, .i1⟩ : BufTy).Contents (Elt F)),
    StableHlo.nullary main_c_32 (constantI S_ 32 30522#32),
    StableHlo.unary main_c_32 main_v113 (broadcastInDim S2048x128 ![] bcast_S_S2048x128 : (⟨S_, .i32⟩ : BufTy).Contents (Elt F) → (⟨S2048x128, .i32⟩ : BufTy).Contents (Elt F)),
    StableHlo.binary main_v90 main_v113 main_v114 (addi : (⟨S2048x128, .i32⟩ : BufTy).Contents (Elt F) → (⟨S2048x128, .i32⟩ : BufTy).Contents (Elt F) → (⟨S2048x128, .i32⟩ : BufTy).Contents (Elt F)),
    StableHlo.ternary main_v112 main_v114 main_v90 main_v115 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F)),
    StableHlo.unary main_v110 main_v116 (broadcastInDim S2048x128 ![0, 1] bcast_S2048x1_S2048x128_0_1 : (⟨S2048x1, .i32⟩ : BufTy).Contents (Elt F) → (⟨S2048x128, .i32⟩ : BufTy).Contents (Elt F)),
    StableHlo.unary main_v116 main_v117 (broadcastInDim S2048x128x1 ![0, 1] bcast_S2048x128_S2048x128x1_0_1 : (⟨S2048x128, .i32⟩ : BufTy).Contents (Elt F) → (⟨S2048x128x1, .i32⟩ : BufTy).Contents (Elt F)),
    StableHlo.unary main_v115 main_v118 (broadcastInDim S2048x128x1 ![0, 1] bcast_S2048x128_S2048x128x1_0_1 : (⟨S2048x128, .i32⟩ : BufTy).Contents (Elt F) → (⟨S2048x128x1, .i32⟩ : BufTy).Contents (Elt F)),
    StableHlo.binary main_v117 main_v118 main_v119 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F)) ]

/-- The unlikelihood term: the gathered logits, the penalties, their sum over all pairs, divided by the number of rows. -/
abbrev T3 : List (HloOp τ sig (Elt F)) :=
  [ StableHlo.binary main_arg0 main_v119 main_v120 ((fun x i => Host.gather gather_S2048x30522_S2048x128x2_S2048x128_n_01_n_n_01_2_11 x i) : (⟨S2048x30522, .f32⟩ : BufTy).Contents (Elt F) → (⟨S2048x128x2, .i32⟩ : BufTy).Contents (Elt F) → (⟨S2048x128, .f32⟩ : BufTy).Contents (Elt F)),
    StableHlo.unary main_v100_1 main_v121 (broadcastInDim S2048x128 ![0, 1] bcast_S2048x1_S2048x128_0_1 : (⟨S2048x1, .f32⟩ : BufTy).Contents (Elt F) → (⟨S2048x128, .f32⟩ : BufTy).Contents (Elt F)),
    StableHlo.binary main_v120 main_v121 main_v122 (subf : (⟨S2048x128, .f32⟩ : BufTy).Contents (Elt F) → (⟨S2048x128, .f32⟩ : BufTy).Contents (Elt F) → (⟨S2048x128, .f32⟩ : BufTy).Contents (Elt F)),
    StableHlo.unary main_v122 main_v123 (Host.exp : (⟨S2048x128, .f32⟩ : BufTy).Contents (Elt F) → (⟨S2048x128, .f32⟩ : BufTy).Contents (Elt F)),
    StableHlo.nullary main_cst_33 (constant S_ .f32 0x3F800000#32),
    StableHlo.unary main_cst_33 main_v124 (broadcastInDim S2048x128 ![] bcast_S_S2048x128 : (⟨S_, .f32⟩ : BufTy).Contents (Elt F) → (⟨S2048x128, .f32⟩ : BufTy).Contents (Elt F)),
    StableHlo.binary main_v124 main_v123 main_v125 (subf : (⟨S2048x128, .f32⟩ : BufTy).Contents (Elt F) → (⟨S2048x128, .f32⟩ : BufTy).Contents (Elt F) → (⟨S2048x128, .f32⟩ : BufTy).Contents (Elt F)),
    StableHlo.nullary main_cst_34 (constant S_ .f32 0x3727C5AC#32),
    StableHlo.unary main_cst_34 main_v126 (broadcastInDim S2048x128 ![] bcast_S_S2048x128 : (⟨S_, .f32⟩ : BufTy).Contents (Elt F) → (⟨S2048x128, .f32⟩ : BufTy).Contents (Elt F)),
    StableHlo.binary main_v125 main_v126 main_v127 (maximumf : (⟨S2048x128, .f32⟩ : BufTy).Contents (Elt F) → (⟨S2048x128, .f32⟩ : BufTy).Contents (Elt F) → (⟨S2048x128, .f32⟩ : BufTy).Contents (Elt F)),
    StableHlo.unary main_v127 main_v128 (Host.log : (⟨S2048x128, .f32⟩ : BufTy).Contents (Elt F) → (⟨S2048x128, .f32⟩ : BufTy).Contents (Elt F)),
    StableHlo.unary main_v128 main_v129 (Host.negf : (⟨S2048x128, .f32⟩ : BufTy).Contents (Elt F) → (⟨S2048x128, .f32⟩ : BufTy).Contents (Elt F)),
    StableHlo.binary main_v129 main_v88 main_v130 (mulf : (⟨S2048x128, .f32⟩ : BufTy).Contents (Elt F) → (⟨S2048x128, .f32⟩ : BufTy).Contents (Elt F) → (⟨S2048x128, .f32⟩ : BufTy).Contents (Elt F)),
    StableHlo.nullary main_cst_35 (constant S_ .f32 0x00000000#32),
    StableHlo.binary main_v130 main_cst_35 main_v131 ((fun x v => Host.reduceAdd x v reducesTo_S2048x128_S_d0_1 h_S_) : (⟨S2048x128, .f32⟩ : BufTy).Contents (Elt F) → (⟨S_, .f32⟩ : BufTy).Contents (Elt F) → (⟨S_, .f32⟩ : BufTy).Contents (Elt F)),
    StableHlo.nullary main_cst_36 (constant S_ .f32 0x45000000#32),
    StableHlo.binary main_v131 main_cst_36 main_v132 (Host.divf : (⟨S_, .f32⟩ : BufTy).Contents (Elt F) → (⟨S_, .f32⟩ : BufTy).Contents (Elt F) → (⟨S_, .f32⟩ : BufTy).Contents (Elt F)) ]

/-- The total. -/
abbrev T4 : List (HloOp τ sig (Elt F)) :=
  [ StableHlo.nullary main_cst_37 (constant S_ .f32 0x3F800000#32),
    StableHlo.binary main_cst_37 main_v132 main_v133 (mulf : (⟨S_, .f32⟩ : BufTy).Contents (Elt F) → (⟨S_, .f32⟩ : BufTy).Contents (Elt F) → (⟨S_, .f32⟩ : BufTy).Contents (Elt F)),
    StableHlo.binary main_v103 main_v133 main_v134 (addf : (⟨S_, .f32⟩ : BufTy).Contents (Elt F) → (⟨S_, .f32⟩ : BufTy).Contents (Elt F) → (⟨S_, .f32⟩ : BufTy).Contents (Elt F)) ]

set_option maxHeartbeats 4000000 in
theorem hostOps1_eq : (hostOps1 : List (HloOp τ sig (Elt F))) = T1 ++ (T2 ++ (T3 ++ T4)) := rfl

/-! ## What the stretches compute -/

/-- The kernel side's unlikelihood term as a function of the logits, the index pairs, the rows' log-sum-exp and the
    candidates' weights: gather, subtract the row's log-sum-exp, `-log (max (1 - exp ·) ε)`, weight, sum, divide by 2048. -/
def ulK (x : FVec F S2048x30522 .f32) (idx : IVec S2048x128x2 32) (lse : FVec F S2048x1 .f32) (nwf : FVec F S2048x128 .f32) :
    FVec F S_ .f32 :=
  Host.divf
    (Host.reduceAdd
      (mulf
        (Host.negf (Host.log (maximumf
          (subf (broadcastInDim S2048x128 ![] bcast_S_S2048x128 (constant S_ .f32 0x3F800000#32))
            (Host.exp (subf (Host.gather gather_S2048x30522_S2048x128x2_S2048x128_n_01_n_n_01_2_11 x idx)
              (broadcastInDim S2048x128 ![0, 1] bcast_S2048x1_S2048x128_0_1 lse))))
          (broadcastInDim S2048x128 ![] bcast_S_S2048x128 (constant S_ .f32 0x3727C5AC#32)))))
        nwf)
      (constant S_ .f32 0x00000000#32) reducesTo_S2048x128_S_d0_1 h_S_)
    (constant S_ .f32 0x45000000#32)

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

variable (W : Valuation τ sig (Elt F))

set_option maxHeartbeats 4000000 in
/-- The likelihood term: the sum of the region's per-row losses over the sum of the gathered class weights. -/
theorem v103_eq : after (hostOps1 (F := F)) W (Proc.devRef .tc main_v103)
    = Host.divf (Host.reduceAdd (W (Proc.devRef .tc main_v100_0)) (constant S_ .f32 0x00000000#32) reducesTo_S2048x1_S_d0_1 h_S_)
        (Host.reduceAdd (W (Proc.devRef .tc main_v97)) (constant S_ .f32 0x00000000#32) reducesTo_S2048_S_d0 h_S_) := by
  after_results_simp

set_option maxHeartbeats 4000000 in
/-- The unlikelihood term, over the contents the index stretch leaves. -/
theorem v132_eq : after (hostOps1 (F := F)) W (Proc.devRef .tc main_v132)
    = ulK (W (Proc.devRef .tc main_arg0)) (after T2 (after T1 W) (Proc.devRef .tc main_v119))
        (W (Proc.devRef .tc main_v100_1)) (W (Proc.devRef .tc main_v88)) := by
  rw [hostOps1_eq, after_append, after_append, after_append]
  have e0 : after T2 (after T1 W) (Proc.devRef .tc main_arg0) = W (Proc.devRef .tc main_arg0) := by after_results_simp
  have e1 : after T2 (after T1 W) (Proc.devRef .tc main_v100_1) = W (Proc.devRef .tc main_v100_1) := by after_results_simp
  have e2 : after T2 (after T1 W) (Proc.devRef .tc main_v88) = W (Proc.devRef .tc main_v88) := by after_results_simp
  rw [← e0, ← e1, ← e2]
  generalize after T2 (after T1 W) = W2
  after_results_simp
  rfl

set_option maxHeartbeats 4000000 in
theorem hostOps1_eq' : (hostOps1 : List (HloOp τ sig (Elt F))) = (T1 ++ T2 ++ T3) ++ T4 := rfl

set_option maxHeartbeats 4000000 in
/-- The total: the likelihood term plus one times the unlikelihood term. -/
theorem v134_eq : after (hostOps1 (F := F)) W (Proc.devRef .tc main_v134)
    = addf (after (hostOps1 (F := F)) W (Proc.devRef .tc main_v103))
        (mulf (constant S_ .f32 0x3F800000#32) (after (hostOps1 (F := F)) W (Proc.devRef .tc main_v132))) := by
  have h103 : after (hostOps1 (F := F)) W (Proc.devRef .tc main_v103) = after (T1 ++ T2 ++ T3) W (Proc.devRef .tc main_v103) := by
    rw [hostOps1_eq', after_append]
    generalize after (T1 ++ T2 ++ T3) W = W3
    after_results_simp
  have h132 : after (hostOps1 (F := F)) W (Proc.devRef .tc main_v132) = after (T1 ++ T2 ++ T3) W (Proc.devRef .tc main_v132) := by
    rw [hostOps1_eq', after_append]
    generalize after (T1 ++ T2 ++ T3) W = W3
    after_results_simp
  rw [h103, h132, hostOps1_eq', after_append]
  generalize after (T1 ++ T2 ++ T3) W = W3
  after_results_simp

/-! ## The index pairs as a term -/

/-- The index stretch without its last line (the concatenate). -/
abbrev T2a : List (HloOp τ sig (Elt F)) :=
  [ StableHlo.nullary main_v104 (iotaInDim S2048 32 0),
    StableHlo.unary main_v104 main_v105 (broadcastInDim S2048x1 ![0] bcast_S2048_S2048x1_0 : (⟨S2048, .i32⟩ : BufTy).Contents (Elt F) → (⟨S2048x1, .i32⟩ : BufTy).Contents (Elt F)),
    StableHlo.nullary main_c_29 (constantI S_ 32 0#32),
    StableHlo.unary main_c_29 main_v106 (broadcastInDim S2048x1 ![] bcast_S_S2048x1 : (⟨S_, .i32⟩ : BufTy).Contents (Elt F) → (⟨S2048x1, .i32⟩ : BufTy).Contents (Elt F)),
    StableHlo.binary main_v105 main_v106 main_v107 (cmpi .slt : (⟨S2048x1, .i32⟩ : BufTy).Contents (Elt F) → (⟨S2048x1, .i32⟩ : BufTy).Contents (Elt F) → (⟨S2048x1, .i1⟩ : BufTy).Contents (Elt F)),
    StableHlo.nullary main_c_30 (constantI S_ 32 2048#32),
    StableHlo.unary main_c_30 main_v108 (broadcastInDim S2048x1 ![] bcast_S_S2048x1 : (⟨S_, .i32⟩ : BufTy).Contents (Elt F) → (⟨S2048x1, .i32⟩ : BufTy).Contents (Elt F)),
    StableHlo.binary main_v105 main_v108 main_v109 (addi : (⟨S2048x1, .i32⟩ : BufTy).Contents (Elt F) → (⟨S2048x1, .i32⟩ : BufTy).Contents (Elt F) → (⟨S2048x1, .i32⟩ : BufTy).Contents (Elt F)),
    StableHlo.ternary main_v107 main_v109 main_v105 main_v110 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    StableHlo.nullary main_c_31 (constantI S_ 32 0#32),
    StableHlo.unary main_c_31 main_v111 (broadcastInDim S2048x128 ![] bcast_S_S2048x128 : (⟨S_, .i32⟩ : BufTy).Contents (Elt F) → (⟨S2048x128, .i32⟩ : BufTy).Contents (Elt F)),
    StableHlo.binary main_v90 main_v111 main_v112 (cmpi .slt : (⟨S2048x128, .i32⟩ : BufTy).Contents (Elt F) → (⟨S2048x128, .i32⟩ : BufTy).Contents (Elt F) → (⟨S2048x128, .i1⟩ : BufTy).Contents (Elt F)),
    StableHlo.nullary main_c_32 (constantI S_ 32 30522#32),
    StableHlo.unary main_c_32 main_v113 (broadcastInDim S2048x128 ![] bcast_S_S2048x128 : (⟨S_, .i32⟩ : BufTy).Contents (Elt F) → (⟨S2048x128, .i32⟩ : BufTy).Contents (Elt F)),
    StableHlo.binary main_v90 main_v113 main_v114 (addi : (⟨S2048x128, .i32⟩ : BufTy).Contents (Elt F) → (⟨S2048x128, .i32⟩ : BufTy).Contents (Elt F) → (⟨S2048x128, .i32⟩ : BufTy).Contents (Elt F)),
    StableHlo.ternary main_v112 main_v114 main_v90 main_v115 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F)),
    StableHlo.unary main_v110 main_v116 (broadcastInDim S2048x128 ![0, 1] bcast_S2048x1_S2048x128_0_1 : (⟨S2048x1, .i32⟩ : BufTy).Contents (Elt F) → (⟨S2048x128, .i32⟩ : BufTy).Contents (Elt F)),
    StableHlo.unary main_v116 main_v117 (broadcastInDim S2048x128x1 ![0, 1] bcast_S2048x128_S2048x128x1_0_1 : (⟨S2048x128, .i32⟩ : BufTy).Contents (Elt F) → (⟨S2048x128x1, .i32⟩ : BufTy).Contents (Elt F)),
    StableHlo.unary main_v115 main_v118 (broadcastInDim S2048x128x1 ![0, 1] bcast_S2048x128_S2048x128x1_0_1 : (⟨S2048x128, .i32⟩ : BufTy).Contents (Elt F) → (⟨S2048x128x1, .i32⟩ : BufTy).Contents (Elt F)) ]

/-- The concatenate of the row indices and the candidate columns along a new last axis. -/
abbrev T2b : List (HloOp τ sig (Elt F)) :=
  [ StableHlo.binary main_v117 main_v118 main_v119 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F)) ]

set_option maxHeartbeats 4000000 in
theorem T2_eq : (T2 : List (HloOp τ sig (Elt F))) = T2a ++ T2b := rfl

/-- The row half of the index pairs: the row number (an iota, wrapped when negative), repeated along the candidates. -/
def rowPart : IVec S2048x128x1 32 :=
  broadcastInDim S2048x128x1 ![0, 1] bcast_S2048x128_S2048x128x1_0_1
    (broadcastInDim S2048x128 ![0, 1] bcast_S2048x1_S2048x128_0_1
      (select
        (cmpi .slt (broadcastInDim S2048x1 ![0] bcast_S2048_S2048x1_0 (iotaInDim S2048 32 0))
          (broadcastInDim S2048x1 ![] bcast_S_S2048x1 (constantI S_ 32 0#32)))
        (addi (broadcastInDim S2048x1 ![0] bcast_S2048_S2048x1_0 (iotaInDim S2048 32 0))
          (broadcastInDim S2048x1 ![] bcast_S_S2048x1 (constantI S_ 32 2048#32)))
        (broadcastInDim S2048x1 ![0] bcast_S2048_S2048x1_0 (iotaInDim S2048 32 0))))

/-- The column half: the candidate column, wrapped by the class count when negative. -/
def colPart (cand : IVec S2048x128 32) : IVec S2048x128x1 32 :=
  broadcastInDim S2048x128x1 ![0, 1] bcast_S2048x128_S2048x128x1_0_1
    (select
      (cmpi .slt cand (broadcastInDim S2048x128 ![] bcast_S_S2048x128 (constantI S_ 32 0#32)))
      (addi cand (broadcastInDim S2048x128 ![] bcast_S_S2048x128 (constantI S_ 32 30522#32)))
      cand)

/-- The index pairs (row, candidate column): the two halves joined along a new last axis. -/
def idxOf (cand : IVec S2048x128 32) : IVec S2048x128x2 32 :=
  concatenate S2048x128x2 2 [⟨S2048x128x1, rowPart⟩, ⟨S2048x128x1, colPart cand⟩]
    concatenates_S2048x128x1_S2048x128x1_S2048x128x2_d2

set_option maxHeartbeats 4000000 in
/-- What the index stretch leaves in the index buffer. -/
theorem idx_eq : after T2 (after T1 W) (Proc.devRef .tc main_v119) = idxOf (W (Proc.devRef .tc main_v90)) := by
  rw [T2_eq, after_append]
  have e117 : after T2a (after T1 W) (Proc.devRef .tc main_v117) = rowPart := by after_results_simp; rfl
  have e118 : after T2a (after T1 W) (Proc.devRef .tc main_v118) = colPart (W (Proc.devRef .tc main_v90)) := by
    after_results_simp; rfl
  generalize after T2a (after T1 W) = W2 at *
  simp only [T2b, after_cons, after_nil]
  rw [binary_result, e117, e118]
  rfl

end Cert.KernelIdeal.Tail

end
-- ==== Proof.KernelPre.lean ====
import proofs.«425233_j52278341926994_2_alg».proof.Proof.Gen.KernelIdeal.Frame
import Idealize.ShloMosaic.Lib.StableHlo.Run

/-!
# The kernel program's host lines before the region, in stretches

Before the region the program masks the token ids (kept as integers), finds the masked positions (rows, columns),
gathers the mask and the ids of each position's row, compares every id with the row's centre id, and forms the weight
`mask − [id = centre]` and the candidate `id · weight`; after the candidate chain it gathers the class weights at the
targets and reshapes targets and weights to columns for the kernel. Each short stretch is read as a term over the
contents it starts from.
-/

set_option maxRecDepth 16384

noncomputable section

namespace Cert.KernelIdeal.Pre

open Idealize.ShloMosaic Idealize.ShloMosaic.TcCoe Idealize.ShloMosaic.StableHlo Cert.KernelIdeal Cert.KernelIdeal.Gen

variable {F : FTy → Type} [FloatOps F] [Named F]

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The lists -/

/-- The row-index lines: an iota and the rows wrapped twice (one copy per gather), with the gather of the mask. -/
abbrev K18 : List (HloOp τ sig (Elt F)) :=
  [ StableHlo.nullary main_v21 (iotaInDim S2048 32 0),
    StableHlo.nullary main_c_10 (constantI S_ 32 0#32),
    StableHlo.unary main_c_10 main_v22 (broadcastInDim S2048 ![] bcast_S_S2048 : (⟨S_, .i32⟩ : BufTy).Contents (Elt F) → (⟨S2048, .i32⟩ : BufTy).Contents (Elt F)),
    StableHlo.binary main_v18 main_v22 main_v23 (cmpi .slt : (⟨S2048, .i32⟩ : BufTy).Contents (Elt F) → (⟨S2048, .i32⟩ : BufTy).Contents (Elt F) → (⟨S2048, .i1⟩ : BufTy).Contents (Elt F)),
    StableHlo.nullary main_c_11 (constantI S_ 32 64#32),
    StableHlo.unary main_c_11 main_v24 (broadcastInDim S2048 ![] bcast_S_S2048 : (⟨S_, .i32⟩ : BufTy).Contents (Elt F) → (⟨S2048, .i32⟩ : BufTy).Contents (Elt F)),
    StableHlo.binary main_v18 main_v24 main_v25 (addi : (⟨S2048, .i32⟩ : BufTy).Contents (Elt F) → (⟨S2048, .i32⟩ : BufTy).Contents (Elt F) → (⟨S2048, .i32⟩ : BufTy).Contents (Elt F)),
    StableHlo.ternary main_v23 main_v25 main_v18 main_v26 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v26 main_v27 (broadcastInDim S2048x1 ![0] bcast_S2048_S2048x1_0 : (⟨S2048, .i32⟩ : BufTy).Contents (Elt F) → (⟨S2048x1, .i32⟩ : BufTy).Contents (Elt F)),
    StableHlo.binary main_arg3 main_v27 main_v28 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F)),
    StableHlo.nullary main_c_12 (constantI S_ 32 0#32),
    StableHlo.unary main_c_12 main_v29 (broadcastInDim S2048 ![] bcast_S_S2048 : (⟨S_, .i32⟩ : BufTy).Contents (Elt F) → (⟨S2048, .i32⟩ : BufTy).Contents (Elt F)),
    StableHlo.binary main_v18 main_v29 main_v30 (cmpi .slt : (⟨S2048, .i32⟩ : BufTy).Contents (Elt F) → (⟨S2048, .i32⟩ : BufTy).Contents (Elt F) → (⟨S2048, .i1⟩ : BufTy).Contents (Elt F)),
    StableHlo.nullary main_c_13 (constantI S_ 32 64#32),
    StableHlo.unary main_c_13 main_v31 (broadcastInDim S2048 ![] bcast_S_S2048 : (⟨S_, .i32⟩ : BufTy).Contents (Elt F) → (⟨S2048, .i32⟩ : BufTy).Contents (Elt F)),
    StableHlo.binary main_v18 main_v31 main_v32 (addi : (⟨S2048, .i32⟩ : BufTy).Contents (Elt F) → (⟨S2048, .i32⟩ : BufTy).Contents (Elt F) → (⟨S2048, .i32⟩ : BufTy).Contents (Elt F)),
    StableHlo.ternary main_v30 main_v32 main_v18 main_v33 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v33 main_v34 (broadcastInDim S2048x1 ![0] bcast_S2048_S2048x1_0 : (⟨S2048, .i32⟩ : BufTy).Contents (Elt F) → (⟨S2048x1, .i32⟩ : BufTy).Contents (Elt F)) ]

/-- The gather of the masked ids at the rows. -/
abbrev Kg : List (HloOp τ sig (Elt F)) :=
  [ StableHlo.binary main_v2 main_v34 main_v35 ((fun x i => Host.gather gather_S64x128_S2048x1_S2048x128_1_0_n_n_0_1_1128 x i) : (⟨S64x128, .i32⟩ : BufTy).Contents (Elt F) → (⟨S2048x1, .i32⟩ : BufTy).Contents (Elt F) → (⟨S2048x128, .i32⟩ : BufTy).Contents (Elt F)) ]

/-- The two columns of the centre index: the row number and the position's column, each wrapped when negative. -/
abbrev Kc1 : List (HloOp τ sig (Elt F)) :=
  [ StableHlo.nullary main_c_14 (constantI S_ 32 0#32),
    StableHlo.unary main_c_14 main_v36 (broadcastInDim S2048 ![] bcast_S_S2048 : (⟨S_, .i32⟩ : BufTy).Contents (Elt F) → (⟨S2048, .i32⟩ : BufTy).Contents (Elt F)),
    StableHlo.binary main_v21 main_v36 main_v37 (cmpi .slt : (⟨S2048, .i32⟩ : BufTy).Contents (Elt F) → (⟨S2048, .i32⟩ : BufTy).Contents (Elt F) → (⟨S2048, .i1⟩ : BufTy).Contents (Elt F)),
    StableHlo.nullary main_c_15 (constantI S_ 32 2048#32),
    StableHlo.unary main_c_15 main_v38 (broadcastInDim S2048 ![] bcast_S_S2048 : (⟨S_, .i32⟩ : BufTy).Contents (Elt F) → (⟨S2048, .i32⟩ : BufTy).Contents (Elt F)),
    StableHlo.binary main_v21 main_v38 main_v39 (addi : (⟨S2048, .i32⟩ : BufTy).Contents (Elt F) → (⟨S2048, .i32⟩ : BufTy).Contents (Elt F) → (⟨S2048, .i32⟩ : BufTy).Contents (Elt F)),
    StableHlo.ternary main_v37 main_v39 main_v21 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_16 (constantI S_ 32 0#32),
    StableHlo.unary main_c_16 main_v41 (broadcastInDim S2048 ![] bcast_S_S2048 : (⟨S_, .i32⟩ : BufTy).Contents (Elt F) → (⟨S2048, .i32⟩ : BufTy).Contents (Elt F)),
    StableHlo.binary main_v20 main_v41 main_v42 (cmpi .slt : (⟨S2048, .i32⟩ : BufTy).Contents (Elt F) → (⟨S2048, .i32⟩ : BufTy).Contents (Elt F) → (⟨S2048, .i1⟩ : BufTy).Contents (Elt F)),
    StableHlo.nullary main_c_17 (constantI S_ 32 128#32),
    StableHlo.unary main_c_17 main_v43 (broadcastInDim S2048 ![] bcast_S_S2048 : (⟨S_, .i32⟩ : BufTy).Contents (Elt F) → (⟨S2048, .i32⟩ : BufTy).Contents (Elt F)),
    StableHlo.binary main_v20 main_v43 main_v44 (addi : (⟨S2048, .i32⟩ : BufTy).Contents (Elt F) → (⟨S2048, .i32⟩ : BufTy).Contents (Elt F) → (⟨S2048, .i32⟩ : BufTy).Contents (Elt F)),
    StableHlo.ternary main_v42 main_v44 main_v20 main_v45 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v40 main_v46 (broadcastInDim S2048x1 ![0] bcast_S2048_S2048x1_0 : (⟨S2048, .i32⟩ : BufTy).Contents (Elt F) → (⟨S2048x1, .i32⟩ : BufTy).Contents (Elt F)),
    StableHlo.unary main_v45 main_v47 (broadcastInDim S2048x1 ![0] bcast_S2048_S2048x1_0 : (⟨S2048, .i32⟩ : BufTy).Contents (Elt F) → (⟨S2048x1, .i32⟩ : BufTy).Contents (Elt F)) ]

/-- Their concatenate. -/
abbrev Kcc : List (HloOp τ sig (Elt F)) :=
  [ StableHlo.binary main_v46 main_v47 main_v48 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The centre id, the test against it, the weight, the ids as floats, the candidate. -/
abbrev Km2 : List (HloOp τ sig (Elt F)) :=
  [ StableHlo.binary main_v35 main_v48 main_v49 ((fun x i => Host.gather gather_S2048x128_S2048x2_S2048_n_01_n_n_01_1_11 x i) : (⟨S2048x128, .i32⟩ : BufTy).Contents (Elt F) → (⟨S2048x2, .i32⟩ : BufTy).Contents (Elt F) → (⟨S2048, .i32⟩ : BufTy).Contents (Elt F)),
    StableHlo.unary main_v49 main_v50 (broadcastInDim S2048x1 ![0] bcast_S2048_S2048x1_0 : (⟨S2048, .i32⟩ : BufTy).Contents (Elt F) → (⟨S2048x1, .i32⟩ : BufTy).Contents (Elt F)),
    StableHlo.unary main_v50 main_v51 (broadcastInDim S2048x128 ![0, 1] bcast_S2048x1_S2048x128_0_1 : (⟨S2048x1, .i32⟩ : BufTy).Contents (Elt F) → (⟨S2048x128, .i32⟩ : BufTy).Contents (Elt F)),
    StableHlo.binary main_v35 main_v51 main_v52 (cmpi .eq : (⟨S2048x128, .i32⟩ : BufTy).Contents (Elt F) → (⟨S2048x128, .i32⟩ : BufTy).Contents (Elt F) → (⟨S2048x128, .i1⟩ : BufTy).Contents (Elt F)),
    StableHlo.unary main_v52 main_v53 (uitofp .f32 : (⟨S2048x128, .i1⟩ : BufTy).Contents (Elt F) → (⟨S2048x128, .f32⟩ : BufTy).Contents (Elt F)),
    StableHlo.binary main_v28 main_v53 main_v54 (subf : (⟨S2048x128, .f32⟩ : BufTy).Contents (Elt F) → (⟨S2048x128, .f32⟩ : BufTy).Contents (Elt F) → (⟨S2048x128, .f32⟩ : BufTy).Contents (Elt F)),
    StableHlo.unary main_v35 main_v55 (sitofp .f32 : (⟨S2048x128, .i32⟩ : BufTy).Contents (Elt F) → (⟨S2048x128, .f32⟩ : BufTy).Contents (Elt F)),
    StableHlo.binary main_v55 main_v54 main_v56 (mulf : (⟨S2048x128, .f32⟩ : BufTy).Contents (Elt F) → (⟨S2048x128, .f32⟩ : BufTy).Contents (Elt F) → (⟨S2048x128, .f32⟩ : BufTy).Contents (Elt F)) ]

/-- The rest of that generated list: the previous candidate and the test against it. -/
abbrev Krest16 : List (HloOp τ sig (Elt F)) :=
  [ StableHlo.nullary main_c_18 (constantI S_ 32 1#32),
    StableHlo.unary main_c_18 main_v57 (broadcastInDim S2048 ![] bcast_S_S2048 : (⟨S_, .i32⟩ : BufTy).Contents (Elt F) → (⟨S2048, .i32⟩ : BufTy).Contents (Elt F)),
    StableHlo.binary main_v20 main_v57 main_v58 (subi : (⟨S2048, .i32⟩ : BufTy).Contents (Elt F) → (⟨S2048, .i32⟩ : BufTy).Contents (Elt F) → (⟨S2048, .i32⟩ : BufTy).Contents (Elt F)),
    StableHlo.nullary main_c_19 (constantI S_ 32 0#32),
    StableHlo.unary main_c_19 main_v59 (broadcastInDim S2048 ![] bcast_S_S2048 : (⟨S_, .i32⟩ : BufTy).Contents (Elt F) → (⟨S2048, .i32⟩ : BufTy).Contents (Elt F)),
    StableHlo.binary main_v21 main_v59 main_v60 (cmpi .slt : (⟨S2048, .i32⟩ : BufTy).Contents (Elt F) → (⟨S2048, .i32⟩ : BufTy).Contents (Elt F) → (⟨S2048, .i1⟩ : BufTy).Contents (Elt F)),
    StableHlo.nullary main_c_20 (constantI S_ 32 2048#32),
    StableHlo.unary main_c_20 main_v61 (broadcastInDim S2048 ![] bcast_S_S2048 : (⟨S_, .i32⟩ : BufTy).Contents (Elt F) → (⟨S2048, .i32⟩ : BufTy).Contents (Elt F)),
    StableHlo.binary main_v21 main_v61 main_v62 (addi : (⟨S2048, .i32⟩ : BufTy).Contents (Elt F) → (⟨S2048, .i32⟩ : BufTy).Contents (Elt F) → (⟨S2048, .i32⟩ : BufTy).Contents (Elt F)),
    StableHlo.ternary main_v60 main_v62 main_v21 main_v63 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_21 (constantI S_ 32 0#32),
    StableHlo.unary main_c_21 main_v64 (broadcastInDim S2048 ![] bcast_S_S2048 : (⟨S_, .i32⟩ : BufTy).Contents (Elt F) → (⟨S2048, .i32⟩ : BufTy).Contents (Elt F)),
    StableHlo.binary main_v58 main_v64 main_v65 (cmpi .slt : (⟨S2048, .i32⟩ : BufTy).Contents (Elt F) → (⟨S2048, .i32⟩ : BufTy).Contents (Elt F) → (⟨S2048, .i1⟩ : BufTy).Contents (Elt F)),
    StableHlo.nullary main_c_22 (constantI S_ 32 128#32),
    StableHlo.unary main_c_22 main_v66 (broadcastInDim S2048 ![] bcast_S_S2048 : (⟨S_, .i32⟩ : BufTy).Contents (Elt F) → (⟨S2048, .i32⟩ : BufTy).Contents (Elt F)),
    StableHlo.binary main_v58 main_v66 main_v67 (addi : (⟨S2048, .i32⟩ : BufTy).Contents (Elt F) → (⟨S2048, .i32⟩ : BufTy).Contents (Elt F) → (⟨S2048, .i32⟩ : BufTy).Contents (Elt F)),
    StableHlo.ternary main_v65 main_v67 main_v58 main_v68 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v63 main_v69 (broadcastInDim S2048x1 ![0] bcast_S2048_S2048x1_0 : (⟨S2048, .i32⟩ : BufTy).Contents (Elt F) → (⟨S2048x1, .i32⟩ : BufTy).Contents (Elt F)),
    StableHlo.unary main_v68 main_v70 (broadcastInDim S2048x1 ![0] bcast_S2048_S2048x1_0 : (⟨S2048, .i32⟩ : BufTy).Contents (Elt F) → (⟨S2048x1, .i32⟩ : BufTy).Contents (Elt F)),
    StableHlo.binary main_v69 main_v70 main_v71 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.binary main_v56 main_v71 main_v72 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F)),
    StableHlo.unary main_v72 main_v73 (broadcastInDim S2048x1 ![0] bcast_S2048_S2048x1_0 : (⟨S2048, .f32⟩ : BufTy).Contents (Elt F) → (⟨S2048x1, .f32⟩ : BufTy).Contents (Elt F)),
    StableHlo.unary main_v73 main_v74 (broadcastInDim S2048x128 ![0, 1] bcast_S2048x1_S2048x128_0_1 : (⟨S2048x1, .f32⟩ : BufTy).Contents (Elt F) → (⟨S2048x128, .f32⟩ : BufTy).Contents (Elt F)),
    StableHlo.binary main_v56 main_v74 main_v75 (cmpf .oeq : (⟨S2048x128, .f32⟩ : BufTy).Contents (Elt F) → (⟨S2048x128, .f32⟩ : BufTy).Contents (Elt F) → (⟨S2048x128, .i1⟩ : BufTy).Contents (Elt F)),
    StableHlo.unary main_v75 main_v76 (uitofp .f32 : (⟨S2048x128, .i1⟩ : BufTy).Contents (Elt F) → (⟨S2048x128, .f32⟩ : BufTy).Contents (Elt F)) ]

set_option maxHeartbeats 4000000 in
theorem hostOps0_16_eq : (hostOps0_16 : List (HloOp τ sig (Elt F))) = K18 ++ (Kg ++ (Kc1 ++ (Kcc ++ (Km2 ++ Krest16)))) := rfl

/-- The class weights at the targets and the two reshapes to columns. -/
abbrev Kw : List (HloOp τ sig (Elt F)) :=
  [ StableHlo.nullary main_c_25 (constantI S_ 32 0#32),
    StableHlo.unary main_c_25 main_v91 (broadcastInDim S2048 ![] bcast_S_S2048 : (⟨S_, .i32⟩ : BufTy).Contents (Elt F) → (⟨S2048, .i32⟩ : BufTy).Contents (Elt F)),
    StableHlo.binary main_arg1 main_v91 main_v92 (cmpi .slt : (⟨S2048, .i32⟩ : BufTy).Contents (Elt F) → (⟨S2048, .i32⟩ : BufTy).Contents (Elt F) → (⟨S2048, .i1⟩ : BufTy).Contents (Elt F)),
    StableHlo.nullary main_c_26 (constantI S_ 32 30522#32),
    StableHlo.unary main_c_26 main_v93 (broadcastInDim S2048 ![] bcast_S_S2048 : (⟨S_, .i32⟩ : BufTy).Contents (Elt F) → (⟨S2048, .i32⟩ : BufTy).Contents (Elt F)),
    StableHlo.binary main_arg1 main_v93 main_v94 (addi : (⟨S2048, .i32⟩ : BufTy).Contents (Elt F) → (⟨S2048, .i32⟩ : BufTy).Contents (Elt F) → (⟨S2048, .i32⟩ : BufTy).Contents (Elt F)),
    StableHlo.ternary main_v92 main_v94 main_arg1 main_v95 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v95 main_v96 (broadcastInDim S2048x1 ![0] bcast_S2048_S2048x1_0 : (⟨S2048, .i32⟩ : BufTy).Contents (Elt F) → (⟨S2048x1, .i32⟩ : BufTy).Contents (Elt F)),
    StableHlo.binary main_arg5 main_v96 main_v97 ((fun x i => Host.gather gather_S30522_S2048x1_S2048_n_0_n_n_0_1_1 x i) : (⟨S30522, .f32⟩ : BufTy).Contents (Elt F) → (⟨S2048x1, .i32⟩ : BufTy).Contents (Elt F) → (⟨S2048, .f32⟩ : BufTy).Contents (Elt F)),
    StableHlo.reshape main_arg1 main_v98 rfl shapeCasts_S2048_S2048x1,
    StableHlo.reshape main_v97 main_v99 rfl shapeCasts_S2048_S2048x1 ]

/-- The candidates as integers. -/
abbrev K90 : List (HloOp τ sig (Elt F)) :=
  [ StableHlo.unary main_v89 main_v90 (fptosi 32 : (⟨S2048x128, .f32⟩ : BufTy).Contents (Elt F) → (⟨S2048x128, .i32⟩ : BufTy).Contents (Elt F)) ]

theorem hostOps0_21_eq : (hostOps0_21 : List (HloOp τ sig (Elt F))) = K90 ++ Kw := rfl

/-- The second conversion of the gathered ids to floats. -/
abbrev K80 : List (HloOp τ sig (Elt F)) :=
  [ StableHlo.unary main_v35 main_v80 (sitofp .f32 : (⟨S2048x128, .i32⟩ : BufTy).Contents (Elt F) → (⟨S2048x128, .f32⟩ : BufTy).Contents (Elt F)) ]

/-! ## The terms -/

/-- The masked ids as integers: the id where the mask is positive, else 0. -/
def attK (mask : FVec F S64x128 .f32) (ids : IVec S64x128 32) : IVec S64x128 32 :=
  select (cmpf .ogt mask (broadcastInDim S64x128 ![] bcast_S_S64x128 (constant S_ .f32 0x00000000#32))) ids
    (broadcastInDim S64x128 ![] bcast_S_S64x128 (id (constantI S_ 32 0#32)))

/-- The centre index: (row number, position's column), each wrapped when negative. -/
def ccK (io cols : IVec S2048 32) : IVec S2048x2 32 :=
  concatenate S2048x2 1
    [⟨S2048x1, broadcastInDim S2048x1 ![0] bcast_S2048_S2048x1_0
        (select (cmpi .slt io (broadcastInDim S2048 ![] bcast_S_S2048 (constantI S_ 32 0#32)))
          (addi io (broadcastInDim S2048 ![] bcast_S_S2048 (constantI S_ 32 2048#32))) io)⟩,
     ⟨S2048x1, broadcastInDim S2048x1 ![0] bcast_S2048_S2048x1_0
        (select (cmpi .slt cols (broadcastInDim S2048 ![] bcast_S_S2048 (constantI S_ 32 0#32)))
          (addi cols (broadcastInDim S2048 ![] bcast_S_S2048 (constantI S_ 32 128#32))) cols)⟩]
    concatenates_S2048x1_S2048x1_S2048x2_d1

/-- The gathered ids of each position's row. -/
def aiK (att : IVec S64x128 32) (ri : IVec S2048x1 32) : IVec S2048x128 32 :=
  Host.gather gather_S64x128_S2048x1_S2048x128_1_0_n_n_0_1_1128 att ri

/-- The weight `mask − [id = centre id]`, the test made on integers. -/
def nwK (a : FVec F S2048x128 .f32) (ai : IVec S2048x128 32) (cc : IVec S2048x2 32) : FVec F S2048x128 .f32 :=
  subf a (uitofp .f32 (cmpi .eq ai
    (broadcastInDim S2048x128 ![0, 1] bcast_S2048x1_S2048x128_0_1
      (broadcastInDim S2048x1 ![0] bcast_S2048_S2048x1_0
        (Host.gather gather_S2048x128_S2048x2_S2048_n_01_n_n_01_1_11 ai cc)))))

/-- The class weights gathered at the targets (a negative target wrapped by the class count first). -/
def wOfK (wt : FVec F S30522 .f32) (tg : IVec S2048 32) : FVec F S2048 .f32 :=
  Host.gather gather_S30522_S2048x1_S2048_n_0_n_n_0_1_1 wt
    (broadcastInDim S2048x1 ![0] bcast_S2048_S2048x1_0
      (select (cmpi .slt tg (broadcastInDim S2048 ![] bcast_S_S2048 (constantI S_ 32 0#32)))
        (addi tg (broadcastInDim S2048 ![] bcast_S_S2048 (constantI S_ 32 30522#32))) tg))

variable (Y : Valuation τ sig (Elt F))

set_option maxHeartbeats 4000000 in
theorem att_eq : after (hostOps0 ++ hostOps0_1 : List (HloOp τ sig (Elt F))) Y (Proc.devRef .tc main_v2)
    = attK (Y (Proc.devRef .tc main_arg3)) (Y (Proc.devRef .tc main_arg2)) := by
  simp only [hostOps0, hostOps0_1, List.cons_append, List.nil_append]
  after_results_simp
  rfl

set_option maxHeartbeats 4000000 in
theorem cc_eq : after Kcc (after Kc1 Y) (Proc.devRef .tc main_v48)
    = ccK (Y (Proc.devRef .tc main_v21)) (Y (Proc.devRef .tc main_v20)) := by
  have e46 : after Kc1 Y (Proc.devRef .tc main_v46) = broadcastInDim S2048x1 ![0] bcast_S2048_S2048x1_0
      (select (cmpi .slt (Y (Proc.devRef .tc main_v21)) (broadcastInDim S2048 ![] bcast_S_S2048 (constantI S_ 32 0#32)))
        (addi (Y (Proc.devRef .tc main_v21)) (broadcastInDim S2048 ![] bcast_S_S2048 (constantI S_ 32 2048#32))) (Y (Proc.devRef .tc main_v21))) := by
    after_results_simp
  have e47 : after Kc1 Y (Proc.devRef .tc main_v47) = broadcastInDim S2048x1 ![0] bcast_S2048_S2048x1_0
      (select (cmpi .slt (Y (Proc.devRef .tc main_v20)) (broadcastInDim S2048 ![] bcast_S_S2048 (constantI S_ 32 0#32)))
        (addi (Y (Proc.devRef .tc main_v20)) (broadcastInDim S2048 ![] bcast_S_S2048 (constantI S_ 32 128#32))) (Y (Proc.devRef .tc main_v20))) := by
    after_results_simp
  generalize after Kc1 Y = Y2 at *
  simp only [Kcc, after_cons, after_nil]
  rw [binary_result, e46, e47]
  rfl

set_option maxHeartbeats 4000000 in
theorem g_eq : after Kg Y (Proc.devRef .tc main_v35) = aiK (Y (Proc.devRef .tc main_v2)) (Y (Proc.devRef .tc main_v34)) := by
  after_results_simp
  rfl

set_option maxHeartbeats 4000000 in
theorem m2_v54 : after Km2 Y (Proc.devRef .tc main_v54)
    = nwK (Y (Proc.devRef .tc main_v28)) (Y (Proc.devRef .tc main_v35)) (Y (Proc.devRef .tc main_v48)) := by
  after_results_simp
  rfl

set_option maxHeartbeats 4000000 in
theorem m2_v55 : after Km2 Y (Proc.devRef .tc main_v55) = sitofp .f32 (Y (Proc.devRef .tc main_v35)) := by
  after_results_simp

set_option maxHeartbeats 4000000 in
theorem m2_v56 : after Km2 Y (Proc.devRef .tc main_v56)
    = mulf (sitofp .f32 (Y (Proc.devRef .tc main_v35)))
        (nwK (Y (Proc.devRef .tc main_v28)) (Y (Proc.devRef .tc main_v35)) (Y (Proc.devRef .tc main_v48))) := by
  after_results_simp
  rfl

set_option maxHeartbeats 4000000 in
theorem v80_eq : after K80 Y (Proc.devRef .tc main_v80) = sitofp .f32 (Y (Proc.devRef .tc main_v35)) := by
  after_results_simp

set_option maxHeartbeats 4000000 in
theorem w_v97 : after Kw Y (Proc.devRef .tc main_v97) = wOfK (Y (Proc.devRef .tc main_arg5)) (Y (Proc.devRef .tc main_arg1)) := by
  after_results_simp
  rfl

end Cert.KernelIdeal.Pre

end
-- ==== Proof.KernelReshape.lean ====
import proofs.«425233_j52278341926994_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.SortFacts

/-!
# A vector reshaped to a column, read at an index

A vector of `n` entries reshaped to an `n × 1` array holds, at `(k, 0)`, the vector's entry `k`: the two indices have the
same row-major position. The kernel program's host code reshapes the targets and the gathered class weights this way
before the launch; the two reshaped buffers read at `(k, 0)` are the targets and the gathered weights at `k`.
-/

set_option maxRecDepth 16384

noncomputable section

namespace Cert.KernelIdeal.Reshape

open Cert.KernelIdeal Cert.KernelIdeal.Gen Idealize.ShloMosaic Idealize.ShloMosaic.TcCoe Idealize.ShloMosaic.StableHlo
open Idealize.ShloMosaic.ValueIdx

/-- A vector reshaped to a column, at row `k`: the vector's entry `k`. -/
theorem shapeCast_col_apply {α : Type} {n : Nat} (v : (⟨1, ![n]⟩ : Shape).Idx → α)
    (h : (⟨1, ![n]⟩ : Shape).ShapeCasts ⟨2, ![n, 1]⟩) (k : Fin n) :
    shapeCast ⟨2, ![n, 1]⟩ v h (ix2 k (0 : Fin 1)) = v (Shape.Idx.ofFin k) := by
  refine shapeCast_apply v h _ _ ?_
  rw [Shape.rowMajor_val_one, Shape.rowMajor_val_two]
  show k.val = k.val * 1 + 0
  omega

/-- The same for a vector of 32-bit words at this program's shapes. -/
theorem reshape_col_apply (v : IVec S2048 32) (h : S2048.ShapeCasts S2048x1) (n : Fin 2048) :
    shapeCast S2048x1 v h (ix2 n (0 : Fin 1)) = v (Shape.Idx.ofFin n) :=
  shapeCast_col_apply v h n

/-- The same for a vector of floats at this program's shapes. -/
theorem reshape_col_apply_f (v : FVec Ideal S2048 .f32) (h : S2048.ShapeCasts S2048x1) (n : Fin 2048) :
    shapeCast S2048x1 v h (ix2 n (0 : Fin 1)) = v (Shape.Idx.ofFin n) :=
  shapeCast_col_apply v h n

variable (Y : Valuation τ sig (Elt Ideal))

set_option maxHeartbeats 4000000 in
/-- The reshaped targets at `(n, 0)`: the targets at `n`. -/
theorem v98_apply (n : Fin 2048) :
    after (hostOps0_21 (F := Ideal)) Y (Proc.devRef .tc main_v98) (ix2 n (0 : Fin 1))
      = Y (Proc.devRef .tc main_arg1) (Shape.Idx.ofFin n) := by
  have e : after (hostOps0_21 (F := Ideal)) Y (Proc.devRef .tc main_v98)
      = fun i => shapeCast S2048x1 (Y (Proc.devRef .tc main_arg1) : IVec S2048 32) shapeCasts_S2048_S2048x1 i := by
    after_results_simp
    rfl
  rw [e]
  exact reshape_col_apply _ _ n

set_option maxHeartbeats 4000000 in
/-- The reshaped gathered weights at `(n, 0)`: the gathered weights at `n`. -/
theorem v99_apply (n : Fin 2048) :
    after (hostOps0_21 (F := Ideal)) Y (Proc.devRef .tc main_v99) (ix2 n (0 : Fin 1))
      = after (hostOps0_21 (F := Ideal)) Y (Proc.devRef .tc main_v97) (Shape.Idx.ofFin n) := by
  have e : after (hostOps0_21 (F := Ideal)) Y (Proc.devRef .tc main_v99)
      = fun i => shapeCast S2048x1 (after (hostOps0_21 (F := Ideal)) Y (Proc.devRef .tc main_v97) : FVec Ideal S2048 .f32)
          shapeCasts_S2048_S2048x1 i := by
    after_results_simp
    rfl
  rw [e]
  exact reshape_col_apply_f _ _ n

end Cert.KernelIdeal.Reshape

end
-- ==== Proof.KernelArrays.lean ====
/-
  What the loss kernel's two result arrays hold after its grid has run, row by row, on the extended reals.

  The call walks 64 row blocks of 32 rows over the logits `x` (2048 rows of 30522 columns), the targets `tg`
  and the row weights `w` (one column each). For row `n` it takes the row maximum
  `M n = max_c x(n, c)` (from `-∞`), the shifted sum `S n = Σ_c exp (x(n, c) - M n)`, and writes

    lse(n)      = M n + log (S n)
    weighted(n) = (Σ_c (0 - (δ + [c = tg n] · κ)) · ((x(n, c) - M n) - log (S n))) · w n

  with `δ` the smoothing mass per class (kept as its bit pattern), `κ` the named constant
  "conf_minus_smooth", and `[c = tg n]` the indicator that column `c`, as a 32-bit word, is the row's target.

  The order of the steps: a block's payloads at an index (`pay1_apply` … `pay5_apply`, over a block `v0` of 32
  rows: `bMax`, `bSumExp`); a block of the call's arrays read as rows of the whole arrays (`blk0_apply`,
  `blk1_apply`, `blk2_apply`: row `r` of block `t` is row `32 t + r`); so each point writes back a block of ONE
  function of the whole arrays (`flushed4_eq`, `flushed3_eq`); the 64 blocks cover the 2048 rows (`cover4`,
  `cover3`: row `n` lies in block `n / 32`); hence the arrays (`arr4`, `arr3`, and at a row `arr_lse`,
  `arr_weighted`).
-/
import proofs.«425233_j52278341926994_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

/-! ## Indices -/

/-- Row `n`, column `c` of the logits. -/
abbrev ij (n : Fin 2048) (c : Fin 30522) : S2048x30522.Idx := ix2 n c
/-- Row `n` of a one-column array. -/
abbrev ij1 (n : Fin 2048) : S2048x1.Idx := ix2 n (0 : Fin 1)
/-- Row `r`, column `c` of a block of 32 rows of the logits. -/
abbrev bij (r : Fin 32) (c : Fin 30522) : S32x30522.Idx := ix2 r c
/-- Row `r` of a one-column block of 32 rows. -/
abbrev bij1 (r : Fin 32) : S32x1.Idx := ix2 r (0 : Fin 1)

/-- An index of a one-column block is its row. -/
theorem eq_bij1 (y : S32x1.Idx) : y = bij1 ⟨(y 0).val, idx2_lt0 y⟩ := by
  funext a
  match a with
  | ⟨0, _⟩ => rfl
  | ⟨1, _⟩ => exact Fin.ext (by have := idx2_lt1 y; show (y 1).val = 0; omega)

/-! ## A block of 32 rows: the payloads at an index -/

/-- The maximum of row `r` of a block, from `-∞`. -/
def bMax (v : S32x30522.Idx → EReal) (r : Fin 32) : EReal :=
  (Finset.univ : Finset (Fin 30522)).fold max ⊥ (fun c => v (bij r c))

/-- The sum over row `r` of a block of the exponentials of the entries less the row's maximum. -/
def bSumExp (v : S32x30522.Idx → EReal) (r : Fin 32) : EReal :=
  ∑ c : Fin 30522, Ideal.exp (v (bij r c) - bMax v r)

/-- The pattern of binary32's negative infinity denotes `-∞`. -/
theorem negInf : Ideal.ofBits .f32 0xFF800000#32 = ⊥ := by simp [Ideal.ofBits, Ideal.ieee]

/-- The index of the block over row `r` with column `k` put back is `(r, k)`. -/
theorem lift_eq (r : Fin 32) (k : Fin 30522) : reduces_S32x30522_S32.lift (ix1 r) k = bij r k := by
  funext a
  match a with
  | ⟨0, _⟩ => exact Fin.ext rfl
  | ⟨1, _⟩ => exact Fin.ext rfl

/-- A vector of 32 entries viewed as one column reads, at row `r`, its entry `r`. -/
theorem col_apply {α : Type} (v : S32.Idx → α) (r : Fin 32) : shapeCast S32x1 v shapeCasts_S32_S32x1 (bij1 r) = v (ix1 r) :=
  shapeCast_apply v shapeCasts_S32_S32x1 _ _ (by
    rw [Shape.rowMajor_val_two, Shape.rowMajor_val_one]
    show r.val = r.val * 1 + 0
    omega)

/-- One column spread over the 30522 columns reads, at `(r, c)`, the column's row `r`. -/
theorem spread_apply {α : Type} (v : S32x1.Idx → α) (r : Fin 32) (c : Fin 30522) :
    broadcastTo S32x30522 v broadcasts_S32x1_S32x30522 (bij r c) = v (bij1 r) := by
  refine broadcastTo_apply v broadcasts_S32x1_S32x30522 (bij r c) (bij1 r) fun ax => ?_
  match ax with
  | ⟨0, _⟩ => rfl
  | ⟨1, _⟩ => rfl

/-- The exponential and the logarithm of a vector, at an index, are those of the entry. -/
theorem vexp_apply {s : Shape} {φ : FTy} (a : FVec Ideal s φ) (i : s.Idx) : exp a i = Ideal.exp (a i) := rfl
theorem vlog_apply {s : Shape} {φ : FTy} (a : FVec Ideal s φ) (i : s.Idx) : log a i = Ideal.log (a i) := rfl
/-- A comparison of integer vectors, at an index, compares the entries. -/
theorem vcmpi_apply {s : Shape} {w : Nat} (p : CmpIPredicate) (a b : IVec s w) (i : s.Idx) :
    cmpi p a b i = IntOp.cmpi p (a i) (b i) := rfl

/-- The first payload, the column of row maxima: at row `r` the maximum of the block's row `r`. -/
theorem pay1_apply (v0 : FVec Ideal S32x30522 .f32) (r : Fin 32) : k0_pay1 (F := Ideal) v0 (bij1 r) = bMax v0 r := by
  unfold k0_pay1
  refine (col_apply _ r).trans ?_
  refine (Ideal.multiReduction_maximumf_single v0 0xFF800000#32 reduces_S32x30522_S32 (.inl rfl) rfl (ix1 r)).trans ?_
  unfold bMax
  show (Finset.univ : Finset (Fin 30522)).fold max (Ideal.ofBits .f32 0xFF800000#32) (fun k => v0 (reduces_S32x30522_S32.lift (ix1 r) k)) = _
  rw [negInf]
  exact congrArg (fun f : Fin 30522 → EReal => (Finset.univ : Finset (Fin 30522)).fold max ⊥ f)
    (funext fun k => congrArg v0 (lift_eq r k))

/-- The second payload, the block less its row maxima. -/
theorem pay2_apply (v0 : FVec Ideal S32x30522 .f32) (r : Fin 32) (c : Fin 30522) :
    k0_pay2 (F := Ideal) v0 (bij r c) = v0 (bij r c) - bMax v0 r := by
  unfold k0_pay2
  exact congrArg (fun z => v0 (bij r c) - z) ((spread_apply _ r c).trans (pay1_apply v0 r))

/-- The third payload, the column of shifted sums of exponentials. -/
theorem pay3_apply (v0 : FVec Ideal S32x30522 .f32) (r : Fin 32) :
    k0_pay3 (F := Ideal) v0 (bij1 r) = bSumExp v0 r := by
  unfold k0_pay3
  refine (col_apply _ r).trans ?_
  refine (Ideal.multiReduction_add_single _ 0x00000000#32 reduces_S32x30522_S32 (.inl rfl) rfl (ix1 r)).trans ?_
  unfold bSumExp
  show ∑ k : Fin 30522, _ = _
  refine Finset.sum_congr rfl fun k _ => ?_
  refine (vexp_apply _ _).trans (congrArg Ideal.exp ?_)
  rw [lift_eq]
  exact pay2_apply v0 r k

/-- The fourth payload, what the body stores for the log-sum-exp: the row maximum plus the logarithm of the shifted sum. -/
theorem pay4_apply (v0 : FVec Ideal S32x30522 .f32) (r : Fin 32) :
    k0_pay4 (F := Ideal) v0 (bij1 r) = bMax v0 r + Ideal.log (bSumExp v0 r) := by
  unfold k0_pay4
  refine (addf_apply (k0_pay1 (F := Ideal) v0) (log (k0_pay3 (F := Ideal) v0)) (bij1 r)).trans ?_
  exact congrArg₂ (· + ·) (pay1_apply v0 r) ((vlog_apply _ _).trans (congrArg Ideal.log (pay3_apply v0 r)))

/-- The smoothing mass per class, kept as its bit pattern. -/
abbrev D2 : EReal := Ideal.ofBits .f32 0x36DBE0AF#32
/-- The named constant "conf_minus_smooth": the confidence less the smoothing mass per class. -/
abbrev kap : EReal := ((1759204220753 / 2199023255552 : ℝ) : EReal)

/-- The program's named constant denotes `kap`, by the certificate's table. -/
theorem kap_eq : Named.named (F := Ideal) κ "conf_minus_smooth" (φ := .f32) 0x3F4CCC5F#32 = kap :=
  IdealRules.named_const.ideal_named_scalar _ _ _ _ rfl

/-- The indicator that column `c`, as a 32-bit word, is the target word `tv`. -/
def onehot (tv : BitVec 32) (c : Fin 30522) : EReal := if BitVec.ofNat 32 c.val = tv then 1 else 0

/-- An equality test of two words, widened to 32 bits and converted to a float, is `1` where they agree and `0` where not. -/
theorem onehot_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h; simp [IntOp.cmpi]
  · have hb : (a == b) = false := by simpa using h
    simp [IntOp.cmpi, hb, h]

/-- The body's one-hot block: the column number compared with the row's target, as a float. -/
theorem hot_apply (v14 : IVec S32x1 32) (r : Fin 32) (k : Fin 30522) :
    (sitofp .f32 (extui 32 (cmpi .eq (iota .tc S32x30522 32 [1] iota_S32x30522_d1_w32)
        (broadcastTo S32x30522 (shapeCast S32x1 v14 shapeCasts_S32x1_S32x1) broadcasts_S32x1_S32x30522)) natLt_1_32)
      : FVec Ideal S32x30522 .f32) (bij r k) = onehot (v14 (bij1 r)) k := by
  have e1 : iota .tc S32x30522 32 [1] iota_S32x30522_d1_w32 (bij r k) = BitVec.ofNat 32 k.val :=
    iota_single_apply .tc S32x30522 32 1 iota_S32x30522_d1_w32 (bij r k)
  have e2 : broadcastTo S32x30522 (shapeCast S32x1 v14 shapeCasts_S32x1_S32x1) broadcasts_S32x1_S32x30522 (bij r k) = v14 (bij1 r) :=
    (spread_apply _ r k).trans (congrFun (shapeCast_self v14 shapeCasts_S32x1_S32x1) (bij1 r))
  refine (sitofp_apply _ _).trans ?_
  refine (congrArg (FloatOps.sitofp (F := Ideal) .f32) ((extui_apply _ _ _).trans (congrArg (BitVec.setWidth 32) ((vcmpi_apply _ _ _ _).trans (congrArg₂ (IntOp.cmpi .eq) e1 e2))))).trans ?_
  exact onehot_eq _ _

/-- The fifth payload, what the body stores for the weighted loss: over row `r` the sum of minus the smoothed
    target mass times the log-probability, times the row's weight. -/
theorem pay5_apply (v0 : FVec Ideal S32x30522 .f32) (v14 : IVec S32x1 32) (v25 : FVec Ideal S32x1 .f32) (r : Fin 32) :
    k0_pay5 (F := Ideal) v0 v14 v25 (bij1 r)
      = (∑ k : Fin 30522, (0 - (D2 + onehot (v14 (bij1 r)) k * kap)) * ((v0 (bij r k) - bMax v0 r) - Ideal.log (bSumExp v0 r))) * v25 (bij1 r) := by
  unfold k0_pay5
  refine (mulf_apply _ _ (bij1 r)).trans ?_
  refine congrArg₂ (· * ·) ?_ (congrFun (shapeCast_self v25 shapeCasts_S32x1_S32x1) (bij1 r))
  refine (col_apply _ r).trans ?_
  refine (Ideal.multiReduction_add_single _ 0x00000000#32 reduces_S32x30522_S32 (.inl rfl) rfl (ix1 r)).trans ?_
  show ∑ k : Fin 30522, _ = _
  refine Finset.sum_congr rfl fun k _ => ?_
  rw [lift_eq]
  refine (mulf_apply _ _ (bij r k)).trans ?_
  refine congrArg₂ (· * ·) ?_ ?_
  · refine (subf_apply _ _ _).trans ?_
    refine congrArg₂ (· - ·) Ideal.ofBits_zero_f32 ?_
    refine (addf_apply _ _ _).trans ?_
    refine congrArg₂ (· + ·) rfl ?_
    refine (mulf_apply _ _ _).trans ?_
    exact congrArg₂ (· * ·) (hot_apply v14 r k) kap_eq
  · refine (subf_apply _ _ _).trans ?_
    exact congrArg₂ (· - ·) (pay2_apply v0 r k)
      ((spread_apply _ r k).trans ((vlog_apply _ _).trans (congrArg Ideal.log (pay3_apply v0 r))))

/-! ## Rows of the whole arrays -/

/-- The maximum of row `n` of the logits, from `-∞`. -/
def rowMax (x : S2048x30522.Idx → EReal) (n : Fin 2048) : EReal :=
  (Finset.univ : Finset (Fin 30522)).fold max ⊥ (fun c => x (ij n c))

/-- The sum over row `n` of the exponentials of the logits less the row's maximum. -/
def rowSumExp (x : S2048x30522.Idx → EReal) (n : Fin 2048) : EReal :=
  ∑ c : Fin 30522, Ideal.exp (x (ij n c) - rowMax x n)

/-- The log-sum-exp column as one function of the logits: row maximum plus logarithm of the shifted sum. -/
def lseArr (x : S2048x30522.Idx → EReal) : S2048x1.Idx → EReal := fun i =>
  rowMax x ⟨(i 0).val, idx2_lt0 i⟩ + Ideal.log (rowSumExp x ⟨(i 0).val, idx2_lt0 i⟩)

/-- The weighted-loss column as one function of the logits, the targets and the row weights. -/
def weightedArr (x : S2048x30522.Idx → EReal) (tg : S2048x1.Idx → BitVec 32) (w : S2048x1.Idx → EReal) : S2048x1.Idx → EReal := fun i =>
  (∑ k : Fin 30522, (0 - (D2 + onehot (tg (ij1 ⟨(i 0).val, idx2_lt0 i⟩)) k * kap))
      * ((x (ij ⟨(i 0).val, idx2_lt0 i⟩ k) - rowMax x ⟨(i 0).val, idx2_lt0 i⟩) - Ideal.log (rowSumExp x ⟨(i 0).val, idx2_lt0 i⟩)))
    * w (ij1 ⟨(i 0).val, idx2_lt0 i⟩)

/-! ## A block that holds rows `32 t … 32 t + 31` of the whole arrays

Stated over a block `v0` and a number `t` with the hypothesis that row `r` of the block is row `32 t + r` of `x`. -/

section Point
variable (x : S2048x30522.Idx → EReal) (v0 : FVec Ideal S32x30522 .f32) (t : Nat)
  (hv : ∀ (r : Fin 32) (k : Fin 30522) (n : Fin 2048), n.val = 32 * t + r.val → v0 (bij r k) = x (ij n k))
include hv

/-- The block's row maximum is the array's at the row it holds. -/
theorem bMax_eq (r : Fin 32) (n : Fin 2048) (hn : n.val = 32 * t + r.val) : bMax v0 r = rowMax x n := by
  unfold bMax rowMax
  exact congrArg (fun f : Fin 30522 → EReal => (Finset.univ : Finset (Fin 30522)).fold max ⊥ f) (funext fun k => hv r k n hn)

/-- The block's shifted sum of exponentials is the array's at the row it holds. -/
theorem bSumExp_eq (r : Fin 32) (n : Fin 2048) (hn : n.val = 32 * t + r.val) : bSumExp v0 r = rowSumExp x n := by
  unfold bSumExp rowSumExp
  rw [bMax_eq x v0 t hv r n hn]
  exact Finset.sum_congr rfl fun k _ => by rw [hv r k n hn]

/-- What the body stores for the log-sum-exp at an index of its block is `lseArr` at the array index over it. -/
theorem lse_point (y : S32x1.Idx) (i : S2048x1.Idx) (hi : (i 0).val = 32 * t + (y 0).val) :
    k0_pay4 (F := Ideal) v0 y = lseArr x i := by
  obtain ⟨r, rfl⟩ : ∃ r : Fin 32, y = bij1 r := ⟨_, eq_bij1 y⟩
  have hn : (⟨(i 0).val, idx2_lt0 i⟩ : Fin 2048).val = 32 * t + r.val := hi
  refine (pay4_apply v0 r).trans ?_
  unfold lseArr
  rw [bMax_eq x v0 t hv r _ hn, bSumExp_eq x v0 t hv r _ hn]

/-- What the body stores for the weighted loss at an index of its block is `weightedArr` at the array index over it,
    the target and weight blocks holding the same rows of their arrays. -/
theorem weighted_point (tg : S2048x1.Idx → BitVec 32) (w : S2048x1.Idx → EReal) (v14 : IVec S32x1 32) (v25 : FVec Ideal S32x1 .f32)
    (ht : ∀ (r : Fin 32) (n : Fin 2048), n.val = 32 * t + r.val → v14 (bij1 r) = tg (ij1 n))
    (hw : ∀ (r : Fin 32) (n : Fin 2048), n.val = 32 * t + r.val → v25 (bij1 r) = w (ij1 n))
    (y : S32x1.Idx) (i : S2048x1.Idx) (hi : (i 0).val = 32 * t + (y 0).val) :
    k0_pay5 (F := Ideal) v0 v14 v25 y = weightedArr x tg w i := by
  obtain ⟨r, rfl⟩ : ∃ r : Fin 32, y = bij1 r := ⟨_, eq_bij1 y⟩
  have hn : (⟨(i 0).val, idx2_lt0 i⟩ : Fin 2048).val = 32 * t + r.val := hi
  refine (pay5_apply v0 v14 v25 r).trans ?_
  unfold weightedArr
  rw [bMax_eq x v0 t hv r _ hn, bSumExp_eq x v0 t hv r _ hn, ht r _ hn, hw r _ hn]
  refine congrArg (fun s : EReal => s * w (ij1 ⟨(i 0).val, idx2_lt0 i⟩))
    (Finset.sum_congr (s₁ := (Finset.univ : Finset (Fin 30522))) rfl fun k _ => ?_)
  rw [hv r k _ hn]

end Point

/-! ## From the blocks to the arrays -/

variable (m : (ℓ : Loc nD τ sig) → Buf (Elt Ideal) ℓ)

/-- The three arrays the call reads, as the region finds them. -/
abbrev xA (c : Dev nD) : S2048x30522.Idx → EReal := V m c main_arg0
abbrev tA (c : Dev nD) : S2048x1.Idx → BitVec 32 := V m c main_v98
abbrev wA (c : Dev nD) : S2048x1.Idx → EReal := V m c main_v99

/-- The zero offsets of the body's whole-block accesses. -/
theorem hz : (![0, 0] : Fin 2 → Nat) = fun _ => 0 := funext fun a => by fin_cases a <;> rfl

/-- Every window's block at point `t` is row block `t`, column block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of the logits' block at point `t` is row `32 t + r` of the logits. -/
theorem blk0_apply (c : Dev nD) (t : Fin cfg0.N) (r : Fin 32) (k : Fin 30522) (n : Fin 2048) (hn : n.val = 32 * t.val + r.val) :
    (iblk m c 0 t : Vec Ideal S32x30522 .f32) (bij r k) = xA m c (ij n k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 32 + 1 * r.val = n.val; rw [e0, hn]; omega
  | ⟨1, _⟩ => show win0_0.index t (1 : Fin 2) * 30522 + 1 * k.val = k.val; rw [e1]; omega

/-- Row `r` of the targets' block at point `t` is row `32 t + r` of the targets. -/
theorem blk1_apply (c : Dev nD) (t : Fin cfg0.N) (r : Fin 32) (n : Fin 2048) (hn : n.val = 32 * t.val + r.val) :
    (iblk m c 1 t : Vec Ideal S32x1 .i32) (bij1 r) = tA m c (ij1 n) := by
  obtain ⟨-, -, e0, e1, -⟩ := idx_facts t
  unfold iblk
  rw [View.read_apply]
  show V m c main_v98 _ = V m c main_v98 _
  congr 1
  funext a
  apply Fin.ext
  match a with
  | ⟨0, _⟩ => show win0_1.index t (0 : Fin 2) * 32 + 1 * r.val = n.val; rw [e0, hn]; omega
  | ⟨1, _⟩ => show win0_1.index t (1 : Fin 2) * 1 + 1 * 0 = 0; rw [e1]

/-- Row `r` of the weights' block at point `t` is row `32 t + r` of the weights. -/
theorem blk2_apply (c : Dev nD) (t : Fin cfg0.N) (r : Fin 32) (n : Fin 2048) (hn : n.val = 32 * t.val + r.val) :
    (iblk m c 2 t : Vec Ideal S32x1 .f32) (bij1 r) = wA m c (ij1 n) := by
  obtain ⟨-, -, -, -, e0, e1, -⟩ := idx_facts t
  unfold iblk
  rw [View.read_apply]
  show V m c main_v99 _ = V m c main_v99 _
  congr 1
  funext a
  apply Fin.ext
  match a with
  | ⟨0, _⟩ => show win0_2.index t (0 : Fin 2) * 32 + 1 * r.val = n.val; rw [e0, hn]; omega
  | ⟨1, _⟩ => show win0_2.index t (1 : Fin 2) * 1 + 1 * 0 = 0; rw [e1]

/-- What point `t` writes back to the fifth window's array is block `t` of `lseArr`. -/
theorem flushed4_eq (c : Dev nD) (t : Fin cfg0.N) :
    (dats m 0 c).flushed 4 t = ((cfg0.win 4).blk t).view.read (Elt Ideal) (lseArr (xA m c)) := by
  show (cfg0.win 4).cut (grid0.coords t) ((dats m 0 c).after 4 t) = _
  rw [after0_4]
  unfold out0_4
  rw [View.canon_unit_zero hz]
  simp only [View.ld_unit_zero (S := S32x30522) hz]
  obtain ⟨-, -, -, -, -, -, -, -, e0, e1⟩ := idx_facts t
  funext j
  show k0_pay4 (F := Ideal) (iblk m c 0 t) j = lseArr (xA m c) (((cfg0.win 4).blk t).view.emb j)
  refine lse_point (xA m c) (iblk m c 0 t) t.val (fun r k n hn => blk0_apply m c t r k n hn) j _ ?_
  show win0_4.index t (0 : Fin 2) * 32 + 1 * (j 0).val = 32 * t.val + (j 0).val
  rw [e0]; omega

/-- What point `t` writes back to the fourth window's array is block `t` of `weightedArr`. -/
theorem flushed3_eq (c : Dev nD) (t : Fin cfg0.N) :
    (dats m 0 c).flushed 3 t = ((cfg0.win 3).blk t).view.read (Elt Ideal) (weightedArr (xA m c) (tA m c) (wA m c)) := by
  show (cfg0.win 3).cut (grid0.coords t) ((dats m 0 c).after 3 t) = _
  rw [after0_3]
  unfold out0_3
  rw [View.canon_unit_zero hz]
  simp only [View.ld_unit_zero (S := S32x30522) hz, View.ld_unit_zero (S := S32x1) hz]
  obtain ⟨-, -, -, -, -, -, e0, e1, -⟩ := idx_facts t
  funext j
  show k0_pay5 (F := Ideal) (iblk m c 0 t) (iblk m c 1 t) (iblk m c 2 t) j
    = weightedArr (xA m c) (tA m c) (wA m c) (((cfg0.win 3).blk t).view.emb j)
  refine weighted_point (xA m c) (iblk m c 0 t) t.val (fun r k n hn => blk0_apply m c t r k n hn) (tA m c) (wA m c)
    (iblk m c 1 t) (iblk m c 2 t) (fun r n hn => blk1_apply m c t r n hn) (fun r n hn => blk2_apply m c t r n hn) j _ ?_
  show win0_3.index t (0 : Fin 2) * 32 + 1 * (j 0).val = 32 * t.val + (j 0).val
  rw [e0]; omega

/-- An index of a result array lies in point `t`'s block iff each coordinate lies in the block's range on its axis. -/
theorem mem_blk4 (t : Fin cfg0.N) (i : S2048x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v100_1).slice (win0_4.rect t)).set ↔ _
  rw [View.set_slice_whole, Rect.mem_set_unit]
  exact Iff.rfl

theorem mem_blk3 (t : Fin cfg0.N) (i : S2048x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v100_0).slice (win0_3.rect t)).set ↔ _
  rw [View.set_slice_whole, Rect.mem_set_unit]
  exact Iff.rfl

/-- Row `n` is in row block `n / 32`, one of the 64. -/
theorem rowPoint (i : S2048x1.Idx) : (i 0).val / 32 < cfg0.N := by
  have hN : cfg0.N = 64 := N_0
  have hi0 : (i 0).val < 2048 := idx2_lt0 i
  omega

/-- Every index of a result array lies in the block of the point its row belongs to. -/
theorem cover4 (i : S2048x1.Idx) : ∃ t : Fin cfg0.N, (cfg0.win 4).flush t = true ∧ i ∈ ((cfg0.win 4).blk t).view.set := by
  have hi1 : (i 1).val < 1 := idx2_lt1 i
  refine ⟨⟨(i 0).val / 32, rowPoint i⟩, flush0_4 _, ?_⟩
  rw [mem_blk4]
  obtain ⟨-, -, -, -, -, -, -, -, e0, e1⟩ := idx_facts ⟨(i 0).val / 32, rowPoint i⟩
  intro a
  match a with
  | ⟨0, _⟩ =>
    show win0_4.index ⟨(i 0).val / 32, rowPoint i⟩ (0 : Fin 2) * 32 ≤ (i 0).val ∧ (i 0).val < win0_4.index ⟨(i 0).val / 32, rowPoint i⟩ (0 : Fin 2) * 32 + 32
    rw [e0]; show (i 0).val / 32 * 32 ≤ (i 0).val ∧ (i 0).val < (i 0).val / 32 * 32 + 32; omega
  | ⟨1, _⟩ =>
    show win0_4.index ⟨(i 0).val / 32, rowPoint i⟩ (1 : Fin 2) * 1 ≤ (i 1).val ∧ (i 1).val < win0_4.index ⟨(i 0).val / 32, rowPoint i⟩ (1 : Fin 2) * 1 + 1
    rw [e1]; omega

theorem cover3 (i : S2048x1.Idx) : ∃ t : Fin cfg0.N, (cfg0.win 3).flush t = true ∧ i ∈ ((cfg0.win 3).blk t).view.set := by
  have hi1 : (i 1).val < 1 := idx2_lt1 i
  refine ⟨⟨(i 0).val / 32, rowPoint i⟩, flush0_3 _, ?_⟩
  rw [mem_blk3]
  obtain ⟨-, -, -, -, -, -, e0, e1, -⟩ := idx_facts ⟨(i 0).val / 32, rowPoint i⟩
  intro a
  match a with
  | ⟨0, _⟩ =>
    show win0_3.index ⟨(i 0).val / 32, rowPoint i⟩ (0 : Fin 2) * 32 ≤ (i 0).val ∧ (i 0).val < win0_3.index ⟨(i 0).val / 32, rowPoint i⟩ (0 : Fin 2) * 32 + 32
    rw [e0]; show (i 0).val / 32 * 32 ≤ (i 0).val ∧ (i 0).val < (i 0).val / 32 * 32 + 32; omega
  | ⟨1, _⟩ =>
    show win0_3.index ⟨(i 0).val / 32, rowPoint i⟩ (1 : Fin 2) * 1 ≤ (i 1).val ∧ (i 1).val < win0_3.index ⟨(i 0).val / 32, rowPoint i⟩ (1 : Fin 2) * 1 + 1
    rw [e1]; omega

/-- The fifth window's array after the run: each row's maximum plus the logarithm of its sum of exponentials. -/
theorem arr4 (c : Dev nD) : (dats m 0 c).arrAt 4 cfg0.N = lseArr (xA m c) :=
  (dats m 0 c).arrAt_eq_of_cover 4 (lseArr (xA m c)) (fun t _ => flushed4_eq m c t) cover4

/-- The fourth window's array after the run: each row's weighted smoothed cross-entropy. -/
theorem arr3 (c : Dev nD) : (dats m 0 c).arrAt 3 cfg0.N = weightedArr (xA m c) (tA m c) (wA m c) :=
  (dats m 0 c).arrAt_eq_of_cover 3 (weightedArr (xA m c) (tA m c) (wA m c)) (fun t _ => flushed3_eq m c t) cover3

/-- The log-sum-exp array at row `n`. -/
theorem arr_lse (c : Dev nD) (n : Fin 2048) :
    ((dats (F := Ideal) m 0 c).arrAt 4 cfg0.N : S2048x1.Idx → EReal) (ij1 n)
      = rowMax (xA m c) n + Ideal.log (rowSumExp (xA m c) n) :=
  congrFun (arr4 m c) (ij1 n)

/-- The weighted-loss array at row `n`. -/
theorem arr_weighted (c : Dev nD) (n : Fin 2048) :
    ((dats (F := Ideal) m 0 c).arrAt 3 cfg0.N : S2048x1.Idx → EReal) (ij1 n)
      = (∑ k : Fin 30522, (0 - (D2 + onehot (tA m c (ij1 n)) k * kap))
          * ((xA m c (ij n k) - rowMax (xA m c) n) - Ideal.log (rowSumExp (xA m c) n))) * wA m c (ij1 n) :=
  congrFun (arr3 m c) (ij1 n)

end Cert.KernelIdeal.Arr

end
-- ==== Proof.KernelGlue.lean ====
import proofs.«425233_j52278341926994_2_alg».proof.Proof.KernelRun
import proofs.«425233_j52278341926994_2_alg».proof.Proof.KernelTail
import proofs.«425233_j52278341926994_2_alg».proof.Proof.KernelPre
import proofs.«425233_j52278341926994_2_alg».proof.Proof.KernelReshape
import proofs.«425233_j52278341926994_2_alg».proof.Proof.KernelArrays

/-!
# The kernel program's three results over what the region and the lines before it left

After the region the contents are the region's arrays over the contents at its entry. The likelihood term sums the region's
per-row losses over the gathered class weights; the unlikelihood term reads the logits, the index pairs built from the
candidates, the region's log-sum-exp column and the candidates' weights; the total adds the two.
-/

set_option maxRecDepth 16384

noncomputable section

namespace Cert.KernelIdeal.Glue

open Idealize.ShloMosaic Idealize.ShloMosaic.TcCoe Idealize.ShloMosaic.StableHlo Cert.KernelIdeal Cert.KernelIdeal.Gen
open Cert.KernelIdeal.Hand Cert.KernelIdeal.Tail Cert.KernelIdeal.Pre

variable (m : (ℓ : Loc nD τ sig) → Buf (Elt Ideal) ℓ) (c : Dev nD)

/-- The likelihood term: the sum of the region's per-row losses over the sum of the gathered class weights. -/
theorem v103 : Wfin m c (Proc.devRef .tc main_v103)
    = Host.divf (F := Ideal) (Host.reduceAdd ((dats m 0 c).arrAt 3 cfg0.N) (constant S_ .f32 0x00000000#32) reducesTo_S2048x1_S_d0_1 h_S_)
        (Host.reduceAdd (V0 m c (Proc.devRef .tc main_v97)) (constant S_ .f32 0x00000000#32) reducesTo_S2048_S_d0 h_S_) := by
  unfold Wfin
  rw [v103_eq, start_v100_0, start_off_out m c main_v97 (by decide) (by decide)]

/-- The unlikelihood term. -/
theorem v132 : Wfin m c (Proc.devRef .tc main_v132)
    = ulK (F := Ideal) (m ((c : Thread nD τ).loc main_arg0)) (idxOf (V0 m c (Proc.devRef .tc main_v90))) ((dats m 0 c).arrAt 4 cfg0.N)
        (V0 m c (Proc.devRef .tc main_v88)) := by
  unfold Wfin
  rw [v132_eq, idx_eq, start_v100_1, start_off_out m c main_v88 (by decide) (by decide),
    start_off_out m c main_v90 (by decide) (by decide), start_off_out m c main_arg0 (by decide) (by decide)]
  exact congrArg (fun x => ulK (F := Ideal) x _ _ _) (V_main_arg0 m c)

/-- The total. -/
theorem v134 : Wfin m c (Proc.devRef .tc main_v134)
    = addf (F := Ideal) (Wfin m c (Proc.devRef .tc main_v103)) (mulf (constant S_ .f32 0x3F800000#32) (Wfin m c (Proc.devRef .tc main_v132))) := by
  unfold Wfin
  exact v134_eq _

/-! ## What the lines before the region leave in the weights and the two columns -/

set_option maxHeartbeats 40000000 in
theorem pre_split : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (HloOp τ sig (Elt Ideal)))
    = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] ++ hostOps0_21 := by
  simp only [List.flatten_cons, List.flatten_nil, List.append_nil, List.append_assoc]

/-- The contents before the last generated list. -/
abbrev Y21 : Valuation τ sig (Elt Ideal) :=
  after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))

theorem V0_eq : V0 m c = after hostOps0_21 (Y21 m c) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) = _
  rw [pre_split, Pre.after_append]

set_option maxHeartbeats 40000000 in
theorem keep21 (Y : Valuation τ sig (Elt Ideal)) :
    after (hostOps0_21 (F := Ideal)) Y (Proc.devRef .tc main_arg1) = Y (Proc.devRef .tc main_arg1)
    ∧ after (hostOps0_21 (F := Ideal)) Y (Proc.devRef .tc main_arg5) = Y (Proc.devRef .tc main_arg5) := by
  constructor <;> after_results_simp

theorem Y21_arg1 : Y21 m c (Proc.devRef .tc main_arg1) = m ((c : Thread nD τ).loc main_arg1) := by
  have h := V_main_arg1 m c
  change V0 m c (Proc.devRef .tc main_arg1) = _ at h
  rw [V0_eq, (keep21 _).1] at h
  exact h

theorem Y21_arg5 : Y21 m c (Proc.devRef .tc main_arg5) = m ((c : Thread nD τ).loc main_arg5) := by
  have h := V_main_arg5 m c
  change V0 m c (Proc.devRef .tc main_arg5) = _ at h
  rw [V0_eq, (keep21 _).2] at h
  exact h

set_option maxHeartbeats 40000000 in
/-- The gathered class weights. -/
theorem V0_v97 : V0 m c (Proc.devRef .tc main_v97)
    = wOfK (F := Ideal) (m ((c : Thread nD τ).loc main_arg5)) (m ((c : Thread nD τ).loc main_arg1)) := by
  rw [V0_eq, hostOps0_21_eq, Pre.after_append, w_v97]
  have e1 : after (K90 (F := Ideal)) (Y21 m c) (Proc.devRef .tc main_arg1) = Y21 m c (Proc.devRef .tc main_arg1) := by after_results_simp
  have e5 : after (K90 (F := Ideal)) (Y21 m c) (Proc.devRef .tc main_arg5) = Y21 m c (Proc.devRef .tc main_arg5) := by after_results_simp
  rw [e1, e5, Y21_arg1, Y21_arg5]

/-- The targets' column, read at row `n`, is the target of row `n`. -/
theorem tA_apply (n : Fin 2048) : Cert.KernelIdeal.Arr.tA m c (Cert.KernelIdeal.Arr.ij1 n)
    = (m ((c : Thread nD τ).loc main_arg1) : IVec S2048 32) (Shape.Idx.ofFin n) := by
  show V0 m c (Proc.devRef .tc main_v98) (Idealize.ShloMosaic.ValueIdx.ix2 n (0 : Fin 1)) = _
  rw [V0_eq, Cert.KernelIdeal.Reshape.v98_apply, Y21_arg1]

/-- The weights' column, read at row `n`, is the gathered class weight of row `n`. -/
theorem wA_apply (n : Fin 2048) : Cert.KernelIdeal.Arr.wA m c (Cert.KernelIdeal.Arr.ij1 n)
    = wOfK (F := Ideal) (m ((c : Thread nD τ).loc main_arg5)) (m ((c : Thread nD τ).loc main_arg1)) (Shape.Idx.ofFin n) := by
  show V0 m c (Proc.devRef .tc main_v99) (Idealize.ShloMosaic.ValueIdx.ix2 n (0 : Fin 1)) = _
  rw [← V0_v97, V0_eq, Cert.KernelIdeal.Reshape.v99_apply]

/-- The logits as the region finds them are the logits as launched. -/
theorem xA_eq : Cert.KernelIdeal.Arr.xA m c = m ((c : Thread nD τ).loc main_arg0) := V_main_arg0 m c

end Cert.KernelIdeal.Glue

end
-- ==== Proof.RefRead.lean ====
/-
  The reference program's smoothed target distribution and its log-softmax, read at an index, at the ideal values
  (floats as extended reals, every operation exact). Pure statements about the terms the program's operations build;
  no run and no memory appears here.

  First, in general: a set-scatter whose update indices land on pairwise distinct elements holds, at each element, the
  update that lands there, and the operand's element where none does (the definition is a left fold over the update
  indices; under the hypothesis the order is immaterial). Then this program's scatter: row `n` of the scatter indices
  is `(n, target n)`, so update `n` lands on `(n, target n)`, and the scattered array is the confidence at the target's
  column and the smoothing value elsewhere. Last the log-softmax: the entry less the row's maximum, less the logarithm of
  the row's sum of exponentials of the entries so shifted.
-/
import proofs.«425233_j52278341926994_2_alg».proof.Proof.Gen.ReferenceIdeal
import Idealize.ShloMosaic.PureOps.Ideal.Laws
import Idealize.ShloMosaic.Lib.ValueIdx
import Idealize.ShloMosaic.Lib.IdealHost
import Idealize.ShloMosaic.Lib.StableHlo.Predicate
import Idealize.ShloMosaic.Lib.Pipeline.Value

namespace Idealize.ShloMosaic

/-- The fold a scatter is, at an element no update of the list lands on, leaves the element as it was (any body). -/
theorem Host.scatter_foldl_miss {α : Type} {s si u : Shape} {w : Nat} (d : ScatterDims s si u) (f : α → α → α)
    (x : s.Idx → α) (idx : IVec si w) (upd : u.Idx → α) (i : s.Idx) (l : List (Fin u.numel))
    (h : ∀ n ∈ l, d.resultIdx? (u.rowMajor.symm n) idx ≠ some i) :
    l.foldl (fun r n =>
        match d.resultIdx? (u.rowMajor.symm n) idx with
        | some i => fun i' => if i' = i then f (r i) (upd (u.rowMajor.symm n)) else r i'
        | none => r) x i = x i := by
  induction l using List.reverseRecOn with
  | nil => rfl
  | append_singleton l m ih =>
    have ih' := ih fun n hn => h n (List.mem_append_left _ hn)
    have hm := h m (List.mem_append_right _ (List.mem_singleton_self m))
    rw [List.foldl_append, List.foldl_cons, List.foldl_nil]
    cases h0 : d.resultIdx? (u.rowMajor.symm m) idx with
    | none => exact ih'
    | some i0 =>
      have hne : i ≠ i0 := fun e => hm (e ▸ h0)
      show (if i = i0 then _ else _) = _
      rw [if_neg hne]; exact ih'

/-- The fold a set-scatter is (its body returns the update), at an element an update of the list lands on, holds that
    update, when no two update indices land on one element. -/
theorem Host.scatter_foldl_hit {α : Type} {s si u : Shape} {w : Nat} (d : ScatterDims s si u)
    (x : s.Idx → α) (idx : IVec si w) (upd : u.Idx → α)
    (hinj : ∀ p q i, d.resultIdx? p idx = some i → d.resultIdx? q idx = some i → p = q)
    (i : s.Idx) (l : List (Fin u.numel)) (n : Fin u.numel) (hn : n ∈ l)
    (hi : d.resultIdx? (u.rowMajor.symm n) idx = some i) :
    l.foldl (fun r n =>
        match d.resultIdx? (u.rowMajor.symm n) idx with
        | some i => fun i' => if i' = i then (fun _ b => b) (r i) (upd (u.rowMajor.symm n)) else r i'
        | none => r) x i = upd (u.rowMajor.symm n) := by
  induction l using List.reverseRecOn with
  | nil => exact absurd hn (List.not_mem_nil)
  | append_singleton l m ih =>
    rw [List.foldl_append, List.foldl_cons, List.foldl_nil]
    by_cases hnm : n = m
    · subst hnm
      rw [hi]
      show (if i = i then _ else _) = _
      rw [if_pos rfl]
    · have hnl : n ∈ l := by
        rcases List.mem_append.1 hn with h | h
        · exact h
        · exact absurd (List.mem_singleton.1 h) hnm
      cases h0 : d.resultIdx? (u.rowMajor.symm m) idx with
      | none => exact ih hnl
      | some i0 =>
        have hne : i ≠ i0 := fun e => hnm (u.rowMajor.symm.injective (hinj _ _ i hi (e ▸ h0)))
        show (if i = i0 then _ else _) = _
        rw [if_neg hne]; exact ih hnl

/-- A set-scatter (`x.at[idx].set(upd)`: the body returns the update) whose update indices land on pairwise distinct
    elements, read at an element: the update that lands there. -/
theorem Host.scatter_set_apply_of_hit {α : Type} {s si u : Shape} {w : Nat} (d : ScatterDims s si u)
    (x : s.Idx → α) (idx : IVec si w) (upd : u.Idx → α)
    (hinj : ∀ p q i, d.resultIdx? p idx = some i → d.resultIdx? q idx = some i → p = q)
    (i : s.Idx) (p : u.Idx) (hp : d.resultIdx? p idx = some i) :
    Host.scatter d (fun _ b => b) x idx upd i = upd p := by
  have h := Host.scatter_foldl_hit d x idx upd hinj i (List.finRange u.numel) (u.rowMajor p) (List.mem_finRange _)
    (by rw [Equiv.symm_apply_apply]; exact hp)
  rw [Equiv.symm_apply_apply] at h
  exact h

/-- A scatter read at an element no update lands on: the operand's element (any body). -/
theorem Host.scatter_apply_of_miss {α : Type} {s si u : Shape} {w : Nat} (d : ScatterDims s si u) (f : α → α → α)
    (x : s.Idx → α) (idx : IVec si w) (upd : u.Idx → α) (i : s.Idx)
    (h : ∀ p, d.resultIdx? p idx ≠ some i) :
    Host.scatter d f x idx upd i = x i :=
  Host.scatter_foldl_miss d f x idx upd i _ fun n _ => h _

/-- A set-scatter (`x.at[idx].set(upd)`: the body returns the update) whose update indices land on pairwise distinct
    elements of the operand, read at an element `i`: the update whose index lands on `i` when there is one, the operand's
    element when there is none. The definition folds over the update indices in row-major order; under the hypothesis
    the order does not matter. -/
theorem Host.scatter_set_apply {α : Type} {s si u : Shape} {w : Nat} (d : ScatterDims s si u)
    (x : s.Idx → α) (idx : IVec si w) (upd : u.Idx → α)
    (hinj : ∀ p q i, d.resultIdx? p idx = some i → d.resultIdx? q idx = some i → p = q)
    (i : s.Idx) [Decidable (∃ p, d.resultIdx? p idx = some i)] :
    Host.scatter d (fun _ b => b) x idx upd i
      = if h : ∃ p, d.resultIdx? p idx = some i then upd h.choose else x i := by
  split
  · next h => exact Host.scatter_set_apply_of_hit d x idx upd hinj i h.choose h.choose_spec
  · next h => exact Host.scatter_apply_of_miss d _ x idx upd i fun p hp => h ⟨p, hp⟩

end Idealize.ShloMosaic

namespace Cert.ReferenceIdeal.Read

open Idealize.ShloMosaic Idealize.ShloMosaic.StableHlo.Predicate Cert.ReferenceIdeal Cert.ReferenceIdeal.Facts₀
open scoped BigOperators

section
variable [Facts₀]

/-! ## The log-softmax function's result read at an index -/

/-- The maximum of row `n`: the fold of `max` from `-∞` over the row's entries. -/
noncomputable def rowMax (x : FVec Ideal S2048x30522 .f32) (n : Fin 2048) : EReal :=
  (Finset.univ : Finset (Fin 30522)).fold max ⊥ (fun c => x (ij n c))

/-- The row maxima as the function computes them: the reduction from `-∞`, then the maximum with a `-∞` splat. -/
noncomputable def lsmMax (x : FVec Ideal S2048x30522 .f32) : FVec Ideal S2048 .f32 :=
  maximumf (broadcastInDim S2048 ![] bcast_S_S2048 (constant (F := Ideal) S_ .f32 0xFF800000#32))
    (Host.reduce FloatOps.maximumf x (constant (F := Ideal) S_ .f32 0xFF800000#32) reducesTo_S2048x30522_S2048_d1 h_S_)

/-- The entries shifted by their row's maximum. -/
noncomputable def lsmShift (x : FVec Ideal S2048x30522 .f32) : FVec Ideal S2048x30522 .f32 :=
  subf x (broadcastInDim S2048x30522 ![0, 1] bcast_S2048x1_S2048x30522_0_1
    (broadcastInDim S2048x1 ![0] bcast_S2048_S2048x1_0 (lsmMax x)))

/-- The row sums of the exponentials of the shifted entries. -/
noncomputable def lsmSum (x : FVec Ideal S2048x30522 .f32) : FVec Ideal S2048 .f32 :=
  Host.reduceAdd (Host.exp (lsmShift x)) (constant (F := Ideal) S_ .f32 0x00000000#32) reducesTo_S2048x30522_S2048_d1 h_S_

/-- The log-softmax as the function's body computes it, operation by operation. -/
noncomputable def lsm (x : FVec Ideal S2048x30522 .f32) : FVec Ideal S2048x30522 .f32 :=
  subf (lsmShift x) (broadcastInDim S2048x30522 ![0, 1] bcast_S2048x1_S2048x30522_0_1
    (Host.log (broadcastInDim S2048x1 ![0] bcast_S2048_S2048x1_0 (lsmSum x))))

/-- A `Reduces` witness at the reduction's shapes, naming the index inserted on the reduced axis. -/
theorem reduces_rows : S2048x30522.Reduces [1] S2048 := by decide

theorem lift_eq (n : Fin 2048) (c : Fin 30522) :
    reduces_rows.lift (Shape.Idx.ofFin n) c = ij n c := by
  funext a
  match a with
  | ⟨0, _⟩ => exact Fin.ext rfl
  | ⟨1, _⟩ => exact Fin.ext rfl

theorem hostExp_apply {s : Shape} (v : FVec Ideal s .f32) (i : s.Idx) : Host.exp v i = Ideal.exp (v i) := rfl

theorem hostLog_apply {s : Shape} (v : FVec Ideal s .f32) (i : s.Idx) : Host.log v i = Ideal.log (v i) := rfl

theorem ofBits_neg_inf : Ideal.ofBits .f32 0xFF800000#32 = ⊥ := by simp [Ideal.ofBits, Ideal.ieee]

theorem lsmMax_apply (x : FVec Ideal S2048x30522 .f32) (n : Fin 2048) :
    lsmMax x (Shape.Idx.ofFin n) = rowMax x n := by
  unfold lsmMax
  rw [ValueIdx.maximumf_apply, bcast_scalar _ h_S_, ValueIdx.constant_apply, ofBits_neg_inf, bot_sup_eq,
    Host.reduce_eq_fold_single FloatOps.maximumf x _ reducesTo_S2048x30522_S2048_d1 reduces_rows h_S_,
    ValueIdx.constant_apply, ofBits_neg_inf]
  unfold rowMax
  have : (x ∘ reduces_rows.lift (Shape.Idx.ofFin n)) = fun c : Fin 30522 => x (ij n c) := by
    funext c; exact congrArg x (lift_eq n c)
  rw [this]; rfl

theorem lsmShift_apply (x : FVec Ideal S2048x30522 .f32) (n : Fin 2048) (c : Fin 30522) :
    lsmShift x (ij n c) = x (ij n c) - rowMax x n := by
  unfold lsmShift
  rw [ValueIdx.subf_apply, bcast_rows, lsmMax_apply]

theorem lsmSum_apply (x : FVec Ideal S2048x30522 .f32) (n : Fin 2048) :
    lsmSum x (Shape.Idx.ofFin n) = ∑ c : Fin 30522, Ideal.exp (x (ij n c) - rowMax x n) := by
  unfold lsmSum
  rw [ValueIdx.hostReduceAdd_apply, Ideal.hostReduceAdd_single reducesTo_S2048x30522_S2048_d1 reduces_rows,
    ValueIdx.constant_apply, Ideal.ofBits_zero_f32, zero_add]
  show (∑ c : Fin 30522, Host.exp (lsmShift x) (reduces_rows.lift (Shape.Idx.ofFin n) c)) = _
  refine Finset.sum_congr rfl fun c _ => ?_
  rw [lift_eq, hostExp_apply, lsmShift_apply]

/-- The function's result at row `n`, column `c`: the entry less its row's maximum, less the logarithm of the row's sum of
    exponentials of the entries so shifted. -/
theorem logsoftmax_apply (x : FVec Ideal S2048x30522 .f32) (n : Fin 2048) (c : Fin 30522) :
    lsm x (ij n c) = (x (ij n c) - rowMax x n) - Ideal.log (∑ c' : Fin 30522, Ideal.exp (x (ij n c') - rowMax x n)) := by
  unfold lsm
  rw [ValueIdx.subf_apply, lsmShift_apply, bcast_of_col, hostLog_apply, bcast_col1, lsmSum_apply]

end

end Cert.ReferenceIdeal.Read

namespace Cert.ReferenceIdeal.Read

open Idealize.ShloMosaic Idealize.ShloMosaic.StableHlo.Predicate Cert.ReferenceIdeal Cert.ReferenceIdeal.Facts₀

section
variable [Facts₀]

/-- This scatter has no window axes: the window coordinate is zero on both operand axes. -/
theorem sc_window (j : S2048.Idx) (a : Fin 2) :
    scatter_S2048x30522_S2048x2_S2048_n_01_01_1.window j a = 0 := by
  unfold ScatterDims.window
  have h : ∀ a : Fin 2, a ∉ S2048x30522.kept [0, 1] := by decide
  exact dif_neg (h a)

/-- The start on the operand's row axis: the scatter indices' first component at the update's row. -/
theorem sc_start0 (idx : IVec S2048x2 32) (n : Fin 2048) :
    scatter_S2048x30522_S2048x2_S2048_n_01_01_1.start (Shape.Idx.ofFin n) idx (0 : Fin 2) = (idx (ij n (0 : Fin 2))).toInt := by
  unfold ScatterDims.start
  have h : (0 : Fin 2) ∈ scatter_S2048x30522_S2048x2_S2048_n_01_01_1.scatterDimsToOperandDims := by
    show (0 : Fin 2) ∈ ([0, 1] : List (Fin 2)); decide
  rw [dif_pos h]
  congr 2
  funext b
  match b with
  | ⟨0, _⟩ => rfl
  | ⟨1, _⟩ => rfl

/-- The start on the operand's column axis: the scatter indices' second component at the update's row. -/
theorem sc_start1 (idx : IVec S2048x2 32) (n : Fin 2048) :
    scatter_S2048x30522_S2048x2_S2048_n_01_01_1.start (Shape.Idx.ofFin n) idx (1 : Fin 2) = (idx (ij n (1 : Fin 2))).toInt := by
  unfold ScatterDims.start
  have h : (1 : Fin 2) ∈ scatter_S2048x30522_S2048x2_S2048_n_01_01_1.scatterDimsToOperandDims := by
    show (1 : Fin 2) ∈ ([0, 1] : List (Fin 2)); decide
  rw [dif_pos h]
  congr 2
  funext b
  match b with
  | ⟨0, _⟩ => rfl
  | ⟨1, _⟩ => rfl

/-- Where update `n` of this scatter lands, for scatter indices whose row `n` is `(n, t)` with `0 ≤ t < 30522`. -/
theorem sc_resultIdx (idx : IVec S2048x2 32) (n : Fin 2048)
    (h0 : idx (ij n (0 : Fin 2)) = BitVec.ofNat 32 n.val)
    (h1 : 0 ≤ (idx (ij n (1 : Fin 2))).toInt ∧ (idx (ij n (1 : Fin 2))).toInt < 30522) :
    scatter_S2048x30522_S2048x2_S2048_n_01_01_1.resultIdx? (Shape.Idx.ofFin n) idx
      = some (ij n ⟨(idx (ij n (1 : Fin 2))).toInt.toNat, by omega⟩) := by
  have hn : (BitVec.ofNat 32 n.val).toInt = n.val := toInt_ofNat_small _ (by have := n.isLt; omega)
  have e0 : scatter_S2048x30522_S2048x2_S2048_n_01_01_1.start (Shape.Idx.ofFin n) idx (0 : Fin 2)
      + scatter_S2048x30522_S2048x2_S2048_n_01_01_1.window (Shape.Idx.ofFin n) (0 : Fin 2) = n.val := by
    rw [sc_start0, sc_window, h0, hn]; simp
  have e1 : scatter_S2048x30522_S2048x2_S2048_n_01_01_1.start (Shape.Idx.ofFin n) idx (1 : Fin 2)
      + scatter_S2048x30522_S2048x2_S2048_n_01_01_1.window (Shape.Idx.ofFin n) (1 : Fin 2) = (idx (ij n (1 : Fin 2))).toInt := by
    rw [sc_start1, sc_window]; simp
  unfold ScatterDims.resultIdx?
  rw [dif_pos]
  · congr 1
    funext a
    match a with
    | ⟨0, hlt⟩ =>
      have e0' : scatter_S2048x30522_S2048x2_S2048_n_01_01_1.start (Shape.Idx.ofFin n) idx ⟨0, hlt⟩
        + scatter_S2048x30522_S2048x2_S2048_n_01_01_1.window (Shape.Idx.ofFin n) ⟨0, hlt⟩ = n.val := e0
      apply Fin.ext; show (_ : Int).toNat = n.val; rw [e0']; simp
    | ⟨1, hlt⟩ =>
      have e1' : scatter_S2048x30522_S2048x2_S2048_n_01_01_1.start (Shape.Idx.ofFin n) idx ⟨1, hlt⟩
        + scatter_S2048x30522_S2048x2_S2048_n_01_01_1.window (Shape.Idx.ofFin n) ⟨1, hlt⟩ = (idx (ij n (1 : Fin 2))).toInt := e1
      apply Fin.ext; show (_ : Int).toNat = _; rw [e1']
  · intro a
    match a with
    | ⟨0, hlt⟩ =>
      have e0' : scatter_S2048x30522_S2048x2_S2048_n_01_01_1.start (Shape.Idx.ofFin n) idx ⟨0, hlt⟩
        + scatter_S2048x30522_S2048x2_S2048_n_01_01_1.window (Shape.Idx.ofFin n) ⟨0, hlt⟩ = n.val := e0
      rw [e0']; have := n.isLt; show (0:Int) ≤ n.val ∧ (n.val : Int) < (2048 : Nat); omega
    | ⟨1, hlt⟩ =>
      have e1' : scatter_S2048x30522_S2048x2_S2048_n_01_01_1.start (Shape.Idx.ofFin n) idx ⟨1, hlt⟩
        + scatter_S2048x30522_S2048x2_S2048_n_01_01_1.window (Shape.Idx.ofFin n) ⟨1, hlt⟩ = (idx (ij n (1 : Fin 2))).toInt := e1
      rw [e1']; exact h1

/-! ## The scatter indices the program builds, and the scattered array read at an index -/

/-- A word that reads non-negative as a signed integer is not below zero. -/
theorem cmpi_slt_zero_of_nonneg (x : BitVec 32) (h : 0 ≤ x.toInt) : IntOp.cmpi .slt x 0#32 = 0#1 := by
  have hz : (0#32 : BitVec 32).toInt = 0 := by decide
  have hs : x.slt 0#32 = false := by
    simp only [BitVec.slt, hz]; exact decide_eq_false (not_lt.2 h)
  show BitVec.ofBool (x.slt 0#32) = 0#1
  rw [hs]; rfl

/-- The row numbers as the program normalizes them: the iota, with 2048 added where it is negative (nowhere). -/
def rowIdx : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32)))
    (iotaInDim S2048 32 0)

/-- The target columns as the program normalizes them: 30522 added where the target is negative. -/
def colIdx (target : IVec S2048 32) : IVec S2048 32 :=
  select (cmpi .slt target (broadcastInDim S2048 ![] bcast_S_S2048 (constantI S_ 32 0#32)))
    (addi target (broadcastInDim S2048 ![] bcast_S_S2048 (constantI S_ 32 30522#32)))
    target

/-- The scatter indices: row `n` is the pair (row number, target column). -/
def scIdx (target : IVec S2048 32) : IVec S2048x2 32 :=
  concatenate S2048x2 1
    [⟨S2048x1, broadcastInDim S2048x1 ![0] bcast_S2048_S2048x1_0 rowIdx⟩,
     ⟨S2048x1, broadcastInDim S2048x1 ![0] bcast_S2048_S2048x1_0 (colIdx target)⟩]
    concatenates_S2048x1_S2048x1_S2048x2_d1

/-- The smoothed target distribution as the program builds it: the smoothing value everywhere, the confidence set at
    (row, target column). -/
noncomputable def td (target : IVec S2048 32) : FVec Ideal S2048x30522 .f32 :=
  Host.scatter scatter_S2048x30522_S2048x2_S2048_n_01_01_1 (fun _ b => b)
    (broadcastInDim S2048x30522 ![] bcast_S_S2048x30522 (constant (F := Ideal) S_ .f32 0x36DBE0AF#32))
    (scIdx target)
    (broadcastInDim S2048 ![] bcast_S_S2048 (constant (F := Ideal) S_ .f32 0x3F4CCCCD#32))

theorem rowIdx_apply (n : Fin 2048) : rowIdx (Shape.Idx.ofFin n) = BitVec.ofNat 32 n.val := by
  unfold rowIdx
  rw [ValueIdx.select_apply]
  have hc : cmpi .slt (iotaInDim S2048 32 0) (broadcastInDim S2048 ![] bcast_S_S2048 (constantI S_ 32 0#32))
      (Shape.Idx.ofFin n) = 0#1 := by
    show IntOp.cmpi .slt (iotaInDim S2048 32 0 (Shape.Idx.ofFin n))
      (broadcastInDim S2048 ![] bcast_S_S2048 (constantI S_ 32 0#32) (Shape.Idx.ofFin n)) = 0#1
    rw [bcast_scalar _ h_S_]
    show IntOp.cmpi .slt (BitVec.ofNat 32 n.val) 0#32 = 0#1
    exact cmpi_slt_zero_of_nonneg _ (by rw [toInt_ofNat_small _ (by have := n.isLt; omega)]; omega)
  rw [hc, ValueIdx.select_zero]; rfl

theorem colIdx_apply (target : IVec S2048 32) (j : S2048.Idx) (h : 0 ≤ (target j).toInt) :
    colIdx target j = target j := by
  unfold colIdx
  rw [ValueIdx.select_apply]
  have hc : cmpi .slt target (broadcastInDim S2048 ![] bcast_S_S2048 (constantI S_ 32 0#32)) j = 0#1 := by
    show IntOp.cmpi .slt (target j) (broadcastInDim S2048 ![] bcast_S_S2048 (constantI S_ 32 0#32) j) = 0#1
    rw [bcast_scalar _ h_S_]
    exact cmpi_slt_zero_of_nonneg _ h
  rw [hc, ValueIdx.select_zero]

theorem scIdx_apply0 (target : IVec S2048 32) (n : Fin 2048) :
    scIdx target (ij n (0 : Fin 2)) = BitVec.ofNat 32 n.val := by
  unfold scIdx
  rw [concatenate_pair_apply_left 1 _ _ concatenates_S2048x1_S2048x1_S2048x2_d1 (ij n (0 : Fin 2)) rfl (ixP n)
    (fun b => by match b with | ⟨0, _⟩ => rfl | ⟨1, _⟩ => rfl), bcast_col1, rowIdx_apply]

theorem scIdx_apply1 (target : IVec S2048 32) (n : Fin 2048) (h : 0 ≤ (target (Shape.Idx.ofFin n)).toInt) :
    scIdx target (ij n (1 : Fin 2)) = target (Shape.Idx.ofFin n) := by
  unfold scIdx
  rw [concatenate_pair_apply_right 1 _ _ concatenates_S2048x1_S2048x1_S2048x2_d1 (ij n (1 : Fin 2)) rfl rfl (ixP n)
    (fun b hb => by match b with | ⟨0, _⟩ => rfl | ⟨1, _⟩ => exact absurd rfl hb) rfl, bcast_col1, colIdx_apply _ _ h]

/-- Update `n` of the program's scatter lands on (`n`, the target's column). -/
theorem td_resultIdx (target : IVec S2048 32)
    (htgt : ∀ j : S2048.Idx, 0 ≤ (target j).toInt ∧ (target j).toInt < 30522) (n : Fin 2048) :
    scatter_S2048x30522_S2048x2_S2048_n_01_01_1.resultIdx? (Shape.Idx.ofFin n) (scIdx target)
      = some (ij n ⟨(target (Shape.Idx.ofFin n)).toInt.toNat, by have := htgt (Shape.Idx.ofFin n); omega⟩) := by
  have h1 := scIdx_apply1 target n (htgt _).1
  rw [sc_resultIdx (scIdx target) n (scIdx_apply0 target n) (by rw [h1]; exact htgt _)]
  congr 2
  apply Fin.ext
  show (scIdx target (ij n (1 : Fin 2))).toInt.toNat = _
  rw [h1]

theorem ofFin_eta (p : S2048.Idx) : Shape.Idx.ofFin (p 0) = p := by
  funext a; match a with | ⟨0, _⟩ => rfl

/-- The smoothed target distribution at row `n`, column `c`: the confidence at the target's column, the smoothing value
    elsewhere. -/
theorem td_apply (target : IVec S2048 32)
    (htgt : ∀ j : S2048.Idx, 0 ≤ (target j).toInt ∧ (target j).toInt < 30522) (n : Fin 2048) (c : Fin 30522) :
    td target (ij n c)
      = if c.val = (target (Shape.Idx.ofFin n)).toInt.toNat then Ideal.ofBits .f32 0x3F4CCCCD#32
        else Ideal.ofBits .f32 0x36DBE0AF#32 := by
  have hres : ∀ p : S2048.Idx, scatter_S2048x30522_S2048x2_S2048_n_01_01_1.resultIdx? p (scIdx target)
      = some (ij (p 0) ⟨(target p).toInt.toNat, by have := htgt p; omega⟩) := by
    intro p
    obtain ⟨m, rfl⟩ : ∃ m, p = Shape.Idx.ofFin m := ⟨p 0, (ofFin_eta p).symm⟩
    exact td_resultIdx target htgt m
  have hinj : ∀ p q i, scatter_S2048x30522_S2048x2_S2048_n_01_01_1.resultIdx? p (scIdx target) = some i →
      scatter_S2048x30522_S2048x2_S2048_n_01_01_1.resultIdx? q (scIdx target) = some i → p = q := by
    intro p q i hp hq
    rw [hres p] at hp; rw [hres q] at hq
    have e := congrFun (Option.some.inj (hp.trans hq.symm)) (0 : Fin 2)
    rw [← ofFin_eta p, ← ofFin_eta q]
    exact congrArg Shape.Idx.ofFin e
  unfold td
  by_cases hc : c.val = (target (Shape.Idx.ofFin n)).toInt.toNat
  · rw [if_pos hc, Host.scatter_set_apply_of_hit _ _ _ _ hinj _ (Shape.Idx.ofFin n)
      (by rw [td_resultIdx target htgt n]; congr 2; exact Fin.ext hc.symm),
      bcast_scalar _ h_S_, ValueIdx.constant_apply]
  · rw [if_neg hc, Host.scatter_apply_of_miss _ _ _ _ _ _ (fun p hp => by
      rw [hres p] at hp
      have e := Option.some.inj hp
      have e0 : p 0 = n := congrFun e (0 : Fin 2)
      have e1 := congrArg Fin.val (congrFun e (1 : Fin 2))
      apply hc
      rw [← ofFin_eta p, e0] at e1
      exact e1.symm),
      bcast_scalar _ h_S_, ValueIdx.constant_apply]

/-- A 32-bit word that reads non-negative as a signed integer reads the same unsigned. -/
theorem toNat_toInt_of_nonneg (x : BitVec 32) (h : 0 ≤ x.toInt) : x.toInt.toNat = x.toNat := by
  have hlt := x.isLt
  rw [BitVec.toInt_eq_toNat_cond] at h ⊢
  by_cases hc : 2 * x.toNat < 2 ^ 32
  · rw [if_pos hc]; exact Int.toNat_natCast _
  · rw [if_neg hc] at h; omega

/-- The same reading with the target's column as the word's unsigned value. -/
theorem td_apply_toNat (target : IVec S2048 32)
    (htgt : ∀ j : S2048.Idx, 0 ≤ (target j).toInt ∧ (target j).toInt < 30522) (n : Fin 2048) (c : Fin 30522) :
    td target (ij n c)
      = if c.val = (target (Shape.Idx.ofFin n)).toNat then Ideal.ofBits .f32 0x3F4CCCCD#32
        else Ideal.ofBits .f32 0x36DBE0AF#32 := by
  rw [td_apply target htgt, toNat_toInt_of_nonneg _ (htgt _).1]

end

end Cert.ReferenceIdeal.Read
-- ==== Proof.RefTail.lean ====
import proofs.«425233_j52278341926994_2_alg».proof.Proof.RefRun
import proofs.«425233_j52278341926994_2_alg».proof.Proof.RefRead

/-!
# The reference program's stretches read as terms

The reference takes the log-softmax of the logits, writes the smoothed distribution by a scatter, gathers the class
weights at the targets, and forms the likelihood term as a mean times the count over the weights' sum; after the
candidate chain it scatter-adds the candidates' weights into a dense array, multiplies by the penalties of every
class and sums. Each stretch's result is a term over the contents the stretch starts from.
-/

set_option maxRecDepth 16384

noncomputable section

namespace Cert.ReferenceIdeal.Tail

open Cert.ReferenceIdeal Cert.ReferenceIdeal.Gen Cert.ReferenceIdeal.Hand Idealize.ShloMosaic Idealize.ShloMosaic.TcCoe Idealize.ShloMosaic.StableHlo

/-- The likelihood term of the reference: per row the sum of `-td · logp`, times the row's class weight; summed,
    divided by 2048, multiplied by 2048, divided by the weights' sum. -/
def mleR (td lsm : FVec Ideal S2048x30522 .f32) (w : FVec Ideal S2048 .f32) : FVec Ideal S_ .f32 :=
  Host.divf
    (mulf
      (Host.divf
        (Host.reduceAdd
          (mulf (Host.reduceAdd (mulf (Host.negf td) lsm) (constant S_ .f32 0x00000000#32) reducesTo_S2048x30522_S2048_d1 h_S_) w)
          (constant S_ .f32 0x00000000#32) reducesTo_S2048_S_d0 h_S_)
        (constant S_ .f32 0x45000000#32))
      (constant S_ .f32 0x45000000#32))
    (Host.reduceAdd w (constant S_ .f32 0x00000000#32) reducesTo_S2048_S_d0 h_S_)

/-- The unlikelihood term of the reference: the penalty `-log (max (1 - exp logp) ε)` of every class times the dense
    scatter-added weights, summed over everything, divided by 2048. -/
def ulR (lsm sa : FVec Ideal S2048x30522 .f32) : FVec Ideal S_ .f32 :=
  Host.divf
    (Host.reduceAdd
      (mulf
        (Host.negf (Host.log (maximumf
          (subf (broadcastInDim S2048x30522 ![] bcast_S_S2048x30522 (constant S_ .f32 0x3F800000#32)) (Host.exp lsm))
          (broadcastInDim S2048x30522 ![] bcast_S_S2048x30522 (constant S_ .f32 0x3727C5AC#32)))))
        sa)
      (constant S_ .f32 0x00000000#32) reducesTo_S2048x30522_S_d0_1 h_S_)
    (constant S_ .f32 0x45000000#32)

/-- The class weights gathered at the targets (a negative target wrapped by the class count first). -/
def wOf (wt : FVec Ideal S30522 .f32) (tg : IVec S2048 32) : FVec Ideal S2048 .f32 :=
  Host.gather gather_S30522_S2048x1_S2048_n_0_n_n_0_1_1 wt
    (broadcastInDim S2048x1 ![0] bcast_S2048_S2048x1_0
      (select (cmpi .slt tg (broadcastInDim S2048 ![] bcast_S_S2048 (constantI S_ 32 0#32)))
        (addi tg (broadcastInDim S2048 ![] bcast_S_S2048 (constantI S_ 32 30522#32))) tg))

/-- The dense scatter-add of the candidates' weights at the index pairs. -/
def saR (z : FVec Ideal S2048x30522 .f32) (idx : IVec S2048x128x2 32) (nwf : FVec Ideal S2048x128 .f32) : FVec Ideal S2048x30522 .f32 :=
  Host.scatterAdd scatter_S2048x30522_S2048x128x2_S2048x128_n_01_01_2 z idx nwf

/-- The total: the likelihood term plus one times the unlikelihood term. -/
def finR (a b : FVec Ideal S_ .f32) : FVec Ideal S_ .f32 := addf a (mulf (constant S_ .f32 0x3F800000#32) b)

section Stretches
variable {F : FTy → Type} [FloatOps F]
/-- The smoothed distribution's stretch up to the two index columns, the concatenate, and the scatter. -/
abbrev td_a : List (HloOp τ sig (Elt F)) :=
  [ StableHlo.nullary main_cst (constant S_ .f32 0x36DBE0AF#32),
    StableHlo.unary main_cst main_v1 (broadcastInDim S2048x30522 ![] bcast_S_S2048x30522 : (⟨S_, .f32⟩ : BufTy).Contents (Elt F) → (⟨S2048x30522, .f32⟩ : BufTy).Contents (Elt F)),
    StableHlo.nullary main_v2 (iotaInDim S2048 32 0),
    StableHlo.nullary main_c (constantI S_ 32 0#32),
    StableHlo.unary main_c main_v3 (broadcastInDim S2048 ![] bcast_S_S2048 : (⟨S_, .i32⟩ : BufTy).Contents (Elt F) → (⟨S2048, .i32⟩ : BufTy).Contents (Elt F)),
    StableHlo.binary main_v2 main_v3 main_v4 (cmpi .slt : (⟨S2048, .i32⟩ : BufTy).Contents (Elt F) → (⟨S2048, .i32⟩ : BufTy).Contents (Elt F) → (⟨S2048, .i1⟩ : BufTy).Contents (Elt F)),
    StableHlo.nullary main_c_0 (constantI S_ 32 2048#32),
    StableHlo.unary main_c_0 main_v5 (broadcastInDim S2048 ![] bcast_S_S2048 : (⟨S_, .i32⟩ : BufTy).Contents (Elt F) → (⟨S2048, .i32⟩ : BufTy).Contents (Elt F)),
    StableHlo.binary main_v2 main_v5 main_v6 (addi : (⟨S2048, .i32⟩ : BufTy).Contents (Elt F) → (⟨S2048, .i32⟩ : BufTy).Contents (Elt F) → (⟨S2048, .i32⟩ : BufTy).Contents (Elt F)),
    StableHlo.ternary main_v4 main_v6 main_v2 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_1 (constantI S_ 32 0#32),
    StableHlo.unary main_c_1 main_v8 (broadcastInDim S2048 ![] bcast_S_S2048 : (⟨S_, .i32⟩ : BufTy).Contents (Elt F) → (⟨S2048, .i32⟩ : BufTy).Contents (Elt F)),
    StableHlo.binary main_arg1 main_v8 main_v9 (cmpi .slt : (⟨S2048, .i32⟩ : BufTy).Contents (Elt F) → (⟨S2048, .i32⟩ : BufTy).Contents (Elt F) → (⟨S2048, .i1⟩ : BufTy).Contents (Elt F)),
    StableHlo.nullary main_c_2 (constantI S_ 32 30522#32),
    StableHlo.unary main_c_2 main_v10 (broadcastInDim S2048 ![] bcast_S_S2048 : (⟨S_, .i32⟩ : BufTy).Contents (Elt F) → (⟨S2048, .i32⟩ : BufTy).Contents (Elt F)),
    StableHlo.binary main_arg1 main_v10 main_v11 (addi : (⟨S2048, .i32⟩ : BufTy).Contents (Elt F) → (⟨S2048, .i32⟩ : BufTy).Contents (Elt F) → (⟨S2048, .i32⟩ : BufTy).Contents (Elt F)),
    StableHlo.ternary main_v9 main_v11 main_arg1 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v7 main_v13 (broadcastInDim S2048x1 ![0] bcast_S2048_S2048x1_0 : (⟨S2048, .i32⟩ : BufTy).Contents (Elt F) → (⟨S2048x1, .i32⟩ : BufTy).Contents (Elt F)),
    StableHlo.unary main_v12 main_v14 (broadcastInDim S2048x1 ![0] bcast_S2048_S2048x1_0 : (⟨S2048, .i32⟩ : BufTy).Contents (Elt F) → (⟨S2048x1, .i32⟩ : BufTy).Contents (Elt F)) ]
abbrev td_b : List (HloOp τ sig (Elt F)) :=
  [ StableHlo.binary main_v13 main_v14 main_v15 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]
abbrev td_c : List (HloOp τ sig (Elt F)) :=
  [ StableHlo.nullary main_cst_3 (constant S_ .f32 0x3F4CCCCD#32),
    StableHlo.unary main_cst_3 main_v16 (broadcastInDim S2048 ![] bcast_S_S2048 : (⟨S_, .f32⟩ : BufTy).Contents (Elt F) → (⟨S2048, .f32⟩ : BufTy).Contents (Elt F)),
    StableHlo.ternary main_v1 main_v15 main_v16 main_v17 ((fun x i u => Host.scatter scatter_S2048x30522_S2048x2_S2048_n_01_01_1 (fun _ b => b) x i u) : (⟨S2048x30522, .f32⟩ : BufTy).Contents (Elt F) → (⟨S2048x2, .i32⟩ : BufTy).Contents (Elt F) → (⟨S2048, .f32⟩ : BufTy).Contents (Elt F) → (⟨S2048x30522, .f32⟩ : BufTy).Contents (Elt F)) ]
set_option maxHeartbeats 4000000 in
theorem seg_td_eq : (seg_td : List (HloOp τ sig (Elt F))) = td_a ++ (td_b ++ td_c) := rfl
end Stretches

variable (X : Valuation τ sig (Elt Ideal))

set_option maxHeartbeats 4000000 in
theorem mle_eq : after (seg_mle (F := Ideal)) X (Proc.devRef .tc main_v33)
    = mleR (X (Proc.devRef .tc main_v17)) (X (Proc.devRef .tc main_v0)) (X (Proc.devRef .tc main_v24)) := by
  after_results_simp
  rfl

set_option maxHeartbeats 4000000 in
theorem ul_eq : after (seg_ul (F := Ideal)) X (Proc.devRef .tc main_v148)
    = ulR (X (Proc.devRef .tc main_v0)) (X (Proc.devRef .tc main_v138)) := by
  after_results_simp
  rfl

set_option maxHeartbeats 4000000 in
theorem sa_eq : after (seg_sa (F := Ideal)) X (Proc.devRef .tc main_v138)
    = saR (X (Proc.devRef .tc main_v122)) (X (Proc.devRef .tc main_v137)) (X (Proc.devRef .tc main_v119)) := by
  after_results_simp
  rfl

set_option maxHeartbeats 4000000 in
theorem fin_eq : after (seg_fin (F := Ideal)) X (Proc.devRef .tc main_v150)
    = finR (X (Proc.devRef .tc main_v33)) (X (Proc.devRef .tc main_v148)) := by
  after_results_simp
  rfl

set_option maxHeartbeats 4000000 in
theorem w_eq : after (seg_w (F := Ideal)) X (Proc.devRef .tc main_v24)
    = wOf (X (Proc.devRef .tc main_arg5)) (X (Proc.devRef .tc main_arg1)) := by
  after_results_simp
  rfl

set_option maxHeartbeats 8000000 in
theorem td_eq : after (seg_td (F := Ideal)) X (Proc.devRef .tc main_v17)
    = Cert.ReferenceIdeal.Read.td (X (Proc.devRef .tc main_arg1)) := by
  rw [seg_td_eq, Hand.after_append_lines, Hand.after_append_lines]
  have e1 : after (td_a (F := Ideal)) X (Proc.devRef .tc main_v1)
      = broadcastInDim S2048x30522 ![] bcast_S_S2048x30522 (constant (F := Ideal) S_ .f32 0x36DBE0AF#32) := by
    after_results_simp
  have e13 : after (td_a (F := Ideal)) X (Proc.devRef .tc main_v13)
      = broadcastInDim S2048x1 ![0] bcast_S2048_S2048x1_0 Cert.ReferenceIdeal.Read.rowIdx := by
    after_results_simp; rfl
  have e14 : after (td_a (F := Ideal)) X (Proc.devRef .tc main_v14)
      = broadcastInDim S2048x1 ![0] bcast_S2048_S2048x1_0 (Cert.ReferenceIdeal.Read.colIdx (X (Proc.devRef .tc main_arg1))) := by
    after_results_simp; rfl
  generalize after (td_a (F := Ideal)) X = X2 at *
  have e15 : after (td_b (F := Ideal)) X2 (Proc.devRef .tc main_v15) = Cert.ReferenceIdeal.Read.scIdx (X (Proc.devRef .tc main_arg1)) := by
    simp only [td_b, after_cons, after_nil]; rw [binary_result, e13, e14]; rfl
  have e1' : after (td_b (F := Ideal)) X2 (Proc.devRef .tc main_v1) = X2 (Proc.devRef .tc main_v1) := by after_results_simp
  rw [e1] at e1'
  generalize after (td_b (F := Ideal)) X2 = X3 at *
  after_results_simp
  rw [e15, e1']
  rfl

end Cert.ReferenceIdeal.Tail

end
-- ==== Proof.RefLs.lean ====
import proofs.«425233_j52278341926994_2_alg».proof.Proof.RefRun
import proofs.«425233_j52278341926994_2_alg».proof.Proof.RefRead

/-!
# The log-softmax stretch of the reference's run read as a term

The fifteen operations of the log-softmax function, run from any contents, leave in the result buffer the log-softmax
of the logits buffer's contents, as the operations compose. Each operation over typed references reads its operands'
contents at the value's type and writes its function's value; reading the result buffer back through the fifteen
results gives the composed term.
-/

set_option maxRecDepth 16384

noncomputable section

namespace Cert.ReferenceIdeal.Ls

open Cert.ReferenceIdeal Cert.ReferenceIdeal.Gen Cert.ReferenceIdeal.Hand Idealize.ShloMosaic Idealize.ShloMosaic.TcCoe Idealize.ShloMosaic.StableHlo

section Typed

variable {tp : Topo} {sg : RefSig} {Val : EltTy → Type} {T Tx Ta Tb Ty : BufTy}

/-- The contents of a typed reference's buffer, at the value's type. -/
def get (x : TRef sg T) (V : Valuation tp sg Val) : T.Contents Val := x.ofBuf (V (Proc.devRef .tc x.ref))

theorem ofBuf_toBuf (x : TRef sg T) (v : T.Contents Val) : x.ofBuf (x.toBuf v) = v := by
  obtain ⟨r, h, h1, h2⟩ := x
  subst h
  rfl

/-- A constant's operation leaves the constant in its buffer … -/
theorem get_nullary (y : TRef sg Ty) (v : Ty.Contents Val) (V : Valuation tp sg Val) :
    get y ((TRef.nullary y v : HloOp tp sg Val).result V) = v := by
  unfold get
  rw [nullary_result]
  exact ofBuf_toBuf y v

/-- … and every other buffer as it was. -/
theorem get_nullary_ne (z : TRef sg T) (y : TRef sg Ty) (v : Ty.Contents Val) (V : Valuation tp sg Val)
    (h : z.ref ≠ y.ref) : get z ((TRef.nullary y v : HloOp tp sg Val).result V) = get z V := by
  unfold get
  rw [nullary_result_ne _ _ _ _ h]

/-- A one-operand operation leaves its function of the operand's contents in its buffer … -/
theorem get_unary (x : TRef sg Tx) (y : TRef sg Ty) (f : Tx.Contents Val → Ty.Contents Val) (V : Valuation tp sg Val) :
    get y ((TRef.unary x y f : HloOp tp sg Val).result V) = f (get x V) := by
  unfold get
  rw [unary_result]
  exact ofBuf_toBuf y _

/-- … and every other buffer as it was. -/
theorem get_unary_ne (z : TRef sg T) (x : TRef sg Tx) (y : TRef sg Ty) (f : Tx.Contents Val → Ty.Contents Val)
    (V : Valuation tp sg Val) (h : z.ref ≠ y.ref) :
    get z ((TRef.unary x y f : HloOp tp sg Val).result V) = get z V := by
  unfold get
  rw [unary_result_ne _ _ _ _ _ _ h]

/-- A two-operand operation leaves its function of the operands' contents in its buffer … -/
theorem get_binary (a : TRef sg Ta) (b : TRef sg Tb) (y : TRef sg Ty)
    (f : Ta.Contents Val → Tb.Contents Val → Ty.Contents Val) (V : Valuation tp sg Val) :
    get y ((TRef.binary a b y f : HloOp tp sg Val).result V) = f (get a V) (get b V) := by
  unfold get
  rw [binary_result]
  exact ofBuf_toBuf y _

/-- … and every other buffer as it was. -/
theorem get_binary_ne (z : TRef sg T) (a : TRef sg Ta) (b : TRef sg Tb) (y : TRef sg Ty)
    (f : Ta.Contents Val → Tb.Contents Val → Ty.Contents Val) (V : Valuation tp sg Val) (h : z.ref ≠ y.ref) :
    get z ((TRef.binary a b y f : HloOp tp sg Val).result V) = get z V := by
  unfold get
  rw [binary_result_ne _ _ _ _ _ _ _ _ h]

end Typed

variable (X : Valuation τ sig (Elt Ideal))

set_option maxHeartbeats 4000000 in
/-- The stretch's result buffer, read at the value's type, is the composed term. -/
theorem ls_get :
    get (.of main_v0 : TRef sig ⟨S2048x30522, .f32⟩) (after (seg_ls (F := Ideal)) X)
      = Cert.ReferenceIdeal.Read.lsm (get (.of main_arg0 : TRef sig ⟨S2048x30522, .f32⟩) X) := by
  simp (disch := decide) only [after_cons, after_nil, get_nullary, get_unary, get_binary,
    get_nullary_ne, get_unary_ne, get_binary_ne]
  generalize get (.of main_arg0 : TRef sig ⟨S2048x30522, .f32⟩) X = g
  unfold Read.lsm Read.lsmSum Read.lsmShift Read.lsmMax
  rfl

/-- The log-softmax stretch, run from any contents, leaves in its result buffer the log-softmax of the logits
    buffer's contents. -/
theorem ls_eq : after (seg_ls (F := Ideal)) X (Proc.devRef .tc main_v0)
    = Cert.ReferenceIdeal.Read.lsm (X (Proc.devRef .tc main_arg0)) :=
  ls_get X

end Cert.ReferenceIdeal.Ls

end
-- ==== Proof.RefGlue.lean ====
import proofs.«425233_j52278341926994_2_alg».proof.Proof.RefTail
import proofs.«425233_j52278341926994_2_alg».proof.Proof.RefLs

/-!
# The reference program's three results over its starting contents

The run's final contents are the stretches applied in order. A buffer written by one stretch and by none after it
keeps what that stretch left, so each result is its stretch's term over buffers carried from earlier stretches.
-/

set_option maxRecDepth 16384

noncomputable section

namespace Cert.ReferenceIdeal.Glue

open Cert.ReferenceIdeal Cert.ReferenceIdeal.Gen Cert.ReferenceIdeal.Hand Cert.ReferenceIdeal.Tail Idealize.ShloMosaic Idealize.ShloMosaic.TcCoe Idealize.ShloMosaic.StableHlo

/-- The contents after the candidate chain. -/
abbrev Rchain (Vr : Valuation τ sig (Elt Ideal)) : Valuation τ sig (Elt Ideal) :=
  after seg_chain (after seg_mid (after seg_g (after seg_nz (after seg_att (after seg_mle (after seg_w (after seg_td (after seg_ls Vr))))))))

/-- The dense zeros the scatter-add starts from. -/
def zerosR : FVec Ideal S2048x30522 .f32 :=
  broadcastInDim S2048x30522 ![] bcast_S_S2048x30522 (constant (F := Ideal) S_ .f32 0x00000000#32)

variable (Z : Valuation τ sig (Elt Ideal))

set_option maxHeartbeats 40000000 in
theorem keep_v33 : after (seg_ul (F := Ideal)) (after seg_sa (after seg_idx (after seg_chain (after seg_mid (after seg_g (after seg_nz
    (after seg_att Z))))))) (Proc.devRef .tc main_v33) = Z (Proc.devRef .tc main_v33) := by
  after_results_simp

set_option maxHeartbeats 40000000 in
theorem keep_v0 : after (seg_sa (F := Ideal)) (after seg_idx (after seg_chain (after seg_mid (after seg_g (after seg_nz
    (after seg_att (after seg_mle (after seg_w (after seg_td Z))))))))) (Proc.devRef .tc main_v0) = Z (Proc.devRef .tc main_v0) := by
  after_results_simp

set_option maxHeartbeats 40000000 in
theorem keep_v0' : after (seg_w (F := Ideal)) (after seg_td Z) (Proc.devRef .tc main_v0) = Z (Proc.devRef .tc main_v0) := by
  after_results_simp

set_option maxHeartbeats 40000000 in
theorem keep_v17 : after (seg_w (F := Ideal)) Z (Proc.devRef .tc main_v17) = Z (Proc.devRef .tc main_v17) := by
  after_results_simp

set_option maxHeartbeats 40000000 in
theorem keep_args_ls : after (seg_ls (F := Ideal)) Z (Proc.devRef .tc main_arg1) = Z (Proc.devRef .tc main_arg1)
    ∧ after (seg_ls (F := Ideal)) Z (Proc.devRef .tc main_arg5) = Z (Proc.devRef .tc main_arg5) := by
  constructor <;> after_results_simp

set_option maxHeartbeats 40000000 in
theorem keep_args_td : after (seg_td (F := Ideal)) Z (Proc.devRef .tc main_arg1) = Z (Proc.devRef .tc main_arg1)
    ∧ after (seg_td (F := Ideal)) Z (Proc.devRef .tc main_arg5) = Z (Proc.devRef .tc main_arg5) := by
  constructor <;> after_results_simp

set_option maxHeartbeats 40000000 in
theorem keep_v119 : after (seg_idx (F := Ideal)) Z (Proc.devRef .tc main_v119) = Z (Proc.devRef .tc main_v119) := by
  after_results_simp

set_option maxHeartbeats 40000000 in
theorem idx_zeros : after (seg_idx (F := Ideal)) Z (Proc.devRef .tc main_v122) = zerosR := by
  after_results_simp
  rfl

set_option maxHeartbeats 40000000 in
theorem keep_fin : after (seg_fin (F := Ideal)) Z (Proc.devRef .tc main_v33) = Z (Proc.devRef .tc main_v33)
    ∧ after (seg_fin (F := Ideal)) Z (Proc.devRef .tc main_v148) = Z (Proc.devRef .tc main_v148) := by
  constructor <;> after_results_simp

variable (Vr : Valuation τ sig (Elt Ideal))

/-- The likelihood term over the starting contents. -/
theorem v33_eq : after (Hand.ops (F := Ideal)) Vr (Proc.devRef .tc main_v33)
    = mleR (Cert.ReferenceIdeal.Read.td (Vr (Proc.devRef .tc main_arg1))) (Cert.ReferenceIdeal.Read.lsm (Vr (Proc.devRef .tc main_arg0)))
        (wOf (Vr (Proc.devRef .tc main_arg5)) (Vr (Proc.devRef .tc main_arg1))) := by
  rw [Hand.after_ops, (keep_fin _).1, keep_v33, mle_eq, keep_v17, td_eq, keep_v0', Cert.ReferenceIdeal.Ls.ls_eq, w_eq,
    (keep_args_td _).1, (keep_args_td _).2, (keep_args_ls _).1, (keep_args_ls _).2]

/-- The unlikelihood term over the starting contents, the index pairs and the candidates' weights as the chain left them. -/
theorem v148_eq : after (Hand.ops (F := Ideal)) Vr (Proc.devRef .tc main_v148)
    = ulR (Cert.ReferenceIdeal.Read.lsm (Vr (Proc.devRef .tc main_arg0)))
        (saR zerosR (after (seg_idx (F := Ideal)) (Rchain Vr) (Proc.devRef .tc main_v137)) (Rchain Vr (Proc.devRef .tc main_v119))) := by
  rw [Hand.after_ops, (keep_fin _).2, ul_eq, keep_v0, Cert.ReferenceIdeal.Ls.ls_eq, sa_eq, idx_zeros, keep_v119]

/-- The total. -/
theorem v150_eq : after (Hand.ops (F := Ideal)) Vr (Proc.devRef .tc main_v150)
    = finR (after (Hand.ops (F := Ideal)) Vr (Proc.devRef .tc main_v33)) (after (Hand.ops (F := Ideal)) Vr (Proc.devRef .tc main_v148)) := by
  have h33 : after (Hand.ops (F := Ideal)) Vr (Proc.devRef .tc main_v33)
      = after (seg_ul (F := Ideal)) (after seg_sa (after seg_idx (Rchain Vr))) (Proc.devRef .tc main_v33) := by
    rw [Hand.after_ops, (keep_fin _).1]
  have h148 : after (Hand.ops (F := Ideal)) Vr (Proc.devRef .tc main_v148)
      = after (seg_ul (F := Ideal)) (after seg_sa (after seg_idx (Rchain Vr))) (Proc.devRef .tc main_v148) := by
    rw [Hand.after_ops, (keep_fin _).2]
  rw [h33, h148, Hand.after_ops, fin_eq]

end Cert.ReferenceIdeal.Glue

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.SimChain.lean ====
import proofs.«425233_j52278341926994_2_alg».proof.Proof.LibAgree
import proofs.«425233_j52278341926994_2_alg».proof.Proof.Gen.KernelIdeal.Launch
import proofs.«425233_j52278341926994_2_alg».proof.Proof.Gen.ReferenceIdeal
import proofs.«425233_j52278341926994_2_alg».proof.Proof.RefRun

/-!
# The candidate chain and the index construction, in lockstep

After the attended ids and the first weights are formed, both programs run the same host operations on buffers
paired by position: the shifted-column gather and the comparison that marks a repeated candidate, the roll by one
column, the weights that follow, the choice on the first column, and the conversion of the candidates to integers
(the chain); then the row and column indices of the candidates joined into one index tensor (the index construction).
Each stretch is stepped one operation on each side, the pair of result buffers joining the list of pairs that agree.
The kernel program converts the attended ids to floats a second time inside the chain; the stretch is cut there, and
the second part assumes that buffer paired with the reference program's one float buffer of ids.
-/

set_option maxRecDepth 8000

noncomputable section

namespace Cert.Lockstep

open Idealize.ShloMosaic Idealize.ShloMosaic.StableHlo

variable {F : FTy → Type} [FloatOps F] [Named F]

/-- Pairs assumed at entry may be more than the pairs used. -/
theorem _root_.Idealize.ShloMosaic.StableHlo.Sim.weaken {τ : Topo} {sig₁ sig₂ : RefSig} {Val : EltTy → Type}
    {P P' Q : List (Ref sig₁ .tc × Ref sig₂ .tc)} {ops : List (HloOp τ sig₁ Val)} {ops' : List (HloOp τ sig₂ Val)}
    (k : Sim P' ops ops' Q) (h : P' ⊆ P) : Sim P ops ops' Q := fun V₁ V₂ hP => k V₁ V₂ (hP.mono h)

/-! ## The operation lists -/

section Kernel
open Cert.KernelIdeal Cert.KernelIdeal.Gen Idealize.ShloMosaic.TcCoe

/-- The kernel program's chain up to the sum of the weights and their rolled product (%c_18 … %79). -/
abbrev KC_a : List (HloOp Cert.KernelIdeal.τ Cert.KernelIdeal.sig (Elt F)) :=
  [ StableHlo.nullary main_c_18 (constantI S_ 32 1#32),
      StableHlo.unary main_c_18 main_v57 (broadcastInDim S2048 ![] bcast_S_S2048 : (⟨S_, .i32⟩ : BufTy).Contents (Elt F) → (⟨S2048, .i32⟩ : BufTy).Contents (Elt F)),
      StableHlo.binary main_v20 main_v57 main_v58 (subi : (⟨S2048, .i32⟩ : BufTy).Contents (Elt F) → (⟨S2048, .i32⟩ : BufTy).Contents (Elt F) → (⟨S2048, .i32⟩ : BufTy).Contents (Elt F)),
      StableHlo.nullary main_c_19 (constantI S_ 32 0#32),
      StableHlo.unary main_c_19 main_v59 (broadcastInDim S2048 ![] bcast_S_S2048 : (⟨S_, .i32⟩ : BufTy).Contents (Elt F) → (⟨S2048, .i32⟩ : BufTy).Contents (Elt F)),
      StableHlo.binary main_v21 main_v59 main_v60 (cmpi .slt : (⟨S2048, .i32⟩ : BufTy).Contents (Elt F) → (⟨S2048, .i32⟩ : BufTy).Contents (Elt F) → (⟨S2048, .i1⟩ : BufTy).Contents (Elt F)),
      StableHlo.nullary main_c_20 (constantI S_ 32 2048#32),
      StableHlo.unary main_c_20 main_v61 (broadcastInDim S2048 ![] bcast_S_S2048 : (⟨S_, .i32⟩ : BufTy).Contents (Elt F) → (⟨S2048, .i32⟩ : BufTy).Contents (Elt F)),
      StableHlo.binary main_v21 main_v61 main_v62 (addi : (⟨S2048, .i32⟩ : BufTy).Contents (Elt F) → (⟨S2048, .i32⟩ : BufTy).Contents (Elt F) → (⟨S2048, .i32⟩ : BufTy).Contents (Elt F)),
      StableHlo.ternary main_v60 main_v62 main_v21 main_v63 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
      StableHlo.nullary main_c_21 (constantI S_ 32 0#32),
      StableHlo.unary main_c_21 main_v64 (broadcastInDim S2048 ![] bcast_S_S2048 : (⟨S_, .i32⟩ : BufTy).Contents (Elt F) → (⟨S2048, .i32⟩ : BufTy).Contents (Elt F)),
      StableHlo.binary main_v58 main_v64 main_v65 (cmpi .slt : (⟨S2048, .i32⟩ : BufTy).Contents (Elt F) → (⟨S2048, .i32⟩ : BufTy).Contents (Elt F) → (⟨S2048, .i1⟩ : BufTy).Contents (Elt F)),
      StableHlo.nullary main_c_22 (constantI S_ 32 128#32),
      StableHlo.unary main_c_22 main_v66 (broadcastInDim S2048 ![] bcast_S_S2048 : (⟨S_, .i32⟩ : BufTy).Contents (Elt F) → (⟨S2048, .i32⟩ : BufTy).Contents (Elt F)),
      StableHlo.binary main_v58 main_v66 main_v67 (addi : (⟨S2048, .i32⟩ : BufTy).Contents (Elt F) → (⟨S2048, .i32⟩ : BufTy).Contents (Elt F) → (⟨S2048, .i32⟩ : BufTy).Contents (Elt F)),
      StableHlo.ternary main_v65 main_v67 main_v58 main_v68 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
      StableHlo.unary main_v63 main_v69 (broadcastInDim S2048x1 ![0] bcast_S2048_S2048x1_0 : (⟨S2048, .i32⟩ : BufTy).Contents (Elt F) → (⟨S2048x1, .i32⟩ : BufTy).Contents (Elt F)),
      StableHlo.unary main_v68 main_v70 (broadcastInDim S2048x1 ![0] bcast_S2048_S2048x1_0 : (⟨S2048, .i32⟩ : BufTy).Contents (Elt F) → (⟨S2048x1, .i32⟩ : BufTy).Contents (Elt F)),
      StableHlo.binary main_v69 main_v70 main_v71 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
      StableHlo.binary main_v56 main_v71 main_v72 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F)),
      StableHlo.unary main_v72 main_v73 (broadcastInDim S2048x1 ![0] bcast_S2048_S2048x1_0 : (⟨S2048, .f32⟩ : BufTy).Contents (Elt F) → (⟨S2048x1, .f32⟩ : BufTy).Contents (Elt F)),
      StableHlo.unary main_v73 main_v74 (broadcastInDim S2048x128 ![0, 1] bcast_S2048x1_S2048x128_0_1 : (⟨S2048x1, .f32⟩ : BufTy).Contents (Elt F) → (⟨S2048x128, .f32⟩ : BufTy).Contents (Elt F)),
      StableHlo.binary main_v56 main_v74 main_v75 (cmpf .oeq : (⟨S2048x128, .f32⟩ : BufTy).Contents (Elt F) → (⟨S2048x128, .f32⟩ : BufTy).Contents (Elt F) → (⟨S2048x128, .i1⟩ : BufTy).Contents (Elt F)),
      StableHlo.unary main_v75 main_v76 (uitofp .f32 : (⟨S2048x128, .i1⟩ : BufTy).Contents (Elt F) → (⟨S2048x128, .f32⟩ : BufTy).Contents (Elt F)),
      StableHlo.TRef.unary (.of main_v76 : StableHlo.TRef sig ⟨S2048x128, .f32⟩) (.of main_call8_v0 : StableHlo.TRef sig ⟨S2048x1, .f32⟩) (extractStridedSlice S2048x1 ![0, 127] · slices_S2048x128_S2048x1_0_127),
      StableHlo.TRef.unary (.of main_v76 : StableHlo.TRef sig ⟨S2048x128, .f32⟩) (.of main_call8_v1 : StableHlo.TRef sig ⟨S2048x127, .f32⟩) (extractStridedSlice S2048x127 ![0, 0] · slices_S2048x128_S2048x127_0_0),
      StableHlo.TRef.binary (.of main_call8_v0 : StableHlo.TRef sig ⟨S2048x1, .f32⟩) (.of main_call8_v1 : StableHlo.TRef sig ⟨S2048x127, .f32⟩) (.of main_v77 : StableHlo.TRef sig ⟨S2048x128, .f32⟩) (fun a b => concatenate S2048x128 1 [⟨S2048x1, a⟩, ⟨S2048x127, b⟩] concatenates_S2048x1_S2048x127_S2048x128_d1),
      StableHlo.binary main_v77 main_v54 main_v78 (mulf : (⟨S2048x128, .f32⟩ : BufTy).Contents (Elt F) → (⟨S2048x128, .f32⟩ : BufTy).Contents (Elt F) → (⟨S2048x128, .f32⟩ : BufTy).Contents (Elt F)),
      StableHlo.binary main_v54 main_v78 main_v79 (addf : (⟨S2048x128, .f32⟩ : BufTy).Contents (Elt F) → (⟨S2048x128, .f32⟩ : BufTy).Contents (Elt F) → (⟨S2048x128, .f32⟩ : BufTy).Contents (Elt F)) ]

/-- The kernel program's chain after its second conversion of the ids (%cst_23 … %90). -/
abbrev KC_b : List (HloOp Cert.KernelIdeal.τ Cert.KernelIdeal.sig (Elt F)) :=
  [ StableHlo.nullary main_cst_23 (constant S_ .f32 0x00000000#32),
      StableHlo.unary main_cst_23 main_v81 (broadcastInDim S2048x128 ![] bcast_S_S2048x128 : (⟨S_, .f32⟩ : BufTy).Contents (Elt F) → (⟨S2048x128, .f32⟩ : BufTy).Contents (Elt F)),
      StableHlo.binary main_v79 main_v81 main_v82 (cmpf .une : (⟨S2048x128, .f32⟩ : BufTy).Contents (Elt F) → (⟨S2048x128, .f32⟩ : BufTy).Contents (Elt F) → (⟨S2048x128, .i1⟩ : BufTy).Contents (Elt F)),
      StableHlo.unary main_v82 main_v83 (uitofp .f32 : (⟨S2048x128, .i1⟩ : BufTy).Contents (Elt F) → (⟨S2048x128, .f32⟩ : BufTy).Contents (Elt F)),
      StableHlo.binary main_v80 main_v83 main_v84 (mulf : (⟨S2048x128, .f32⟩ : BufTy).Contents (Elt F) → (⟨S2048x128, .f32⟩ : BufTy).Contents (Elt F) → (⟨S2048x128, .f32⟩ : BufTy).Contents (Elt F)),
      StableHlo.nullary main_c_24 (constantI S_ 32 0#32),
      StableHlo.unary main_c_24 main_v85 (broadcastInDim S2048 ![] bcast_S_S2048 : (⟨S_, .i32⟩ : BufTy).Contents (Elt F) → (⟨S2048, .i32⟩ : BufTy).Contents (Elt F)),
      StableHlo.binary main_v20 main_v85 main_v86 (cmpi .sgt : (⟨S2048, .i32⟩ : BufTy).Contents (Elt F) → (⟨S2048, .i32⟩ : BufTy).Contents (Elt F) → (⟨S2048, .i1⟩ : BufTy).Contents (Elt F)),
      StableHlo.unary main_v86 main_v87 (broadcastInDim S2048x1 ![0] bcast_S2048_S2048x1_0 : (⟨S2048, .i1⟩ : BufTy).Contents (Elt F) → (⟨S2048x1, .i1⟩ : BufTy).Contents (Elt F)),
      StableHlo.TRef.unary (.of main_v87 : StableHlo.TRef sig ⟨S2048x1, .i1⟩) (.of main_call9_v0 : StableHlo.TRef sig ⟨S2048x128, .i1⟩) (broadcastInDim S2048x128 ![0, 1] bcast_S2048x1_S2048x128_0_1),
      StableHlo.TRef.ternary (.of main_call9_v0 : StableHlo.TRef sig ⟨S2048x128, .i1⟩) (.of main_v79 : StableHlo.TRef sig ⟨S2048x128, .f32⟩) (.of main_v54 : StableHlo.TRef sig ⟨S2048x128, .f32⟩) (.of main_v88 : StableHlo.TRef sig ⟨S2048x128, .f32⟩) select,
      StableHlo.TRef.unary (.of main_v87 : StableHlo.TRef sig ⟨S2048x1, .i1⟩) (.of main_call10_v0 : StableHlo.TRef sig ⟨S2048x128, .i1⟩) (broadcastInDim S2048x128 ![0, 1] bcast_S2048x1_S2048x128_0_1),
      StableHlo.TRef.ternary (.of main_call10_v0 : StableHlo.TRef sig ⟨S2048x128, .i1⟩) (.of main_v84 : StableHlo.TRef sig ⟨S2048x128, .f32⟩) (.of main_v56 : StableHlo.TRef sig ⟨S2048x128, .f32⟩) (.of main_v89 : StableHlo.TRef sig ⟨S2048x128, .f32⟩) select,
      StableHlo.unary main_v89 main_v90 (fptosi 32 : (⟨S2048x128, .f32⟩ : BufTy).Contents (Elt F) → (⟨S2048x128, .i32⟩ : BufTy).Contents (Elt F)) ]

/-- The kernel program's index construction after its iota (%105 … %119). -/
abbrev KI' : List (HloOp Cert.KernelIdeal.τ Cert.KernelIdeal.sig (Elt F)) :=
  [ StableHlo.unary main_v104 main_v105 (broadcastInDim S2048x1 ![0] bcast_S2048_S2048x1_0 : (⟨S2048, .i32⟩ : BufTy).Contents (Elt F) → (⟨S2048x1, .i32⟩ : BufTy).Contents (Elt F)),
      StableHlo.nullary main_c_29 (constantI S_ 32 0#32),
      StableHlo.unary main_c_29 main_v106 (broadcastInDim S2048x1 ![] bcast_S_S2048x1 : (⟨S_, .i32⟩ : BufTy).Contents (Elt F) → (⟨S2048x1, .i32⟩ : BufTy).Contents (Elt F)),
      StableHlo.binary main_v105 main_v106 main_v107 (cmpi .slt : (⟨S2048x1, .i32⟩ : BufTy).Contents (Elt F) → (⟨S2048x1, .i32⟩ : BufTy).Contents (Elt F) → (⟨S2048x1, .i1⟩ : BufTy).Contents (Elt F)),
      StableHlo.nullary main_c_30 (constantI S_ 32 2048#32),
      StableHlo.unary main_c_30 main_v108 (broadcastInDim S2048x1 ![] bcast_S_S2048x1 : (⟨S_, .i32⟩ : BufTy).Contents (Elt F) → (⟨S2048x1, .i32⟩ : BufTy).Contents (Elt F)),
      StableHlo.binary main_v105 main_v108 main_v109 (addi : (⟨S2048x1, .i32⟩ : BufTy).Contents (Elt F) → (⟨S2048x1, .i32⟩ : BufTy).Contents (Elt F) → (⟨S2048x1, .i32⟩ : BufTy).Contents (Elt F)),
      StableHlo.ternary main_v107 main_v109 main_v105 main_v110 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
      StableHlo.nullary main_c_31 (constantI S_ 32 0#32),
      StableHlo.unary main_c_31 main_v111 (broadcastInDim S2048x128 ![] bcast_S_S2048x128 : (⟨S_, .i32⟩ : BufTy).Contents (Elt F) → (⟨S2048x128, .i32⟩ : BufTy).Contents (Elt F)),
      StableHlo.binary main_v90 main_v111 main_v112 (cmpi .slt : (⟨S2048x128, .i32⟩ : BufTy).Contents (Elt F) → (⟨S2048x128, .i32⟩ : BufTy).Contents (Elt F) → (⟨S2048x128, .i1⟩ : BufTy).Contents (Elt F)),
      StableHlo.nullary main_c_32 (constantI S_ 32 30522#32),
      StableHlo.unary main_c_32 main_v113 (broadcastInDim S2048x128 ![] bcast_S_S2048x128 : (⟨S_, .i32⟩ : BufTy).Contents (Elt F) → (⟨S2048x128, .i32⟩ : BufTy).Contents (Elt F)),
      StableHlo.binary main_v90 main_v113 main_v114 (addi : (⟨S2048x128, .i32⟩ : BufTy).Contents (Elt F) → (⟨S2048x128, .i32⟩ : BufTy).Contents (Elt F) → (⟨S2048x128, .i32⟩ : BufTy).Contents (Elt F)),
      StableHlo.ternary main_v112 main_v114 main_v90 main_v115 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F)),
      StableHlo.unary main_v110 main_v116 (broadcastInDim S2048x128 ![0, 1] bcast_S2048x1_S2048x128_0_1 : (⟨S2048x1, .i32⟩ : BufTy).Contents (Elt F) → (⟨S2048x128, .i32⟩ : BufTy).Contents (Elt F)),
      StableHlo.unary main_v116 main_v117 (broadcastInDim S2048x128x1 ![0, 1] bcast_S2048x128_S2048x128x1_0_1 : (⟨S2048x128, .i32⟩ : BufTy).Contents (Elt F) → (⟨S2048x128x1, .i32⟩ : BufTy).Contents (Elt F)),
      StableHlo.unary main_v115 main_v118 (broadcastInDim S2048x128x1 ![0, 1] bcast_S2048x128_S2048x128x1_0_1 : (⟨S2048x128, .i32⟩ : BufTy).Contents (Elt F) → (⟨S2048x128x1, .i32⟩ : BufTy).Contents (Elt F)),
      StableHlo.binary main_v117 main_v118 main_v119 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F)) ]

/-- The first part of the chain inside the kernel program's host operation lists. -/
theorem KC_a_eq : (KC_a : List (HloOp Cert.KernelIdeal.τ Cert.KernelIdeal.sig (Elt F))) = hostOps0_16.drop 44 ++ hostOps0_17 ++ hostOps0_18.take 2 := rfl
/-- The second part inside them: after the second conversion of the ids. -/
theorem KC_b_eq : (KC_b : List (HloOp Cert.KernelIdeal.τ Cert.KernelIdeal.sig (Elt F))) = hostOps0_18.drop 3 ++ hostOps0_19 ++ hostOps0_20 ++ hostOps0_21.take 1 := rfl
/-- The index construction inside the host operations after the kernel's launch: after the iota. -/
theorem KI'_eq : (KI' : List (HloOp Cert.KernelIdeal.τ Cert.KernelIdeal.sig (Elt F))) = (hostOps1.drop 6).take 19 := rfl

end Kernel

section Reference
open Cert.ReferenceIdeal Cert.ReferenceIdeal.Gen

/-- The reference program's chain up to the same sum (%c_29 … %111). -/
abbrev seg_chain_a : List (HloOp Cert.ReferenceIdeal.τ Cert.ReferenceIdeal.sig (Elt F)) :=
  [ StableHlo.nullary main_c_29 (constantI S_ 32 1#32),
      StableHlo.unary main_c_29 main_v89 (broadcastInDim S2048 ![] bcast_S_S2048 : (⟨S_, .i32⟩ : BufTy).Contents (Elt F) → (⟨S2048, .i32⟩ : BufTy).Contents (Elt F)),
      StableHlo.binary main_v53 main_v89 main_v90 (subi : (⟨S2048, .i32⟩ : BufTy).Contents (Elt F) → (⟨S2048, .i32⟩ : BufTy).Contents (Elt F) → (⟨S2048, .i32⟩ : BufTy).Contents (Elt F)),
      StableHlo.nullary main_c_30 (constantI S_ 32 0#32),
      StableHlo.unary main_c_30 main_v91 (broadcastInDim S2048 ![] bcast_S_S2048 : (⟨S_, .i32⟩ : BufTy).Contents (Elt F) → (⟨S2048, .i32⟩ : BufTy).Contents (Elt F)),
      StableHlo.binary main_v54 main_v91 main_v92 (cmpi .slt : (⟨S2048, .i32⟩ : BufTy).Contents (Elt F) → (⟨S2048, .i32⟩ : BufTy).Contents (Elt F) → (⟨S2048, .i1⟩ : BufTy).Contents (Elt F)),
      StableHlo.nullary main_c_31 (constantI S_ 32 2048#32),
      StableHlo.unary main_c_31 main_v93 (broadcastInDim S2048 ![] bcast_S_S2048 : (⟨S_, .i32⟩ : BufTy).Contents (Elt F) → (⟨S2048, .i32⟩ : BufTy).Contents (Elt F)),
      StableHlo.binary main_v54 main_v93 main_v94 (addi : (⟨S2048, .i32⟩ : BufTy).Contents (Elt F) → (⟨S2048, .i32⟩ : BufTy).Contents (Elt F) → (⟨S2048, .i32⟩ : BufTy).Contents (Elt F)),
      StableHlo.ternary main_v92 main_v94 main_v54 main_v95 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
      StableHlo.nullary main_c_32 (constantI S_ 32 0#32),
      StableHlo.unary main_c_32 main_v96 (broadcastInDim S2048 ![] bcast_S_S2048 : (⟨S_, .i32⟩ : BufTy).Contents (Elt F) → (⟨S2048, .i32⟩ : BufTy).Contents (Elt F)),
      StableHlo.binary main_v90 main_v96 main_v97 (cmpi .slt : (⟨S2048, .i32⟩ : BufTy).Contents (Elt F) → (⟨S2048, .i32⟩ : BufTy).Contents (Elt F) → (⟨S2048, .i1⟩ : BufTy).Contents (Elt F)),
      StableHlo.nullary main_c_33 (constantI S_ 32 128#32),
      StableHlo.unary main_c_33 main_v98 (broadcastInDim S2048 ![] bcast_S_S2048 : (⟨S_, .i32⟩ : BufTy).Contents (Elt F) → (⟨S2048, .i32⟩ : BufTy).Contents (Elt F)),
      StableHlo.binary main_v90 main_v98 main_v99 (addi : (⟨S2048, .i32⟩ : BufTy).Contents (Elt F) → (⟨S2048, .i32⟩ : BufTy).Contents (Elt F) → (⟨S2048, .i32⟩ : BufTy).Contents (Elt F)),
      StableHlo.ternary main_v97 main_v99 main_v90 main_v100 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
      StableHlo.unary main_v95 main_v101 (broadcastInDim S2048x1 ![0] bcast_S2048_S2048x1_0 : (⟨S2048, .i32⟩ : BufTy).Contents (Elt F) → (⟨S2048x1, .i32⟩ : BufTy).Contents (Elt F)),
      StableHlo.unary main_v100 main_v102 (broadcastInDim S2048x1 ![0] bcast_S2048_S2048x1_0 : (⟨S2048, .i32⟩ : BufTy).Contents (Elt F) → (⟨S2048x1, .i32⟩ : BufTy).Contents (Elt F)),
      StableHlo.binary main_v101 main_v102 main_v103 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
      StableHlo.binary main_v88 main_v103 main_v104 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F)),
      StableHlo.unary main_v104 main_v105 (broadcastInDim S2048x1 ![0] bcast_S2048_S2048x1_0 : (⟨S2048, .f32⟩ : BufTy).Contents (Elt F) → (⟨S2048x1, .f32⟩ : BufTy).Contents (Elt F)),
      StableHlo.unary main_v105 main_v106 (broadcastInDim S2048x128 ![0, 1] bcast_S2048x1_S2048x128_0_1 : (⟨S2048x1, .f32⟩ : BufTy).Contents (Elt F) → (⟨S2048x128, .f32⟩ : BufTy).Contents (Elt F)),
      StableHlo.binary main_v88 main_v106 main_v107 (cmpf .oeq : (⟨S2048x128, .f32⟩ : BufTy).Contents (Elt F) → (⟨S2048x128, .f32⟩ : BufTy).Contents (Elt F) → (⟨S2048x128, .i1⟩ : BufTy).Contents (Elt F)),
      StableHlo.unary main_v107 main_v108 (uitofp .f32 : (⟨S2048x128, .i1⟩ : BufTy).Contents (Elt F) → (⟨S2048x128, .f32⟩ : BufTy).Contents (Elt F)),
      StableHlo.TRef.unary (.of main_v108 : StableHlo.TRef sig ⟨S2048x128, .f32⟩) (.of main_call8_v0 : StableHlo.TRef sig ⟨S2048x1, .f32⟩) (extractStridedSlice S2048x1 ![0, 127] · slices_S2048x128_S2048x1_0_127),
      StableHlo.TRef.unary (.of main_v108 : StableHlo.TRef sig ⟨S2048x128, .f32⟩) (.of main_call8_v1 : StableHlo.TRef sig ⟨S2048x127, .f32⟩) (extractStridedSlice S2048x127 ![0, 0] · slices_S2048x128_S2048x127_0_0),
      StableHlo.TRef.binary (.of main_call8_v0 : StableHlo.TRef sig ⟨S2048x1, .f32⟩) (.of main_call8_v1 : StableHlo.TRef sig ⟨S2048x127, .f32⟩) (.of main_v109 : StableHlo.TRef sig ⟨S2048x128, .f32⟩) (fun a b => concatenate S2048x128 1 [⟨S2048x1, a⟩, ⟨S2048x127, b⟩] concatenates_S2048x1_S2048x127_S2048x128_d1),
      StableHlo.binary main_v109 main_v87 main_v110 (mulf : (⟨S2048x128, .f32⟩ : BufTy).Contents (Elt F) → (⟨S2048x128, .f32⟩ : BufTy).Contents (Elt F) → (⟨S2048x128, .f32⟩ : BufTy).Contents (Elt F)),
      StableHlo.binary main_v87 main_v110 main_v111 (addf : (⟨S2048x128, .f32⟩ : BufTy).Contents (Elt F) → (⟨S2048x128, .f32⟩ : BufTy).Contents (Elt F) → (⟨S2048x128, .f32⟩ : BufTy).Contents (Elt F)) ]

/-- The reference program's chain after it (%cst_34 … %121). -/
abbrev seg_chain_b : List (HloOp Cert.ReferenceIdeal.τ Cert.ReferenceIdeal.sig (Elt F)) :=
  [ StableHlo.nullary main_cst_34 (constant S_ .f32 0x00000000#32),
      StableHlo.unary main_cst_34 main_v112 (broadcastInDim S2048x128 ![] bcast_S_S2048x128 : (⟨S_, .f32⟩ : BufTy).Contents (Elt F) → (⟨S2048x128, .f32⟩ : BufTy).Contents (Elt F)),
      StableHlo.binary main_v111 main_v112 main_v113 (cmpf .une : (⟨S2048x128, .f32⟩ : BufTy).Contents (Elt F) → (⟨S2048x128, .f32⟩ : BufTy).Contents (Elt F) → (⟨S2048x128, .i1⟩ : BufTy).Contents (Elt F)),
      StableHlo.unary main_v113 main_v114 (uitofp .f32 : (⟨S2048x128, .i1⟩ : BufTy).Contents (Elt F) → (⟨S2048x128, .f32⟩ : BufTy).Contents (Elt F)),
      StableHlo.binary main_v68 main_v114 main_v115 (mulf : (⟨S2048x128, .f32⟩ : BufTy).Contents (Elt F) → (⟨S2048x128, .f32⟩ : BufTy).Contents (Elt F) → (⟨S2048x128, .f32⟩ : BufTy).Contents (Elt F)),
      StableHlo.nullary main_c_35 (constantI S_ 32 0#32),
      StableHlo.unary main_c_35 main_v116 (broadcastInDim S2048 ![] bcast_S_S2048 : (⟨S_, .i32⟩ : BufTy).Contents (Elt F) → (⟨S2048, .i32⟩ : BufTy).Contents (Elt F)),
      StableHlo.binary main_v53 main_v116 main_v117 (cmpi .sgt : (⟨S2048, .i32⟩ : BufTy).Contents (Elt F) → (⟨S2048, .i32⟩ : BufTy).Contents (Elt F) → (⟨S2048, .i1⟩ : BufTy).Contents (Elt F)),
      StableHlo.unary main_v117 main_v118 (broadcastInDim S2048x1 ![0] bcast_S2048_S2048x1_0 : (⟨S2048, .i1⟩ : BufTy).Contents (Elt F) → (⟨S2048x1, .i1⟩ : BufTy).Contents (Elt F)),
      StableHlo.TRef.unary (.of main_v118 : StableHlo.TRef sig ⟨S2048x1, .i1⟩) (.of main_call9_v0 : StableHlo.TRef sig ⟨S2048x128, .i1⟩) (broadcastInDim S2048x128 ![0, 1] bcast_S2048x1_S2048x128_0_1),
      StableHlo.TRef.ternary (.of main_call9_v0 : StableHlo.TRef sig ⟨S2048x128, .i1⟩) (.of main_v111 : StableHlo.TRef sig ⟨S2048x128, .f32⟩) (.of main_v87 : StableHlo.TRef sig ⟨S2048x128, .f32⟩) (.of main_v119 : StableHlo.TRef sig ⟨S2048x128, .f32⟩) select,
      StableHlo.TRef.unary (.of main_v118 : StableHlo.TRef sig ⟨S2048x1, .i1⟩) (.of main_call10_v0 : StableHlo.TRef sig ⟨S2048x128, .i1⟩) (broadcastInDim S2048x128 ![0, 1] bcast_S2048x1_S2048x128_0_1),
      StableHlo.TRef.ternary (.of main_call10_v0 : StableHlo.TRef sig ⟨S2048x128, .i1⟩) (.of main_v115 : StableHlo.TRef sig ⟨S2048x128, .f32⟩) (.of main_v88 : StableHlo.TRef sig ⟨S2048x128, .f32⟩) (.of main_v120 : StableHlo.TRef sig ⟨S2048x128, .f32⟩) select,
      StableHlo.unary main_v120 main_v121 (fptosi 32 : (⟨S2048x128, .f32⟩ : BufTy).Contents (Elt F) → (⟨S2048x128, .i32⟩ : BufTy).Contents (Elt F)) ]

/-- The reference program's index construction (%123 … %137). -/
abbrev seg_idx' : List (HloOp Cert.ReferenceIdeal.τ Cert.ReferenceIdeal.sig (Elt F)) :=
  [ StableHlo.unary main_v54 main_v123 (broadcastInDim S2048x1 ![0] bcast_S2048_S2048x1_0 : (⟨S2048, .i32⟩ : BufTy).Contents (Elt F) → (⟨S2048x1, .i32⟩ : BufTy).Contents (Elt F)),
      StableHlo.nullary main_c_37 (constantI S_ 32 0#32),
      StableHlo.unary main_c_37 main_v124 (broadcastInDim S2048x1 ![] bcast_S_S2048x1 : (⟨S_, .i32⟩ : BufTy).Contents (Elt F) → (⟨S2048x1, .i32⟩ : BufTy).Contents (Elt F)),
      StableHlo.binary main_v123 main_v124 main_v125 (cmpi .slt : (⟨S2048x1, .i32⟩ : BufTy).Contents (Elt F) → (⟨S2048x1, .i32⟩ : BufTy).Contents (Elt F) → (⟨S2048x1, .i1⟩ : BufTy).Contents (Elt F)),
      StableHlo.nullary main_c_38 (constantI S_ 32 2048#32),
      StableHlo.unary main_c_38 main_v126 (broadcastInDim S2048x1 ![] bcast_S_S2048x1 : (⟨S_, .i32⟩ : BufTy).Contents (Elt F) → (⟨S2048x1, .i32⟩ : BufTy).Contents (Elt F)),
      StableHlo.binary main_v123 main_v126 main_v127 (addi : (⟨S2048x1, .i32⟩ : BufTy).Contents (Elt F) → (⟨S2048x1, .i32⟩ : BufTy).Contents (Elt F) → (⟨S2048x1, .i32⟩ : BufTy).Contents (Elt F)),
      StableHlo.ternary main_v125 main_v127 main_v123 main_v128 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
      StableHlo.nullary main_c_39 (constantI S_ 32 0#32),
      StableHlo.unary main_c_39 main_v129 (broadcastInDim S2048x128 ![] bcast_S_S2048x128 : (⟨S_, .i32⟩ : BufTy).Contents (Elt F) → (⟨S2048x128, .i32⟩ : BufTy).Contents (Elt F)),
      StableHlo.binary main_v121 main_v129 main_v130 (cmpi .slt : (⟨S2048x128, .i32⟩ : BufTy).Contents (Elt F) → (⟨S2048x128, .i32⟩ : BufTy).Contents (Elt F) → (⟨S2048x128, .i1⟩ : BufTy).Contents (Elt F)),
      StableHlo.nullary main_c_40 (constantI S_ 32 30522#32),
      StableHlo.unary main_c_40 main_v131 (broadcastInDim S2048x128 ![] bcast_S_S2048x128 : (⟨S_, .i32⟩ : BufTy).Contents (Elt F) → (⟨S2048x128, .i32⟩ : BufTy).Contents (Elt F)),
      StableHlo.binary main_v121 main_v131 main_v132 (addi : (⟨S2048x128, .i32⟩ : BufTy).Contents (Elt F) → (⟨S2048x128, .i32⟩ : BufTy).Contents (Elt F) → (⟨S2048x128, .i32⟩ : BufTy).Contents (Elt F)),
      StableHlo.ternary main_v130 main_v132 main_v121 main_v133 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F)),
      StableHlo.unary main_v128 main_v134 (broadcastInDim S2048x128 ![0, 1] bcast_S2048x1_S2048x128_0_1 : (⟨S2048x1, .i32⟩ : BufTy).Contents (Elt F) → (⟨S2048x128, .i32⟩ : BufTy).Contents (Elt F)),
      StableHlo.unary main_v134 main_v135 (broadcastInDim S2048x128x1 ![0, 1] bcast_S2048x128_S2048x128x1_0_1 : (⟨S2048x128, .i32⟩ : BufTy).Contents (Elt F) → (⟨S2048x128x1, .i32⟩ : BufTy).Contents (Elt F)),
      StableHlo.unary main_v133 main_v136 (broadcastInDim S2048x128x1 ![0, 1] bcast_S2048x128_S2048x128x1_0_1 : (⟨S2048x128, .i32⟩ : BufTy).Contents (Elt F) → (⟨S2048x128x1, .i32⟩ : BufTy).Contents (Elt F)),
      StableHlo.binary main_v135 main_v136 main_v137 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F)) ]

/-- The same preceded by the zeros the scatter-add starts from (%cst_36 … %137). -/
abbrev seg_idx : List (HloOp Cert.ReferenceIdeal.τ Cert.ReferenceIdeal.sig (Elt F)) :=
  [ StableHlo.nullary main_cst_36 (constant S_ .f32 0x00000000#32),
      StableHlo.unary main_cst_36 main_v122 (broadcastInDim S2048x30522 ![] bcast_S_S2048x30522 : (⟨S_, .f32⟩ : BufTy).Contents (Elt F) → (⟨S2048x30522, .f32⟩ : BufTy).Contents (Elt F)),
      StableHlo.unary main_v54 main_v123 (broadcastInDim S2048x1 ![0] bcast_S2048_S2048x1_0 : (⟨S2048, .i32⟩ : BufTy).Contents (Elt F) → (⟨S2048x1, .i32⟩ : BufTy).Contents (Elt F)),
      StableHlo.nullary main_c_37 (constantI S_ 32 0#32),
      StableHlo.unary main_c_37 main_v124 (broadcastInDim S2048x1 ![] bcast_S_S2048x1 : (⟨S_, .i32⟩ : BufTy).Contents (Elt F) → (⟨S2048x1, .i32⟩ : BufTy).Contents (Elt F)),
      StableHlo.binary main_v123 main_v124 main_v125 (cmpi .slt : (⟨S2048x1, .i32⟩ : BufTy).Contents (Elt F) → (⟨S2048x1, .i32⟩ : BufTy).Contents (Elt F) → (⟨S2048x1, .i1⟩ : BufTy).Contents (Elt F)),
      StableHlo.nullary main_c_38 (constantI S_ 32 2048#32),
      StableHlo.unary main_c_38 main_v126 (broadcastInDim S2048x1 ![] bcast_S_S2048x1 : (⟨S_, .i32⟩ : BufTy).Contents (Elt F) → (⟨S2048x1, .i32⟩ : BufTy).Contents (Elt F)),
      StableHlo.binary main_v123 main_v126 main_v127 (addi : (⟨S2048x1, .i32⟩ : BufTy).Contents (Elt F) → (⟨S2048x1, .i32⟩ : BufTy).Contents (Elt F) → (⟨S2048x1, .i32⟩ : BufTy).Contents (Elt F)),
      StableHlo.ternary main_v125 main_v127 main_v123 main_v128 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
      StableHlo.nullary main_c_39 (constantI S_ 32 0#32),
      StableHlo.unary main_c_39 main_v129 (broadcastInDim S2048x128 ![] bcast_S_S2048x128 : (⟨S_, .i32⟩ : BufTy).Contents (Elt F) → (⟨S2048x128, .i32⟩ : BufTy).Contents (Elt F)),
      StableHlo.binary main_v121 main_v129 main_v130 (cmpi .slt : (⟨S2048x128, .i32⟩ : BufTy).Contents (Elt F) → (⟨S2048x128, .i32⟩ : BufTy).Contents (Elt F) → (⟨S2048x128, .i1⟩ : BufTy).Contents (Elt F)),
      StableHlo.nullary main_c_40 (constantI S_ 32 30522#32),
      StableHlo.unary main_c_40 main_v131 (broadcastInDim S2048x128 ![] bcast_S_S2048x128 : (⟨S_, .i32⟩ : BufTy).Contents (Elt F) → (⟨S2048x128, .i32⟩ : BufTy).Contents (Elt F)),
      StableHlo.binary main_v121 main_v131 main_v132 (addi : (⟨S2048x128, .i32⟩ : BufTy).Contents (Elt F) → (⟨S2048x128, .i32⟩ : BufTy).Contents (Elt F) → (⟨S2048x128, .i32⟩ : BufTy).Contents (Elt F)),
      StableHlo.ternary main_v130 main_v132 main_v121 main_v133 (select : (⟨S2048x128, .i1⟩ : BufTy).Contents (Elt F) → (⟨S2048x128, .i32⟩ : BufTy).Contents (Elt F) → (⟨S2048x128, .i32⟩ : BufTy).Contents (Elt F) → (⟨S2048x128, .i32⟩ : BufTy).Contents (Elt F)),
      StableHlo.unary main_v128 main_v134 (broadcastInDim S2048x128 ![0, 1] bcast_S2048x1_S2048x128_0_1 : (⟨S2048x1, .i32⟩ : BufTy).Contents (Elt F) → (⟨S2048x128, .i32⟩ : BufTy).Contents (Elt F)),
      StableHlo.unary main_v134 main_v135 (broadcastInDim S2048x128x1 ![0, 1] bcast_S2048x128_S2048x128x1_0_1 : (⟨S2048x128, .i32⟩ : BufTy).Contents (Elt F) → (⟨S2048x128x1, .i32⟩ : BufTy).Contents (Elt F)),
      StableHlo.unary main_v133 main_v136 (broadcastInDim S2048x128x1 ![0, 1] bcast_S2048x128_S2048x128x1_0_1 : (⟨S2048x128, .i32⟩ : BufTy).Contents (Elt F) → (⟨S2048x128x1, .i32⟩ : BufTy).Contents (Elt F)),
      StableHlo.binary main_v135 main_v136 main_v137 ((fun a b => concatenate S2048x128x2 2 [⟨S2048x128x1, a⟩, ⟨S2048x128x1, b⟩] concatenates_S2048x128x1_S2048x128x1_S2048x128x2_d2) : (⟨S2048x128x1, .i32⟩ : BufTy).Contents (Elt F) → (⟨S2048x128x1, .i32⟩ : BufTy).Contents (Elt F) → (⟨S2048x128x2, .i32⟩ : BufTy).Contents (Elt F)) ]

/-- The two parts of the chain are the reference program's chain segment. -/
theorem seg_chain_eq : (Cert.ReferenceIdeal.Hand.seg_chain : List (HloOp Cert.ReferenceIdeal.τ Cert.ReferenceIdeal.sig (Elt F))) = seg_chain_a ++ seg_chain_b := rfl
/-- The index construction with its zeros is the reference program's index segment. -/
theorem seg_idx_eq : (Cert.ReferenceIdeal.Hand.seg_idx : List (HloOp Cert.ReferenceIdeal.τ Cert.ReferenceIdeal.sig (Elt F))) = seg_idx := rfl
/-- The index segment is its two zero operations, then the index construction. -/
theorem seg_idx_eq' : (Cert.ReferenceIdeal.Hand.seg_idx : List (HloOp Cert.ReferenceIdeal.τ Cert.ReferenceIdeal.sig (Elt F))) = Cert.ReferenceIdeal.Hand.seg_idx.take 2 ++ seg_idx' := rfl

end Reference

/-! ## The pairs -/

/-- At entry of the chain: the first weights, the first candidates, the columns, the iota. -/
abbrev P₀' : List (Ref Cert.KernelIdeal.sig .tc × Ref Cert.ReferenceIdeal.sig .tc) :=
  [(Cert.KernelIdeal.main_v54, Cert.ReferenceIdeal.main_v87), (Cert.KernelIdeal.main_v56, Cert.ReferenceIdeal.main_v88), (Cert.KernelIdeal.main_v20, Cert.ReferenceIdeal.main_v53), (Cert.KernelIdeal.main_v21, Cert.ReferenceIdeal.main_v54)]

/-- After the first part: the summed weights and the entry pairs. -/
abbrev Q_a : List (Ref Cert.KernelIdeal.sig .tc × Ref Cert.ReferenceIdeal.sig .tc) :=
  [(Cert.KernelIdeal.main_v79, Cert.ReferenceIdeal.main_v111), (Cert.KernelIdeal.main_v54, Cert.ReferenceIdeal.main_v87), (Cert.KernelIdeal.main_v56, Cert.ReferenceIdeal.main_v88), (Cert.KernelIdeal.main_v20, Cert.ReferenceIdeal.main_v53), (Cert.KernelIdeal.main_v21, Cert.ReferenceIdeal.main_v54)]

/-! ## The chain -/

set_option maxHeartbeats 4000000 in
/-- The first part of the chain in lockstep. -/
theorem sim_chain_a : Sim (τ := Cert.KernelIdeal.τ) (Val := Elt F) P₀' KC_a seg_chain_a Q_a := by
  refine Sim.nullary HEq.rfl (by decide) (by decide) ?_
  refine Sim.unary (List.Mem.head _) rfl rfl HEq.rfl (by decide) (by decide) ?_  -- main_v57 / main_v89
  refine Sim.binary (List.Mem.tail _ (List.Mem.tail _ (List.Mem.tail _ (List.Mem.tail _ (List.Mem.head _))))) (List.Mem.head _) rfl rfl rfl HEq.rfl (by decide) (by decide) ?_  -- main_v58 / main_v90
  refine Sim.nullary HEq.rfl (by decide) (by decide) ?_
  refine Sim.unary (List.Mem.head _) rfl rfl HEq.rfl (by decide) (by decide) ?_  -- main_v59 / main_v91
  refine Sim.binary (List.Mem.tail _ (List.Mem.tail _ (List.Mem.tail _ (List.Mem.tail _ (List.Mem.tail _ (List.Mem.tail _ (List.Mem.tail _ (List.Mem.tail _ (List.Mem.head _))))))))) (List.Mem.head _) rfl rfl rfl HEq.rfl (by decide) (by decide) ?_  -- main_v60 / main_v92
  refine Sim.nullary HEq.rfl (by decide) (by decide) ?_
  refine Sim.unary (List.Mem.head _) rfl rfl HEq.rfl (by decide) (by decide) ?_  -- main_v61 / main_v93
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) (List.Mem.head _) rfl rfl rfl HEq.rfl (by decide) (by decide) ?_  -- main_v62 / main_v94
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) rfl rfl rfl rfl HEq.rfl (by decide) (by decide) ?_  -- main_v63 / main_v95
  refine Sim.nullary HEq.rfl (by decide) (by decide) ?_
  refine Sim.unary (List.Mem.head _) rfl rfl HEq.rfl (by decide) (by decide) ?_  -- main_v64 / main_v96
  refine Sim.binary (List.Mem.tail _ (List.Mem.tail _ (List.Mem.tail _ (List.Mem.tail _ (List.Mem.tail _ (List.Mem.tail _ (List.Mem.tail _ (List.Mem.tail _ (List.Mem.tail _ (List.Mem.head _)))))))))) (List.Mem.head _) rfl rfl rfl HEq.rfl (by decide) (by decide) ?_  -- main_v65 / main_v97
  refine Sim.nullary HEq.rfl (by decide) (by decide) ?_
  refine Sim.unary (List.Mem.head _) rfl rfl HEq.rfl (by decide) (by decide) ?_  -- main_v66 / main_v98
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (List.Mem.head _) rfl rfl rfl HEq.rfl (by decide) (by decide) ?_  -- main_v67 / main_v99
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))) rfl rfl rfl rfl HEq.rfl (by decide) (by decide) ?_  -- main_v68 / main_v100
  refine Sim.unary (List.Mem.tail _ (List.Mem.tail _ (List.Mem.tail _ (List.Mem.tail _ (List.Mem.tail _ (List.Mem.tail _ (List.Mem.tail _ (List.Mem.head _)))))))) rfl rfl HEq.rfl (by decide) (by decide) ?_  -- main_v69 / main_v101
  refine Sim.unary (List.Mem.tail _ (List.Mem.head _)) rfl rfl HEq.rfl (by decide) (by decide) ?_  -- main_v70 / main_v102
  refine Sim.binary (List.Mem.tail _ (List.Mem.head _)) (List.Mem.head _) rfl rfl rfl HEq.rfl (by decide) (by decide) ?_  -- main_v71 / main_v103
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) rfl rfl rfl HEq.rfl (by decide) (by decide) ?_  -- main_v72 / main_v104
  refine Sim.unary (List.Mem.head _) rfl rfl HEq.rfl (by decide) (by decide) ?_  -- main_v73 / main_v105
  refine Sim.unary (List.Mem.head _) rfl rfl HEq.rfl (by decide) (by decide) ?_  -- main_v74 / main_v106
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))) (List.Mem.head _) rfl rfl rfl HEq.rfl (by decide) (by decide) ?_  -- main_v75 / main_v107
  refine Sim.unary (List.Mem.head _) rfl rfl HEq.rfl (by decide) (by decide) ?_  -- main_v76 / main_v108
  refine Sim.unary (List.Mem.head _) rfl rfl HEq.rfl (by decide) (by decide) ?_  -- main_call8_v0 / main_call8_v0
  refine Sim.unary (List.Mem.tail _ (List.Mem.head _)) rfl rfl HEq.rfl (by decide) (by decide) ?_  -- main_call8_v1 / main_call8_v1
  refine Sim.binary (List.Mem.tail _ (List.Mem.head _)) (List.Mem.head _) rfl rfl rfl HEq.rfl (by decide) (by decide) ?_  -- main_v77 / main_v109
  refine Sim.binary (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))) rfl rfl rfl HEq.rfl (by decide) (by decide) ?_  -- main_v78 / main_v110
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))) (List.Mem.head _) rfl rfl rfl HEq.rfl (by decide) (by decide) ?_  -- main_v79 / main_v111
  exact Sim.done (by simp only [List.cons_subset, List.nil_subset, List.mem_cons, true_or, or_true, and_self])

set_option maxHeartbeats 4000000 in
/-- The second part, the kernel program's second float buffer of ids paired with the reference program's one. -/
theorem sim_chain_b : Sim (τ := Cert.KernelIdeal.τ) (Val := Elt F) (Q_a ++ [(Cert.KernelIdeal.main_v80, Cert.ReferenceIdeal.main_v68)]) KC_b seg_chain_b
    [(Cert.KernelIdeal.main_v88, Cert.ReferenceIdeal.main_v119), (Cert.KernelIdeal.main_v90, Cert.ReferenceIdeal.main_v121), (Cert.KernelIdeal.main_v21, Cert.ReferenceIdeal.main_v54)] := by
  show Sim [(Cert.KernelIdeal.main_v79, Cert.ReferenceIdeal.main_v111), (Cert.KernelIdeal.main_v54, Cert.ReferenceIdeal.main_v87), (Cert.KernelIdeal.main_v56, Cert.ReferenceIdeal.main_v88), (Cert.KernelIdeal.main_v20, Cert.ReferenceIdeal.main_v53), (Cert.KernelIdeal.main_v21, Cert.ReferenceIdeal.main_v54), (Cert.KernelIdeal.main_v80, Cert.ReferenceIdeal.main_v68)] _ _ _
  refine Sim.nullary HEq.rfl (by decide) (by decide) ?_
  refine Sim.unary (List.Mem.head _) rfl rfl HEq.rfl (by decide) (by decide) ?_  -- main_v81 / main_v112
  refine Sim.binary (List.Mem.tail _ (List.Mem.tail _ (List.Mem.head _))) (List.Mem.head _) rfl rfl rfl HEq.rfl (by decide) (by decide) ?_  -- main_v82 / main_v113
  refine Sim.unary (List.Mem.head _) rfl rfl HEq.rfl (by decide) (by decide) ?_  -- main_v83 / main_v114
  refine Sim.binary (List.Mem.tail _ (List.Mem.tail _ (List.Mem.tail _ (List.Mem.tail _ (List.Mem.tail _ (List.Mem.tail _ (List.Mem.tail _ (List.Mem.tail _ (List.Mem.tail _ (List.Mem.head _)))))))))) (List.Mem.head _) rfl rfl rfl HEq.rfl (by decide) (by decide) ?_  -- main_v84 / main_v115
  refine Sim.nullary HEq.rfl (by decide) (by decide) ?_
  refine Sim.unary (List.Mem.head _) rfl rfl HEq.rfl (by decide) (by decide) ?_  -- main_v85 / main_v116
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.head _))))))))))) (List.Mem.head _) rfl rfl rfl HEq.rfl (by decide) (by decide) ?_  -- main_v86 / main_v117
  refine Sim.unary (List.Mem.head _) rfl rfl HEq.rfl (by decide) (by decide) ?_  -- main_v87 / main_v118
  refine Sim.unary (List.Mem.head _) rfl rfl HEq.rfl (by decide) (by decide) ?_  -- main_call9_v0 / main_call9_v0
  refine Sim.ternary (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) rfl rfl rfl rfl HEq.rfl (by decide) (by decide) ?_  -- main_v88 / main_v119
  refine Sim.unary (List.Mem.tail _ (List.Mem.tail _ (List.Mem.head _))) rfl rfl HEq.rfl (by decide) (by decide) ?_  -- main_call10_v0 / main_call10_v0
  refine Sim.ternary (List.Mem.head _) (List.Mem.tail _ (List.Mem.tail _ (List.Mem.tail _ (List.Mem.tail _ (List.Mem.tail _ (List.Mem.tail _ (List.Mem.tail _ (List.Mem.head _)))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) rfl rfl rfl rfl HEq.rfl (by decide) (by decide) ?_  -- main_v89 / main_v120
  refine Sim.unary (List.Mem.head _) rfl rfl HEq.rfl (by decide) (by decide) ?_  -- main_v90 / main_v121
  exact Sim.done (by simp only [List.cons_subset, List.nil_subset, List.mem_cons, true_or, or_true, and_self])

/-! ## The index construction -/

set_option maxHeartbeats 4000000 in
/-- The index construction in lockstep, the kernel program's second iota paired with the reference program's one. -/
theorem sim_idx : Sim (τ := Cert.KernelIdeal.τ) (Val := Elt F) [(Cert.KernelIdeal.main_v104, Cert.ReferenceIdeal.main_v54), (Cert.KernelIdeal.main_v90, Cert.ReferenceIdeal.main_v121)] KI' seg_idx'
    [(Cert.KernelIdeal.main_v119, Cert.ReferenceIdeal.main_v137)] := by
  refine Sim.unary (List.Mem.head _) rfl rfl HEq.rfl (by decide) (by decide) ?_  -- main_v105 / main_v123
  refine Sim.nullary HEq.rfl (by decide) (by decide) ?_
  refine Sim.unary (List.Mem.head _) rfl rfl HEq.rfl (by decide) (by decide) ?_  -- main_v106 / main_v124
  refine Sim.binary (List.Mem.tail _ (List.Mem.tail _ (List.Mem.head _))) (List.Mem.head _) rfl rfl rfl HEq.rfl (by decide) (by decide) ?_  -- main_v107 / main_v125
  refine Sim.nullary HEq.rfl (by decide) (by decide) ?_
  refine Sim.unary (List.Mem.head _) rfl rfl HEq.rfl (by decide) (by decide) ?_  -- main_v108 / main_v126
  refine Sim.binary (List.Mem.tail _ (List.Mem.tail _ (List.Mem.tail _ (List.Mem.tail _ (List.Mem.tail _ (List.Mem.head _)))))) (List.Mem.head _) rfl rfl rfl HEq.rfl (by decide) (by decide) ?_  -- main_v109 / main_v127
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) rfl rfl rfl rfl HEq.rfl (by decide) (by decide) ?_  -- main_v110 / main_v128
  refine Sim.nullary HEq.rfl (by decide) (by decide) ?_
  refine Sim.unary (List.Mem.head _) rfl rfl HEq.rfl (by decide) (by decide) ?_  -- main_v111 / main_v129
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) (List.Mem.head _) rfl rfl rfl HEq.rfl (by decide) (by decide) ?_  -- main_v112 / main_v130
  refine Sim.nullary HEq.rfl (by decide) (by decide) ?_
  refine Sim.unary (List.Mem.head _) rfl rfl HEq.rfl (by decide) (by decide) ?_  -- main_v113 / main_v131
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (List.Mem.head _) rfl rfl rfl HEq.rfl (by decide) (by decide) ?_  -- main_v114 / main_v132
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) rfl rfl rfl rfl HEq.rfl (by decide) (by decide) ?_  -- main_v115 / main_v133
  refine Sim.unary (List.Mem.tail _ (List.Mem.tail _ (List.Mem.tail _ (List.Mem.tail _ (List.Mem.tail _ (List.Mem.tail _ (List.Mem.tail _ (List.Mem.head _)))))))) rfl rfl HEq.rfl (by decide) (by decide) ?_  -- main_v116 / main_v134
  refine Sim.unary (List.Mem.head _) rfl rfl HEq.rfl (by decide) (by decide) ?_  -- main_v117 / main_v135
  refine Sim.unary (List.Mem.tail _ (List.Mem.tail _ (List.Mem.head _))) rfl rfl HEq.rfl (by decide) (by decide) ?_  -- main_v118 / main_v136
  refine Sim.binary (List.Mem.tail _ (List.Mem.head _)) (List.Mem.head _) rfl rfl rfl HEq.rfl (by decide) (by decide) ?_  -- main_v119 / main_v137
  exact Sim.done (by simp only [List.cons_subset, List.nil_subset, List.mem_cons, true_or, or_true, and_self])

set_option maxHeartbeats 4000000 in
/-- The same, the reference program first writing the zeros its scatter-add starts from. -/
theorem sim_idx_zeros : Sim (τ := Cert.KernelIdeal.τ) (Val := Elt F) [(Cert.KernelIdeal.main_v104, Cert.ReferenceIdeal.main_v54), (Cert.KernelIdeal.main_v90, Cert.ReferenceIdeal.main_v121)] KI' seg_idx
    [(Cert.KernelIdeal.main_v119, Cert.ReferenceIdeal.main_v137)] := by
  refine Sim.skipR (y' := Cert.ReferenceIdeal.main_cst_36) rfl (by decide) ?_
  refine Sim.skipR (y' := Cert.ReferenceIdeal.main_v122) rfl (by decide) ?_
  refine Sim.unary (List.Mem.head _) rfl rfl HEq.rfl (by decide) (by decide) ?_  -- main_v105 / main_v123
  refine Sim.nullary HEq.rfl (by decide) (by decide) ?_
  refine Sim.unary (List.Mem.head _) rfl rfl HEq.rfl (by decide) (by decide) ?_  -- main_v106 / main_v124
  refine Sim.binary (List.Mem.tail _ (List.Mem.tail _ (List.Mem.head _))) (List.Mem.head _) rfl rfl rfl HEq.rfl (by decide) (by decide) ?_  -- main_v107 / main_v125
  refine Sim.nullary HEq.rfl (by decide) (by decide) ?_
  refine Sim.unary (List.Mem.head _) rfl rfl HEq.rfl (by decide) (by decide) ?_  -- main_v108 / main_v126
  refine Sim.binary (List.Mem.tail _ (List.Mem.tail _ (List.Mem.tail _ (List.Mem.tail _ (List.Mem.tail _ (List.Mem.head _)))))) (List.Mem.head _) rfl rfl rfl HEq.rfl (by decide) (by decide) ?_  -- main_v109 / main_v127
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) rfl rfl rfl rfl HEq.rfl (by decide) (by decide) ?_  -- main_v110 / main_v128
  refine Sim.nullary HEq.rfl (by decide) (by decide) ?_
  refine Sim.unary (List.Mem.head _) rfl rfl HEq.rfl (by decide) (by decide) ?_  -- main_v111 / main_v129
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) (List.Mem.head _) rfl rfl rfl HEq.rfl (by decide) (by decide) ?_  -- main_v112 / main_v130
  refine Sim.nullary HEq.rfl (by decide) (by decide) ?_
  refine Sim.unary (List.Mem.head _) rfl rfl HEq.rfl (by decide) (by decide) ?_  -- main_v113 / main_v131
  refine Sim.binary (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (List.Mem.head _) rfl rfl rfl HEq.rfl (by decide) (by decide) ?_  -- main_v114 / main_v132
  refine Sim.ternary (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) rfl rfl rfl rfl HEq.rfl (by decide) (by decide) ?_  -- main_v115 / main_v133
  refine Sim.unary (List.Mem.tail _ (List.Mem.tail _ (List.Mem.tail _ (List.Mem.tail _ (List.Mem.tail _ (List.Mem.tail _ (List.Mem.tail _ (List.Mem.head _)))))))) rfl rfl HEq.rfl (by decide) (by decide) ?_  -- main_v116 / main_v134
  refine Sim.unary (List.Mem.head _) rfl rfl HEq.rfl (by decide) (by decide) ?_  -- main_v117 / main_v135
  refine Sim.unary (List.Mem.tail _ (List.Mem.tail _ (List.Mem.head _))) rfl rfl HEq.rfl (by decide) (by decide) ?_  -- main_v118 / main_v136
  refine Sim.binary (List.Mem.tail _ (List.Mem.head _)) (List.Mem.head _) rfl rfl rfl HEq.rfl (by decide) (by decide) ?_  -- main_v119 / main_v137
  exact Sim.done (by simp only [List.cons_subset, List.nil_subset, List.mem_cons, true_or, or_true, and_self])

end Cert.Lockstep
-- ==== Proof.GlueIdx.lean ====
import proofs.«425233_j52278341926994_2_alg».proof.Proof.KernelRun
import proofs.«425233_j52278341926994_2_alg».proof.Proof.KernelTail
import proofs.«425233_j52278341926994_2_alg».proof.Proof.RefGlue
import proofs.«425233_j52278341926994_2_alg».proof.Proof.SimChain

/-!
# The two programs build the same index pairs

Both programs turn the candidates into pairs (row number, candidate column) by the same lines, the kernel program after
its region and from a fresh iota, the reference right after its candidate chain and from the iota it already has. Run in
lockstep from equal candidates they leave equal index arrays.
-/

set_option maxRecDepth 16384

noncomputable section

namespace Cert.GlueIdx

open Idealize.ShloMosaic Idealize.ShloMosaic.TcCoe Idealize.ShloMosaic.StableHlo

/-- The kernel program's iota line, the first of its index stretch. -/
abbrev Tio : List (HloOp Cert.KernelIdeal.τ Cert.KernelIdeal.sig (Elt Ideal)) :=
  [ StableHlo.nullary Cert.KernelIdeal.main_v104 (iotaInDim Cert.KernelIdeal.S2048 32 0) ]

set_option maxHeartbeats 4000000 in
theorem T2_split : (Cert.KernelIdeal.Tail.T2 (F := Ideal)) = Tio ++ Cert.Lockstep.KI' (F := Ideal) := rfl

variable (W : Valuation Cert.KernelIdeal.τ Cert.KernelIdeal.sig (Elt Ideal))
variable (Vr : Valuation Cert.ReferenceIdeal.τ Cert.ReferenceIdeal.sig (Elt Ideal))

set_option maxHeartbeats 4000000 in
theorem k_iota : after Tio (after (Cert.KernelIdeal.Tail.T1 (F := Ideal)) W) (Proc.devRef .tc Cert.KernelIdeal.main_v104)
    = iotaInDim Cert.KernelIdeal.S2048 32 0 := by
  after_results_simp

set_option maxHeartbeats 4000000 in
theorem k_v90 : after Tio (after (Cert.KernelIdeal.Tail.T1 (F := Ideal)) W) (Proc.devRef .tc Cert.KernelIdeal.main_v90)
    = W (Proc.devRef .tc Cert.KernelIdeal.main_v90) := by
  after_results_simp

set_option maxHeartbeats 40000000 in
theorem r_iota : Cert.ReferenceIdeal.Glue.Rchain Vr (Proc.devRef .tc Cert.ReferenceIdeal.main_v54)
    = iotaInDim Cert.ReferenceIdeal.S2048 32 0 := by
  unfold Cert.ReferenceIdeal.Glue.Rchain
  generalize after (Cert.ReferenceIdeal.Hand.seg_nz (F := Ideal)) _ = Z
  after_results_simp

/-- From equal candidates, equal index arrays. -/
theorem idx_agree
    (h90 : HEq (W (Proc.devRef .tc Cert.KernelIdeal.main_v90)) (Cert.ReferenceIdeal.Glue.Rchain Vr (Proc.devRef .tc Cert.ReferenceIdeal.main_v121))) :
    HEq (Cert.KernelIdeal.Tail.idxOf (W (Proc.devRef .tc Cert.KernelIdeal.main_v90)))
      (after (Cert.ReferenceIdeal.Hand.seg_idx (F := Ideal)) (Cert.ReferenceIdeal.Glue.Rchain Vr) (Proc.devRef .tc Cert.ReferenceIdeal.main_v137)) := by
  have hA : Agree [(Cert.KernelIdeal.main_v104, Cert.ReferenceIdeal.main_v54), (Cert.KernelIdeal.main_v90, Cert.ReferenceIdeal.main_v121)]
      (after Tio (after (Cert.KernelIdeal.Tail.T1 (F := Ideal)) W)) (Cert.ReferenceIdeal.Glue.Rchain Vr) := by
    refine Agree.cons ?_ (Agree.cons ?_ Agree.nil)
    · rw [k_iota, r_iota]
    · rw [k_v90]; exact h90
  have hS := (Cert.Lockstep.sim_idx_zeros (F := Ideal)).get hA (List.mem_singleton_self _)
  rw [← Cert.Lockstep.seg_idx_eq] at hS
  have e : after (Cert.Lockstep.KI' (F := Ideal)) (after Tio (after (Cert.KernelIdeal.Tail.T1 (F := Ideal)) W))
      = after (Cert.KernelIdeal.Tail.T2 (F := Ideal)) (after (Cert.KernelIdeal.Tail.T1 (F := Ideal)) W) := by
    rw [T2_split, Cert.KernelIdeal.Tail.after_append]
  rw [e, Cert.KernelIdeal.Tail.idx_eq] at hS
  exact hS

end Cert.GlueIdx

end
-- ==== Proof.SimNonzero.lean ====
import proofs.«425233_j52278341926994_2_alg».proof.Proof.LibAgree
import proofs.«425233_j52278341926994_2_alg».proof.Proof.Gen.KernelIdeal.Launch
import proofs.«425233_j52278341926994_2_alg».proof.Proof.Gen.ReferenceIdeal
import proofs.«425233_j52278341926994_2_alg».proof.Proof.RefRun

/-!
# The positions of the masked tokens, computed alike by the two programs

Both programs find the positions of the entries of the token array equal to 103 by the same chain of host operations:
the comparison, a running count, a clip at zero, a scatter of ones at the counts, a second running count, and a floor
division and a remainder twice, which leave the row and the column of each position. The two chains are the same
operations on buffers paired by position; stepped in lockstep from equal token arrays they leave equal rows and equal
columns. The chain is cut where the kernel program's lists are cut, one statement per stretch, and the stretches are
joined at the end; between two stretches only the pairs a later stretch reads are kept.
-/

set_option maxRecDepth 2164

noncomputable section

/-! ## The reference program's operations over the chain, in order -/

namespace Cert.ReferenceIdeal.Gen.LS

open Idealize.ShloMosaic

/-- The reference's operations beside the kernel program's list 2. -/
abbrev s2 : List (HloOp τ sig (Elt Ideal)) :=
  [ StableHlo.nullary main_c_11 (constantI S_ 32 103#32),
    StableHlo.unary main_c_11 main_v36 (broadcastInDim S64x128 ![] bcast_S_S64x128 : (⟨S_, .i32⟩ : BufTy).Contents (Elt Ideal) → (⟨S64x128, .i32⟩ : BufTy).Contents (Elt Ideal)),
    StableHlo.binary main_arg4 main_v36 main_v37 (cmpi .eq : (⟨S64x128, .i32⟩ : BufTy).Contents (Elt Ideal) → (⟨S64x128, .i32⟩ : BufTy).Contents (Elt Ideal) → (⟨S64x128, .i1⟩ : BufTy).Contents (Elt Ideal)) ]

/-- The reference's operations beside the kernel program's list 3. -/
abbrev s3 : List (HloOp τ sig (Elt Ideal)) :=
  [ StableHlo.TRef.reshape (.of main_v37 : StableHlo.TRef sig ⟨S64x128, .i1⟩) (.of main_call1_v0 : StableHlo.TRef sig ⟨S8192, .i1⟩) rfl shapeCasts_S64x128_S8192,
    StableHlo.TRef.unary (.of main_call1_v0 : StableHlo.TRef sig ⟨S8192, .i1⟩) (.of main_call1_v1 : StableHlo.TRef sig ⟨S8192, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S8192, .i32⟩) (.of main_call1_call0_v0 : StableHlo.TRef sig ⟨S_, .i32⟩) (.of main_v38 : StableHlo.TRef sig ⟨S8192, .i32⟩) (fun x v => Host.reduceWindow IntOp.addi ![8192] ![1] ![8191] ![0] x v reduceWindows_S8192_S8192_w8192s1p8191_0 h_S_) ]

/-- The reference's operations beside the kernel program's list 4. -/
abbrev s4 : List (HloOp τ sig (Elt Ideal)) :=
  [ StableHlo.nullary main_c_12 (constantI S_ 32 0#32),
    StableHlo.unary main_c_12 main_v39 (broadcastInDim S2048 ![] bcast_S_S2048 : (⟨S_, .i32⟩ : BufTy).Contents (Elt Ideal) → (⟨S2048, .i32⟩ : BufTy).Contents (Elt Ideal)),
    StableHlo.nullary main_c_13 (constantI S_ 32 0#32) ]

/-- The reference's operations beside the kernel program's list 5. -/
abbrev s5 : List (HloOp τ sig (Elt Ideal)) :=
  [ StableHlo.TRef.unary (.of main_c_13 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192, .i32⟩) (broadcastInDim S8192 ![] bcast_S_S8192),
    StableHlo.TRef.binary (.of main_call2_v1 : StableHlo.TRef sig ⟨S8192, .i32⟩) (.of main_v38 : StableHlo.TRef sig ⟨S8192, .i32⟩) (.of main_v40 : StableHlo.TRef sig ⟨S8192, .i32⟩) maxsi ]

/-- The reference's operations beside the kernel program's list 6. -/
abbrev s6 : List (HloOp τ sig (Elt Ideal)) :=
  [ StableHlo.nullary main_c_14 (constantI S_ 32 0#32),
    StableHlo.unary main_c_14 main_v41 (broadcastInDim S8192 ![] bcast_S_S8192 : (⟨S_, .i32⟩ : BufTy).Contents (Elt Ideal) → (⟨S8192, .i32⟩ : BufTy).Contents (Elt Ideal)),
    StableHlo.binary main_v40 main_v41 main_v42 (cmpi .slt : (⟨S8192, .i32⟩ : BufTy).Contents (Elt Ideal) → (⟨S8192, .i32⟩ : BufTy).Contents (Elt Ideal) → (⟨S8192, .i1⟩ : BufTy).Contents (Elt Ideal)),
    StableHlo.nullary main_c_15 (constantI S_ 32 2048#32),
    StableHlo.unary main_c_15 main_v43 (broadcastInDim S8192 ![] bcast_S_S8192 : (⟨S_, .i32⟩ : BufTy).Contents (Elt Ideal) → (⟨S8192, .i32⟩ : BufTy).Contents (Elt Ideal)),
    StableHlo.binary main_v40 main_v43 main_v44 (addi : (⟨S8192, .i32⟩ : BufTy).Contents (Elt Ideal) → (⟨S8192, .i32⟩ : BufTy).Contents (Elt Ideal) → (⟨S8192, .i32⟩ : BufTy).Contents (Elt Ideal)),
    StableHlo.ternary main_v42 main_v44 main_v40 main_v45 (select : (⟨S8192, .i1⟩ : BufTy).Contents (Elt Ideal) → (⟨S8192, .i32⟩ : BufTy).Contents (Elt Ideal) → (⟨S8192, .i32⟩ : BufTy).Contents (Elt Ideal) → (⟨S8192, .i32⟩ : BufTy).Contents (Elt Ideal)),
    StableHlo.unary main_v45 main_v46 (broadcastInDim S8192x1 ![0] bcast_S8192_S8192x1_0 : (⟨S8192, .i32⟩ : BufTy).Contents (Elt Ideal) → (⟨S8192x1, .i32⟩ : BufTy).Contents (Elt Ideal)),
    StableHlo.nullary main_c_16 (constantI S_ 32 1#32),
    StableHlo.unary main_c_16 main_v47 (broadcastInDim S8192 ![] bcast_S_S8192 : (⟨S_, .i32⟩ : BufTy).Contents (Elt Ideal) → (⟨S8192, .i32⟩ : BufTy).Contents (Elt Ideal)),
    StableHlo.ternary main_v39 main_v46 main_v47 main_v48 ((fun x i u => Host.scatter scatter_S2048_S8192x1_S8192_n_0_0_1 IntOp.addi x i u) : (⟨S2048, .i32⟩ : BufTy).Contents (Elt Ideal) → (⟨S8192x1, .i32⟩ : BufTy).Contents (Elt Ideal) → (⟨S8192, .i32⟩ : BufTy).Contents (Elt Ideal) → (⟨S2048, .i32⟩ : BufTy).Contents (Elt Ideal)) ]

/-- The reference's operations beside the kernel program's list 7. -/
abbrev s7 : List (HloOp τ sig (Elt Ideal)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v48 : StableHlo.TRef sig ⟨S2048, .i32⟩) (.of main_call3_call0_v0 : StableHlo.TRef sig ⟨S_, .i32⟩) (.of main_v49 : StableHlo.TRef sig ⟨S2048, .i32⟩) (fun x v => Host.reduceWindow IntOp.addi ![2048] ![1] ![2047] ![0] x v reduceWindows_S2048_S2048_w2048s1p2047_0 h_S_) ]

/-- The reference's operations beside the kernel program's list 8. -/
abbrev s8 : List (HloOp τ sig (Elt Ideal)) :=
  [ StableHlo.nullary main_c_17 (constantI S_ 32 128#32) ]

/-- The reference's operations beside the kernel program's list 9. -/
abbrev s9 : List (HloOp τ sig (Elt Ideal)) :=
  [ StableHlo.TRef.unary (.of main_c_17 : StableHlo.TRef sig ⟨S_, .i32⟩) (.of main_call4_v0 : StableHlo.TRef sig ⟨S2048, .i32⟩) (broadcastInDim S2048 ![] bcast_S_S2048),
    StableHlo.TRef.binary (.of main_v49 : StableHlo.TRef sig ⟨S2048, .i32⟩) (.of main_call4_v0 : StableHlo.TRef sig ⟨S2048, .i32⟩) (.of main_call4_v1 : StableHlo.TRef sig ⟨S2048, .i32⟩) Host.divsi,
    StableHlo.TRef.unary (.of main_v49 : StableHlo.TRef sig ⟨S2048, .i32⟩) (.of main_call4_v2 : StableHlo.TRef sig ⟨S2048, .i32⟩) signi,
    StableHlo.TRef.unary (.of main_c_17 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S2048, .i32⟩) (broadcastInDim S2048 ![] bcast_S_S2048),
    StableHlo.TRef.binary (.of main_call4_v2 : StableHlo.TRef sig ⟨S2048, .i32⟩) (.of main_call4_v4 : StableHlo.TRef sig ⟨S2048, .i32⟩) (.of main_call4_v5 : StableHlo.TRef sig ⟨S2048, .i1⟩) (cmpi .ne),
    StableHlo.TRef.unary (.of main_c_17 : StableHlo.TRef sig ⟨S_, .i32⟩) (.of main_call4_v6 : StableHlo.TRef sig ⟨S2048, .i32⟩) (broadcastInDim S2048 ![] bcast_S_S2048),
    StableHlo.TRef.binary (.of main_v49 : StableHlo.TRef sig ⟨S2048, .i32⟩) (.of main_call4_v6 : StableHlo.TRef sig ⟨S2048, .i32⟩) (.of main_call4_v7 : StableHlo.TRef sig ⟨S2048, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S2048, .i32⟩) (broadcastInDim S2048 ![] bcast_S_S2048),
    StableHlo.TRef.binary (.of main_call4_v7 : StableHlo.TRef sig ⟨S2048, .i32⟩) (.of main_call4_v8 : StableHlo.TRef sig ⟨S2048, .i32⟩) (.of main_call4_v9 : StableHlo.TRef sig ⟨S2048, .i1⟩) (cmpi .ne),
    StableHlo.TRef.binary (.of main_call4_v5 : StableHlo.TRef sig ⟨S2048, .i1⟩) (.of main_call4_v9 : StableHlo.TRef sig ⟨S2048, .i1⟩) (.of main_call4_v10 : StableHlo.TRef sig ⟨S2048, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S2048, .i32⟩) (broadcastInDim S2048 ![] bcast_S_S2048),
    StableHlo.TRef.binary (.of main_call4_v1 : StableHlo.TRef sig ⟨S2048, .i32⟩) (.of main_call4_v11 : StableHlo.TRef sig ⟨S2048, .i32⟩) (.of main_call4_v12 : StableHlo.TRef sig ⟨S2048, .i32⟩) subi,
    StableHlo.TRef.ternary (.of main_call4_v10 : StableHlo.TRef sig ⟨S2048, .i1⟩) (.of main_call4_v12 : StableHlo.TRef sig ⟨S2048, .i32⟩) (.of main_call4_v1 : StableHlo.TRef sig ⟨S2048, .i32⟩) (.of main_v50 : StableHlo.TRef sig ⟨S2048, .i32⟩) select ]

/-- The reference's operations beside the kernel program's list 10. -/
abbrev s10 : List (HloOp τ sig (Elt Ideal)) :=
  [ StableHlo.nullary main_c_18 (constantI S_ 32 64#32) ]

/-- The reference's operations beside the kernel program's list 11. -/
abbrev s11 : List (HloOp τ sig (Elt Ideal)) :=
  [ StableHlo.TRef.unary (.of main_c_18 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S2048, .i32⟩) (broadcastInDim S2048 ![] bcast_S_S2048),
    StableHlo.TRef.binary (.of main_v50 : StableHlo.TRef sig ⟨S2048, .i32⟩) (.of main_call5_v3 : StableHlo.TRef sig ⟨S2048, .i32⟩) (.of main_call5_v4 : StableHlo.TRef sig ⟨S2048, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S2048, .i32⟩) (broadcastInDim S2048 ![] bcast_S_S2048),
    StableHlo.TRef.binary (.of main_call5_v4 : StableHlo.TRef sig ⟨S2048, .i32⟩) (.of main_call5_v5 : StableHlo.TRef sig ⟨S2048, .i32⟩) (.of main_call5_v6 : StableHlo.TRef sig ⟨S2048, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S2048, .i32⟩) (broadcastInDim S2048 ![] bcast_S_S2048),
    StableHlo.TRef.binary (.of main_call5_v4 : StableHlo.TRef sig ⟨S2048, .i32⟩) (.of main_call5_v7 : StableHlo.TRef sig ⟨S2048, .i32⟩) (.of main_call5_v8 : StableHlo.TRef sig ⟨S2048, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S2048, .i1⟩) (broadcastInDim S2048 ![] bcast_S_S2048),
    StableHlo.TRef.binary (.of main_call5_v8 : StableHlo.TRef sig ⟨S2048, .i1⟩) (.of main_call5_v10 : StableHlo.TRef sig ⟨S2048, .i1⟩) (.of main_call5_v11 : StableHlo.TRef sig ⟨S2048, .i1⟩) (cmpi .ne),
    StableHlo.TRef.binary (.of main_call5_v11 : StableHlo.TRef sig ⟨S2048, .i1⟩) (.of main_call5_v6 : StableHlo.TRef sig ⟨S2048, .i1⟩) (.of main_call5_v12 : StableHlo.TRef sig ⟨S2048, .i1⟩) andi,
    StableHlo.TRef.unary (.of main_call5_v2 : StableHlo.TRef sig ⟨S_, .i32⟩) (.of main_call5_v13 : StableHlo.TRef sig ⟨S2048, .i32⟩) (broadcastInDim S2048 ![] bcast_S_S2048),
    StableHlo.TRef.binary (.of main_call5_v4 : StableHlo.TRef sig ⟨S2048, .i32⟩) (.of main_call5_v13 : StableHlo.TRef sig ⟨S2048, .i32⟩) (.of main_call5_v14 : StableHlo.TRef sig ⟨S2048, .i32⟩) addi,
    StableHlo.TRef.ternary (.of main_call5_v12 : StableHlo.TRef sig ⟨S2048, .i1⟩) (.of main_call5_v14 : StableHlo.TRef sig ⟨S2048, .i32⟩) (.of main_call5_v4 : StableHlo.TRef sig ⟨S2048, .i32⟩) (.of main_v51 : StableHlo.TRef sig ⟨S2048, .i32⟩) select ]

/-- The reference's operations beside the kernel program's list 12. -/
abbrev s12 : List (HloOp τ sig (Elt Ideal)) :=
  [ StableHlo.nullary main_c_19 (constantI S_ 32 1#32) ]

/-- The reference's operations beside the kernel program's list 13. -/
abbrev s13 : List (HloOp τ sig (Elt Ideal)) :=
  [ StableHlo.TRef.unary (.of main_c_19 : StableHlo.TRef sig ⟨S_, .i32⟩) (.of main_call6_v0 : StableHlo.TRef sig ⟨S2048, .i32⟩) (broadcastInDim S2048 ![] bcast_S_S2048),
    StableHlo.TRef.binary (.of main_v49 : StableHlo.TRef sig ⟨S2048, .i32⟩) (.of main_call6_v0 : StableHlo.TRef sig ⟨S2048, .i32⟩) (.of main_call6_v1 : StableHlo.TRef sig ⟨S2048, .i32⟩) Host.divsi,
    StableHlo.TRef.unary (.of main_v49 : StableHlo.TRef sig ⟨S2048, .i32⟩) (.of main_call6_v2 : StableHlo.TRef sig ⟨S2048, .i32⟩) signi,
    StableHlo.TRef.unary (.of main_c_19 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S2048, .i32⟩) (broadcastInDim S2048 ![] bcast_S_S2048),
    StableHlo.TRef.binary (.of main_call6_v2 : StableHlo.TRef sig ⟨S2048, .i32⟩) (.of main_call6_v4 : StableHlo.TRef sig ⟨S2048, .i32⟩) (.of main_call6_v5 : StableHlo.TRef sig ⟨S2048, .i1⟩) (cmpi .ne),
    StableHlo.TRef.unary (.of main_c_19 : StableHlo.TRef sig ⟨S_, .i32⟩) (.of main_call6_v6 : StableHlo.TRef sig ⟨S2048, .i32⟩) (broadcastInDim S2048 ![] bcast_S_S2048),
    StableHlo.TRef.binary (.of main_v49 : StableHlo.TRef sig ⟨S2048, .i32⟩) (.of main_call6_v6 : StableHlo.TRef sig ⟨S2048, .i32⟩) (.of main_call6_v7 : StableHlo.TRef sig ⟨S2048, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S2048, .i32⟩) (broadcastInDim S2048 ![] bcast_S_S2048),
    StableHlo.TRef.binary (.of main_call6_v7 : StableHlo.TRef sig ⟨S2048, .i32⟩) (.of main_call6_v8 : StableHlo.TRef sig ⟨S2048, .i32⟩) (.of main_call6_v9 : StableHlo.TRef sig ⟨S2048, .i1⟩) (cmpi .ne),
    StableHlo.TRef.binary (.of main_call6_v5 : StableHlo.TRef sig ⟨S2048, .i1⟩) (.of main_call6_v9 : StableHlo.TRef sig ⟨S2048, .i1⟩) (.of main_call6_v10 : StableHlo.TRef sig ⟨S2048, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S2048, .i32⟩) (broadcastInDim S2048 ![] bcast_S_S2048),
    StableHlo.TRef.binary (.of main_call6_v1 : StableHlo.TRef sig ⟨S2048, .i32⟩) (.of main_call6_v11 : StableHlo.TRef sig ⟨S2048, .i32⟩) (.of main_call6_v12 : StableHlo.TRef sig ⟨S2048, .i32⟩) subi,
    StableHlo.TRef.ternary (.of main_call6_v10 : StableHlo.TRef sig ⟨S2048, .i1⟩) (.of main_call6_v12 : StableHlo.TRef sig ⟨S2048, .i32⟩) (.of main_call6_v1 : StableHlo.TRef sig ⟨S2048, .i32⟩) (.of main_v52 : StableHlo.TRef sig ⟨S2048, .i32⟩) select ]

/-- The reference's operations beside the kernel program's list 14. -/
abbrev s14 : List (HloOp τ sig (Elt Ideal)) :=
  [ StableHlo.nullary main_c_20 (constantI S_ 32 128#32) ]

/-- The reference's operations beside the kernel program's list 15. -/
abbrev s15 : List (HloOp τ sig (Elt Ideal)) :=
  [ StableHlo.TRef.unary (.of main_c_20 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S2048, .i32⟩) (broadcastInDim S2048 ![] bcast_S_S2048),
    StableHlo.TRef.binary (.of main_v52 : StableHlo.TRef sig ⟨S2048, .i32⟩) (.of main_call7_v3 : StableHlo.TRef sig ⟨S2048, .i32⟩) (.of main_call7_v4 : StableHlo.TRef sig ⟨S2048, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S2048, .i32⟩) (broadcastInDim S2048 ![] bcast_S_S2048),
    StableHlo.TRef.binary (.of main_call7_v4 : StableHlo.TRef sig ⟨S2048, .i32⟩) (.of main_call7_v5 : StableHlo.TRef sig ⟨S2048, .i32⟩) (.of main_call7_v6 : StableHlo.TRef sig ⟨S2048, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S2048, .i32⟩) (broadcastInDim S2048 ![] bcast_S_S2048),
    StableHlo.TRef.binary (.of main_call7_v4 : StableHlo.TRef sig ⟨S2048, .i32⟩) (.of main_call7_v7 : StableHlo.TRef sig ⟨S2048, .i32⟩) (.of main_call7_v8 : StableHlo.TRef sig ⟨S2048, .i1⟩) (cmpi .slt),
    StableHlo.TRef.nullary (.of main_call7_c_3 : StableHlo.TRef sig ⟨S_, .i32⟩) (constantI S_ 32 0#32),
    StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S2048, .i1⟩) (broadcastInDim S2048 ![] bcast_S_S2048),
    StableHlo.TRef.binary (.of main_call7_v8 : StableHlo.TRef sig ⟨S2048, .i1⟩) (.of main_call7_v10 : StableHlo.TRef sig ⟨S2048, .i1⟩) (.of main_call7_v11 : StableHlo.TRef sig ⟨S2048, .i1⟩) (cmpi .ne),
    StableHlo.TRef.binary (.of main_call7_v11 : StableHlo.TRef sig ⟨S2048, .i1⟩) (.of main_call7_v6 : StableHlo.TRef sig ⟨S2048, .i1⟩) (.of main_call7_v12 : StableHlo.TRef sig ⟨S2048, .i1⟩) andi,
    StableHlo.TRef.unary (.of main_call7_v2 : StableHlo.TRef sig ⟨S_, .i32⟩) (.of main_call7_v13 : StableHlo.TRef sig ⟨S2048, .i32⟩) (broadcastInDim S2048 ![] bcast_S_S2048),
    StableHlo.TRef.binary (.of main_call7_v4 : StableHlo.TRef sig ⟨S2048, .i32⟩) (.of main_call7_v13 : StableHlo.TRef sig ⟨S2048, .i32⟩) (.of main_call7_v14 : StableHlo.TRef sig ⟨S2048, .i32⟩) addi,
    StableHlo.TRef.ternary (.of main_call7_v12 : StableHlo.TRef sig ⟨S2048, .i1⟩) (.of main_call7_v14 : StableHlo.TRef sig ⟨S2048, .i32⟩) (.of main_call7_v4 : StableHlo.TRef sig ⟨S2048, .i32⟩) (.of main_v53 : StableHlo.TRef sig ⟨S2048, .i32⟩) select ]

/-- The whole chain: from the constant 103 to the columns. -/
abbrev seg_nz : List (HloOp τ sig (Elt Ideal)) :=
  s2 ++ s3 ++ s4 ++ s5 ++ s6 ++ s7 ++ s8 ++ s9 ++ s10 ++ s11 ++ s12 ++ s13 ++ s14 ++ s15

/-- After the chain: the numbering of the rows, and twice the reduction of the row of each position into range with the
    weights gathered at it in between. -/
abbrev rows : List (HloOp τ sig (Elt Ideal)) :=
  [ StableHlo.nullary main_v54 (iotaInDim S2048 32 0),
    StableHlo.nullary main_c_21 (constantI S_ 32 0#32),
    StableHlo.unary main_c_21 main_v55 (broadcastInDim S2048 ![] bcast_S_S2048 : (⟨S_, .i32⟩ : BufTy).Contents (Elt Ideal) → (⟨S2048, .i32⟩ : BufTy).Contents (Elt Ideal)),
    StableHlo.binary main_v51 main_v55 main_v56 (cmpi .slt : (⟨S2048, .i32⟩ : BufTy).Contents (Elt Ideal) → (⟨S2048, .i32⟩ : BufTy).Contents (Elt Ideal) → (⟨S2048, .i1⟩ : BufTy).Contents (Elt Ideal)),
    StableHlo.nullary main_c_22 (constantI S_ 32 64#32),
    StableHlo.unary main_c_22 main_v57 (broadcastInDim S2048 ![] bcast_S_S2048 : (⟨S_, .i32⟩ : BufTy).Contents (Elt Ideal) → (⟨S2048, .i32⟩ : BufTy).Contents (Elt Ideal)),
    StableHlo.binary main_v51 main_v57 main_v58 (addi : (⟨S2048, .i32⟩ : BufTy).Contents (Elt Ideal) → (⟨S2048, .i32⟩ : BufTy).Contents (Elt Ideal) → (⟨S2048, .i32⟩ : BufTy).Contents (Elt Ideal)),
    StableHlo.ternary main_v56 main_v58 main_v51 main_v59 (select : (⟨S2048, .i1⟩ : BufTy).Contents (Elt Ideal) → (⟨S2048, .i32⟩ : BufTy).Contents (Elt Ideal) → (⟨S2048, .i32⟩ : BufTy).Contents (Elt Ideal) → (⟨S2048, .i32⟩ : BufTy).Contents (Elt Ideal)),
    StableHlo.unary main_v59 main_v60 (broadcastInDim S2048x1 ![0] bcast_S2048_S2048x1_0 : (⟨S2048, .i32⟩ : BufTy).Contents (Elt Ideal) → (⟨S2048x1, .i32⟩ : BufTy).Contents (Elt Ideal)),
    StableHlo.binary main_arg3 main_v60 main_v61 ((fun x i => Host.gather gather_S64x128_S2048x1_S2048x128_1_0_n_n_0_1_1128 x i) : (⟨S64x128, .f32⟩ : BufTy).Contents (Elt Ideal) → (⟨S2048x1, .i32⟩ : BufTy).Contents (Elt Ideal) → (⟨S2048x128, .f32⟩ : BufTy).Contents (Elt Ideal)),
    StableHlo.nullary main_c_23 (constantI S_ 32 0#32),
    StableHlo.unary main_c_23 main_v62 (broadcastInDim S2048 ![] bcast_S_S2048 : (⟨S_, .i32⟩ : BufTy).Contents (Elt Ideal) → (⟨S2048, .i32⟩ : BufTy).Contents (Elt Ideal)),
    StableHlo.binary main_v51 main_v62 main_v63 (cmpi .slt : (⟨S2048, .i32⟩ : BufTy).Contents (Elt Ideal) → (⟨S2048, .i32⟩ : BufTy).Contents (Elt Ideal) → (⟨S2048, .i1⟩ : BufTy).Contents (Elt Ideal)),
    StableHlo.nullary main_c_24 (constantI S_ 32 64#32),
    StableHlo.unary main_c_24 main_v64 (broadcastInDim S2048 ![] bcast_S_S2048 : (⟨S_, .i32⟩ : BufTy).Contents (Elt Ideal) → (⟨S2048, .i32⟩ : BufTy).Contents (Elt Ideal)),
    StableHlo.binary main_v51 main_v64 main_v65 (addi : (⟨S2048, .i32⟩ : BufTy).Contents (Elt Ideal) → (⟨S2048, .i32⟩ : BufTy).Contents (Elt Ideal) → (⟨S2048, .i32⟩ : BufTy).Contents (Elt Ideal)),
    StableHlo.ternary main_v63 main_v65 main_v51 main_v66 (select : (⟨S2048, .i1⟩ : BufTy).Contents (Elt Ideal) → (⟨S2048, .i32⟩ : BufTy).Contents (Elt Ideal) → (⟨S2048, .i32⟩ : BufTy).Contents (Elt Ideal) → (⟨S2048, .i32⟩ : BufTy).Contents (Elt Ideal)),
    StableHlo.unary main_v66 main_v67 (broadcastInDim S2048x1 ![0] bcast_S2048_S2048x1_0 : (⟨S2048, .i32⟩ : BufTy).Contents (Elt Ideal) → (⟨S2048x1, .i32⟩ : BufTy).Contents (Elt Ideal)) ]

end Cert.ReferenceIdeal.Gen.LS

namespace Cert.KernelIdeal.Gen.LS

open Idealize.ShloMosaic

/-- The kernel program's first eighteen operations after the chain (the head of its next list): the numbering of the
    rows, and twice the reduction of the row of each position into range with the weights gathered at it in between. -/
abbrev rows : List (HloOp τ sig (Elt Ideal)) :=
  [ StableHlo.nullary main_v21 (iotaInDim S2048 32 0),
    StableHlo.nullary main_c_10 (constantI S_ 32 0#32),
    StableHlo.unary main_c_10 main_v22 (broadcastInDim S2048 ![] bcast_S_S2048 : (⟨S_, .i32⟩ : BufTy).Contents (Elt Ideal) → (⟨S2048, .i32⟩ : BufTy).Contents (Elt Ideal)),
    StableHlo.binary main_v18 main_v22 main_v23 (cmpi .slt : (⟨S2048, .i32⟩ : BufTy).Contents (Elt Ideal) → (⟨S2048, .i32⟩ : BufTy).Contents (Elt Ideal) → (⟨S2048, .i1⟩ : BufTy).Contents (Elt Ideal)),
    StableHlo.nullary main_c_11 (constantI S_ 32 64#32),
    StableHlo.unary main_c_11 main_v24 (broadcastInDim S2048 ![] bcast_S_S2048 : (⟨S_, .i32⟩ : BufTy).Contents (Elt Ideal) → (⟨S2048, .i32⟩ : BufTy).Contents (Elt Ideal)),
    StableHlo.binary main_v18 main_v24 main_v25 (addi : (⟨S2048, .i32⟩ : BufTy).Contents (Elt Ideal) → (⟨S2048, .i32⟩ : BufTy).Contents (Elt Ideal) → (⟨S2048, .i32⟩ : BufTy).Contents (Elt Ideal)),
    StableHlo.ternary main_v23 main_v25 main_v18 main_v26 (select : (⟨S2048, .i1⟩ : BufTy).Contents (Elt Ideal) → (⟨S2048, .i32⟩ : BufTy).Contents (Elt Ideal) → (⟨S2048, .i32⟩ : BufTy).Contents (Elt Ideal) → (⟨S2048, .i32⟩ : BufTy).Contents (Elt Ideal)),
    StableHlo.unary main_v26 main_v27 (broadcastInDim S2048x1 ![0] bcast_S2048_S2048x1_0 : (⟨S2048, .i32⟩ : BufTy).Contents (Elt Ideal) → (⟨S2048x1, .i32⟩ : BufTy).Contents (Elt Ideal)),
    StableHlo.binary main_arg3 main_v27 main_v28 ((fun x i => Host.gather gather_S64x128_S2048x1_S2048x128_1_0_n_n_0_1_1128 x i) : (⟨S64x128, .f32⟩ : BufTy).Contents (Elt Ideal) → (⟨S2048x1, .i32⟩ : BufTy).Contents (Elt Ideal) → (⟨S2048x128, .f32⟩ : BufTy).Contents (Elt Ideal)),
    StableHlo.nullary main_c_12 (constantI S_ 32 0#32),
    StableHlo.unary main_c_12 main_v29 (broadcastInDim S2048 ![] bcast_S_S2048 : (⟨S_, .i32⟩ : BufTy).Contents (Elt Ideal) → (⟨S2048, .i32⟩ : BufTy).Contents (Elt Ideal)),
    StableHlo.binary main_v18 main_v29 main_v30 (cmpi .slt : (⟨S2048, .i32⟩ : BufTy).Contents (Elt Ideal) → (⟨S2048, .i32⟩ : BufTy).Contents (Elt Ideal) → (⟨S2048, .i1⟩ : BufTy).Contents (Elt Ideal)),
    StableHlo.nullary main_c_13 (constantI S_ 32 64#32),
    StableHlo.unary main_c_13 main_v31 (broadcastInDim S2048 ![] bcast_S_S2048 : (⟨S_, .i32⟩ : BufTy).Contents (Elt Ideal) → (⟨S2048, .i32⟩ : BufTy).Contents (Elt Ideal)),
    StableHlo.binary main_v18 main_v31 main_v32 (addi : (⟨S2048, .i32⟩ : BufTy).Contents (Elt Ideal) → (⟨S2048, .i32⟩ : BufTy).Contents (Elt Ideal) → (⟨S2048, .i32⟩ : BufTy).Contents (Elt Ideal)),
    StableHlo.ternary main_v30 main_v32 main_v18 main_v33 (select : (⟨S2048, .i1⟩ : BufTy).Contents (Elt Ideal) → (⟨S2048, .i32⟩ : BufTy).Contents (Elt Ideal) → (⟨S2048, .i32⟩ : BufTy).Contents (Elt Ideal) → (⟨S2048, .i32⟩ : BufTy).Contents (Elt Ideal)),
    StableHlo.unary main_v33 main_v34 (broadcastInDim S2048x1 ![0] bcast_S2048_S2048x1_0 : (⟨S2048, .i32⟩ : BufTy).Contents (Elt Ideal) → (⟨S2048x1, .i32⟩ : BufTy).Contents (Elt Ideal)) ]

end Cert.KernelIdeal.Gen.LS

namespace Cert.Lockstep

open Idealize.ShloMosaic Idealize.ShloMosaic.StableHlo

/-- The entry at position k of a list is a member of it. -/
local syntax "at% " num : term
macro_rules
  | `(at% $n) => match n.getNat with
    | 0 => `(List.Mem.head _)
    | k + 1 => `(List.Mem.tail _ (at% $(Lean.Syntax.mkNumLit (toString k))))

/-- The kernel program's operations over the chain: its lists from the constant 103 to the columns. -/
abbrev KB : List (HloOp Cert.KernelIdeal.τ Cert.KernelIdeal.sig (Elt Ideal)) :=
  Cert.KernelIdeal.Gen.hostOps0_2 (F := Ideal) ++ Cert.KernelIdeal.Gen.hostOps0_3 (F := Ideal) ++ Cert.KernelIdeal.Gen.hostOps0_4 (F := Ideal) ++ Cert.KernelIdeal.Gen.hostOps0_5 (F := Ideal) ++ Cert.KernelIdeal.Gen.hostOps0_6 (F := Ideal) ++ Cert.KernelIdeal.Gen.hostOps0_7 (F := Ideal) ++ Cert.KernelIdeal.Gen.hostOps0_8 (F := Ideal) ++ Cert.KernelIdeal.Gen.hostOps0_9 (F := Ideal) ++ Cert.KernelIdeal.Gen.hostOps0_10 (F := Ideal) ++ Cert.KernelIdeal.Gen.hostOps0_11 (F := Ideal) ++ Cert.KernelIdeal.Gen.hostOps0_12 (F := Ideal) ++ Cert.KernelIdeal.Gen.hostOps0_13 (F := Ideal) ++ Cert.KernelIdeal.Gen.hostOps0_14 (F := Ideal) ++ Cert.KernelIdeal.Gen.hostOps0_15 (F := Ideal)

/-! ## One stretch at a time -/

theorem sim_2 : Sim (τ := Cert.KernelIdeal.τ) (Val := Elt Ideal)
    [(Cert.KernelIdeal.main_arg4, Cert.ReferenceIdeal.main_arg4)]
    (Cert.KernelIdeal.Gen.hostOps0_2 (F := Ideal)) Cert.ReferenceIdeal.Gen.LS.s2
    [(Cert.KernelIdeal.main_v4, Cert.ReferenceIdeal.main_v37)] := by
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  exact Sim.done (List.cons_subset.2 ⟨(at% 0), List.nil_subset _⟩)

theorem sim_3 : Sim (τ := Cert.KernelIdeal.τ) (Val := Elt Ideal)
    [(Cert.KernelIdeal.main_v4, Cert.ReferenceIdeal.main_v37)]
    (Cert.KernelIdeal.Gen.hostOps0_3 (F := Ideal)) Cert.ReferenceIdeal.Gen.LS.s3
    [(Cert.KernelIdeal.main_v5, Cert.ReferenceIdeal.main_v38)] := by
  refine Sim.reshape (at% 0) rfl rfl (by decide) (by decide) ?_
  refine Sim.unary (at% 0) rfl rfl HEq.rfl (by decide) (by decide) ?_
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  exact Sim.done (List.cons_subset.2 ⟨(at% 0), List.nil_subset _⟩)

theorem sim_4 : Sim (τ := Cert.KernelIdeal.τ) (Val := Elt Ideal)
    [(Cert.KernelIdeal.main_v5, Cert.ReferenceIdeal.main_v38)]
    (Cert.KernelIdeal.Gen.hostOps0_4 (F := Ideal)) Cert.ReferenceIdeal.Gen.LS.s4
    [(Cert.KernelIdeal.main_c_2, Cert.ReferenceIdeal.main_c_13), (Cert.KernelIdeal.main_v6, Cert.ReferenceIdeal.main_v39), (Cert.KernelIdeal.main_v5, Cert.ReferenceIdeal.main_v38)] := by
  refine Sim.nullary HEq.rfl (by decide) (by decide) ?_
  refine Sim.unary (at% 0) rfl rfl HEq.rfl (by decide) (by decide) ?_
  refine Sim.nullary HEq.rfl (by decide) (by decide) ?_
  exact Sim.done (List.cons_subset.2 ⟨(at% 0), List.cons_subset.2 ⟨(at% 1), List.cons_subset.2 ⟨(at% 3), List.nil_subset _⟩⟩⟩)

theorem sim_5 : Sim (τ := Cert.KernelIdeal.τ) (Val := Elt Ideal)
    [(Cert.KernelIdeal.main_c_2, Cert.ReferenceIdeal.main_c_13), (Cert.KernelIdeal.main_v6, Cert.ReferenceIdeal.main_v39), (Cert.KernelIdeal.main_v5, Cert.ReferenceIdeal.main_v38)]
    (Cert.KernelIdeal.Gen.hostOps0_5 (F := Ideal)) Cert.ReferenceIdeal.Gen.LS.s5
    [(Cert.KernelIdeal.main_v7, Cert.ReferenceIdeal.main_v40), (Cert.KernelIdeal.main_v6, Cert.ReferenceIdeal.main_v39)] := by
  refine Sim.unary (at% 0) rfl rfl HEq.rfl (by decide) (by decide) ?_
  refine Sim.unary (at% 0) rfl rfl HEq.rfl (by decide) (by decide) ?_
  refine Sim.binary (at% 0) (at% 4) rfl rfl rfl HEq.rfl (by decide) (by decide) ?_
  exact Sim.done (List.cons_subset.2 ⟨(at% 0), List.cons_subset.2 ⟨(at% 4), List.nil_subset _⟩⟩)

theorem sim_6 : Sim (τ := Cert.KernelIdeal.τ) (Val := Elt Ideal)
    [(Cert.KernelIdeal.main_v7, Cert.ReferenceIdeal.main_v40), (Cert.KernelIdeal.main_v6, Cert.ReferenceIdeal.main_v39)]
    (Cert.KernelIdeal.Gen.hostOps0_6 (F := Ideal)) Cert.ReferenceIdeal.Gen.LS.s6
    [(Cert.KernelIdeal.main_v15, Cert.ReferenceIdeal.main_v48)] := by
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  refine Sim.nullary HEq.rfl (by decide) (by decide) ?_
  refine Sim.unary (at% 0) rfl rfl HEq.rfl (by decide) (by decide) ?_
  refine Sim.binary (at% 5) (at% 0) rfl rfl rfl HEq.rfl (by decide) (by decide) ?_
  refine Sim.ternary (at% 3) (at% 0) (at% 6) rfl rfl rfl rfl HEq.rfl (by decide) (by decide) ?_
  refine Sim.unary (at% 0) rfl rfl HEq.rfl (by decide) (by decide) ?_
  refine Sim.nullary HEq.rfl (by decide) (by decide) ?_
  refine Sim.unary (at% 0) rfl rfl HEq.rfl (by decide) (by decide) ?_
  refine Sim.ternary (at% 11) (at% 2) (at% 0) rfl rfl rfl rfl HEq.rfl (by decide) (by decide) ?_
  exact Sim.done (List.cons_subset.2 ⟨(at% 0), List.nil_subset _⟩)

theorem sim_7 : Sim (τ := Cert.KernelIdeal.τ) (Val := Elt Ideal)
    [(Cert.KernelIdeal.main_v15, Cert.ReferenceIdeal.main_v48)]
    (Cert.KernelIdeal.Gen.hostOps0_7 (F := Ideal)) Cert.ReferenceIdeal.Gen.LS.s7
    [(Cert.KernelIdeal.main_v16, Cert.ReferenceIdeal.main_v49)] := by
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  exact Sim.done (List.cons_subset.2 ⟨(at% 0), List.nil_subset _⟩)

theorem sim_8 : Sim (τ := Cert.KernelIdeal.τ) (Val := Elt Ideal)
    [(Cert.KernelIdeal.main_v16, Cert.ReferenceIdeal.main_v49)]
    (Cert.KernelIdeal.Gen.hostOps0_8 (F := Ideal)) Cert.ReferenceIdeal.Gen.LS.s8
    [(Cert.KernelIdeal.main_c_6, Cert.ReferenceIdeal.main_c_17), (Cert.KernelIdeal.main_v16, Cert.ReferenceIdeal.main_v49)] := by
  refine Sim.nullary HEq.rfl (by decide) (by decide) ?_
  exact Sim.done (List.cons_subset.2 ⟨(at% 0), List.cons_subset.2 ⟨(at% 1), List.nil_subset _⟩⟩)

theorem sim_9 : Sim (τ := Cert.KernelIdeal.τ) (Val := Elt Ideal)
    [(Cert.KernelIdeal.main_c_6, Cert.ReferenceIdeal.main_c_17), (Cert.KernelIdeal.main_v16, Cert.ReferenceIdeal.main_v49)]
    (Cert.KernelIdeal.Gen.hostOps0_9 (F := Ideal)) Cert.ReferenceIdeal.Gen.LS.s9
    [(Cert.KernelIdeal.main_v17, Cert.ReferenceIdeal.main_v50), (Cert.KernelIdeal.main_v16, Cert.ReferenceIdeal.main_v49)] := by
  refine Sim.unary (at% 0) rfl rfl HEq.rfl (by decide) (by decide) ?_
  refine Sim.binary (at% 2) (at% 0) rfl rfl rfl HEq.rfl (by decide) (by decide) ?_
  refine Sim.unary (at% 3) rfl rfl HEq.rfl (by decide) (by decide) ?_
  refine Sim.unary (at% 3) rfl rfl HEq.rfl (by decide) (by decide) ?_
  refine Sim.unary (at% 0) rfl rfl HEq.rfl (by decide) (by decide) ?_
  refine Sim.binary (at% 2) (at% 0) rfl rfl rfl HEq.rfl (by decide) (by decide) ?_
  refine Sim.unary (at% 6) rfl rfl HEq.rfl (by decide) (by decide) ?_
  refine Sim.binary (at% 8) (at% 0) rfl rfl rfl HEq.rfl (by decide) (by decide) ?_
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  refine Sim.binary (at% 5) (at% 0) rfl rfl rfl HEq.rfl (by decide) (by decide) ?_
  refine Sim.nullary HEq.rfl (by decide) (by decide) ?_
  refine Sim.unary (at% 0) rfl rfl HEq.rfl (by decide) (by decide) ?_
  refine Sim.binary (at% 12) (at% 0) rfl rfl rfl HEq.rfl (by decide) (by decide) ?_
  refine Sim.ternary (at% 3) (at% 0) (at% 13) rfl rfl rfl rfl HEq.rfl (by decide) (by decide) ?_
  exact Sim.done (List.cons_subset.2 ⟨(at% 0), List.cons_subset.2 ⟨(at% 17), List.nil_subset _⟩⟩)

theorem sim_10 : Sim (τ := Cert.KernelIdeal.τ) (Val := Elt Ideal)
    [(Cert.KernelIdeal.main_v17, Cert.ReferenceIdeal.main_v50), (Cert.KernelIdeal.main_v16, Cert.ReferenceIdeal.main_v49)]
    (Cert.KernelIdeal.Gen.hostOps0_10 (F := Ideal)) Cert.ReferenceIdeal.Gen.LS.s10
    [(Cert.KernelIdeal.main_c_7, Cert.ReferenceIdeal.main_c_18), (Cert.KernelIdeal.main_v17, Cert.ReferenceIdeal.main_v50), (Cert.KernelIdeal.main_v16, Cert.ReferenceIdeal.main_v49)] := by
  refine Sim.nullary HEq.rfl (by decide) (by decide) ?_
  exact Sim.done (List.cons_subset.2 ⟨(at% 0), List.cons_subset.2 ⟨(at% 1), List.cons_subset.2 ⟨(at% 2), List.nil_subset _⟩⟩⟩)

theorem sim_11 : Sim (τ := Cert.KernelIdeal.τ) (Val := Elt Ideal)
    [(Cert.KernelIdeal.main_c_7, Cert.ReferenceIdeal.main_c_18), (Cert.KernelIdeal.main_v17, Cert.ReferenceIdeal.main_v50), (Cert.KernelIdeal.main_v16, Cert.ReferenceIdeal.main_v49)]
    (Cert.KernelIdeal.Gen.hostOps0_11 (F := Ideal)) Cert.ReferenceIdeal.Gen.LS.s11
    [(Cert.KernelIdeal.main_v18, Cert.ReferenceIdeal.main_v51), (Cert.KernelIdeal.main_v16, Cert.ReferenceIdeal.main_v49)] := by
  refine Sim.unary (at% 0) rfl rfl HEq.rfl (by decide) (by decide) ?_
  refine Sim.nullary HEq.rfl (by decide) (by decide) ?_
  refine Sim.binary (at% 1) (at% 0) rfl rfl rfl HEq.rfl (by decide) (by decide) ?_
  refine Sim.nullary HEq.rfl (by decide) (by decide) ?_
  refine Sim.ternary (at% 1) (at% 0) (at% 3) rfl rfl rfl rfl HEq.rfl (by decide) (by decide) ?_
  refine Sim.unary (at% 0) rfl rfl HEq.rfl (by decide) (by decide) ?_
  refine Sim.binary (at% 7) (at% 0) rfl rfl rfl HEq.rfl (by decide) (by decide) ?_
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  refine Sim.nullary HEq.rfl (by decide) (by decide) ?_
  refine Sim.unary (at% 0) rfl rfl HEq.rfl (by decide) (by decide) ?_
  refine Sim.binary (at% 5) (at% 0) rfl rfl rfl HEq.rfl (by decide) (by decide) ?_
  refine Sim.nullary HEq.rfl (by decide) (by decide) ?_
  refine Sim.binary (at% 9) (at% 0) rfl rfl rfl HEq.rfl (by decide) (by decide) ?_
  refine Sim.unary (at% 0) rfl rfl HEq.rfl (by decide) (by decide) ?_
  refine Sim.binary (at% 3) (at% 0) rfl rfl rfl HEq.rfl (by decide) (by decide) ?_
  refine Sim.binary (at% 0) (at% 7) rfl rfl rfl HEq.rfl (by decide) (by decide) ?_
  refine Sim.unary (at% 13) rfl rfl HEq.rfl (by decide) (by decide) ?_
  refine Sim.binary (at% 12) (at% 0) rfl rfl rfl HEq.rfl (by decide) (by decide) ?_
  refine Sim.ternary (at% 2) (at% 0) (at% 13) rfl rfl rfl rfl HEq.rfl (by decide) (by decide) ?_
  exact Sim.done (List.cons_subset.2 ⟨(at% 0), List.cons_subset.2 ⟨(at% 23), List.nil_subset _⟩⟩)

theorem sim_12 : Sim (τ := Cert.KernelIdeal.τ) (Val := Elt Ideal)
    [(Cert.KernelIdeal.main_v18, Cert.ReferenceIdeal.main_v51), (Cert.KernelIdeal.main_v16, Cert.ReferenceIdeal.main_v49)]
    (Cert.KernelIdeal.Gen.hostOps0_12 (F := Ideal)) Cert.ReferenceIdeal.Gen.LS.s12
    [(Cert.KernelIdeal.main_c_8, Cert.ReferenceIdeal.main_c_19), (Cert.KernelIdeal.main_v18, Cert.ReferenceIdeal.main_v51), (Cert.KernelIdeal.main_v16, Cert.ReferenceIdeal.main_v49)] := by
  refine Sim.nullary HEq.rfl (by decide) (by decide) ?_
  exact Sim.done (List.cons_subset.2 ⟨(at% 0), List.cons_subset.2 ⟨(at% 1), List.cons_subset.2 ⟨(at% 2), List.nil_subset _⟩⟩⟩)

theorem sim_13 : Sim (τ := Cert.KernelIdeal.τ) (Val := Elt Ideal)
    [(Cert.KernelIdeal.main_c_8, Cert.ReferenceIdeal.main_c_19), (Cert.KernelIdeal.main_v18, Cert.ReferenceIdeal.main_v51), (Cert.KernelIdeal.main_v16, Cert.ReferenceIdeal.main_v49)]
    (Cert.KernelIdeal.Gen.hostOps0_13 (F := Ideal)) Cert.ReferenceIdeal.Gen.LS.s13
    [(Cert.KernelIdeal.main_v19, Cert.ReferenceIdeal.main_v52), (Cert.KernelIdeal.main_v18, Cert.ReferenceIdeal.main_v51)] := by
  refine Sim.unary (at% 0) rfl rfl HEq.rfl (by decide) (by decide) ?_
  refine Sim.binary (at% 3) (at% 0) rfl rfl rfl HEq.rfl (by decide) (by decide) ?_
  refine Sim.unary (at% 4) rfl rfl HEq.rfl (by decide) (by decide) ?_
  refine Sim.unary (at% 3) rfl rfl HEq.rfl (by decide) (by decide) ?_
  refine Sim.unary (at% 0) rfl rfl HEq.rfl (by decide) (by decide) ?_
  refine Sim.binary (at% 2) (at% 0) rfl rfl rfl HEq.rfl (by decide) (by decide) ?_
  refine Sim.unary (at% 6) rfl rfl HEq.rfl (by decide) (by decide) ?_
  refine Sim.binary (at% 9) (at% 0) rfl rfl rfl HEq.rfl (by decide) (by decide) ?_
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  refine Sim.binary (at% 5) (at% 0) rfl rfl rfl HEq.rfl (by decide) (by decide) ?_
  refine Sim.nullary HEq.rfl (by decide) (by decide) ?_
  refine Sim.unary (at% 0) rfl rfl HEq.rfl (by decide) (by decide) ?_
  refine Sim.binary (at% 12) (at% 0) rfl rfl rfl HEq.rfl (by decide) (by decide) ?_
  refine Sim.ternary (at% 3) (at% 0) (at% 13) rfl rfl rfl rfl HEq.rfl (by decide) (by decide) ?_
  exact Sim.done (List.cons_subset.2 ⟨(at% 0), List.cons_subset.2 ⟨(at% 17), List.nil_subset _⟩⟩)

theorem sim_14 : Sim (τ := Cert.KernelIdeal.τ) (Val := Elt Ideal)
    [(Cert.KernelIdeal.main_v19, Cert.ReferenceIdeal.main_v52), (Cert.KernelIdeal.main_v18, Cert.ReferenceIdeal.main_v51)]
    (Cert.KernelIdeal.Gen.hostOps0_14 (F := Ideal)) Cert.ReferenceIdeal.Gen.LS.s14
    [(Cert.KernelIdeal.main_c_9, Cert.ReferenceIdeal.main_c_20), (Cert.KernelIdeal.main_v19, Cert.ReferenceIdeal.main_v52), (Cert.KernelIdeal.main_v18, Cert.ReferenceIdeal.main_v51)] := by
  refine Sim.nullary HEq.rfl (by decide) (by decide) ?_
  exact Sim.done (List.cons_subset.2 ⟨(at% 0), List.cons_subset.2 ⟨(at% 1), List.cons_subset.2 ⟨(at% 2), List.nil_subset _⟩⟩⟩)

theorem sim_15 : Sim (τ := Cert.KernelIdeal.τ) (Val := Elt Ideal)
    [(Cert.KernelIdeal.main_c_9, Cert.ReferenceIdeal.main_c_20), (Cert.KernelIdeal.main_v19, Cert.ReferenceIdeal.main_v52), (Cert.KernelIdeal.main_v18, Cert.ReferenceIdeal.main_v51)]
    (Cert.KernelIdeal.Gen.hostOps0_15 (F := Ideal)) Cert.ReferenceIdeal.Gen.LS.s15
    [(Cert.KernelIdeal.main_v18, Cert.ReferenceIdeal.main_v51), (Cert.KernelIdeal.main_v20, Cert.ReferenceIdeal.main_v53)] := by
  refine Sim.unary (at% 0) rfl rfl HEq.rfl (by decide) (by decide) ?_
  refine Sim.nullary HEq.rfl (by decide) (by decide) ?_
  refine Sim.binary (at% 1) (at% 0) rfl rfl rfl HEq.rfl (by decide) (by decide) ?_
  refine Sim.nullary HEq.rfl (by decide) (by decide) ?_
  refine Sim.ternary (at% 1) (at% 0) (at% 3) rfl rfl rfl rfl HEq.rfl (by decide) (by decide) ?_
  refine Sim.unary (at% 0) rfl rfl HEq.rfl (by decide) (by decide) ?_
  refine Sim.binary (at% 7) (at% 0) rfl rfl rfl HEq.rfl (by decide) (by decide) ?_
  refine Sim.nullary HEq.rfl (by decide) (by decide) ?_
  refine Sim.unary (at% 0) rfl rfl HEq.rfl (by decide) (by decide) ?_
  refine Sim.binary (at% 2) (at% 0) rfl rfl rfl HEq.rfl (by decide) (by decide) ?_
  refine Sim.nullary HEq.rfl (by decide) (by decide) ?_
  refine Sim.unary (at% 0) rfl rfl HEq.rfl (by decide) (by decide) ?_
  refine Sim.binary (at% 5) (at% 0) rfl rfl rfl HEq.rfl (by decide) (by decide) ?_
  refine Sim.nullary HEq.rfl (by decide) (by decide) ?_
  refine Sim.binary (at% 9) (at% 0) rfl rfl rfl HEq.rfl (by decide) (by decide) ?_
  refine Sim.unary (at% 0) rfl rfl HEq.rfl (by decide) (by decide) ?_
  refine Sim.binary (at% 3) (at% 0) rfl rfl rfl HEq.rfl (by decide) (by decide) ?_
  refine Sim.binary (at% 0) (at% 7) rfl rfl rfl HEq.rfl (by decide) (by decide) ?_
  refine Sim.unary (at% 13) rfl rfl HEq.rfl (by decide) (by decide) ?_
  refine Sim.binary (at% 12) (at% 0) rfl rfl rfl HEq.rfl (by decide) (by decide) ?_
  refine Sim.ternary (at% 2) (at% 0) (at% 13) rfl rfl rfl rfl HEq.rfl (by decide) (by decide) ?_
  exact Sim.done (List.cons_subset.2 ⟨(at% 23), List.cons_subset.2 ⟨(at% 0), List.nil_subset _⟩⟩)

/-! ## The chain -/

/-- From equal token arrays the two chains leave equal rows and equal columns. -/
theorem sim_nonzero : Sim (τ := Cert.KernelIdeal.τ) (Val := Elt Ideal)
    [(Cert.KernelIdeal.main_arg4, Cert.ReferenceIdeal.main_arg4)]
    KB Cert.ReferenceIdeal.Gen.LS.seg_nz
    [(Cert.KernelIdeal.main_v18, Cert.ReferenceIdeal.main_v51), (Cert.KernelIdeal.main_v20, Cert.ReferenceIdeal.main_v53)] :=
  (((((((((((((sim_2.append sim_3).append sim_4).append sim_5).append sim_6).append sim_7).append sim_8).append sim_9).append sim_10).append sim_11).append sim_12).append sim_13).append sim_14).append sim_15)

/-! ## After the chain -/

/-- From equal rows and equal weights, the numbering of the rows and the two reductions of the rows into range leave equal
    buffers throughout; the columns are carried along. -/
theorem sim_rows : Sim (τ := Cert.KernelIdeal.τ) (Val := Elt Ideal)
    [(Cert.KernelIdeal.main_v18, Cert.ReferenceIdeal.main_v51), (Cert.KernelIdeal.main_v20, Cert.ReferenceIdeal.main_v53), (Cert.KernelIdeal.main_arg3, Cert.ReferenceIdeal.main_arg3)]
    Cert.KernelIdeal.Gen.LS.rows Cert.ReferenceIdeal.Gen.LS.rows
    [(Cert.KernelIdeal.main_v34, Cert.ReferenceIdeal.main_v67), (Cert.KernelIdeal.main_v33, Cert.ReferenceIdeal.main_v66), (Cert.KernelIdeal.main_v32, Cert.ReferenceIdeal.main_v65), (Cert.KernelIdeal.main_v31, Cert.ReferenceIdeal.main_v64), (Cert.KernelIdeal.main_c_13, Cert.ReferenceIdeal.main_c_24), (Cert.KernelIdeal.main_v30, Cert.ReferenceIdeal.main_v63), (Cert.KernelIdeal.main_v29, Cert.ReferenceIdeal.main_v62), (Cert.KernelIdeal.main_c_12, Cert.ReferenceIdeal.main_c_23), (Cert.KernelIdeal.main_v28, Cert.ReferenceIdeal.main_v61), (Cert.KernelIdeal.main_v27, Cert.ReferenceIdeal.main_v60), (Cert.KernelIdeal.main_v26, Cert.ReferenceIdeal.main_v59), (Cert.KernelIdeal.main_v25, Cert.ReferenceIdeal.main_v58), (Cert.KernelIdeal.main_v24, Cert.ReferenceIdeal.main_v57), (Cert.KernelIdeal.main_c_11, Cert.ReferenceIdeal.main_c_22), (Cert.KernelIdeal.main_v23, Cert.ReferenceIdeal.main_v56), (Cert.KernelIdeal.main_v22, Cert.ReferenceIdeal.main_v55), (Cert.KernelIdeal.main_c_10, Cert.ReferenceIdeal.main_c_21), (Cert.KernelIdeal.main_v21, Cert.ReferenceIdeal.main_v54), (Cert.KernelIdeal.main_v18, Cert.ReferenceIdeal.main_v51), (Cert.KernelIdeal.main_v20, Cert.ReferenceIdeal.main_v53), (Cert.KernelIdeal.main_arg3, Cert.ReferenceIdeal.main_arg3)] := by
  refine Sim.nullary HEq.rfl (by decide) (by decide) ?_
  refine Sim.nullary HEq.rfl (by decide) (by decide) ?_
  refine Sim.unary (at% 0) rfl rfl HEq.rfl (by decide) (by decide) ?_
  refine Sim.binary (at% 3) (at% 0) rfl rfl rfl HEq.rfl (by decide) (by decide) ?_
  refine Sim.nullary HEq.rfl (by decide) (by decide) ?_
  refine Sim.unary (at% 0) rfl rfl HEq.rfl (by decide) (by decide) ?_
  refine Sim.binary (at% 6) (at% 0) rfl rfl rfl HEq.rfl (by decide) (by decide) ?_
  refine Sim.ternary (at% 3) (at% 0) (at% 7) rfl rfl rfl rfl HEq.rfl (by decide) (by decide) ?_
  refine Sim.unary (at% 0) rfl rfl HEq.rfl (by decide) (by decide) ?_
  refine Sim.binary (at% 11) (at% 0) rfl rfl rfl HEq.rfl (by decide) (by decide) ?_
  refine Sim.nullary HEq.rfl (by decide) (by decide) ?_
  refine Sim.unary (at% 0) rfl rfl HEq.rfl (by decide) (by decide) ?_
  refine Sim.binary (at% 12) (at% 0) rfl rfl rfl HEq.rfl (by decide) (by decide) ?_
  refine Sim.nullary HEq.rfl (by decide) (by decide) ?_
  refine Sim.unary (at% 0) rfl rfl HEq.rfl (by decide) (by decide) ?_
  refine Sim.binary (at% 15) (at% 0) rfl rfl rfl HEq.rfl (by decide) (by decide) ?_
  refine Sim.ternary (at% 3) (at% 0) (at% 16) rfl rfl rfl rfl HEq.rfl (by decide) (by decide) ?_
  refine Sim.unary (at% 0) rfl rfl HEq.rfl (by decide) (by decide) ?_
  exact Sim.done (fun _ h => h)

/-- The eighteen operations are the head of the kernel program's list after the chain. -/
theorem rows_eq_take : (Cert.KernelIdeal.Gen.hostOps0_16 (F := Ideal)).take 18 = Cert.KernelIdeal.Gen.LS.rows := rfl

/-! ## The same statements over the reference program's listed run -/

/-- The chain listed here is the segment of the reference program's run from the constant 103 to the columns. -/
theorem seg_nz_eq : Cert.ReferenceIdeal.Gen.LS.seg_nz = Cert.ReferenceIdeal.Hand.seg_nz (F := Ideal) := rfl

/-- The eighteen operations after the chain are the head of the next segment of the reference program's run. -/
theorem rows_eq_take' : (Cert.ReferenceIdeal.Hand.seg_g (F := Ideal)).take 18 = Cert.ReferenceIdeal.Gen.LS.rows := rfl

/-- From equal token arrays the kernel program's chain and the reference program's segment leave equal rows and equal columns. -/
theorem sim_nonzero' : Sim (τ := Cert.KernelIdeal.τ) (Val := Elt Ideal)
    [(Cert.KernelIdeal.main_arg4, Cert.ReferenceIdeal.main_arg4)]
    KB (Cert.ReferenceIdeal.Hand.seg_nz (F := Ideal))
    [(Cert.KernelIdeal.main_v18, Cert.ReferenceIdeal.main_v51), (Cert.KernelIdeal.main_v20, Cert.ReferenceIdeal.main_v53)] :=
  seg_nz_eq ▸ sim_nonzero

/-- The statement after the chain, over the head of the next segment of the reference program's run. -/
theorem sim_rows' : Sim (τ := Cert.KernelIdeal.τ) (Val := Elt Ideal)
    [(Cert.KernelIdeal.main_v18, Cert.ReferenceIdeal.main_v51), (Cert.KernelIdeal.main_v20, Cert.ReferenceIdeal.main_v53), (Cert.KernelIdeal.main_arg3, Cert.ReferenceIdeal.main_arg3)]
    Cert.KernelIdeal.Gen.LS.rows ((Cert.ReferenceIdeal.Hand.seg_g (F := Ideal)).take 18)
    [(Cert.KernelIdeal.main_v34, Cert.ReferenceIdeal.main_v67), (Cert.KernelIdeal.main_v33, Cert.ReferenceIdeal.main_v66), (Cert.KernelIdeal.main_v32, Cert.ReferenceIdeal.main_v65), (Cert.KernelIdeal.main_v31, Cert.ReferenceIdeal.main_v64), (Cert.KernelIdeal.main_c_13, Cert.ReferenceIdeal.main_c_24), (Cert.KernelIdeal.main_v30, Cert.ReferenceIdeal.main_v63), (Cert.KernelIdeal.main_v29, Cert.ReferenceIdeal.main_v62), (Cert.KernelIdeal.main_c_12, Cert.ReferenceIdeal.main_c_23), (Cert.KernelIdeal.main_v28, Cert.ReferenceIdeal.main_v61), (Cert.KernelIdeal.main_v27, Cert.ReferenceIdeal.main_v60), (Cert.KernelIdeal.main_v26, Cert.ReferenceIdeal.main_v59), (Cert.KernelIdeal.main_v25, Cert.ReferenceIdeal.main_v58), (Cert.KernelIdeal.main_v24, Cert.ReferenceIdeal.main_v57), (Cert.KernelIdeal.main_c_11, Cert.ReferenceIdeal.main_c_22), (Cert.KernelIdeal.main_v23, Cert.ReferenceIdeal.main_v56), (Cert.KernelIdeal.main_v22, Cert.ReferenceIdeal.main_v55), (Cert.KernelIdeal.main_c_10, Cert.ReferenceIdeal.main_c_21), (Cert.KernelIdeal.main_v21, Cert.ReferenceIdeal.main_v54), (Cert.KernelIdeal.main_v18, Cert.ReferenceIdeal.main_v51), (Cert.KernelIdeal.main_v20, Cert.ReferenceIdeal.main_v53), (Cert.KernelIdeal.main_arg3, Cert.ReferenceIdeal.main_arg3)] := by
  rw [rows_eq_take']; exact sim_rows

/-- The same statement, with the kernel program's side also given as the head of its list after the chain. -/
theorem sim_rows'' : Sim (τ := Cert.KernelIdeal.τ) (Val := Elt Ideal)
    [(Cert.KernelIdeal.main_v18, Cert.ReferenceIdeal.main_v51), (Cert.KernelIdeal.main_v20, Cert.ReferenceIdeal.main_v53), (Cert.KernelIdeal.main_arg3, Cert.ReferenceIdeal.main_arg3)]
    ((Cert.KernelIdeal.Gen.hostOps0_16 (F := Ideal)).take 18) ((Cert.ReferenceIdeal.Hand.seg_g (F := Ideal)).take 18)
    [(Cert.KernelIdeal.main_v34, Cert.ReferenceIdeal.main_v67), (Cert.KernelIdeal.main_v33, Cert.ReferenceIdeal.main_v66), (Cert.KernelIdeal.main_v32, Cert.ReferenceIdeal.main_v65), (Cert.KernelIdeal.main_v31, Cert.ReferenceIdeal.main_v64), (Cert.KernelIdeal.main_c_13, Cert.ReferenceIdeal.main_c_24), (Cert.KernelIdeal.main_v30, Cert.ReferenceIdeal.main_v63), (Cert.KernelIdeal.main_v29, Cert.ReferenceIdeal.main_v62), (Cert.KernelIdeal.main_c_12, Cert.ReferenceIdeal.main_c_23), (Cert.KernelIdeal.main_v28, Cert.ReferenceIdeal.main_v61), (Cert.KernelIdeal.main_v27, Cert.ReferenceIdeal.main_v60), (Cert.KernelIdeal.main_v26, Cert.ReferenceIdeal.main_v59), (Cert.KernelIdeal.main_v25, Cert.ReferenceIdeal.main_v58), (Cert.KernelIdeal.main_v24, Cert.ReferenceIdeal.main_v57), (Cert.KernelIdeal.main_c_11, Cert.ReferenceIdeal.main_c_22), (Cert.KernelIdeal.main_v23, Cert.ReferenceIdeal.main_v56), (Cert.KernelIdeal.main_v22, Cert.ReferenceIdeal.main_v55), (Cert.KernelIdeal.main_c_10, Cert.ReferenceIdeal.main_c_21), (Cert.KernelIdeal.main_v21, Cert.ReferenceIdeal.main_v54), (Cert.KernelIdeal.main_v18, Cert.ReferenceIdeal.main_v51), (Cert.KernelIdeal.main_v20, Cert.ReferenceIdeal.main_v53), (Cert.KernelIdeal.main_arg3, Cert.ReferenceIdeal.main_arg3)] := by
  rw [rows_eq_take, rows_eq_take']; exact sim_rows

end Cert.Lockstep

end
-- ==== Proof.RefPre.lean ====
import proofs.«425233_j52278341926994_2_alg».proof.Proof.RefRun

/-!
# The reference program's lines on the attended ids, in stretches

The reference multiplies the token ids, converted to floats, by the mask; gathers the mask and these float ids of each
masked position's row; compares every id with the row's centre id (as floats), and forms the weight
`mask − [id = centre]` and the candidate `id · weight`. Each short stretch is read as a term over the contents it starts from.
-/

set_option maxRecDepth 16384

noncomputable section

namespace Cert.ReferenceIdeal.Pre

open Cert.ReferenceIdeal Cert.ReferenceIdeal.Gen Cert.ReferenceIdeal.Hand Idealize.ShloMosaic Idealize.ShloMosaic.TcCoe Idealize.ShloMosaic.StableHlo

variable {F : FTy → Type} [FloatOps F]

/-! ## The lists -/

/-- The row-index lines: an iota and the rows wrapped twice, with the gather of the mask. -/
abbrev R18 : List (HloOp τ sig (Elt F)) :=
  [ StableHlo.nullary main_v54 (iotaInDim S2048 32 0),
    StableHlo.nullary main_c_21 (constantI S_ 32 0#32),
    StableHlo.unary main_c_21 main_v55 (broadcastInDim S2048 ![] bcast_S_S2048 : (⟨S_, .i32⟩ : BufTy).Contents (Elt F) → (⟨S2048, .i32⟩ : BufTy).Contents (Elt F)),
    StableHlo.binary main_v51 main_v55 main_v56 (cmpi .slt : (⟨S2048, .i32⟩ : BufTy).Contents (Elt F) → (⟨S2048, .i32⟩ : BufTy).Contents (Elt F) → (⟨S2048, .i1⟩ : BufTy).Contents (Elt F)),
    StableHlo.nullary main_c_22 (constantI S_ 32 64#32),
    StableHlo.unary main_c_22 main_v57 (broadcastInDim S2048 ![] bcast_S_S2048 : (⟨S_, .i32⟩ : BufTy).Contents (Elt F) → (⟨S2048, .i32⟩ : BufTy).Contents (Elt F)),
    StableHlo.binary main_v51 main_v57 main_v58 (addi : (⟨S2048, .i32⟩ : BufTy).Contents (Elt F) → (⟨S2048, .i32⟩ : BufTy).Contents (Elt F) → (⟨S2048, .i32⟩ : BufTy).Contents (Elt F)),
    StableHlo.ternary main_v56 main_v58 main_v51 main_v59 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v59 main_v60 (broadcastInDim S2048x1 ![0] bcast_S2048_S2048x1_0 : (⟨S2048, .i32⟩ : BufTy).Contents (Elt F) → (⟨S2048x1, .i32⟩ : BufTy).Contents (Elt F)),
    StableHlo.binary main_arg3 main_v60 main_v61 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F)),
    StableHlo.nullary main_c_23 (constantI S_ 32 0#32),
    StableHlo.unary main_c_23 main_v62 (broadcastInDim S2048 ![] bcast_S_S2048 : (⟨S_, .i32⟩ : BufTy).Contents (Elt F) → (⟨S2048, .i32⟩ : BufTy).Contents (Elt F)),
    StableHlo.binary main_v51 main_v62 main_v63 (cmpi .slt : (⟨S2048, .i32⟩ : BufTy).Contents (Elt F) → (⟨S2048, .i32⟩ : BufTy).Contents (Elt F) → (⟨S2048, .i1⟩ : BufTy).Contents (Elt F)),
    StableHlo.nullary main_c_24 (constantI S_ 32 64#32),
    StableHlo.unary main_c_24 main_v64 (broadcastInDim S2048 ![] bcast_S_S2048 : (⟨S_, .i32⟩ : BufTy).Contents (Elt F) → (⟨S2048, .i32⟩ : BufTy).Contents (Elt F)),
    StableHlo.binary main_v51 main_v64 main_v65 (addi : (⟨S2048, .i32⟩ : BufTy).Contents (Elt F) → (⟨S2048, .i32⟩ : BufTy).Contents (Elt F) → (⟨S2048, .i32⟩ : BufTy).Contents (Elt F)),
    StableHlo.ternary main_v63 main_v65 main_v51 main_v66 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v66 main_v67 (broadcastInDim S2048x1 ![0] bcast_S2048_S2048x1_0 : (⟨S2048, .i32⟩ : BufTy).Contents (Elt F) → (⟨S2048x1, .i32⟩ : BufTy).Contents (Elt F)) ]

/-- The gather of the masked float ids at the rows. -/
abbrev Rg : List (HloOp τ sig (Elt F)) :=
  [ StableHlo.binary main_v35 main_v67 main_v68 ((fun x i => Host.gather gather_S64x128_S2048x1_S2048x128_1_0_n_n_0_1_1128 x i) : (⟨S64x128, .f32⟩ : BufTy).Contents (Elt F) → (⟨S2048x1, .i32⟩ : BufTy).Contents (Elt F) → (⟨S2048x128, .f32⟩ : BufTy).Contents (Elt F)) ]

theorem seg_g_eq : (seg_g : List (HloOp τ sig (Elt F))) = R18 ++ Rg := rfl
/-- The two columns of the centre index. -/
abbrev Rc1 : List (HloOp τ sig (Elt F)) :=
  [ StableHlo.nullary main_c_25 (constantI S_ 32 0#32),
    StableHlo.unary main_c_25 main_v69 (broadcastInDim S2048 ![] bcast_S_S2048 : (⟨S_, .i32⟩ : BufTy).Contents (Elt F) → (⟨S2048, .i32⟩ : BufTy).Contents (Elt F)),
    StableHlo.binary main_v54 main_v69 main_v70 (cmpi .slt : (⟨S2048, .i32⟩ : BufTy).Contents (Elt F) → (⟨S2048, .i32⟩ : BufTy).Contents (Elt F) → (⟨S2048, .i1⟩ : BufTy).Contents (Elt F)),
    StableHlo.nullary main_c_26 (constantI S_ 32 2048#32),
    StableHlo.unary main_c_26 main_v71 (broadcastInDim S2048 ![] bcast_S_S2048 : (⟨S_, .i32⟩ : BufTy).Contents (Elt F) → (⟨S2048, .i32⟩ : BufTy).Contents (Elt F)),
    StableHlo.binary main_v54 main_v71 main_v72 (addi : (⟨S2048, .i32⟩ : BufTy).Contents (Elt F) → (⟨S2048, .i32⟩ : BufTy).Contents (Elt F) → (⟨S2048, .i32⟩ : BufTy).Contents (Elt F)),
    StableHlo.ternary main_v70 main_v72 main_v54 main_v73 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_27 (constantI S_ 32 0#32),
    StableHlo.unary main_c_27 main_v74 (broadcastInDim S2048 ![] bcast_S_S2048 : (⟨S_, .i32⟩ : BufTy).Contents (Elt F) → (⟨S2048, .i32⟩ : BufTy).Contents (Elt F)),
    StableHlo.binary main_v53 main_v74 main_v75 (cmpi .slt : (⟨S2048, .i32⟩ : BufTy).Contents (Elt F) → (⟨S2048, .i32⟩ : BufTy).Contents (Elt F) → (⟨S2048, .i1⟩ : BufTy).Contents (Elt F)),
    StableHlo.nullary main_c_28 (constantI S_ 32 128#32),
    StableHlo.unary main_c_28 main_v76 (broadcastInDim S2048 ![] bcast_S_S2048 : (⟨S_, .i32⟩ : BufTy).Contents (Elt F) → (⟨S2048, .i32⟩ : BufTy).Contents (Elt F)),
    StableHlo.binary main_v53 main_v76 main_v77 (addi : (⟨S2048, .i32⟩ : BufTy).Contents (Elt F) → (⟨S2048, .i32⟩ : BufTy).Contents (Elt F) → (⟨S2048, .i32⟩ : BufTy).Contents (Elt F)),
    StableHlo.ternary main_v75 main_v77 main_v53 main_v78 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v73 main_v79 (broadcastInDim S2048x1 ![0] bcast_S2048_S2048x1_0 : (⟨S2048, .i32⟩ : BufTy).Contents (Elt F) → (⟨S2048x1, .i32⟩ : BufTy).Contents (Elt F)),
    StableHlo.unary main_v78 main_v80 (broadcastInDim S2048x1 ![0] bcast_S2048_S2048x1_0 : (⟨S2048, .i32⟩ : BufTy).Contents (Elt F) → (⟨S2048x1, .i32⟩ : BufTy).Contents (Elt F)) ]

/-- Their concatenate. -/
abbrev Rcc : List (HloOp τ sig (Elt F)) :=
  [ StableHlo.binary main_v79 main_v80 main_v81 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)) ]

/-- The centre id, the test against it, the weight, the candidate. -/
abbrev Rm2 : List (HloOp τ sig (Elt F)) :=
  [ StableHlo.binary main_v68 main_v81 main_v82 ((fun x i => Host.gather gather_S2048x128_S2048x2_S2048_n_01_n_n_01_1_11 x i) : (⟨S2048x128, .f32⟩ : BufTy).Contents (Elt F) → (⟨S2048x2, .i32⟩ : BufTy).Contents (Elt F) → (⟨S2048, .f32⟩ : BufTy).Contents (Elt F)),
    StableHlo.unary main_v82 main_v83 (broadcastInDim S2048x1 ![0] bcast_S2048_S2048x1_0 : (⟨S2048, .f32⟩ : BufTy).Contents (Elt F) → (⟨S2048x1, .f32⟩ : BufTy).Contents (Elt F)),
    StableHlo.unary main_v83 main_v84 (broadcastInDim S2048x128 ![0, 1] bcast_S2048x1_S2048x128_0_1 : (⟨S2048x1, .f32⟩ : BufTy).Contents (Elt F) → (⟨S2048x128, .f32⟩ : BufTy).Contents (Elt F)),
    StableHlo.binary main_v68 main_v84 main_v85 (cmpf .oeq : (⟨S2048x128, .f32⟩ : BufTy).Contents (Elt F) → (⟨S2048x128, .f32⟩ : BufTy).Contents (Elt F) → (⟨S2048x128, .i1⟩ : BufTy).Contents (Elt F)),
    StableHlo.unary main_v85 main_v86 (uitofp .f32 : (⟨S2048x128, .i1⟩ : BufTy).Contents (Elt F) → (⟨S2048x128, .f32⟩ : BufTy).Contents (Elt F)),
    StableHlo.binary main_v61 main_v86 main_v87 (subf : (⟨S2048x128, .f32⟩ : BufTy).Contents (Elt F) → (⟨S2048x128, .f32⟩ : BufTy).Contents (Elt F) → (⟨S2048x128, .f32⟩ : BufTy).Contents (Elt F)),
    StableHlo.binary main_v68 main_v87 main_v88 (mulf : (⟨S2048x128, .f32⟩ : BufTy).Contents (Elt F) → (⟨S2048x128, .f32⟩ : BufTy).Contents (Elt F) → (⟨S2048x128, .f32⟩ : BufTy).Contents (Elt F)) ]

set_option maxHeartbeats 4000000 in
theorem seg_mid_eq : (seg_mid : List (HloOp τ sig (Elt F))) = Rc1 ++ (Rcc ++ Rm2) := rfl

/-! ## The terms -/

/-- The masked ids as floats: the mask times the id. -/
def attR (mask : FVec F S64x128 .f32) (ids : IVec S64x128 32) : FVec F S64x128 .f32 := mulf mask (sitofp .f32 ids)

/-- The centre index: (row number, position's column), each wrapped when negative. -/
def ccR (io cols : IVec S2048 32) : IVec S2048x2 32 :=
  concatenate S2048x2 1
    [⟨S2048x1, broadcastInDim S2048x1 ![0] bcast_S2048_S2048x1_0
        (select (cmpi .slt io (broadcastInDim S2048 ![] bcast_S_S2048 (constantI S_ 32 0#32)))
          (addi io (broadcastInDim S2048 ![] bcast_S_S2048 (constantI S_ 32 2048#32))) io)⟩,
     ⟨S2048x1, broadcastInDim S2048x1 ![0] bcast_S2048_S2048x1_0
        (select (cmpi .slt cols (broadcastInDim S2048 ![] bcast_S_S2048 (constantI S_ 32 0#32)))
          (addi cols (broadcastInDim S2048 ![] bcast_S_S2048 (constantI S_ 32 128#32))) cols)⟩]
    concatenates_S2048x1_S2048x1_S2048x2_d1

/-- The gathered float ids of each position's row. -/
def aiR (att : FVec F S64x128 .f32) (ri : IVec S2048x1 32) : FVec F S2048x128 .f32 :=
  Host.gather gather_S64x128_S2048x1_S2048x128_1_0_n_n_0_1_1128 att ri

/-- The weight `mask − [id = centre id]`, the test made on floats. -/
def nwR (a ai : FVec F S2048x128 .f32) (cc : IVec S2048x2 32) : FVec F S2048x128 .f32 :=
  subf a (uitofp .f32 (cmpf .oeq ai
    (broadcastInDim S2048x128 ![0, 1] bcast_S2048x1_S2048x128_0_1
      (broadcastInDim S2048x1 ![0] bcast_S2048_S2048x1_0
        (Host.gather gather_S2048x128_S2048x2_S2048_n_01_n_n_01_1_11 ai cc)))))

variable (Y : Valuation τ sig (Elt F))

set_option maxHeartbeats 4000000 in
theorem att_eq : after (seg_att : List (HloOp τ sig (Elt F))) Y (Proc.devRef .tc main_v35)
    = attR (Y (Proc.devRef .tc main_arg3)) (Y (Proc.devRef .tc main_arg2)) := by
  after_results_simp
  rfl

set_option maxHeartbeats 4000000 in
theorem cc_eq : after Rcc (after Rc1 Y) (Proc.devRef .tc main_v81)
    = ccR (Y (Proc.devRef .tc main_v54)) (Y (Proc.devRef .tc main_v53)) := by
  have e79 : after Rc1 Y (Proc.devRef .tc main_v79) = broadcastInDim S2048x1 ![0] bcast_S2048_S2048x1_0
      (select (cmpi .slt (Y (Proc.devRef .tc main_v54)) (broadcastInDim S2048 ![] bcast_S_S2048 (constantI S_ 32 0#32)))
        (addi (Y (Proc.devRef .tc main_v54)) (broadcastInDim S2048 ![] bcast_S_S2048 (constantI S_ 32 2048#32))) (Y (Proc.devRef .tc main_v54))) := by
    after_results_simp
  have e80 : after Rc1 Y (Proc.devRef .tc main_v80) = broadcastInDim S2048x1 ![0] bcast_S2048_S2048x1_0
      (select (cmpi .slt (Y (Proc.devRef .tc main_v53)) (broadcastInDim S2048 ![] bcast_S_S2048 (constantI S_ 32 0#32)))
        (addi (Y (Proc.devRef .tc main_v53)) (broadcastInDim S2048 ![] bcast_S_S2048 (constantI S_ 32 128#32))) (Y (Proc.devRef .tc main_v53))) := by
    after_results_simp
  generalize after Rc1 Y = Y2 at *
  simp only [Rcc, after_cons, after_nil]
  rw [binary_result, e79, e80]
  rfl

set_option maxHeartbeats 4000000 in
theorem g_eq : after Rg Y (Proc.devRef .tc main_v68) = aiR (Y (Proc.devRef .tc main_v35)) (Y (Proc.devRef .tc main_v67)) := by
  after_results_simp
  rfl

set_option maxHeartbeats 4000000 in
theorem m2_v87 : after Rm2 Y (Proc.devRef .tc main_v87)
    = nwR (Y (Proc.devRef .tc main_v61)) (Y (Proc.devRef .tc main_v68)) (Y (Proc.devRef .tc main_v81)) := by
  after_results_simp
  rfl

set_option maxHeartbeats 4000000 in
theorem m2_v88 : after Rm2 Y (Proc.devRef .tc main_v88)
    = mulf (Y (Proc.devRef .tc main_v68))
        (nwR (Y (Proc.devRef .tc main_v61)) (Y (Proc.devRef .tc main_v68)) (Y (Proc.devRef .tc main_v81))) := by
  after_results_simp
  rfl

end Cert.ReferenceIdeal.Pre

end
-- ==== Proof.Mid.lean ====
import Idealize.ShloMosaic.PureOps.Ideal.Laws

/-!
# Attended token ids kept as integers or as floats

The kernel masks the token ids as integers (`select (mask > 0) ids 0`) and converts them to floats after gathering;
the reference multiplies the ids, converted first, by the mask. For a mask whose entries are 0 or 1 the two are one
array of extended reals, and so is everything computed from them entry by entry: the test "this id equals the row's
centre id" made on integers or on their float values, the weight `mask − [equal]`, and the product id · weight. A gather
and a broadcast move entries without changing them, so they commute with every such entrywise conversion.
-/

noncomputable section

namespace Cert.Mid

open Idealize.ShloMosaic

variable {s t : Shape}

/-- A signed 32-bit word's value as an extended real determines the word. -/
theorem sitofp_inj (a b : BitVec 32) :
    (FloatOps.sitofp (F := Ideal) .f32 a = FloatOps.sitofp (F := Ideal) .f32 b) ↔ a = b := by
  constructor
  · intro h
    have h' : ((a.toInt : ℝ) : EReal) = ((b.toInt : ℝ) : EReal) := h
    have h2 : (a.toInt : ℝ) = (b.toInt : ℝ) := EReal.coe_injective h'
    exact BitVec.eq_of_toInt_eq (by exact_mod_cast h2)
  · rintro rfl; rfl

/-- Masking integer ids by `mask > 0` and converting, against multiplying the converted ids by a 0/1 mask. -/
theorem masked_ids (mask zf : FVec Ideal s .f32) (ids zi : IVec s 32)
    (hzf : ∀ i, zf i = 0) (hzi : ∀ i, zi i = 0#32) (h01 : ∀ i, mask i = 0 ∨ mask i = 1) :
    sitofp (F := Ideal) .f32 (select (cmpf (F := Ideal) .ogt mask zf) ids zi) = mulf (F := Ideal) mask (sitofp (F := Ideal) .f32 ids) := by
  funext i
  show FloatOps.sitofp (F := Ideal) .f32 (Scalar.select (FloatOps.cmpf (F := Ideal) .ogt (mask i) (zf i)) (ids i) (zi i))
    = FloatOps.mulf (F := Ideal) (mask i) (FloatOps.sitofp (F := Ideal) .f32 (ids i))
  rw [Ideal.cmpf_def, hzf i, hzi i, Ideal.mulf_def]
  rcases h01 i with h | h
  · rw [h]
    have : Ideal.cmp .ogt (0 : EReal) 0 = 0#1 := by simp [Ideal.cmp]
    rw [this]
    show ((((0#32 : BitVec 32).toInt : ℝ)) : EReal) = 0 * _
    simp
  · rw [h]
    have : Ideal.cmp .ogt (1 : EReal) 0 = 1#1 := by simp [Ideal.cmp]
    rw [this]
    show FloatOps.sitofp (F := Ideal) .f32 (ids i) = 1 * _
    rw [one_mul]

/-- The equality test on integers is the equality test on their float values. -/
theorem eq_test (a b : IVec s 32) :
    cmpi .eq a b = cmpf (F := Ideal) .oeq (sitofp (F := Ideal) .f32 a) (sitofp (F := Ideal) .f32 b) := by
  funext i
  show IntOp.cmpi .eq (a i) (b i) = FloatOps.cmpf (F := Ideal) .oeq (FloatOps.sitofp (F := Ideal) .f32 (a i)) (FloatOps.sitofp (F := Ideal) .f32 (b i))
  rw [Ideal.cmpf_def]
  by_cases h : a i = b i
  · rw [h]; simp [Ideal.cmp, IntOp.cmpi]
  · have h' : ¬ (FloatOps.sitofp (F := Ideal) .f32 (a i) = FloatOps.sitofp (F := Ideal) .f32 (b i)) := fun e => h ((sitofp_inj _ _).mp e)
    have hb : (a i == b i) = false := beq_eq_false_iff_ne.mpr h
    simp [Ideal.cmp, IntOp.cmpi, h', hb]

/-- A gather moves entries: it commutes with an entrywise conversion. -/
theorem gather_sitofp {si : Shape} {w : Nat} (d : GatherDims s si t) (x : IVec s 32) (idx : IVec si w) :
    sitofp (F := Ideal) .f32 (Host.gather d x idx) = Host.gather d (sitofp (F := Ideal) .f32 x) idx := rfl

end Cert.Mid

end
-- ==== Proof.GluePre.lean ====
import proofs.«425233_j52278341926994_2_alg».proof.Proof.LibAgree
import proofs.«425233_j52278341926994_2_alg».proof.Proof.SimNonzero
import proofs.«425233_j52278341926994_2_alg».proof.Proof.SimChain
import proofs.«425233_j52278341926994_2_alg».proof.Proof.KernelPre
import proofs.«425233_j52278341926994_2_alg».proof.Proof.RefPre
import proofs.«425233_j52278341926994_2_alg».proof.Proof.Mid
import proofs.«425233_j52278341926994_2_alg».proof.Proof.RefRun

/-!
# The two programs build the same weights and candidates

Before the kernel's region the kernel program, and through its candidate chain the reference program, find the marked
positions, gather the mask and the token ids of each position's row, weigh every id by `mask − [id = centre id]`, and
run the candidate chain. The positions, the rows and the chain are the same operations on paired buffers, stepped in
lockstep; in between the kernel program keeps the ids as integers where the reference program holds their float
values, and the stretches there are compared as terms: a 0/1 mask makes the two maskings agree, a gather and a broadcast
commute with the conversion, and the equality test on integers is the test on their float values. The final weights
and the final candidates of the two programs are then the same arrays.
-/

set_option maxRecDepth 16384

noncomputable section

namespace Cert.GluePre

open Idealize.ShloMosaic Idealize.ShloMosaic.StableHlo
open Cert.KernelIdeal.Gen (hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21)
open Cert.KernelIdeal.Pre (K18 Kg Kc1 Kcc Km2 Krest16 K90 Kw K80)
open Cert.ReferenceIdeal.Pre (R18 Rg Rc1 Rcc Rm2)
open Cert.ReferenceIdeal.Hand (seg_ls seg_td seg_w seg_mle seg_att seg_nz seg_g seg_mid seg_chain)
open Cert.Lockstep (KB KC_a KC_b seg_chain_a seg_chain_b P₀' Q_a)

local notation "Kτ" => Cert.KernelIdeal.τ
local notation "Ksig" => Cert.KernelIdeal.sig
local notation "Rτ" => Cert.ReferenceIdeal.τ
local notation "Rsig" => Cert.ReferenceIdeal.sig
local notation "VK" => Valuation Cert.KernelIdeal.τ Cert.KernelIdeal.sig (Elt Ideal)
local notation "VR" => Valuation Cert.ReferenceIdeal.τ Cert.ReferenceIdeal.sig (Elt Ideal)

/-! ## The two lines in stretches -/

set_option maxHeartbeats 4000000 in
/-- The kernel program's host operations before the region, in stretches. -/
theorem pre_list : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (HloOp Kτ Ksig (Elt Ideal)))
    = (hostOps0 ++ hostOps0_1) ++ (KB ++ (K18 ++ (Kg ++ (Kc1 ++ (Kcc ++ (Km2 ++ (KC_a ++ (K80 ++ (KC_b ++ Kw))))))))) := rfl

/-- The contents before the region, stretch after stretch. -/
theorem Kpre_eq (Vk : VK) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) Vk
    = after Kw (after KC_b (after K80 (after KC_a (after Km2 (after Kcc (after Kc1 (after Kg (after K18 (after KB (after (hostOps0 ++ hostOps0_1) Vk)))))))))) := by
  rw [pre_list]
  simp only [StableHlo.after_append]

/-- The reference program's contents after its candidate chain, stretch after stretch. -/
theorem Rchain_eq (X : VR) :
    after seg_chain (after seg_mid (after seg_g X))
    = after seg_chain_b (after seg_chain_a (after Rm2 (after Rcc (after Rc1 (after Rg (after R18 X)))))) := by
  rw [Cert.Lockstep.seg_chain_eq, Cert.ReferenceIdeal.Pre.seg_mid_eq, Cert.ReferenceIdeal.Pre.seg_g_eq]
  simp only [StableHlo.after_append]

/-! ## Buffers a stretch leaves as they were -/

set_option maxHeartbeats 4000000 in
theorem fk_kA_arg3 (Y : VK) : after (hostOps0 ++ hostOps0_1) Y (Proc.devRef .tc Cert.KernelIdeal.main_arg3) = Y (Proc.devRef .tc Cert.KernelIdeal.main_arg3) := by
  simp only [StableHlo.after_append]
  after_results_simp

set_option maxHeartbeats 4000000 in
theorem fk_kA_arg4 (Y : VK) : after (hostOps0 ++ hostOps0_1) Y (Proc.devRef .tc Cert.KernelIdeal.main_arg4) = Y (Proc.devRef .tc Cert.KernelIdeal.main_arg4) := by
  simp only [StableHlo.after_append]
  after_results_simp

set_option maxHeartbeats 4000000 in
theorem fk_KB_arg3 (Y : VK) : after KB Y (Proc.devRef .tc Cert.KernelIdeal.main_arg3) = Y (Proc.devRef .tc Cert.KernelIdeal.main_arg3) := by
  simp only [KB, StableHlo.after_append]
  after_results_simp

set_option maxHeartbeats 4000000 in
theorem fk_KB_v2 (Y : VK) : after KB Y (Proc.devRef .tc Cert.KernelIdeal.main_v2) = Y (Proc.devRef .tc Cert.KernelIdeal.main_v2) := by
  simp only [KB, StableHlo.after_append]
  after_results_simp

set_option maxHeartbeats 4000000 in
theorem fk_K18_v2 (Y : VK) : after K18 Y (Proc.devRef .tc Cert.KernelIdeal.main_v2) = Y (Proc.devRef .tc Cert.KernelIdeal.main_v2) := by
  after_results_simp

set_option maxHeartbeats 4000000 in
theorem fk_Kg_v28 (Y : VK) : after Kg Y (Proc.devRef .tc Cert.KernelIdeal.main_v28) = Y (Proc.devRef .tc Cert.KernelIdeal.main_v28) := by
  after_results_simp

set_option maxHeartbeats 4000000 in
theorem fk_Kg_v21 (Y : VK) : after Kg Y (Proc.devRef .tc Cert.KernelIdeal.main_v21) = Y (Proc.devRef .tc Cert.KernelIdeal.main_v21) := by
  after_results_simp

set_option maxHeartbeats 4000000 in
theorem fk_Kg_v20 (Y : VK) : after Kg Y (Proc.devRef .tc Cert.KernelIdeal.main_v20) = Y (Proc.devRef .tc Cert.KernelIdeal.main_v20) := by
  after_results_simp

set_option maxHeartbeats 4000000 in
theorem fk_Kc1_v28 (Y : VK) : after Kc1 Y (Proc.devRef .tc Cert.KernelIdeal.main_v28) = Y (Proc.devRef .tc Cert.KernelIdeal.main_v28) := by
  after_results_simp

set_option maxHeartbeats 4000000 in
theorem fk_Kc1_v35 (Y : VK) : after Kc1 Y (Proc.devRef .tc Cert.KernelIdeal.main_v35) = Y (Proc.devRef .tc Cert.KernelIdeal.main_v35) := by
  after_results_simp

set_option maxHeartbeats 4000000 in
theorem fk_Kc1_v21 (Y : VK) : after Kc1 Y (Proc.devRef .tc Cert.KernelIdeal.main_v21) = Y (Proc.devRef .tc Cert.KernelIdeal.main_v21) := by
  after_results_simp

set_option maxHeartbeats 4000000 in
theorem fk_Kc1_v20 (Y : VK) : after Kc1 Y (Proc.devRef .tc Cert.KernelIdeal.main_v20) = Y (Proc.devRef .tc Cert.KernelIdeal.main_v20) := by
  after_results_simp

set_option maxHeartbeats 4000000 in
theorem fk_Kcc_v28 (Y : VK) : after Kcc Y (Proc.devRef .tc Cert.KernelIdeal.main_v28) = Y (Proc.devRef .tc Cert.KernelIdeal.main_v28) := by
  after_results_simp

set_option maxHeartbeats 4000000 in
theorem fk_Kcc_v35 (Y : VK) : after Kcc Y (Proc.devRef .tc Cert.KernelIdeal.main_v35) = Y (Proc.devRef .tc Cert.KernelIdeal.main_v35) := by
  after_results_simp

set_option maxHeartbeats 4000000 in
theorem fk_Kcc_v21 (Y : VK) : after Kcc Y (Proc.devRef .tc Cert.KernelIdeal.main_v21) = Y (Proc.devRef .tc Cert.KernelIdeal.main_v21) := by
  after_results_simp

set_option maxHeartbeats 4000000 in
theorem fk_Kcc_v20 (Y : VK) : after Kcc Y (Proc.devRef .tc Cert.KernelIdeal.main_v20) = Y (Proc.devRef .tc Cert.KernelIdeal.main_v20) := by
  after_results_simp

set_option maxHeartbeats 4000000 in
theorem fk_Km2_v35 (Y : VK) : after Km2 Y (Proc.devRef .tc Cert.KernelIdeal.main_v35) = Y (Proc.devRef .tc Cert.KernelIdeal.main_v35) := by
  after_results_simp

set_option maxHeartbeats 4000000 in
theorem fk_Km2_v21 (Y : VK) : after Km2 Y (Proc.devRef .tc Cert.KernelIdeal.main_v21) = Y (Proc.devRef .tc Cert.KernelIdeal.main_v21) := by
  after_results_simp

set_option maxHeartbeats 4000000 in
theorem fk_Km2_v20 (Y : VK) : after Km2 Y (Proc.devRef .tc Cert.KernelIdeal.main_v20) = Y (Proc.devRef .tc Cert.KernelIdeal.main_v20) := by
  after_results_simp

set_option maxHeartbeats 4000000 in
theorem fk_KC_a_v35 (Y : VK) : after KC_a Y (Proc.devRef .tc Cert.KernelIdeal.main_v35) = Y (Proc.devRef .tc Cert.KernelIdeal.main_v35) := by
  after_results_simp

set_option maxHeartbeats 4000000 in
theorem fk_Kw_v88 (Y : VK) : after Kw Y (Proc.devRef .tc Cert.KernelIdeal.main_v88) = Y (Proc.devRef .tc Cert.KernelIdeal.main_v88) := by
  after_results_simp

set_option maxHeartbeats 4000000 in
theorem fk_Kw_v90 (Y : VK) : after Kw Y (Proc.devRef .tc Cert.KernelIdeal.main_v90) = Y (Proc.devRef .tc Cert.KernelIdeal.main_v90) := by
  after_results_simp

set_option maxHeartbeats 4000000 in
theorem fr_ls_arg2 (Z : VR) : after seg_ls Z (Proc.devRef .tc Cert.ReferenceIdeal.main_arg2) = Z (Proc.devRef .tc Cert.ReferenceIdeal.main_arg2) := by
  after_results_simp

set_option maxHeartbeats 4000000 in
theorem fr_ls_arg3 (Z : VR) : after seg_ls Z (Proc.devRef .tc Cert.ReferenceIdeal.main_arg3) = Z (Proc.devRef .tc Cert.ReferenceIdeal.main_arg3) := by
  after_results_simp

set_option maxHeartbeats 4000000 in
theorem fr_ls_arg4 (Z : VR) : after seg_ls Z (Proc.devRef .tc Cert.ReferenceIdeal.main_arg4) = Z (Proc.devRef .tc Cert.ReferenceIdeal.main_arg4) := by
  after_results_simp

set_option maxHeartbeats 4000000 in
theorem fr_td_arg2 (Z : VR) : after seg_td Z (Proc.devRef .tc Cert.ReferenceIdeal.main_arg2) = Z (Proc.devRef .tc Cert.ReferenceIdeal.main_arg2) := by
  after_results_simp

set_option maxHeartbeats 4000000 in
theorem fr_td_arg3 (Z : VR) : after seg_td Z (Proc.devRef .tc Cert.ReferenceIdeal.main_arg3) = Z (Proc.devRef .tc Cert.ReferenceIdeal.main_arg3) := by
  after_results_simp

set_option maxHeartbeats 4000000 in
theorem fr_td_arg4 (Z : VR) : after seg_td Z (Proc.devRef .tc Cert.ReferenceIdeal.main_arg4) = Z (Proc.devRef .tc Cert.ReferenceIdeal.main_arg4) := by
  after_results_simp

set_option maxHeartbeats 4000000 in
theorem fr_w_arg2 (Z : VR) : after seg_w Z (Proc.devRef .tc Cert.ReferenceIdeal.main_arg2) = Z (Proc.devRef .tc Cert.ReferenceIdeal.main_arg2) := by
  after_results_simp

set_option maxHeartbeats 4000000 in
theorem fr_w_arg3 (Z : VR) : after seg_w Z (Proc.devRef .tc Cert.ReferenceIdeal.main_arg3) = Z (Proc.devRef .tc Cert.ReferenceIdeal.main_arg3) := by
  after_results_simp

set_option maxHeartbeats 4000000 in
theorem fr_w_arg4 (Z : VR) : after seg_w Z (Proc.devRef .tc Cert.ReferenceIdeal.main_arg4) = Z (Proc.devRef .tc Cert.ReferenceIdeal.main_arg4) := by
  after_results_simp

set_option maxHeartbeats 4000000 in
theorem fr_mle_arg2 (Z : VR) : after seg_mle Z (Proc.devRef .tc Cert.ReferenceIdeal.main_arg2) = Z (Proc.devRef .tc Cert.ReferenceIdeal.main_arg2) := by
  after_results_simp

set_option maxHeartbeats 4000000 in
theorem fr_mle_arg3 (Z : VR) : after seg_mle Z (Proc.devRef .tc Cert.ReferenceIdeal.main_arg3) = Z (Proc.devRef .tc Cert.ReferenceIdeal.main_arg3) := by
  after_results_simp

set_option maxHeartbeats 4000000 in
theorem fr_mle_arg4 (Z : VR) : after seg_mle Z (Proc.devRef .tc Cert.ReferenceIdeal.main_arg4) = Z (Proc.devRef .tc Cert.ReferenceIdeal.main_arg4) := by
  after_results_simp

set_option maxHeartbeats 4000000 in
theorem fr_att_arg3 (Z : VR) : after seg_att Z (Proc.devRef .tc Cert.ReferenceIdeal.main_arg3) = Z (Proc.devRef .tc Cert.ReferenceIdeal.main_arg3) := by
  after_results_simp

set_option maxHeartbeats 4000000 in
theorem fr_att_arg4 (Z : VR) : after seg_att Z (Proc.devRef .tc Cert.ReferenceIdeal.main_arg4) = Z (Proc.devRef .tc Cert.ReferenceIdeal.main_arg4) := by
  after_results_simp

set_option maxHeartbeats 4000000 in
theorem fr_nz_arg3 (Z : VR) : after seg_nz Z (Proc.devRef .tc Cert.ReferenceIdeal.main_arg3) = Z (Proc.devRef .tc Cert.ReferenceIdeal.main_arg3) := by
  after_results_simp

set_option maxHeartbeats 4000000 in
theorem fr_nz_v35 (Z : VR) : after seg_nz Z (Proc.devRef .tc Cert.ReferenceIdeal.main_v35) = Z (Proc.devRef .tc Cert.ReferenceIdeal.main_v35) := by
  after_results_simp

set_option maxHeartbeats 4000000 in
theorem fr_R18_v35 (Z : VR) : after R18 Z (Proc.devRef .tc Cert.ReferenceIdeal.main_v35) = Z (Proc.devRef .tc Cert.ReferenceIdeal.main_v35) := by
  after_results_simp

set_option maxHeartbeats 4000000 in
theorem fr_Rg_v61 (Z : VR) : after Rg Z (Proc.devRef .tc Cert.ReferenceIdeal.main_v61) = Z (Proc.devRef .tc Cert.ReferenceIdeal.main_v61) := by
  after_results_simp

set_option maxHeartbeats 4000000 in
theorem fr_Rg_v54 (Z : VR) : after Rg Z (Proc.devRef .tc Cert.ReferenceIdeal.main_v54) = Z (Proc.devRef .tc Cert.ReferenceIdeal.main_v54) := by
  after_results_simp

set_option maxHeartbeats 4000000 in
theorem fr_Rg_v53 (Z : VR) : after Rg Z (Proc.devRef .tc Cert.ReferenceIdeal.main_v53) = Z (Proc.devRef .tc Cert.ReferenceIdeal.main_v53) := by
  after_results_simp

set_option maxHeartbeats 4000000 in
theorem fr_Rc1_v61 (Z : VR) : after Rc1 Z (Proc.devRef .tc Cert.ReferenceIdeal.main_v61) = Z (Proc.devRef .tc Cert.ReferenceIdeal.main_v61) := by
  after_results_simp

set_option maxHeartbeats 4000000 in
theorem fr_Rc1_v68 (Z : VR) : after Rc1 Z (Proc.devRef .tc Cert.ReferenceIdeal.main_v68) = Z (Proc.devRef .tc Cert.ReferenceIdeal.main_v68) := by
  after_results_simp

set_option maxHeartbeats 4000000 in
theorem fr_Rc1_v54 (Z : VR) : after Rc1 Z (Proc.devRef .tc Cert.ReferenceIdeal.main_v54) = Z (Proc.devRef .tc Cert.ReferenceIdeal.main_v54) := by
  after_results_simp

set_option maxHeartbeats 4000000 in
theorem fr_Rc1_v53 (Z : VR) : after Rc1 Z (Proc.devRef .tc Cert.ReferenceIdeal.main_v53) = Z (Proc.devRef .tc Cert.ReferenceIdeal.main_v53) := by
  after_results_simp

set_option maxHeartbeats 4000000 in
theorem fr_Rcc_v61 (Z : VR) : after Rcc Z (Proc.devRef .tc Cert.ReferenceIdeal.main_v61) = Z (Proc.devRef .tc Cert.ReferenceIdeal.main_v61) := by
  after_results_simp

set_option maxHeartbeats 4000000 in
theorem fr_Rcc_v68 (Z : VR) : after Rcc Z (Proc.devRef .tc Cert.ReferenceIdeal.main_v68) = Z (Proc.devRef .tc Cert.ReferenceIdeal.main_v68) := by
  after_results_simp

set_option maxHeartbeats 4000000 in
theorem fr_Rcc_v54 (Z : VR) : after Rcc Z (Proc.devRef .tc Cert.ReferenceIdeal.main_v54) = Z (Proc.devRef .tc Cert.ReferenceIdeal.main_v54) := by
  after_results_simp

set_option maxHeartbeats 4000000 in
theorem fr_Rcc_v53 (Z : VR) : after Rcc Z (Proc.devRef .tc Cert.ReferenceIdeal.main_v53) = Z (Proc.devRef .tc Cert.ReferenceIdeal.main_v53) := by
  after_results_simp

set_option maxHeartbeats 4000000 in
theorem fr_Rm2_v68 (Z : VR) : after Rm2 Z (Proc.devRef .tc Cert.ReferenceIdeal.main_v68) = Z (Proc.devRef .tc Cert.ReferenceIdeal.main_v68) := by
  after_results_simp

set_option maxHeartbeats 4000000 in
theorem fr_Rm2_v54 (Z : VR) : after Rm2 Z (Proc.devRef .tc Cert.ReferenceIdeal.main_v54) = Z (Proc.devRef .tc Cert.ReferenceIdeal.main_v54) := by
  after_results_simp

set_option maxHeartbeats 4000000 in
theorem fr_Rm2_v53 (Z : VR) : after Rm2 Z (Proc.devRef .tc Cert.ReferenceIdeal.main_v53) = Z (Proc.devRef .tc Cert.ReferenceIdeal.main_v53) := by
  after_results_simp

set_option maxHeartbeats 4000000 in
theorem fr_ca_v68 (Z : VR) : after seg_chain_a Z (Proc.devRef .tc Cert.ReferenceIdeal.main_v68) = Z (Proc.devRef .tc Cert.ReferenceIdeal.main_v68) := by
  after_results_simp

/-! ## The stretches one by one -/

/-- The masked ids: kept as integers and converted afterwards, or converted and multiplied by a 0/1 mask. -/
theorem stage_att (Vk : VK) (Z : VR)
    (h2 : HEq (Vk (Proc.devRef .tc Cert.KernelIdeal.main_arg2)) (Z (Proc.devRef .tc Cert.ReferenceIdeal.main_arg2))) (h3 : HEq (Vk (Proc.devRef .tc Cert.KernelIdeal.main_arg3)) (Z (Proc.devRef .tc Cert.ReferenceIdeal.main_arg3)))
    (h01 : ∀ i, (Vk (Proc.devRef .tc Cert.KernelIdeal.main_arg3) : FVec Ideal Cert.KernelIdeal.S64x128 .f32) i = (0 : Ideal .f32) ∨ (Vk (Proc.devRef .tc Cert.KernelIdeal.main_arg3) : FVec Ideal Cert.KernelIdeal.S64x128 .f32) i = (1 : Ideal .f32)) :
    (sitofp (F := Ideal) .f32 (after (hostOps0 ++ hostOps0_1) Vk (Proc.devRef .tc Cert.KernelIdeal.main_v2) : IVec Cert.KernelIdeal.S64x128 32) : FVec Ideal Cert.KernelIdeal.S64x128 .f32) = after seg_att Z (Proc.devRef .tc Cert.ReferenceIdeal.main_v35) := by
  rw [Cert.KernelIdeal.Pre.att_eq, Cert.ReferenceIdeal.Pre.att_eq]
  have e2 : (Vk (Proc.devRef .tc Cert.KernelIdeal.main_arg2) : IVec Cert.KernelIdeal.S64x128 32) = Z (Proc.devRef .tc Cert.ReferenceIdeal.main_arg2) := eq_of_heq h2
  have e3 : (Vk (Proc.devRef .tc Cert.KernelIdeal.main_arg3) : FVec Ideal Cert.KernelIdeal.S64x128 .f32) = Z (Proc.devRef .tc Cert.ReferenceIdeal.main_arg3) := eq_of_heq h3
  rw [← e2, ← e3]
  exact Cert.Mid.masked_ids _ _ _ _ (fun i => Ideal.ofBits_zero_f32) (fun i => rfl) h01

/-- The ids of each position's row: gathered as integers and converted, or gathered as floats. -/
theorem stage_g (Y : VK) (Z : VR)
    (hatt : (sitofp (F := Ideal) .f32 (Y (Proc.devRef .tc Cert.KernelIdeal.main_v2) : IVec Cert.KernelIdeal.S64x128 32) : FVec Ideal Cert.KernelIdeal.S64x128 .f32) = Z (Proc.devRef .tc Cert.ReferenceIdeal.main_v35))
    (h34 : HEq (Y (Proc.devRef .tc Cert.KernelIdeal.main_v34)) (Z (Proc.devRef .tc Cert.ReferenceIdeal.main_v67))) :
    (sitofp (F := Ideal) .f32 (after Kg Y (Proc.devRef .tc Cert.KernelIdeal.main_v35) : IVec Cert.KernelIdeal.S2048x128 32) : FVec Ideal Cert.KernelIdeal.S2048x128 .f32) = after Rg Z (Proc.devRef .tc Cert.ReferenceIdeal.main_v68) := by
  rw [Cert.KernelIdeal.Pre.g_eq, Cert.ReferenceIdeal.Pre.g_eq]
  have e34 : (Y (Proc.devRef .tc Cert.KernelIdeal.main_v34) : IVec Cert.KernelIdeal.S2048x1 32) = Z (Proc.devRef .tc Cert.ReferenceIdeal.main_v67) := eq_of_heq h34
  rw [← hatt, ← e34]
  rfl

/-- The centre index is one term of the iota and the columns. -/
theorem stage_cc (Y : VK) (Z : VR)
    (h21 : HEq (Y (Proc.devRef .tc Cert.KernelIdeal.main_v21)) (Z (Proc.devRef .tc Cert.ReferenceIdeal.main_v54))) (h20 : HEq (Y (Proc.devRef .tc Cert.KernelIdeal.main_v20)) (Z (Proc.devRef .tc Cert.ReferenceIdeal.main_v53))) :
    (after Kcc (after Kc1 Y) (Proc.devRef .tc Cert.KernelIdeal.main_v48) : IVec Cert.KernelIdeal.S2048x2 32) = after Rcc (after Rc1 Z) (Proc.devRef .tc Cert.ReferenceIdeal.main_v81) := by
  rw [Cert.KernelIdeal.Pre.cc_eq, Cert.ReferenceIdeal.Pre.cc_eq]
  have e21 : (Y (Proc.devRef .tc Cert.KernelIdeal.main_v21) : IVec Cert.KernelIdeal.S2048 32) = Z (Proc.devRef .tc Cert.ReferenceIdeal.main_v54) := eq_of_heq h21
  have e20 : (Y (Proc.devRef .tc Cert.KernelIdeal.main_v20) : IVec Cert.KernelIdeal.S2048 32) = Z (Proc.devRef .tc Cert.ReferenceIdeal.main_v53) := eq_of_heq h20
  rw [← e21, ← e20]
  rfl

/-- The weight and the candidate: the test against the centre id made on integers or on their float values. -/
theorem stage_m2 (Y : VK) (Z : VR)
    (h28 : (Y (Proc.devRef .tc Cert.KernelIdeal.main_v28) : FVec Ideal Cert.KernelIdeal.S2048x128 .f32) = Z (Proc.devRef .tc Cert.ReferenceIdeal.main_v61))
    (h35 : (sitofp (F := Ideal) .f32 (Y (Proc.devRef .tc Cert.KernelIdeal.main_v35) : IVec Cert.KernelIdeal.S2048x128 32) : FVec Ideal Cert.KernelIdeal.S2048x128 .f32) = Z (Proc.devRef .tc Cert.ReferenceIdeal.main_v68))
    (h48 : (Y (Proc.devRef .tc Cert.KernelIdeal.main_v48) : IVec Cert.KernelIdeal.S2048x2 32) = Z (Proc.devRef .tc Cert.ReferenceIdeal.main_v81)) :
    (after Km2 Y (Proc.devRef .tc Cert.KernelIdeal.main_v54) : FVec Ideal Cert.KernelIdeal.S2048x128 .f32) = after Rm2 Z (Proc.devRef .tc Cert.ReferenceIdeal.main_v87)
    ∧ (after Km2 Y (Proc.devRef .tc Cert.KernelIdeal.main_v56) : FVec Ideal Cert.KernelIdeal.S2048x128 .f32) = after Rm2 Z (Proc.devRef .tc Cert.ReferenceIdeal.main_v88) := by
  have key : (Cert.KernelIdeal.Pre.nwK (Y (Proc.devRef .tc Cert.KernelIdeal.main_v28)) (Y (Proc.devRef .tc Cert.KernelIdeal.main_v35)) (Y (Proc.devRef .tc Cert.KernelIdeal.main_v48)) : FVec Ideal Cert.KernelIdeal.S2048x128 .f32)
      = Cert.ReferenceIdeal.Pre.nwR (Z (Proc.devRef .tc Cert.ReferenceIdeal.main_v61)) (Z (Proc.devRef .tc Cert.ReferenceIdeal.main_v68)) (Z (Proc.devRef .tc Cert.ReferenceIdeal.main_v81)) := by
    rw [← h28, ← h35, ← h48]
    unfold Cert.KernelIdeal.Pre.nwK Cert.ReferenceIdeal.Pre.nwR
    rw [Cert.Mid.eq_test]
    rfl
  constructor
  · rw [Cert.KernelIdeal.Pre.m2_v54, Cert.ReferenceIdeal.Pre.m2_v87]; exact key
  · rw [Cert.KernelIdeal.Pre.m2_v56, Cert.ReferenceIdeal.Pre.m2_v88, ← key, ← h35]

/-! ## The two programs build the same weights and candidates -/

set_option maxHeartbeats 4000000 in
/-- From equal token ids, masks and marked tokens, the mask having entries 0 or 1, the kernel program's host operations
    before the region and the reference program's operations through its candidate chain leave the same final weights
    and the same final candidates. -/
theorem pre_agree (Vk : VK) (Vr : VR)
    (h2 : HEq (Vk (Proc.devRef .tc Cert.KernelIdeal.main_arg2)) (Vr (Proc.devRef .tc Cert.ReferenceIdeal.main_arg2)))
    (h3 : HEq (Vk (Proc.devRef .tc Cert.KernelIdeal.main_arg3)) (Vr (Proc.devRef .tc Cert.ReferenceIdeal.main_arg3)))
    (h4 : HEq (Vk (Proc.devRef .tc Cert.KernelIdeal.main_arg4)) (Vr (Proc.devRef .tc Cert.ReferenceIdeal.main_arg4)))
    (h01 : ∀ i, (Vk (Proc.devRef .tc Cert.KernelIdeal.main_arg3) : FVec Ideal Cert.KernelIdeal.S64x128 .f32) i = (0 : Ideal .f32) ∨ (Vk (Proc.devRef .tc Cert.KernelIdeal.main_arg3) : FVec Ideal Cert.KernelIdeal.S64x128 .f32) i = (1 : Ideal .f32)) :
    HEq (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) Vk (Proc.devRef .tc Cert.KernelIdeal.main_v88)) ((after seg_chain (after seg_mid (after seg_g (after seg_nz (after seg_att (after seg_mle (after seg_w (after seg_td (after seg_ls Vr))))))))) (Proc.devRef .tc Cert.ReferenceIdeal.main_v119))
    ∧ HEq (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) Vk (Proc.devRef .tc Cert.KernelIdeal.main_v90)) ((after seg_chain (after seg_mid (after seg_g (after seg_nz (after seg_att (after seg_mle (after seg_w (after seg_td (after seg_ls Vr))))))))) (Proc.devRef .tc Cert.ReferenceIdeal.main_v121)) := by
  rw [Kpre_eq, Rchain_eq]
  -- the reference program's contents when it multiplies the mask in: its inputs are as launched
  generalize hr0 : after seg_mle (after seg_w (after seg_td (after seg_ls Vr))) = r0
  have g2 : HEq (Vk (Proc.devRef .tc Cert.KernelIdeal.main_arg2)) (r0 (Proc.devRef .tc Cert.ReferenceIdeal.main_arg2)) := by
    rw [← hr0, fr_mle_arg2, fr_w_arg2, fr_td_arg2, fr_ls_arg2]; exact h2
  have g3 : HEq (Vk (Proc.devRef .tc Cert.KernelIdeal.main_arg3)) (r0 (Proc.devRef .tc Cert.ReferenceIdeal.main_arg3)) := by
    rw [← hr0, fr_mle_arg3, fr_w_arg3, fr_td_arg3, fr_ls_arg3]; exact h3
  have g4 : HEq (Vk (Proc.devRef .tc Cert.KernelIdeal.main_arg4)) (r0 (Proc.devRef .tc Cert.ReferenceIdeal.main_arg4)) := by
    rw [← hr0, fr_mle_arg4, fr_w_arg4, fr_td_arg4, fr_ls_arg4]; exact h4
  clear hr0 h2 h3 h4
  -- the masked ids
  have a3 : HEq (after (hostOps0 ++ hostOps0_1) Vk (Proc.devRef .tc Cert.KernelIdeal.main_arg3)) (after seg_att r0 (Proc.devRef .tc Cert.ReferenceIdeal.main_arg3)) := by
    rw [fk_kA_arg3, fr_att_arg3]; exact g3
  have a4 : HEq (after (hostOps0 ++ hostOps0_1) Vk (Proc.devRef .tc Cert.KernelIdeal.main_arg4)) (after seg_att r0 (Proc.devRef .tc Cert.ReferenceIdeal.main_arg4)) := by
    rw [fk_kA_arg4, fr_att_arg4]; exact g4
  have aV := stage_att Vk r0 g2 g3 h01
  generalize after (hostOps0 ++ hostOps0_1) Vk = kA at a3 a4 aV ⊢
  generalize after seg_att r0 = ratt at a3 a4 aV ⊢
  clear g2 g3 g4 h01
  -- the positions of the marked tokens
  have bP : Agree [(Cert.KernelIdeal.main_v18, Cert.ReferenceIdeal.main_v51), (Cert.KernelIdeal.main_v20, Cert.ReferenceIdeal.main_v53)] (after KB kA) (after seg_nz ratt) :=
    Cert.Lockstep.sim_nonzero' kA ratt (Agree.cons a4 Agree.nil)
  have b3 : HEq (after KB kA (Proc.devRef .tc Cert.KernelIdeal.main_arg3)) (after seg_nz ratt (Proc.devRef .tc Cert.ReferenceIdeal.main_arg3)) := by
    rw [fk_KB_arg3, fr_nz_arg3]; exact a3
  have bV : (sitofp (F := Ideal) .f32 (after KB kA (Proc.devRef .tc Cert.KernelIdeal.main_v2) : IVec Cert.KernelIdeal.S64x128 32) : FVec Ideal Cert.KernelIdeal.S64x128 .f32) = after seg_nz ratt (Proc.devRef .tc Cert.ReferenceIdeal.main_v35) := by
    rw [fk_KB_v2, fr_nz_v35]; exact aV
  generalize after KB kA = kB at bP b3 bV ⊢
  generalize after seg_nz ratt = rnz at bP b3 bV ⊢
  clear a3 a4 aV
  -- the rows, and the mask gathered at them
  have cP := Cert.Lockstep.sim_rows'' kB rnz
    (Agree.cons (bP.get (List.Mem.head _)) (Agree.cons (bP.get (List.Mem.tail _ (List.Mem.head _))) (Agree.cons b3 Agree.nil)))
  have c28 : HEq (after K18 kB (Proc.devRef .tc Cert.KernelIdeal.main_v28)) (after R18 rnz (Proc.devRef .tc Cert.ReferenceIdeal.main_v61)) := cP.get (by decide)
  have c34 : HEq (after K18 kB (Proc.devRef .tc Cert.KernelIdeal.main_v34)) (after R18 rnz (Proc.devRef .tc Cert.ReferenceIdeal.main_v67)) := cP.get (by decide)
  have c21 : HEq (after K18 kB (Proc.devRef .tc Cert.KernelIdeal.main_v21)) (after R18 rnz (Proc.devRef .tc Cert.ReferenceIdeal.main_v54)) := cP.get (by decide)
  have c20 : HEq (after K18 kB (Proc.devRef .tc Cert.KernelIdeal.main_v20)) (after R18 rnz (Proc.devRef .tc Cert.ReferenceIdeal.main_v53)) := cP.get (by decide)
  have cV : (sitofp (F := Ideal) .f32 (after K18 kB (Proc.devRef .tc Cert.KernelIdeal.main_v2) : IVec Cert.KernelIdeal.S64x128 32) : FVec Ideal Cert.KernelIdeal.S64x128 .f32) = after R18 rnz (Proc.devRef .tc Cert.ReferenceIdeal.main_v35) := by
    rw [fk_K18_v2, fr_R18_v35]; exact bV
  clear cP
  generalize after K18 kB = k18 at c28 c34 c21 c20 cV ⊢
  generalize after R18 rnz = r18 at c28 c34 c21 c20 cV ⊢
  clear bP b3 bV
  -- the ids of each position's row
  have dV := stage_g k18 r18 cV c34
  have d28 : HEq (after Kg k18 (Proc.devRef .tc Cert.KernelIdeal.main_v28)) (after Rg r18 (Proc.devRef .tc Cert.ReferenceIdeal.main_v61)) := by
    rw [fk_Kg_v28, fr_Rg_v61]; exact c28
  have d21 : HEq (after Kg k18 (Proc.devRef .tc Cert.KernelIdeal.main_v21)) (after Rg r18 (Proc.devRef .tc Cert.ReferenceIdeal.main_v54)) := by
    rw [fk_Kg_v21, fr_Rg_v54]; exact c21
  have d20 : HEq (after Kg k18 (Proc.devRef .tc Cert.KernelIdeal.main_v20)) (after Rg r18 (Proc.devRef .tc Cert.ReferenceIdeal.main_v53)) := by
    rw [fk_Kg_v20, fr_Rg_v53]; exact c20
  generalize after Kg k18 = kg at dV d28 d21 d20 ⊢
  generalize after Rg r18 = rg at dV d28 d21 d20 ⊢
  clear c28 c34 c21 c20 cV
  -- the centre index
  have eC := stage_cc kg rg d21 d20
  have e28 : HEq (after Kcc (after Kc1 kg) (Proc.devRef .tc Cert.KernelIdeal.main_v28)) (after Rcc (after Rc1 rg) (Proc.devRef .tc Cert.ReferenceIdeal.main_v61)) := by
    rw [fk_Kcc_v28, fk_Kc1_v28, fr_Rcc_v61, fr_Rc1_v61]; exact d28
  have e21 : HEq (after Kcc (after Kc1 kg) (Proc.devRef .tc Cert.KernelIdeal.main_v21)) (after Rcc (after Rc1 rg) (Proc.devRef .tc Cert.ReferenceIdeal.main_v54)) := by
    rw [fk_Kcc_v21, fk_Kc1_v21, fr_Rcc_v54, fr_Rc1_v54]; exact d21
  have e20 : HEq (after Kcc (after Kc1 kg) (Proc.devRef .tc Cert.KernelIdeal.main_v20)) (after Rcc (after Rc1 rg) (Proc.devRef .tc Cert.ReferenceIdeal.main_v53)) := by
    rw [fk_Kcc_v20, fk_Kc1_v20, fr_Rcc_v53, fr_Rc1_v53]; exact d20
  have eV : (sitofp (F := Ideal) .f32 (after Kcc (after Kc1 kg) (Proc.devRef .tc Cert.KernelIdeal.main_v35) : IVec Cert.KernelIdeal.S2048x128 32) : FVec Ideal Cert.KernelIdeal.S2048x128 .f32) = after Rcc (after Rc1 rg) (Proc.devRef .tc Cert.ReferenceIdeal.main_v68) := by
    rw [fk_Kcc_v35, fk_Kc1_v35, fr_Rcc_v68, fr_Rc1_v68]; exact dV
  generalize after Kcc (after Kc1 kg) = kc at eC e28 e21 e20 eV ⊢
  generalize after Rcc (after Rc1 rg) = rc at eC e28 e21 e20 eV ⊢
  clear dV d28 d21 d20
  -- the first weights and the first candidates
  obtain ⟨f54, f56⟩ := stage_m2 kc rc (eq_of_heq e28) eV eC
  have f21 : HEq (after Km2 kc (Proc.devRef .tc Cert.KernelIdeal.main_v21)) (after Rm2 rc (Proc.devRef .tc Cert.ReferenceIdeal.main_v54)) := by
    rw [fk_Km2_v21, fr_Rm2_v54]; exact e21
  have f20 : HEq (after Km2 kc (Proc.devRef .tc Cert.KernelIdeal.main_v20)) (after Rm2 rc (Proc.devRef .tc Cert.ReferenceIdeal.main_v53)) := by
    rw [fk_Km2_v20, fr_Rm2_v53]; exact e20
  have fV : (sitofp (F := Ideal) .f32 (after Km2 kc (Proc.devRef .tc Cert.KernelIdeal.main_v35) : IVec Cert.KernelIdeal.S2048x128 32) : FVec Ideal Cert.KernelIdeal.S2048x128 .f32) = after Rm2 rc (Proc.devRef .tc Cert.ReferenceIdeal.main_v68) := by
    rw [fk_Km2_v35, fr_Rm2_v68]; exact eV
  have fP : Agree P₀' (after Km2 kc) (after Rm2 rc) :=
    Agree.cons (heq_of_eq f54) (Agree.cons (heq_of_eq f56) (Agree.cons f20 (Agree.cons f21 Agree.nil)))
  clear f54 f56 f21 f20
  generalize after Km2 kc = km at fV fP ⊢
  generalize after Rm2 rc = rm at fV fP ⊢
  clear eC e28 e21 e20 eV
  -- the chain, first part
  have gP : Agree Q_a (after KC_a km) (after seg_chain_a rm) := Cert.Lockstep.sim_chain_a km rm fP
  have gV : (sitofp (F := Ideal) .f32 (after KC_a km (Proc.devRef .tc Cert.KernelIdeal.main_v35) : IVec Cert.KernelIdeal.S2048x128 32) : FVec Ideal Cert.KernelIdeal.S2048x128 .f32) = after seg_chain_a rm (Proc.devRef .tc Cert.ReferenceIdeal.main_v68) := by
    rw [fk_KC_a_v35, fr_ca_v68]; exact fV
  generalize after KC_a km = kca at gP gV ⊢
  generalize after seg_chain_a rm = rca at gP gV ⊢
  clear fV fP
  -- the second conversion of the ids
  have h80 : HEq (after K80 kca (Proc.devRef .tc Cert.KernelIdeal.main_v80)) (rca (Proc.devRef .tc Cert.ReferenceIdeal.main_v68)) := by
    rw [Cert.KernelIdeal.Pre.v80_eq]; exact heq_of_eq gV
  have hQ : Agree Q_a (after K80 kca) rca := gP.writeL (y := Cert.KernelIdeal.main_v80) rfl (by decide)
  have hP : Agree (Q_a ++ [(Cert.KernelIdeal.main_v80, Cert.ReferenceIdeal.main_v68)]) (after K80 kca) rca := fun p hp => by
    rcases List.mem_append.mp hp with h | h
    · exact hQ p h
    · rw [List.mem_singleton] at h; subst h; exact h80
  -- the chain, second part
  have iP := Cert.Lockstep.sim_chain_b (after K80 kca) rca hP
  rw [fk_Kw_v88, fk_Kw_v90]
  exact ⟨iP.get (List.Mem.head _), iP.get (List.Mem.tail _ (List.Mem.head _))⟩

end Cert.GluePre
-- ==== Proof.LossAlgebra.lean ====
/- The scalar algebra of the two losses on the extended reals: the row maximum, the sum of exponentials and its
   logarithm are finite on a finite row; the log-probability written with two subtractions is the one written with
   one; the float constants of the smoothed distribution as rationals; a quotient by 2048 times 2048 is the
   identity; the weighted row sum written with the indicator of the target column is the one written with the
   two-valued distribution. -/
import Idealize.ShloMosaic.PureOps.Ideal
import Idealize.ShloMosaic.PureOps.Ideal.Laws
import Mathlib.Data.EReal.Basic
import Mathlib.Data.EReal.Operations
import Mathlib.Data.EReal.Inv
import Mathlib.Data.Finset.Fold
import Mathlib.Algebra.BigOperators.Group.Finset.Basic
import Mathlib.Algebra.Order.BigOperators.Group.Finset
import Mathlib.Analysis.SpecialFunctions.Exp
import Mathlib.Analysis.SpecialFunctions.Log.Basic

noncomputable section

namespace Cert.LossAlgebra

open Idealize.ShloMosaic
open scoped BigOperators

/-! ### The row maximum, the sum of exponentials, its logarithm -/

/-- The maximum of a row: the fold of max from the bottom element over every column. -/
def rowMax {n : ℕ} (x : Fin n → EReal) : EReal := (Finset.univ : Finset (Fin n)).fold max ⊥ x

/-- The sum over the columns of the exponential of the row shifted by its maximum. -/
def S {n : ℕ} (x : Fin n → EReal) : EReal := ∑ c, Ideal.exp (x c - rowMax x)

/-- A finite sum of reals, taken in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The fold of max from the bottom over a set of real entries is the bottom on the empty set and a real otherwise. -/
theorem fold_max_real {ι : Type*} [DecidableEq ι] (s : Finset ι) (x : ι → EReal) (hx : ∀ c ∈ s, ∃ r : ℝ, x c = r) :
    (s.fold max ⊥ x = ⊥ ∧ s = ∅) ∨ ∃ r : ℝ, s.fold max ⊥ x = r := by
  induction s using Finset.induction_on with
  | empty => exact Or.inl ⟨Finset.fold_empty, rfl⟩
  | insert a s ha ih =>
    right
    obtain ⟨r, hr⟩ := hx a (Finset.mem_insert_self a s)
    rw [Finset.fold_insert ha, hr]
    rcases ih (fun c hc => hx c (Finset.mem_insert_of_mem hc)) with ⟨hb, _⟩ | ⟨r', hr'⟩
    · exact ⟨r, by rw [hb, max_bot_right]⟩
    · exact ⟨max r r', by rw [hr', max_coe]⟩

/-- The maximum of a nonempty row of reals is a real. -/
theorem rowMax_real {n : ℕ} (hn : 0 < n) (x : Fin n → EReal) (hx : ∀ c, ∃ r : ℝ, x c = r) :
    ∃ r : ℝ, rowMax x = r := by
  haveI : Nonempty (Fin n) := ⟨⟨0, hn⟩⟩
  rcases fold_max_real Finset.univ x (fun c _ => hx c) with ⟨_, he⟩ | h
  · exact absurd he Finset.univ_nonempty.ne_empty
  · exact h

/-- Every entry of a row is at most its maximum. -/
theorem le_rowMax {n : ℕ} (x : Fin n → EReal) (c : Fin n) : x c ≤ rowMax x :=
  (Finset.le_fold_max (x c)).mpr (Or.inr ⟨c, Finset.mem_univ c, le_rfl⟩)

/-- The sum of exponentials of a nonempty row of reals is a positive real. -/
theorem S_real {n : ℕ} (hn : 0 < n) (x : Fin n → EReal) (hx : ∀ c, ∃ r : ℝ, x c = r) :
    ∃ s : ℝ, 0 < s ∧ S x = s := by
  obtain ⟨m, hm⟩ := rowMax_real hn x hx
  choose r hr using hx
  haveI : Nonempty (Fin n) := ⟨⟨0, hn⟩⟩
  refine ⟨∑ c, Real.exp (r c - m), Finset.sum_pos (fun c _ => Real.exp_pos _) Finset.univ_nonempty, ?_⟩
  unfold S
  rw [← sum_coe]
  refine Finset.sum_congr rfl fun c _ => ?_
  rw [hm, hr c, ← EReal.coe_sub, Ideal.exp_coe]

/-- The logarithm of that sum is a real. -/
theorem log_S_real {n : ℕ} (hn : 0 < n) (x : Fin n → EReal) (hx : ∀ c, ∃ r : ℝ, x c = r) :
    ∃ l : ℝ, Ideal.log (S x) = l := by
  obtain ⟨s, hs, hS⟩ := S_real hn x hx
  exact ⟨Real.log s, by rw [hS, Ideal.log_coe, if_neg (not_le.mpr hs)]⟩

/-! ### The log-probability with two subtractions and with one -/

/-- On reals, subtracting twice is subtracting the sum. -/
theorem sub_sub_coe (a m l : ℝ) : ((a : EReal) - (m : EReal)) - (l : EReal) = (a : EReal) - ((m : EReal) + (l : EReal)) := by
  rw [← EReal.coe_sub, ← EReal.coe_sub, ← EReal.coe_add, ← EReal.coe_sub, sub_sub]

/-- For a nonempty row of reals, the entry minus the maximum minus the logarithm of the sum of exponentials is the entry
    minus the sum of the two. -/
theorem logp_eq {n : ℕ} (hn : 0 < n) (x : Fin n → EReal) (hx : ∀ c, ∃ r : ℝ, x c = r) (c : Fin n) :
    (x c - rowMax x) - Ideal.log (S x) = x c - (rowMax x + Ideal.log (S x)) := by
  obtain ⟨m, hm⟩ := rowMax_real hn x hx
  obtain ⟨l, hl⟩ := log_S_real hn x hx
  obtain ⟨a, ha⟩ := hx c
  rw [hm, hl, ha, sub_sub_coe]

/-- The same at any real in place of the row's entry. -/
theorem sub_lse_eq {n : ℕ} (hn : 0 < n) (x : Fin n → EReal) (hx : ∀ c, ∃ r : ℝ, x c = r) (a : ℝ) :
    ((a : EReal) - rowMax x) - Ideal.log (S x) = (a : EReal) - (rowMax x + Ideal.log (S x)) := by
  obtain ⟨m, hm⟩ := rowMax_real hn x hx
  obtain ⟨l, hl⟩ := log_S_real hn x hx
  rw [hm, hl, sub_sub_coe]

/-- The log-probability of a nonempty row of reals is a real. -/
theorem logp_real {n : ℕ} (hn : 0 < n) (x : Fin n → EReal) (hx : ∀ c, ∃ r : ℝ, x c = r) (c : Fin n) :
    ∃ z : ℝ, (x c - rowMax x) - Ideal.log (S x) = z := by
  obtain ⟨m, hm⟩ := rowMax_real hn x hx
  obtain ⟨l, hl⟩ := log_S_real hn x hx
  obtain ⟨a, ha⟩ := hx c
  exact ⟨a - m - l, by rw [hm, hl, ha, ← EReal.coe_sub, ← EReal.coe_sub]⟩

/-! ### The constants -/

/-- The confidence: the pattern 0x3F4CCCCD denotes 13421773 / 2^24. -/
theorem ofBits_D1 : Ideal.ofBits .f32 0x3F4CCCCD#32 = ((13421773 / 16777216 : ℝ) : EReal) := by
  simp [Ideal.ofBits, Ideal.ieee, -EReal.coe_mul]; norm_num

/-- The smoothing mass per column: the pattern 0x36DBE0AF denotes 14409903 / 2^41. -/
theorem ofBits_D2 : Ideal.ofBits .f32 0x36DBE0AF#32 = ((14409903 / 2199023255552 : ℝ) : EReal) := by
  simp [Ideal.ofBits, Ideal.ieee, -EReal.coe_mul]; norm_num

/-- The pattern 0x45000000 denotes 2048. -/
theorem ofBits_2048 : Ideal.ofBits .f32 0x45000000#32 = ((2048 : ℝ) : EReal) := by
  simp [Ideal.ofBits, Ideal.ieee, -EReal.coe_mul]; norm_num

/-- The pattern 0x3F800000 denotes 1. -/
theorem ofBits_one : Ideal.ofBits .f32 0x3F800000#32 = 1 := by
  simp [Ideal.ofBits, Ideal.ieee, -EReal.coe_mul]; norm_num

/-- The pattern 0 denotes 0. -/
theorem ofBits_zero : Ideal.ofBits .f32 0x00000000#32 = 0 := Ideal.ofBits_zero_f32

/-- The pattern 0xFF800000 denotes the bottom element, minus infinity. -/
theorem ofBits_neg_inf : Ideal.ofBits .f32 0xFF800000#32 = ⊥ := by
  simp [Ideal.ofBits, Ideal.ieee]

/-- The real 2048 in the extended reals is the numeral 2048 there. -/
theorem coe_2048 : ((2048 : ℝ) : EReal) = (2048 : EReal) := rfl

/-- The pattern 0x45000000 denotes the numeral 2048. -/
theorem ofBits_2048' : Ideal.ofBits .f32 0x45000000#32 = (2048 : EReal) := ofBits_2048

/-- The fold of max over a row from what the pattern 0xFF800000 denotes is the row's maximum. -/
theorem fold_max_neg_inf {n : ℕ} (x : Fin n → EReal) :
    (Finset.univ : Finset (Fin n)).fold max (Ideal.ofBits .f32 0xFF800000#32) x = rowMax x := by
  rw [ofBits_neg_inf]; rfl

/-- Zero plus the sum of exponentials of the row shifted by the maximum of the bottom element and its maximum is the
    sum of exponentials of the row shifted by its maximum. -/
theorem zero_add_sum_exp {n : ℕ} (x : Fin n → EReal) :
    0 + ∑ c, Ideal.exp (x c - max ⊥ (rowMax x)) = S x := by
  rw [zero_add, max_bot_left]; rfl

/-- The maximum of the bottom element and a row's maximum is the row's maximum. -/
theorem max_bot_rowMax {n : ℕ} (x : Fin n → EReal) : max ⊥ (rowMax x) = rowMax x := max_bot_left _

/-- The smoothing mass plus once the difference is the confidence. -/
theorem D2_add_one_mul_kap :
    Ideal.ofBits .f32 0x36DBE0AF#32 + 1 * ((1759204220753 / 2199023255552 : ℝ) : EReal) = Ideal.ofBits .f32 0x3F4CCCCD#32 := by
  rw [ofBits_D1, ofBits_D2, one_mul, ← EReal.coe_add]
  norm_num

/-- The smoothing mass plus zero times the difference is the smoothing mass. -/
theorem D2_add_zero_mul_kap :
    Ideal.ofBits .f32 0x36DBE0AF#32 + 0 * ((1759204220753 / 2199023255552 : ℝ) : EReal) = Ideal.ofBits .f32 0x36DBE0AF#32 := by
  rw [zero_mul, add_zero]

/-- The same two facts on the rationals the patterns denote. -/
theorem D2_add_one_mul_kap' :
    ((14409903 / 2199023255552 : ℝ) : EReal) + 1 * ((1759204220753 / 2199023255552 : ℝ) : EReal)
      = ((13421773 / 16777216 : ℝ) : EReal) := by
  rw [one_mul, ← EReal.coe_add]
  norm_num

theorem D2_add_zero_mul_kap' (d : EReal) :
    d + 0 * ((1759204220753 / 2199023255552 : ℝ) : EReal) = d := by
  rw [zero_mul, add_zero]

/-! ### The mean -/

/-- A quotient by 2048 times 2048 is the identity, at every extended real. -/
theorem div_mul_2048 (y : EReal) : Ideal.div y ((2048 : ℝ) : EReal) * ((2048 : ℝ) : EReal) = y := by
  rw [Ideal.div_coe (by norm_num : (2048 : ℝ) ≠ 0), mul_assoc, ← EReal.coe_mul]
  norm_num

/-- The same with the divisor and the factor written as the patterns a program spells. -/
theorem div_mul_2048_bits (y : EReal) :
    Ideal.div y (Ideal.ofBits .f32 0x45000000#32) * Ideal.ofBits .f32 0x45000000#32 = y := by
  rw [ofBits_2048, div_mul_2048]

/-- The same with the numeral 2048 of the extended reals. -/
theorem div_mul_2048' (y : EReal) : Ideal.div y (2048 : EReal) * (2048 : EReal) = y := div_mul_2048 y

/-- One times an extended real is it. -/
theorem one_mul_ereal (y : EReal) : 1 * y = y := one_mul y

/-- The two means: a quotient by 2048, times 2048, over a weight total, is the quotient over the weight total. -/
theorem mean_eq (y W : EReal) :
    Ideal.div (Ideal.div y ((2048 : ℝ) : EReal) * ((2048 : ℝ) : EReal)) W = Ideal.div y W := by
  rw [div_mul_2048]

/-! ### The weighted row sum -/

/-- Zero minus an extended real is its negation. -/
theorem zero_sub_ereal (a : EReal) : 0 - a = -a := by rw [sub_eq_add_neg, zero_add]

/-- One column's coefficient: the smoothing mass plus the indicator of the target column times the difference is the
    confidence at the target column and the smoothing mass elsewhere. -/
theorem coeff_eq {n : ℕ} (c t : Fin n) :
    Ideal.ofBits .f32 0x36DBE0AF#32 + (if c = t then (1 : EReal) else 0) * ((1759204220753 / 2199023255552 : ℝ) : EReal)
      = if c = t then Ideal.ofBits .f32 0x3F4CCCCD#32 else Ideal.ofBits .f32 0x36DBE0AF#32 := by
  by_cases h : c = t
  · rw [if_pos h, if_pos h, D2_add_one_mul_kap]
  · rw [if_neg h, if_neg h, D2_add_zero_mul_kap]

/-- The weighted row sum with the indicator of the target column is the one with the two-valued distribution, for any
    per-column factors and any weight. -/
theorem row_eq {n : ℕ} (t : Fin n) (z : Fin n → EReal) (w : EReal) :
    (∑ c, (0 - (Ideal.ofBits .f32 0x36DBE0AF#32
              + (if c = t then (1 : EReal) else 0) * ((1759204220753 / 2199023255552 : ℝ) : EReal))) * z c) * w
      = (0 + ∑ c, (-(if c = t then Ideal.ofBits .f32 0x3F4CCCCD#32 else Ideal.ofBits .f32 0x36DBE0AF#32)) * z c) * w := by
  rw [zero_add]
  congr 1
  refine Finset.sum_congr rfl fun c _ => ?_
  rw [zero_sub_ereal, coeff_eq]

/-- The same with the indicator given as any function that is one at the target column and zero elsewhere, and the
    zero the subtraction starts from given as any value that is zero. -/
theorem row_eq_of_ind {n : ℕ} (t : Fin n) (ind : Fin n → EReal) (hind : ∀ c, ind c = if c = t then 1 else 0)
    (zero : EReal) (hzero : zero = 0) (z : Fin n → EReal) (w : EReal) :
    (∑ c, (zero - (Ideal.ofBits .f32 0x36DBE0AF#32 + ind c * ((1759204220753 / 2199023255552 : ℝ) : EReal))) * z c) * w
      = (0 + ∑ c, (-(if c = t then Ideal.ofBits .f32 0x3F4CCCCD#32 else Ideal.ofBits .f32 0x36DBE0AF#32)) * z c) * w := by
  rw [← row_eq t z w, hzero]
  congr 1
  exact Finset.sum_congr rfl fun c _ => by rw [hind c]

/-- The same over any three constants of which the second plus the third is the first. -/
theorem row_eq_gen {n : ℕ} (d1 d2 k : EReal) (h : d2 + k = d1) (t : Fin n) (z : Fin n → EReal) (w : EReal) :
    (∑ c, (0 - (d2 + (if c = t then (1 : EReal) else 0) * k)) * z c) * w
      = (0 + ∑ c, (-(if c = t then d1 else d2)) * z c) * w := by
  rw [zero_add]
  congr 1
  refine Finset.sum_congr rfl fun c _ => ?_
  rw [zero_sub_ereal]
  by_cases hc : c = t
  · rw [if_pos hc, if_pos hc, one_mul, h]
  · rw [if_neg hc, if_neg hc, zero_mul, add_zero]

/-- The same on a row: the factors are the log-probabilities of a row, entry minus maximum minus logarithm of the sum
    of exponentials. -/
theorem row_logp_eq {n : ℕ} (x : Fin n → EReal) (t : Fin n) (w : EReal) :
    (∑ c, (0 - (Ideal.ofBits .f32 0x36DBE0AF#32
              + (if c = t then (1 : EReal) else 0) * ((1759204220753 / 2199023255552 : ℝ) : EReal)))
            * ((x c - rowMax x) - Ideal.log (S x))) * w
      = (0 + ∑ c, (-(if c = t then Ideal.ofBits .f32 0x3F4CCCCD#32 else Ideal.ofBits .f32 0x36DBE0AF#32))
            * ((x c - rowMax x) - Ideal.log (S x))) * w :=
  row_eq t (fun c => (x c - rowMax x) - Ideal.log (S x)) w

/-! ### The log-sum-exp and the log-probability are reals -/

/-- For a nonempty row of reals the maximum plus the logarithm of the sum of exponentials is a real. -/
theorem lse_real {n : ℕ} (hn : 0 < n) (x : Fin n → EReal) (hx : ∀ c, ∃ r : ℝ, x c = r) :
    ∃ r : ℝ, rowMax x + Ideal.log (S x) = r := by
  obtain ⟨m, hm⟩ := rowMax_real hn x hx
  obtain ⟨l, hl⟩ := log_S_real hn x hx
  exact ⟨m + l, by rw [hm, hl, ← EReal.coe_add]⟩

/-- For a nonempty row of reals an entry minus that is a real. -/
theorem sub_lse_real {n : ℕ} (hn : 0 < n) (x : Fin n → EReal) (hx : ∀ c, ∃ r : ℝ, x c = r) (c : Fin n) :
    ∃ r : ℝ, x c - (rowMax x + Ideal.log (S x)) = r := by
  obtain ⟨z, hz⟩ := lse_real hn x hx
  obtain ⟨a, ha⟩ := hx c
  exact ⟨a - z, by rw [hz, ha, ← EReal.coe_sub]⟩

/-! ### The unlikelihood penalty -/

/-- The floor of the penalty's argument: the pattern 0x3727C5AC denotes 10995116 / 2^40. -/
theorem ofBits_eps : Ideal.ofBits .f32 0x3727C5AC#32 = ((10995116 / 1099511627776 : ℝ) : EReal) := by
  simp [Ideal.ofBits, Ideal.ieee, -EReal.coe_mul]; norm_num

/-- At every real, minus the logarithm of the maximum of one minus the exponential and the floor is a non-negative
    real: the maximum lies between the floor, which is positive, and one. -/
theorem penalty_real (y : ℝ) :
    ∃ p : ℝ, 0 ≤ p ∧
      -(Ideal.log (max (Ideal.ofBits .f32 0x3F800000#32 - Ideal.exp (y : EReal)) (Ideal.ofBits .f32 0x3727C5AC#32))) = p := by
  have heps : (0 : ℝ) < 10995116 / 1099511627776 := by norm_num
  have hpos : 0 < max (1 - Real.exp y) (10995116 / 1099511627776) := lt_max_of_lt_right heps
  have hle : max (1 - Real.exp y) (10995116 / 1099511627776) ≤ 1 :=
    max_le (by linarith [Real.exp_pos y]) (by norm_num)
  rw [ofBits_one, ofBits_eps, Ideal.exp_coe, ← EReal.coe_one, ← EReal.coe_sub, max_coe, Ideal.log_coe,
    if_neg (not_le.mpr hpos), ← EReal.coe_neg]
  exact ⟨_, neg_nonneg.mpr (Real.log_nonpos hpos.le hle), rfl⟩

/-- So it is non-negative and not the top element. -/
theorem penalty_nonneg_finite (y : ℝ) :
    0 ≤ -(Ideal.log (max (Ideal.ofBits .f32 0x3F800000#32 - Ideal.exp (y : EReal)) (Ideal.ofBits .f32 0x3727C5AC#32)))
      ∧ -(Ideal.log (max (Ideal.ofBits .f32 0x3F800000#32 - Ideal.exp (y : EReal)) (Ideal.ofBits .f32 0x3727C5AC#32))) ≠ ⊤ := by
  obtain ⟨p, hp, h⟩ := penalty_real y
  rw [h]
  exact ⟨EReal.coe_nonneg.mpr hp, EReal.coe_ne_top p⟩

/-- The same with one and the floor written as what their patterns denote. -/
theorem penalty_nonneg_finite' (y : ℝ) :
    0 ≤ -(Ideal.log (max ((1 : EReal) - Ideal.exp (y : EReal)) ((10995116 / 1099511627776 : ℝ) : EReal)))
      ∧ -(Ideal.log (max ((1 : EReal) - Ideal.exp (y : EReal)) ((10995116 / 1099511627776 : ℝ) : EReal))) ≠ ⊤ := by
  have h := penalty_nonneg_finite y
  rwa [ofBits_one, ofBits_eps] at h

end Cert.LossAlgebra

end
-- ==== Proof.MleBridge.lean ====
/- The two likelihood terms are one extended real. The kernel side divides the sum of the per-row weighted losses by the
   sum of the row weights; the reference divides the same sum by 2048, multiplies by 2048, and divides by the sum of the
   row weights. Row by row the weighted loss written with the indicator of the target column is the one written with the
   smoothed distribution, and the quotient by 2048 times 2048 is the identity. -/
import proofs.«425233_j52278341926994_2_alg».proof.Proof.KernelTail
import proofs.«425233_j52278341926994_2_alg».proof.Proof.RefTail
import proofs.«425233_j52278341926994_2_alg».proof.Proof.RefRead
import proofs.«425233_j52278341926994_2_alg».proof.Proof.KernelArrays
import proofs.«425233_j52278341926994_2_alg».proof.Proof.LossAlgebra
import Idealize.ShloMosaic.Lib.IdealHost

set_option maxRecDepth 16384

noncomputable section

namespace Cert.MleBridge

open Idealize.ShloMosaic Idealize.ShloMosaic.TcCoe Idealize.ShloMosaic.StableHlo Cert.KernelIdeal Cert.KernelIdeal.Gen
open Idealize.ShloMosaic.ValueIdx
open scoped BigOperators

/-- A rank-1 index set is its coordinate's range. -/
def idxEquiv1 {n : Nat} : Fin n ≃ (⟨1, ![n]⟩ : Shape).Idx where
  toFun a := Shape.Idx.ofFin a
  invFun j := j 0
  left_inv a := Shape.Idx.ofFin_zero a
  right_inv j := by funext d; match d with | ⟨0, _⟩ => exact Fin.ext rfl

/-- So a sum over it is the sum over the coordinate. -/
theorem sum_idx1 {M : Type*} [AddCommMonoid M] {n : Nat} (f : (⟨1, ![n]⟩ : Shape).Idx → M) :
    ∑ i, f i = ∑ a : Fin n, f (Shape.Idx.ofFin a) :=
  (Equiv.sum_comp (idxEquiv1 (n := n)) f).symm

/-- A sum over the indices of a one-column array is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The two spellings of the index (row, column) are one index. -/
theorem ij_eq (n : Fin 2048) (c : Fin 30522) :
    (Idealize.ShloMosaic.StableHlo.Predicate.ij n c : (⟨2, ![2048, 30522]⟩ : Shape).Idx) = Cert.KernelIdeal.Arr.ij n c := by
  funext a
  match a with
  | ⟨0, _⟩ => rfl
  | ⟨1, _⟩ => rfl

/-- The two spellings of a row's maximum are one fold. -/
theorem rowMax_eq (x : FVec Ideal S2048x30522 .f32) (n : Fin 2048) :
    Cert.ReferenceIdeal.Read.rowMax x n = Cert.KernelIdeal.Arr.rowMax x n := by
  unfold Cert.ReferenceIdeal.Read.rowMax Cert.KernelIdeal.Arr.rowMax
  exact congrArg (fun f : Fin 30522 → EReal => (Finset.univ : Finset (Fin 30522)).fold max ⊥ f)
    (funext fun c => congrArg x (ij_eq n c))

/-- A number below 2^32 is a 32-bit word exactly when it is the word's unsigned value. -/
theorem ofNat_eq_iff (k : Nat) (hk : k < 2 ^ 32) (tv : BitVec 32) : BitVec.ofNat 32 k = tv ↔ k = tv.toNat := by
  constructor
  · intro h; rw [← h, BitVec.toNat_ofNat, Nat.mod_eq_of_lt hk]
  · intro h; apply BitVec.eq_of_toNat_eq; rw [BitVec.toNat_ofNat, Nat.mod_eq_of_lt hk, h]

/-- The indicator that a column, as a word, is the target word is the indicator that the column is the target's column. -/
theorem onehot_eq (tv : BitVec 32) (ht : tv.toNat < 30522) (c : Fin 30522) :
    Cert.KernelIdeal.Arr.onehot tv c = if c = (⟨tv.toNat, ht⟩ : Fin 30522) then 1 else 0 := by
  unfold Cert.KernelIdeal.Arr.onehot
  have hc : c.val < 2 ^ 32 := by have := c.isLt; omega
  by_cases h : c = ⟨tv.toNat, ht⟩
  · rw [if_pos h, if_pos ((ofNat_eq_iff _ hc tv).mpr (congrArg Fin.val h))]
  · rw [if_neg h, if_neg (fun e => h (Fin.ext ((ofNat_eq_iff _ hc tv).mp e)))]

/-- The reference's likelihood term with its body spelled out. -/
theorem mle_core (x : FVec Ideal S2048x30522 .f32) (tgt : IVec S2048 32) (w : FVec Ideal S2048 .f32)
    (A3 : FVec Ideal S2048x1 .f32) (htgt : ∀ j, 0 ≤ (tgt j).toInt ∧ (tgt j).toInt < 30522)
    (hA3 : ∀ n : Fin 2048, A3 (Cert.KernelIdeal.Arr.ij1 n)
      = (∑ k : Fin 30522, (0 - (Cert.KernelIdeal.Arr.D2 + Cert.KernelIdeal.Arr.onehot (tgt (Shape.Idx.ofFin n)) k * Cert.KernelIdeal.Arr.kap))
          * ((x (Cert.KernelIdeal.Arr.ij n k) - Cert.KernelIdeal.Arr.rowMax x n) - Ideal.log (Cert.KernelIdeal.Arr.rowSumExp x n)))
        * w (Shape.Idx.ofFin n)) :
    Host.divf (F := Ideal) (Host.reduceAdd A3 (constant S_ .f32 0x00000000#32) reducesTo_S2048x1_S_d0_1 h_S_)
        (Host.reduceAdd w (constant S_ .f32 0x00000000#32) reducesTo_S2048_S_d0 h_S_)
      = Host.divf
          (mulf
            (Host.divf
              (Host.reduceAdd
                (mulf (Host.reduceAdd (mulf (Host.negf (Cert.ReferenceIdeal.Read.td tgt)) (Cert.ReferenceIdeal.Read.lsm x))
                  (constant Cert.ReferenceIdeal.S_ .f32 0x00000000#32) Cert.ReferenceIdeal.Gen.reducesTo_S2048x30522_S2048_d1 Cert.ReferenceIdeal.Gen.h_S_) w)
                (constant Cert.ReferenceIdeal.S_ .f32 0x00000000#32) Cert.ReferenceIdeal.Gen.reducesTo_S2048_S_d0 Cert.ReferenceIdeal.Gen.h_S_)
              (constant Cert.ReferenceIdeal.S_ .f32 0x45000000#32))
            (constant Cert.ReferenceIdeal.S_ .f32 0x45000000#32))
          (Host.reduceAdd w (constant Cert.ReferenceIdeal.S_ .f32 0x00000000#32) Cert.ReferenceIdeal.Gen.reducesTo_S2048_S_d0 Cert.ReferenceIdeal.Gen.h_S_) := by
  funext i
  rw [hostDivf_apply, hostDivf_apply]
  refine congrArg₂ Ideal.div ?_ rfl
  rw [mulf_apply, hostDivf_apply, constant_apply, Cert.LossAlgebra.div_mul_2048_bits]
  rw [hostReduceAdd_apply, hostReduceAdd_apply,
    Ideal.hostReduceAdd_total _ (fun b => b.elim0), Ideal.hostReduceAdd_total _ (fun b => b.elim0),
    constant_apply]
  refine congrArg (fun s : EReal => Ideal.ofBits .f32 0x00000000#32 + s) ?_
  rw [sum_idx_col, sum_idx1]
  refine Finset.sum_congr rfl fun n _ => ?_
  have hn := htgt (Shape.Idx.ofFin n)
  have htv : (tgt (Shape.Idx.ofFin n)).toNat < 30522 := by
    have := Cert.ReferenceIdeal.Read.toNat_toInt_of_nonneg _ hn.1; omega
  rw [mulf_apply, hostReduceAdd_apply,
    Ideal.hostReduceAdd_single Cert.ReferenceIdeal.Gen.reducesTo_S2048x30522_S2048_d1 Cert.ReferenceIdeal.Read.reduces_rows,
    constant_apply, Ideal.ofBits_zero_f32]
  show A3 (Cert.KernelIdeal.Arr.ij1 n) = _
  rw [hA3 n, Cert.LossAlgebra.row_eq_of_ind ⟨(tgt (Shape.Idx.ofFin n)).toNat, htv⟩
    (Cert.KernelIdeal.Arr.onehot (tgt (Shape.Idx.ofFin n))) (onehot_eq _ htv) 0 rfl]
  refine congrArg (fun s : EReal => (0 + s) * w (Shape.Idx.ofFin n)) ?_
  show _ = ∑ k : Fin 30522, _
  refine Finset.sum_congr rfl fun k _ => ?_
  have e : (mulf (Host.negf (Cert.ReferenceIdeal.Read.td tgt)) (Cert.ReferenceIdeal.Read.lsm x))
        (Cert.ReferenceIdeal.Read.reduces_rows.lift (Shape.Idx.ofFin n) k)
      = -(Cert.ReferenceIdeal.Read.td tgt (Idealize.ShloMosaic.StableHlo.Predicate.ij n k))
          * Cert.ReferenceIdeal.Read.lsm x (Idealize.ShloMosaic.StableHlo.Predicate.ij n k) := by
    rw [Cert.ReferenceIdeal.Read.lift_eq]; rfl
  rw [e, Cert.ReferenceIdeal.Read.td_apply_toNat tgt htgt, Cert.ReferenceIdeal.Read.logsoftmax_apply, rowMax_eq]
  have hif : ∀ A B : EReal, (if k = (⟨(tgt (Shape.Idx.ofFin n)).toNat, htv⟩ : Fin 30522) then A else B)
      = if k.val = (tgt (Shape.Idx.ofFin n)).toNat then A else B := by
    intro A B
    by_cases h : k.val = (tgt (Shape.Idx.ofFin n)).toNat
    · rw [if_pos h, if_pos (Fin.ext h)]
    · rw [if_neg h, if_neg (fun e => h (congrArg Fin.val e))]
  rw [hif]
  unfold Cert.KernelIdeal.Arr.rowSumExp
  simp only [ij_eq]

/-- The kernel side's likelihood term is the reference's, for targets in range and per-row weighted losses as the
    kernel's rows compute them. -/
theorem mle_bridge (x : FVec Ideal S2048x30522 .f32) (tgt : IVec S2048 32) (w : FVec Ideal S2048 .f32)
    (A3 : FVec Ideal S2048x1 .f32) (htgt : ∀ j, 0 ≤ (tgt j).toInt ∧ (tgt j).toInt < 30522)
    (hA3 : ∀ n : Fin 2048, A3 (Cert.KernelIdeal.Arr.ij1 n)
      = (∑ k : Fin 30522, (0 - (Cert.KernelIdeal.Arr.D2 + Cert.KernelIdeal.Arr.onehot (tgt (Shape.Idx.ofFin n)) k * Cert.KernelIdeal.Arr.kap))
          * ((x (Cert.KernelIdeal.Arr.ij n k) - Cert.KernelIdeal.Arr.rowMax x n) - Ideal.log (Cert.KernelIdeal.Arr.rowSumExp x n)))
        * w (Shape.Idx.ofFin n)) :
    Host.divf (F := Ideal) (Host.reduceAdd A3 (constant S_ .f32 0x00000000#32) reducesTo_S2048x1_S_d0_1 h_S_)
        (Host.reduceAdd w (constant S_ .f32 0x00000000#32) reducesTo_S2048_S_d0 h_S_)
      = Cert.ReferenceIdeal.Tail.mleR (Cert.ReferenceIdeal.Read.td tgt) (Cert.ReferenceIdeal.Read.lsm x) w :=
  mle_core x tgt w A3 htgt hA3

end Cert.MleBridge

end
-- ==== Proof.GatherScatter.lean ====
import proofs.«425233_j52278341926994_2_alg».proof.Proof.Gen.KernelIdeal
import proofs.«425233_j52278341926994_2_alg».proof.Proof.Gen.ReferenceIdeal
import Idealize.ShloMosaic.PureOps.Ideal.Laws
import Idealize.ShloMosaic.Lib.ValueIdx
import Mathlib.Data.EReal.Operations

/-!
# A gather followed by a weighted sum is a scatter-add followed by a weighted sum

Reading an array at listed positions, weighting each read and adding everything up gives the same
total as first accumulating the weights at the listed positions (a scatter-add into zeros) and then
summing the array against the accumulated weights:

  ∑ over positions p of F (pos p) * w p  =  ∑ over elements i of F i * (∑ over p with pos p = i of w p)

for a non-negative finite multiplier `F` (so that the extended reals' product distributes over the
inner sum). The first part is the general statement for any scatter dimension numbers; the second
reads the two concrete index conventions (row and column listed per position) and shows that the
gather's operand index and the scatter's result index are the same element; the third joins them.
-/

noncomputable section

open scoped BigOperators

namespace Idealize.ShloMosaic

open ValueIdx

/-! ## The exchange of sums, for any scatter dimension numbers -/

/-- A non-negative finite extended real multiplies through a finite sum, termwise. -/
theorem ereal_mul_finset_sum {ι : Type*} (s : Finset ι) (c : EReal) (hc : 0 ≤ c) (hc' : c ≠ ⊤) (f : ι → EReal) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc hc', ih]

/-- Summing a non-negative finite multiplier `F` against the updates accumulated at each element equals summing,
    over the updates, the multiplier at the element the update lands on times the update (nothing for a dropped
    update). -/
theorem sum_mul_scatterAdd {s si u : Shape} (d : ScatterDims s si u) {w : Nat} (idx : IVec si w)
    (F : s.Idx → EReal) (upd : u.Idx → EReal) (hF : ∀ i, 0 ≤ F i ∧ F i ≠ ⊤) :
    ∑ i, F i * (0 + ∑ j ∈ Finset.univ.filter (fun j => d.resultIdx? j idx = some i), upd j) =
      ∑ j, (match d.resultIdx? j idx with | some i => F i * upd j | none => 0) := by
  have h1 : ∀ i, F i * (0 + ∑ j ∈ Finset.univ.filter (fun j => d.resultIdx? j idx = some i), upd j) =
      ∑ j, if d.resultIdx? j idx = some i then F i * upd j else 0 := by
    intro i
    rw [zero_add, ereal_mul_finset_sum _ _ (hF i).1 (hF i).2, Finset.sum_filter]
  rw [Finset.sum_congr rfl fun i _ => h1 i, Finset.sum_comm]
  refine Finset.sum_congr rfl fun j _ => ?_
  cases h : d.resultIdx? j idx with
  | none => simp
  | some i0 =>
    simp only [Option.some.injEq]
    rw [Finset.sum_ite_eq]
    simp

/-- The same, with the accumulated updates written as the exact scatter-add into the zero array. -/
theorem sum_mul_hostScatterAdd {s si u : Shape} (d : ScatterDims s si u) {w : Nat} (idx : IVec si w)
    (F : s.Idx → EReal) (upd : u.Idx → EReal) (hF : ∀ i, 0 ≤ F i ∧ F i ≠ ⊤) :
    ∑ i, F i * Ideal.hostScatterAdd d (fun _ => 0) idx upd i =
      ∑ j, (match d.resultIdx? j idx with | some i => F i * upd j | none => 0) :=
  sum_mul_scatterAdd d idx F upd hF

/-! ## Point gathers and point scatters of a rank-2 array by (row, column) pairs -/

/-- A gather of single elements of an `[R, C]` array at `[M, K]` listed (row, column) pairs — both operand axes
    collapsed and named by the start index map in order, no offset or batching axes, the pair on the last axis of
    the indices —: result position `(m, k)` reads row `idx[m, k, 0]` and column `idx[m, k, 1]`, each read signed
    and clamped into the array. -/
theorem GatherDims.operandIdx_point2 {R C M K w : Nat}
    (d : GatherDims ⟨2, ![R, C]⟩ ⟨3, ![M, K, 2]⟩ ⟨2, ![M, K]⟩)
    (hoff : d.offsetDims = []) (hcoll : d.collapsedSliceDims = [0, 1]) (hob : d.operandBatchingDims = [])
    (hsim : d.startIndexMap = [0, 1]) (hivd : d.indexVectorDim = 2)
    (idx : IVec ⟨3, ![M, K, 2]⟩ w) (j : (⟨2, ![M, K]⟩ : Shape).Idx) :
    (d.operandIdx j idx 0).val = min (idx (ix3 (j 0) (j 1) 0)).toInt.toNat (R - 1) ∧
    (d.operandIdx j idx 1).val = min (idx (ix3 (j 0) (j 1) 1)).toInt.toNat (C - 1) := by
  have hs0 : d.sliceSizes 0 = 1 := d.slice_collapsed 0 (by rw [hcoll]; simp)
  have hs1 : d.sliceSizes 1 = 1 := d.slice_collapsed 1 (by rw [hcoll]; simp)
  obtain ⟨od, cs, ob, sb, sim, iv, ss, wf⟩ := d
  simp only at hoff hcoll hob hsim hivd hs0 hs1
  subst hoff hcoll hob hsim hivd
  constructor
  · show GatherDims.start _ j idx 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    simp only [hs0]
    congr 3
    congr 1
    funext b
    refine Fin.ext ?_
    match b with
    | ⟨0, _⟩ => rfl
    | ⟨1, _⟩ => rfl
    | ⟨2, _⟩ => rfl
  · show GatherDims.start _ j idx 1 + GatherDims.batchCoord _ j 1 + GatherDims.offCoord _ j 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    simp only [hs1]
    congr 3
    congr 1
    funext b
    refine Fin.ext ?_
    match b with
    | ⟨0, _⟩ => rfl
    | ⟨1, _⟩ => rfl
    | ⟨2, _⟩ => rfl

/-- A scatter of single elements into an `[R, C]` array at `[M, K]` listed (row, column) pairs — both operand axes
    inserted and named by the scatter map in order, no window axes, the pair on the last axis of the indices —:
    update `(m, k)` starts at row `idx[m, k, 0]` and column `idx[m, k, 1]`, read signed, and has no window
    coordinate. -/
theorem ScatterDims.start_window_point2 {R C M K w : Nat}
    (d : ScatterDims ⟨2, ![R, C]⟩ ⟨3, ![M, K, 2]⟩ ⟨2, ![M, K]⟩)
    (huw : d.updateWindowDims = []) (hiw : d.insertedWindowDims = [0, 1])
    (hsd : d.scatterDimsToOperandDims = [0, 1]) (hivd : d.indexVectorDim = 2)
    (idx : IVec ⟨3, ![M, K, 2]⟩ w) (j : (⟨2, ![M, K]⟩ : Shape).Idx) :
    d.start j idx 0 = (idx (ix3 (j 0) (j 1) 0)).toInt ∧ d.start j idx 1 = (idx (ix3 (j 0) (j 1) 1)).toInt ∧
    d.window j 0 = 0 ∧ d.window j 1 = 0 := by
  obtain ⟨uw, iw, sd, iv, wf⟩ := d
  simp only at huw hiw hsd hivd
  subst huw hiw hsd hivd
  refine ⟨?_, ?_, ?_, ?_⟩
  · unfold ScatterDims.start
    rw [dif_pos (by simp)]
    congr 2
    funext b
    refine Fin.ext ?_
    match b with
    | ⟨0, _⟩ => rfl
    | ⟨1, _⟩ => rfl
    | ⟨2, _⟩ => rfl
  · unfold ScatterDims.start
    rw [dif_pos (by simp)]
    congr 2
    funext b
    refine Fin.ext ?_
    match b with
    | ⟨0, _⟩ => rfl
    | ⟨1, _⟩ => rfl
    | ⟨2, _⟩ => rfl
  · unfold ScatterDims.window
    rw [dif_neg (by simp [ScatterDims.sKept, Shape.kept])]
  · unfold ScatterDims.window
    rw [dif_neg (by simp [ScatterDims.sKept, Shape.kept])]

/-- Such a point scatter's update `(m, k)` lands on element `i` when its listed row and column, read signed, are
    `i`'s coordinates. -/
theorem ScatterDims.resultIdx?_point2 {R C M K w : Nat}
    (d : ScatterDims ⟨2, ![R, C]⟩ ⟨3, ![M, K, 2]⟩ ⟨2, ![M, K]⟩)
    (huw : d.updateWindowDims = []) (hiw : d.insertedWindowDims = [0, 1])
    (hsd : d.scatterDimsToOperandDims = [0, 1]) (hivd : d.indexVectorDim = 2)
    (idx : IVec ⟨3, ![M, K, 2]⟩ w) (j : (⟨2, ![M, K]⟩ : Shape).Idx) (i : (⟨2, ![R, C]⟩ : Shape).Idx)
    (h0 : (idx (ix3 (j 0) (j 1) 0)).toInt = ((i 0).val : Int))
    (h1 : (idx (ix3 (j 0) (j 1) 1)).toInt = ((i 1).val : Int)) :
    d.resultIdx? j idx = some i := by
  obtain ⟨s0, s1, w0, w1⟩ := d.start_window_point2 huw hiw hsd hivd idx j
  have hb : ∀ a, 0 ≤ d.start j idx a + d.window j a ∧ d.start j idx a + d.window j a < (⟨2, ![R, C]⟩ : Shape).size a := by
    intro a
    match a with
    | ⟨0, _⟩ =>
      show 0 ≤ d.start j idx 0 + d.window j 0 ∧ d.start j idx 0 + d.window j 0 < ((R : ℕ) : Int)
      rw [s0, w0, h0]; have := (i 0).isLt; simp at this ⊢; omega
    | ⟨1, _⟩ =>
      show 0 ≤ d.start j idx 1 + d.window j 1 ∧ d.start j idx 1 + d.window j 1 < ((C : ℕ) : Int)
      rw [s1, w1, h1]; have := (i 1).isLt; simp at this ⊢; omega
  unfold ScatterDims.resultIdx?
  rw [dif_pos hb]
  congr 1
  funext a
  refine Fin.ext ?_
  match a with
  | ⟨0, _⟩ =>
    show (d.start j idx 0 + d.window j 0).toNat = (i 0).val
    rw [s0, w0, h0]; simp
  | ⟨1, _⟩ =>
    show (d.start j idx 1 + d.window j 1).toNat = (i 1).val
    rw [s1, w1, h1]; simp

/-- A 32-bit word that reads, signed, as a number in `[0, N)` with `N` below `2³¹` is that number unsigned. -/
theorem toNat_of_toInt_range (v : BitVec 32) (N : Nat) (h0 : 0 ≤ v.toInt) (h1 : v.toInt < (N : Int)) :
    v.toNat < N ∧ v.toInt = (v.toNat : Int) := by
  have hlt := v.isLt
  rw [BitVec.toInt_eq_toNat_cond] at h0 h1 ⊢
  split at h0 <;> split <;> omega

end Idealize.ShloMosaic

namespace Cert.GatherScatter

open Idealize.ShloMosaic Idealize.ShloMosaic.ValueIdx

/-- The gather's dimension numbers: elements of the `[2048, 30522]` array at `[2048, 128]` listed (row, column) pairs. -/
abbrev dG : GatherDims ⟨2, ![2048, 30522]⟩ ⟨3, ![2048, 128, 2]⟩ ⟨2, ![2048, 128]⟩ :=
  Cert.KernelIdeal.gather_S2048x30522_S2048x128x2_S2048x128_n_01_n_n_01_2_11

/-- The scatter-add's dimension numbers: updates `[2048, 128]` into the `[2048, 30522]` array at the same listed pairs. -/
abbrev dS : ScatterDims ⟨2, ![2048, 30522]⟩ ⟨3, ![2048, 128, 2]⟩ ⟨2, ![2048, 128]⟩ :=
  Cert.ReferenceIdeal.scatter_S2048x30522_S2048x128x2_S2048x128_n_01_01_2

/-- THE DUALITY. At a position whose listed row is its own row `n` and whose listed column is a column of the array,
    the scatter-add lands the update on exactly the element the gather reads, and that element is
    (row `n`, the listed column). -/
theorem result_eq_operand (IDX : IVec ⟨3, ![2048, 128, 2]⟩ 32) (n : Fin 2048) (j : Fin 128)
    (hr : IDX (ix3 n j 0) = BitVec.ofNat 32 n.val)
    (hc : 0 ≤ (IDX (ix3 n j 1)).toInt ∧ (IDX (ix3 n j 1)).toInt < 30522) :
    dS.resultIdx? (ix2 n j) IDX = some (dG.operandIdx (ix2 n j) IDX) ∧
    dG.operandIdx (ix2 n j) IDX =
      ix2 n ⟨(IDX (ix3 n j 1)).toNat, (toNat_of_toInt_range _ 30522 hc.1 (by exact_mod_cast hc.2)).1⟩ := by
  obtain ⟨hlt, hci⟩ := toNat_of_toInt_range _ 30522 hc.1 (by exact_mod_cast hc.2)
  have hri : (IDX (ix3 n j 0)).toInt = (n.val : Int) := by
    rw [hr, BitVec.toInt_eq_toNat_cond, BitVec.toNat_ofNat]
    have := n.isLt
    split <;> omega
  obtain ⟨g0, g1⟩ := GatherDims.operandIdx_point2 dG rfl rfl rfl rfl rfl IDX (ix2 n j)
  have g0' : (dG.operandIdx (ix2 n j) IDX 0).val = n.val := by
    rw [g0]
    show min (IDX (ix3 n j 0)).toInt.toNat (2048 - 1) = n.val
    rw [hri]; have := n.isLt; simp; omega
  have g1' : (dG.operandIdx (ix2 n j) IDX 1).val = (IDX (ix3 n j 1)).toNat := by
    rw [g1]
    show min (IDX (ix3 n j 1)).toInt.toNat (30522 - 1) = (IDX (ix3 n j 1)).toNat
    rw [hci]; simp; omega
  have hop : dG.operandIdx (ix2 n j) IDX = ix2 n ⟨(IDX (ix3 n j 1)).toNat, hlt⟩ := by
    funext a
    refine Fin.ext ?_
    match a with
    | ⟨0, _⟩ => exact g0'
    | ⟨1, _⟩ => exact g1'
  refine ⟨?_, hop⟩
  refine ScatterDims.resultIdx?_point2 dS rfl rfl rfl rfl IDX (ix2 n j) _ ?_ ?_
  · show (IDX (ix3 n j 0)).toInt = ((dG.operandIdx (ix2 n j) IDX 0).val : Int)
    rw [g0', hri]
  · show (IDX (ix3 n j 1)).toInt = ((dG.operandIdx (ix2 n j) IDX 1).val : Int)
    rw [g1', hci]

/-- THE SUM, for any multiplier. With every position's listed row its own row and its listed column a column of the
    array, reading a non-negative finite array `F` at the listed pairs and summing against the weights equals summing
    `F` against the weights scatter-added into zeros at the listed pairs. -/
theorem sum_gather_mul (F : (⟨2, ![2048, 30522]⟩ : Shape).Idx → EReal) (hF : ∀ i, 0 ≤ F i ∧ F i ≠ ⊤)
    (nwf : (⟨2, ![2048, 128]⟩ : Shape).Idx → EReal) (IDX : IVec ⟨3, ![2048, 128, 2]⟩ 32)
    (hr : ∀ (n : Fin 2048) (j : Fin 128), IDX (ix3 n j 0) = BitVec.ofNat 32 n.val)
    (hc : ∀ (n : Fin 2048) (j : Fin 128), 0 ≤ (IDX (ix3 n j 1)).toInt ∧ (IDX (ix3 n j 1)).toInt < 30522) :
    ∑ p : (⟨2, ![2048, 128]⟩ : Shape).Idx, Host.gather dG F IDX p * nwf p =
      ∑ i : (⟨2, ![2048, 30522]⟩ : Shape).Idx, F i * Ideal.hostScatterAdd dS (fun _ => 0) IDX nwf i := by
  rw [sum_mul_hostScatterAdd dS IDX F nwf hF]
  refine Finset.sum_congr rfl fun p _ => ?_
  obtain ⟨n, j, rfl⟩ : ∃ (n : Fin 2048) (j : Fin 128), p = ix2 n j := ⟨p 0, p 1, eq_ix2 p⟩
  rw [(result_eq_operand IDX n j (hr n j) (hc n j)).1]
  rfl

/-- THE SUM, for a pointwise function of (element minus its row's offset). `g` need only be non-negative and finite
    at the arguments that occur. -/
theorem sum_gather_eq_sum_scatterAdd (x : (⟨2, ![2048, 30522]⟩ : Shape).Idx → EReal) (lse : Fin 2048 → EReal)
    (g : EReal → EReal)
    (hg : ∀ i : (⟨2, ![2048, 30522]⟩ : Shape).Idx, 0 ≤ g (x i - lse (i 0)) ∧ g (x i - lse (i 0)) ≠ ⊤)
    (nwf : (⟨2, ![2048, 128]⟩ : Shape).Idx → EReal) (IDX : IVec ⟨3, ![2048, 128, 2]⟩ 32)
    (hr : ∀ (n : Fin 2048) (j : Fin 128), IDX (ix3 n j 0) = BitVec.ofNat 32 n.val)
    (hc : ∀ (n : Fin 2048) (j : Fin 128), 0 ≤ (IDX (ix3 n j 1)).toInt ∧ (IDX (ix3 n j 1)).toInt < 30522) :
    ∑ p : (⟨2, ![2048, 128]⟩ : Shape).Idx, g (Host.gather dG x IDX p - lse (p 0)) * nwf p =
      ∑ i : (⟨2, ![2048, 30522]⟩ : Shape).Idx,
        g (x i - lse (i 0)) * Ideal.hostScatterAdd dS (fun _ => 0) IDX nwf i := by
  rw [← sum_gather_mul (fun i => g (x i - lse (i 0))) hg nwf IDX hr hc]
  refine Finset.sum_congr rfl fun p _ => ?_
  obtain ⟨n, j, rfl⟩ : ∃ (n : Fin 2048) (j : Fin 128), p = ix2 n j := ⟨p 0, p 1, eq_ix2 p⟩
  show g (x (dG.operandIdx (ix2 n j) IDX) - lse n) * _ =
    g (x (dG.operandIdx (ix2 n j) IDX) - lse ((dG.operandIdx (ix2 n j) IDX) 0)) * _
  rw [(result_eq_operand IDX n j (hr n j) (hc n j)).2]

end Cert.GatherScatter
-- ==== Proof.UlBridge.lean ====
import proofs.«425233_j52278341926994_2_alg».proof.Proof.KernelTail
import proofs.«425233_j52278341926994_2_alg».proof.Proof.RefTail
import proofs.«425233_j52278341926994_2_alg».proof.Proof.RefRead
import proofs.«425233_j52278341926994_2_alg».proof.Proof.GatherScatter
import proofs.«425233_j52278341926994_2_alg».proof.Proof.LossAlgebra
import proofs.«425233_j52278341926994_2_alg».proof.Proof.KernelArrays
import Idealize.ShloMosaic.Lib.Pipeline.Value
import Idealize.ShloMosaic.Lib.IdealHost

/-!
# The two unlikelihood terms are one extended real

One side gathers the logits at the (row, candidate column) pairs, subtracts the row's log-sum-exp, takes the
penalty `-log (max (1 - exp ·) ε)`, weights it and sums over the pairs. The other takes the penalty of the
log-softmax at every (row, column), multiplies by the candidates' weights scatter-added into a zero array at the
same pairs, and sums over everything. On real logits the log-softmax at an element is the element less its row's
log-sum-exp, the penalty there is a non-negative real, and the exchange of a gather-then-sum with a
scatter-add-then-sum makes the two sums equal; both are then divided by the number of rows.

First the index pairs the program builds from the candidates: component 0 is the row number, component 1 the
candidate, both unchanged by the wrap of negative words since neither is negative.
-/

noncomputable section

namespace Cert.UlBridge

open Idealize.ShloMosaic Idealize.ShloMosaic.ValueIdx
open scoped BigOperators

/-! ## The index pairs -/

/-- A word that reads non-negative as a signed integer is not below zero. -/
theorem cmpi_slt_zero_of_nonneg (x : BitVec 32) (h : 0 ≤ x.toInt) : IntOp.cmpi .slt x 0#32 = 0#1 := by
  have hz : (0#32 : BitVec 32).toInt = 0 := by decide
  have hs : x.slt 0#32 = false := by
    simp only [BitVec.slt, hz]; exact decide_eq_false (not_lt.2 h)
  show BitVec.ofBool (x.slt 0#32) = 0#1
  rw [hs]; rfl

/-- An array with a unit last axis appended reads, at `(n, j, 0)`, the array at `(n, j)`. -/
theorem bcast_unit_last {α : Type} (v : Cert.KernelIdeal.S2048x128.Idx → α) (n : Fin 2048) (j : Fin 128) :
    broadcastInDim Cert.KernelIdeal.S2048x128x1 ![0, 1] Cert.KernelIdeal.Gen.bcast_S2048x128_S2048x128x1_0_1 v
      (ix3 n j (0 : Fin 1)) = v (ix2 n j) := by
  unfold broadcastInDim
  congr 1
  funext a
  match a with
  | ⟨0, _⟩ => rfl
  | ⟨1, _⟩ => rfl

/-- Component 0 of pair `(n, j)` is the row number `n`. -/
theorem idxOf_row (cand : IVec Cert.KernelIdeal.S2048x128 32) (n : Fin 2048) (j : Fin 128) :
    Cert.KernelIdeal.Tail.idxOf cand (ix3 n j 0) = BitVec.ofNat 32 n.val := by
  unfold Cert.KernelIdeal.Tail.idxOf
  rw [concatenate_pair_apply_left 2 _ _ Cert.KernelIdeal.Gen.concatenates_S2048x128x1_S2048x128x1_S2048x128x2_d2
    (ix3 n j (0 : Fin 2)) rfl (ix3 n j (0 : Fin 1))
    (fun b => by match b with | ⟨0, _⟩ => rfl | ⟨1, _⟩ => rfl | ⟨2, _⟩ => rfl)]
  show Scalar.select (IntOp.cmpi .slt (BitVec.ofNat 32 n.val) 0#32) (IntOp.addi (BitVec.ofNat 32 n.val) 2048#32)
    (BitVec.ofNat 32 n.val) = _
  have hn : (BitVec.ofNat 32 n.val).toInt = (n.val : Int) := by
    rw [BitVec.toInt_eq_toNat_cond, BitVec.toNat_ofNat]
    have := n.isLt
    split <;> omega
  rw [cmpi_slt_zero_of_nonneg _ (by rw [hn]; omega), select_zero]

/-- Component 1 of pair `(n, j)` is the candidate at `(n, j)`, when that word is not negative. -/
theorem idxOf_col (cand : IVec Cert.KernelIdeal.S2048x128 32) (n : Fin 2048) (j : Fin 128)
    (h : 0 ≤ (cand (ix2 n j)).toInt) :
    Cert.KernelIdeal.Tail.idxOf cand (ix3 n j 1) = cand (ix2 n j) := by
  unfold Cert.KernelIdeal.Tail.idxOf
  rw [concatenate_pair_apply_right 2 _ _ Cert.KernelIdeal.Gen.concatenates_S2048x128x1_S2048x128x1_S2048x128x2_d2
    (ix3 n j (1 : Fin 2)) rfl rfl (ix3 n j (0 : Fin 1))
    (fun b hb => by match b with | ⟨0, _⟩ => rfl | ⟨1, _⟩ => rfl | ⟨2, _⟩ => exact absurd rfl hb) rfl]
  unfold Cert.KernelIdeal.Tail.colPart
  rw [bcast_unit_last]
  show Scalar.select (IntOp.cmpi .slt (cand (ix2 n j)) 0#32) (IntOp.addi (cand (ix2 n j)) 30522#32) (cand (ix2 n j)) = _
  rw [cmpi_slt_zero_of_nonneg _ h, select_zero]

/-- The index pairs built from in-range candidates: every pair's row is its own row, its column a column of the
    logits. -/
theorem idx_facts (cand : IVec Cert.KernelIdeal.S2048x128 32)
    (hcand : ∀ p, 0 ≤ (cand p).toInt ∧ (cand p).toInt < 30522) :
    (∀ (n : Fin 2048) (j : Fin 128), Cert.KernelIdeal.Tail.idxOf cand (ix3 n j 0) = BitVec.ofNat 32 n.val) ∧
    (∀ (n : Fin 2048) (j : Fin 128),
      0 ≤ (Cert.KernelIdeal.Tail.idxOf cand (ix3 n j 1)).toInt ∧
        (Cert.KernelIdeal.Tail.idxOf cand (ix3 n j 1)).toInt < 30522) :=
  ⟨fun n j => idxOf_row cand n j, fun n j => by rw [idxOf_col cand n j (hcand _).1]; exact hcand _⟩

/-! ## The summands -/

/-- The penalty of a log-probability `y`: minus the logarithm of one minus its exponential, floored. -/
def pen (y : EReal) : EReal :=
  -(Ideal.log (max (Ideal.ofBits .f32 0x3F800000#32 - Ideal.exp y) (Ideal.ofBits .f32 0x3727C5AC#32)))

/-- The log-sum-exp of row `n`: its maximum plus the logarithm of its shifted sum of exponentials. -/
def lseRow (x : (⟨2, ![2048, 30522]⟩ : Shape).Idx → EReal) (n : Fin 2048) : EReal :=
  Cert.KernelIdeal.Arr.rowMax x n + Ideal.log (Cert.KernelIdeal.Arr.rowSumExp x n)

/-- The two spellings of the index (row, column) are one function. -/
theorem ix2_eq_ij {n m : Nat} (p : Fin n) (q : Fin m) : ix2 p q = StableHlo.Predicate.ij p q := by
  funext a; match a with | ⟨0, _⟩ => rfl | ⟨1, _⟩ => rfl

/-- The penalty is a non-negative real at every real argument. -/
theorem pen_nonneg_finite (y : EReal) (hy : ∃ r : ℝ, y = (r : EReal)) : 0 ≤ pen y ∧ pen y ≠ ⊤ := by
  obtain ⟨r, rfl⟩ := hy
  exact Cert.LossAlgebra.penalty_nonneg_finite r

/-- A one-column array spread over 128 columns reads, at `p`, the column's row `p 0`. -/
theorem bcast_col_128 {α : Type} (v : Cert.KernelIdeal.S2048x1.Idx → α) (p : Cert.KernelIdeal.S2048x128.Idx) :
    broadcastInDim Cert.KernelIdeal.S2048x128 ![0, 1] Cert.KernelIdeal.Gen.bcast_S2048x1_S2048x128_0_1 v p
      = v (ix2 (p 0) (0 : Fin 1)) := by
  unfold broadcastInDim
  congr 1
  funext a
  match a with
  | ⟨0, _⟩ => rfl
  | ⟨1, _⟩ => rfl

/-- The gathered side's summand at a pair: the penalty of the gathered logit less the row's entry of the
    log-sum-exp column, times the pair's weight. -/
theorem kernel_summand (x : FVec Ideal Cert.KernelIdeal.S2048x30522 .f32) (IDX : IVec Cert.KernelIdeal.S2048x128x2 32)
    (lseA : FVec Ideal Cert.KernelIdeal.S2048x1 .f32) (nwf : FVec Ideal Cert.KernelIdeal.S2048x128 .f32)
    (p : Cert.KernelIdeal.S2048x128.Idx) :
    (mulf
        (Host.negf (Host.log (maximumf
          (subf (broadcastInDim Cert.KernelIdeal.S2048x128 ![] Cert.KernelIdeal.Gen.bcast_S_S2048x128 (constant Cert.KernelIdeal.S_ .f32 0x3F800000#32))
            (Host.exp (subf (Host.gather Cert.KernelIdeal.gather_S2048x30522_S2048x128x2_S2048x128_n_01_n_n_01_2_11 x IDX)
              (broadcastInDim Cert.KernelIdeal.S2048x128 ![0, 1] Cert.KernelIdeal.Gen.bcast_S2048x1_S2048x128_0_1 lseA))))
          (broadcastInDim Cert.KernelIdeal.S2048x128 ![] Cert.KernelIdeal.Gen.bcast_S_S2048x128 (constant Cert.KernelIdeal.S_ .f32 0x3727C5AC#32)))))
        nwf) p
      = pen (Host.gather Cert.GatherScatter.dG x IDX p - lseA (ix2 (p 0) (0 : Fin 1))) * nwf p := by
  have hb := bcast_col_128 lseA p
  show pen (Host.gather Cert.GatherScatter.dG x IDX p
      - broadcastInDim Cert.KernelIdeal.S2048x128 ![0, 1] Cert.KernelIdeal.Gen.bcast_S2048x1_S2048x128_0_1 lseA p) * nwf p = _
  rw [hb]

/-- The log-softmax at an element of a real array: the element less its row's log-sum-exp. -/
theorem lsm_eq (x : FVec Ideal Cert.KernelIdeal.S2048x30522 .f32) (hx : ∀ i, ∃ r : ℝ, x i = (r : EReal))
    (i : Cert.KernelIdeal.S2048x30522.Idx) :
    Cert.ReferenceIdeal.Read.lsm x i = x i - lseRow x (i 0) := by
  obtain ⟨n, c, rfl⟩ : ∃ (n : Fin 2048) (c : Fin 30522), i = ix2 n c := ⟨i 0, i 1, eq_ix2 i⟩
  have h := Cert.ReferenceIdeal.Read.logsoftmax_apply x n c
  rw [← ix2_eq_ij] at h
  rw [h]
  have hrow : ∀ c' : Fin 30522, ∃ r : ℝ, (fun c' => x (ix2 n c')) c' = (r : EReal) := fun c' => hx _
  have e := Cert.LossAlgebra.logp_eq (n := 30522) (by norm_num) (fun c' => x (ix2 n c')) hrow c
  have hM : Cert.ReferenceIdeal.Read.rowMax x n = Cert.LossAlgebra.rowMax (fun c' => x (ix2 n c')) := by
    unfold Cert.ReferenceIdeal.Read.rowMax Cert.LossAlgebra.rowMax
    congr 1
  have hS : (∑ c' : Fin 30522, Ideal.exp (x (StableHlo.Predicate.ij n c') - Cert.ReferenceIdeal.Read.rowMax x n))
      = Cert.LossAlgebra.S (fun c' => x (ix2 n c')) := by
    unfold Cert.LossAlgebra.S
    rw [hM]
    refine Finset.sum_congr rfl fun c' _ => ?_
    rw [← ix2_eq_ij]
  rw [hS, hM]
  exact e

/-! ## The bridge -/

/-- THE TWO UNLIKELIHOOD TERMS ARE EQUAL, on real logits, for index pairs whose row is their own row and whose column
    is a column of the logits, a log-sum-exp column that holds each row's maximum plus the logarithm of its shifted
    sum of exponentials, and a zero array to scatter-add into. -/
theorem ul_bridge (x : FVec Ideal Cert.KernelIdeal.S2048x30522 .f32) (hx : ∀ i, ∃ r : ℝ, x i = (r : EReal))
    (IDX : IVec Cert.KernelIdeal.S2048x128x2 32)
    (hr : ∀ (n : Fin 2048) (j : Fin 128), IDX (ix3 n j 0) = BitVec.ofNat 32 n.val)
    (hc : ∀ (n : Fin 2048) (j : Fin 128), 0 ≤ (IDX (ix3 n j 1)).toInt ∧ (IDX (ix3 n j 1)).toInt < 30522)
    (lseA : FVec Ideal Cert.KernelIdeal.S2048x1 .f32)
    (hlse : ∀ n : Fin 2048, lseA (ix2 n (0 : Fin 1))
      = Cert.KernelIdeal.Arr.rowMax x n + Ideal.log (Cert.KernelIdeal.Arr.rowSumExp x n))
    (nwf : FVec Ideal Cert.KernelIdeal.S2048x128 .f32)
    (z : FVec Ideal Cert.ReferenceIdeal.S2048x30522 .f32) (hz : ∀ i, z i = 0) :
    Cert.KernelIdeal.Tail.ulK (F := Ideal) x IDX lseA nwf
      = Cert.ReferenceIdeal.Tail.ulR (Cert.ReferenceIdeal.Read.lsm x) (Cert.ReferenceIdeal.Tail.saR z IDX nwf) := by
  obtain rfl : z = fun _ => 0 := funext hz
  funext i0
  unfold Cert.KernelIdeal.Tail.ulK Cert.ReferenceIdeal.Tail.ulR
  rw [hostDivf_apply, hostDivf_apply, hostReduceAdd_apply, hostReduceAdd_apply,
    Ideal.hostReduceAdd_total _ (fun b => b.elim0), Ideal.hostReduceAdd_total _ (fun b => b.elim0)]
  refine congrArg₂ Ideal.div (congrArg₂ (· + ·) rfl ?_) rfl
  have hg : ∀ i : (⟨2, ![2048, 30522]⟩ : Shape).Idx,
      0 ≤ pen (x i - lseRow x (i 0)) ∧ pen (x i - lseRow x (i 0)) ≠ ⊤ := by
    intro i
    refine pen_nonneg_finite _ ?_
    have hrow : ∀ c' : Fin 30522, ∃ r : ℝ, (fun c' => x (ix2 (i 0) c')) c' = (r : EReal) := fun c' => hx _
    have := Cert.LossAlgebra.sub_lse_real (n := 30522) (by norm_num) (fun c' => x (ix2 (i 0) c')) hrow (i 1)
    rw [eq_ix2 i]
    exact this
  have hK : ∀ p : Cert.KernelIdeal.S2048x128.Idx,
      _ = pen (Host.gather Cert.GatherScatter.dG x IDX p - lseRow x (p 0)) * nwf p :=
    fun p => (kernel_summand x IDX lseA nwf p).trans
      (congrArg (fun t => pen (Host.gather Cert.GatherScatter.dG x IDX p - t) * nwf p) (hlse (p 0)))
  rw [Finset.sum_congr rfl fun p _ => hK p]
  rw [Cert.GatherScatter.sum_gather_eq_sum_scatterAdd x (lseRow x) pen hg nwf IDX hr hc]
  refine Finset.sum_congr rfl fun i _ => ?_
  rw [← lsm_eq x hx i]
  rfl

end Cert.UlBridge
-- ==== Proof.CandRange.lean ====
/-
  Every candidate column the program builds before the region lies in [0, 30522).

  Before the region the program masks the token ids (`att = ids` where the attention mask is positive, `0` elsewhere),
  gathers for each of the 2048 positions the mask row `a` and the masked-id row `att` of its sequence (the two gathers
  use equal row indices), and forms the candidate at `(position, k)` as the integer part of

      if u then f(att) · r else f(att) · (a − e)

  with `f` the conversion of the id to a float, `e`, `r` bits read as `0` or `1` and `u` a bit. Where the mask is `0`
  the masked id is `0` and so is the product; where it is `1` the product is the id or `0`. An id in `[0, 30522)` is its
  own integer part, so every candidate is an id or `0`.

  First the scalar statement (`cand_scalar`), then the program's lines cut into three stretches, the lines that matter read
  as equations between the buffers after the last stretch (`e90` … `e27`), and the statement (`cand_range`).
-/
import proofs.«425233_j52278341926994_2_alg».proof.Proof.Gen.KernelIdeal.Frame
import Idealize.ShloMosaic.Lib.StableHlo.Run
import Idealize.ShloMosaic.PureOps.Ideal.Laws

set_option maxRecDepth 16384

noncomputable section

namespace Cert.KernelIdeal.CandRange

open Idealize.ShloMosaic Idealize.ShloMosaic.TcCoe Idealize.ShloMosaic.StableHlo Cert.KernelIdeal Cert.KernelIdeal.Gen

/-! ## The scalar statement -/

/-- The 32-bit integer part of an integer in `[0, 30522)`, read as a real, is that integer. -/
theorem fptosi_int (z : ℤ) (h0 : 0 ≤ z) (h1 : z < 30522) : (Ideal.fptosi 32 ((z : ℝ) : EReal)).toInt = z := by
  unfold Ideal.fptosi
  rw [Ideal.toIntClamped_coe, if_pos (by exact_mod_cast h0), Int.floor_intCast, BitVec.toInt_ofInt]
  have e : max (-((2 ^ (32 - 1) : ℕ) : ℤ)) (min (((2 ^ (32 - 1) : ℕ) : ℤ) - 1) z) = z := by
    norm_num
    omega
  rw [e]
  simp only [Int.bmod_def]
  omega

/-- For a mask value `0` or `1` and an id in `[0, 30522)`: with `att` the id where the mask is positive and `0` elsewhere,
    the integer part of `att · r` or of `att · (mask − e)`, whichever the bit `u` selects, is in `[0, 30522)` (`e`, `r` bits). -/
theorem cand_scalar (mk : EReal) (id : BitVec 32) (u e r : BitVec 1)
    (hmk : mk = 0 ∨ mk = 1) (hid : 0 ≤ id.toInt ∧ id.toInt < 30522) :
    0 ≤ (Ideal.fptosi 32 (Scalar.select u
        ((((Scalar.select (Ideal.cmp .ogt mk (Ideal.ofBits .f32 0x00000000#32)) id 0#32).toInt : ℝ) : EReal) * ((r.toNat : ℝ) : EReal))
        ((((Scalar.select (Ideal.cmp .ogt mk (Ideal.ofBits .f32 0x00000000#32)) id 0#32).toInt : ℝ) : EReal) * (mk - ((e.toNat : ℝ) : EReal))))).toInt
    ∧ (Ideal.fptosi 32 (Scalar.select u
        ((((Scalar.select (Ideal.cmp .ogt mk (Ideal.ofBits .f32 0x00000000#32)) id 0#32).toInt : ℝ) : EReal) * ((r.toNat : ℝ) : EReal))
        ((((Scalar.select (Ideal.cmp .ogt mk (Ideal.ofBits .f32 0x00000000#32)) id 0#32).toInt : ℝ) : EReal) * (mk - ((e.toNat : ℝ) : EReal))))).toInt < 30522 := by
  have hz : (Ideal.fptosi 32 (0 : EReal)).toInt = 0 := by
    have := fptosi_int 0 (le_refl _) (by norm_num)
    simpa using this
  have hi : (Ideal.fptosi 32 ((id.toInt : ℝ) : EReal)).toInt = id.toInt := fptosi_int _ hid.1 hid.2
  rw [Ideal.ofBits_zero_f32]
  rcases hmk with rfl | rfl
  · have hc : Ideal.cmp .ogt (0 : EReal) 0 = 0#1 := by simp [Ideal.cmp]
    rw [hc]
    have hs : Scalar.select 0#1 id 0#32 = 0#32 := if_neg (by decide)
    rw [hs]
    have h0 : (((0#32 : BitVec 32).toInt : ℝ) : EReal) = 0 := by simp
    rw [h0, zero_mul, zero_mul]
    have hu : Scalar.select u (0 : EReal) 0 = 0 := by unfold Scalar.select; split <;> rfl
    rw [hu, hz]
    omega
  · have hc : Ideal.cmp .ogt (1 : EReal) 0 = 1#1 := by simp [Ideal.cmp]
    rw [hc]
    have hs : Scalar.select 1#1 id 0#32 = id := if_pos rfl
    rw [hs]
    have hr : ((id.toInt : ℝ) : EReal) * ((r.toNat : ℝ) : EReal) = 0 ∨ ((id.toInt : ℝ) : EReal) * ((r.toNat : ℝ) : EReal) = ((id.toInt : ℝ) : EReal) := by
      rcases BitVec.eq_zero_or_eq_one r with h | h <;> subst h
      · left; simp
      · right; simp
    have he : ((id.toInt : ℝ) : EReal) * ((1 : EReal) - ((e.toNat : ℝ) : EReal)) = 0 ∨ ((id.toInt : ℝ) : EReal) * ((1 : EReal) - ((e.toNat : ℝ) : EReal)) = ((id.toInt : ℝ) : EReal) := by
      rcases BitVec.eq_zero_or_eq_one e with h | h <;> subst h
      · right; simp
      · left
        have : ((1 : EReal) - (((1#1 : BitVec 1).toNat : ℝ) : EReal)) = 0 := by
          have : (((1#1 : BitVec 1).toNat : ℝ) : EReal) = ((1 : ℝ) : EReal) := by simp
          rw [this, ← EReal.coe_one, ← EReal.coe_sub, sub_self, EReal.coe_zero]
        rw [this, mul_zero]
    have hsel : Scalar.select u (((id.toInt : ℝ) : EReal) * ((r.toNat : ℝ) : EReal)) (((id.toInt : ℝ) : EReal) * ((1 : EReal) - ((e.toNat : ℝ) : EReal))) = 0
        ∨ Scalar.select u (((id.toInt : ℝ) : EReal) * ((r.toNat : ℝ) : EReal)) (((id.toInt : ℝ) : EReal) * ((1 : EReal) - ((e.toNat : ℝ) : EReal))) = ((id.toInt : ℝ) : EReal) := by
      unfold Scalar.select
      split
      · exact hr
      · exact he
    rcases hsel with h | h <;> rw [h]
    · rw [hz]; omega
    · rw [hi]; exact hid

/-! ## The host lines before the region, in three stretches -/

/-- The masking of the ids. -/
abbrev P01 : List (HloOp τ sig (Elt Ideal)) := hostOps0 ++ hostOps0_1
/-- The positions' rows and columns (counting, prefix sums, quotients and remainders). -/
abbrev Pre : List (HloOp τ sig (Elt Ideal)) := hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15)))))))))))))
/-- The gathers, the weights and the candidates. -/
abbrev Lmid : List (HloOp τ sig (Elt Ideal)) := hostOps0_16 ++ (hostOps0_17 ++ (hostOps0_18 ++ (hostOps0_19 ++ (hostOps0_20 ++ (hostOps0_21)))))

/-- The lines before the region are the three stretches in order. -/
theorem full_eq : List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt Ideal)))) = P01 ++ (Pre ++ Lmid) := by
  simp only [P01, Pre, Lmid, List.flatten_cons, List.flatten_nil, List.append_nil, List.append_assoc]

/-- The contents after two stretches are the second's after the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

variable (m : (ℓ : Loc nD τ sig) → Buf (Elt Ideal) ℓ)

/-- A buffer as the region finds it, through the three stretches. -/
theorem V_eq (c : Dev nD) (b : Ref sig .tc) :
    V m c b = after Lmid (after Pre (after P01 (fun b => m (c, b)))) (Proc.devRef .tc b) := by
  show after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt Ideal))))) (fun b => m (c, b)) (Proc.devRef .tc b) = _
  rw [full_eq, after_append, after_append]

variable (W : Valuation τ sig (Elt Ideal))

set_option maxHeartbeats 4000000 in
/-- The masked ids: the id where the mask is positive, `0` elsewhere. -/
theorem p01_v2 : after P01 W (Proc.devRef .tc main_v2)
    = select (cmpf .ogt (W (Proc.devRef .tc main_arg3) : FVec Ideal S64x128 .f32) (broadcastInDim S64x128 ![] bcast_S_S64x128 (constant (F := Ideal) S_ .f32 0x00000000#32)))
        (W (Proc.devRef .tc main_arg2) : IVec S64x128 32) (broadcastInDim S64x128 ![] bcast_S_S64x128 (constantI S_ 32 0#32)) := by
  simp only [P01, hostOps0, hostOps0_1, List.cons_append, List.nil_append]
  after_results_simp
  first | rfl | skip

set_option maxHeartbeats 4000000 in
/-- The masking leaves the mask. -/
theorem p01_arg3 : after P01 W (Proc.devRef .tc main_arg3) = W (Proc.devRef .tc main_arg3) := by
  simp only [P01, hostOps0, hostOps0_1, List.cons_append, List.nil_append]
  after_results_simp

set_option maxHeartbeats 40000000 in
/-- None of the lines between the masking and the gathers writes the masked ids. -/
theorem pre_v2 : after Pre W (Proc.devRef .tc main_v2) = W (Proc.devRef .tc main_v2) :=
  StableHlo.after_of_forall_not_mem (b := Proc.devRef .tc main_v2) _ _ (List.forall_iff_forall_mem.mp (by
    simp only [Pre, hostOps0_2, hostOps0_3, hostOps0_4, hostOps0_5, hostOps0_6, hostOps0_7, hostOps0_8, hostOps0_9, hostOps0_10, hostOps0_11, hostOps0_12, hostOps0_13, hostOps0_14, hostOps0_15, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- … nor the mask. -/
theorem pre_arg3 : after Pre W (Proc.devRef .tc main_arg3) = W (Proc.devRef .tc main_arg3) :=
  StableHlo.after_of_forall_not_mem (b := Proc.devRef .tc main_arg3) _ _ (List.forall_iff_forall_mem.mp (by
    simp only [Pre, hostOps0_2, hostOps0_3, hostOps0_4, hostOps0_5, hostOps0_6, hostOps0_7, hostOps0_8, hostOps0_9, hostOps0_10, hostOps0_11, hostOps0_12, hostOps0_13, hostOps0_14, hostOps0_15, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The lines of the last stretch that matter, each as an equation between the buffers after the stretch. -/

set_option maxHeartbeats 40000000 in
/-- The candidates are the integer parts of the selected products. -/
theorem e90 : after Lmid W (Proc.devRef .tc main_v90) = fptosi (F := Ideal) (s := S2048x128) (φ := .f32) 32 (after Lmid W (Proc.devRef .tc main_v89)) := by
  simp only [Lmid, hostOps0_16, hostOps0_17, hostOps0_18, hostOps0_19, hostOps0_20, hostOps0_21, List.cons_append, List.nil_append]
  after_results_simp

set_option maxHeartbeats 40000000 in
/-- The selected product: by a per-position bit, the product with the second weight or with the first. -/
theorem e89 : after Lmid W (Proc.devRef .tc main_v89)
    = select (s := S2048x128) (α := EReal) (broadcastInDim (s := S2048x1) (α := BitVec 1) S2048x128 ![0, 1] bcast_S2048x1_S2048x128_0_1 (after Lmid W (Proc.devRef .tc main_v87)))
        (after Lmid W (Proc.devRef .tc main_v84)) (after Lmid W (Proc.devRef .tc main_v56)) := by
  simp only [Lmid, hostOps0_16, hostOps0_17, hostOps0_18, hostOps0_19, hostOps0_20, hostOps0_21, List.cons_append, List.nil_append]
  after_results_simp
  first | rfl | skip

set_option maxHeartbeats 40000000 in
/-- The product with the second weight: the id as a float times a bit. -/
theorem e84 : after Lmid W (Proc.devRef .tc main_v84)
    = mulf (F := Ideal) (s := S2048x128) (φ := .f32) (sitofp (F := Ideal) (s := S2048x128) (w := 32) .f32 (after Lmid W (Proc.devRef .tc main_v35)))
        (uitofp (F := Ideal) (s := S2048x128) (w := 1) .f32 (after Lmid W (Proc.devRef .tc main_v82))) := by
  simp only [Lmid, hostOps0_16, hostOps0_17, hostOps0_18, hostOps0_19, hostOps0_20, hostOps0_21, List.cons_append, List.nil_append]
  after_results_simp

set_option maxHeartbeats 40000000 in
/-- The product with the first weight: the id as a float times the mask less a bit. -/
theorem e56 : after Lmid W (Proc.devRef .tc main_v56)
    = mulf (F := Ideal) (s := S2048x128) (φ := .f32) (sitofp (F := Ideal) (s := S2048x128) (w := 32) .f32 (after Lmid W (Proc.devRef .tc main_v35)))
        (subf (F := Ideal) (s := S2048x128) (φ := .f32) (after Lmid W (Proc.devRef .tc main_v28)) (uitofp (F := Ideal) (s := S2048x128) (w := 1) .f32 (after Lmid W (Proc.devRef .tc main_v52)))) := by
  simp only [Lmid, hostOps0_16, hostOps0_17, hostOps0_18, hostOps0_19, hostOps0_20, hostOps0_21, List.cons_append, List.nil_append]
  after_results_simp

set_option maxHeartbeats 40000000 in
/-- The masked ids of each position's row. -/
theorem e35 : after Lmid W (Proc.devRef .tc main_v35)
    = Host.gather (α := BitVec 32) (w := 32) gather_S64x128_S2048x1_S2048x128_1_0_n_n_0_1_1128 (W (Proc.devRef .tc main_v2)) (after Lmid W (Proc.devRef .tc main_v34)) := by
  simp only [Lmid, hostOps0_16, hostOps0_17, hostOps0_18, hostOps0_19, hostOps0_20, hostOps0_21, List.cons_append, List.nil_append]
  after_results_simp

set_option maxHeartbeats 40000000 in
/-- The mask of each position's row. -/
theorem e28 : after Lmid W (Proc.devRef .tc main_v28)
    = Host.gather (α := EReal) (w := 32) gather_S64x128_S2048x1_S2048x128_1_0_n_n_0_1_1128 (W (Proc.devRef .tc main_arg3)) (after Lmid W (Proc.devRef .tc main_v27)) := by
  simp only [Lmid, hostOps0_16, hostOps0_17, hostOps0_18, hostOps0_19, hostOps0_20, hostOps0_21, List.cons_append, List.nil_append]
  after_results_simp

set_option maxHeartbeats 40000000 in
/-- The two gathers use equal row indices. -/
theorem e27 : after Lmid W (Proc.devRef .tc main_v27) = after Lmid W (Proc.devRef .tc main_v34) := by
  simp only [Lmid, hostOps0_16, hostOps0_17, hostOps0_18, hostOps0_19, hostOps0_20, hostOps0_21, List.cons_append, List.nil_append]
  after_results_simp

/-! ## Every candidate is a token id or zero -/

/-- The attention mask, the token ids and the candidate columns as the region finds them. -/
abbrev maskA (c : Dev nD) : S64x128.Idx → EReal := V m c main_arg3
abbrev idsA (c : Dev nD) : S64x128.Idx → BitVec 32 := V m c main_arg2
abbrev candA (c : Dev nD) : S2048x128.Idx → BitVec 32 := V m c main_v90

/-- The mask and the ids read off a valuation. -/
abbrev rdMask (E : Valuation τ sig (Elt Ideal)) : S64x128.Idx → EReal := E (Proc.devRef .tc main_arg3)
abbrev rdIds (E : Valuation τ sig (Elt Ideal)) : S64x128.Idx → BitVec 32 := E (Proc.devRef .tc main_arg2)

/-- Under a mask of zeros and ones and ids in `[0, 30522)`, every candidate column is in `[0, 30522)`. -/
theorem cand_range (c : Dev nD)
    (hmask : ∀ i : S64x128.Idx, maskA m c i = 0 ∨ maskA m c i = 1)
    (hids : ∀ i : S64x128.Idx, 0 ≤ (idsA m c i).toInt ∧ (idsA m c i).toInt < 30522) :
    ∀ p : S2048x128.Idx, 0 ≤ (candA m c p).toInt ∧ (candA m c p).toInt < 30522 := by
  intro p
  have eM : maskA m c = rdMask (fun b => m (c, b)) := V_main_arg3 m c
  have eI : idsA m c = rdIds (fun b => m (c, b)) := V_main_arg2 m c
  have eC : candA m c = (after Lmid (after Pre (after P01 (fun b => m (c, b)))) (Proc.devRef .tc main_v90) : S2048x128.Idx → BitVec 32) :=
    V_eq m c main_v90
  rw [eM] at hmask
  rw [eI] at hids
  rw [eC]
  generalize (fun b => m (c, b) : Valuation τ sig (Elt Ideal)) = E at hmask hids ⊢
  have h2 := (pre_v2 (after P01 E)).trans (p01_v2 E)
  have h3 := (pre_arg3 (after P01 E)).trans (p01_arg3 E)
  generalize after Pre (after P01 E) = W2 at h2 h3 ⊢
  rw [e90 W2, e89 W2, e84 W2, e56 W2, e35 W2, e28 W2, e27 W2, h2, h3]
  generalize after Lmid W2 (Proc.devRef .tc main_v87) = B87
  generalize after Lmid W2 (Proc.devRef .tc main_v82) = B82
  generalize after Lmid W2 (Proc.devRef .tc main_v52) = B52
  generalize after Lmid W2 (Proc.devRef .tc main_v34) = IDX
  exact cand_scalar
    (rdMask E (gather_S64x128_S2048x1_S2048x128_1_0_n_n_0_1_1128.operandIdx p IDX))
    (rdIds E (gather_S64x128_S2048x1_S2048x128_1_0_n_n_0_1_1128.operandIdx p IDX))
    ((broadcastInDim (s := S2048x1) (α := BitVec 1) S2048x128 ![0, 1] bcast_S2048x1_S2048x128_0_1 B87) p)
    (B52 p) (B82 p) (hmask _) (hids _)

end Cert.KernelIdeal.CandRange

end
-- ==== Proof.PreFacts.lean ====
/-
  What the precondition says, decoded: every entry of the two float inputs the law reads is a real,
  the two index inputs lie in [0, 30522), and the mask takes the values 0 and 1 only.
-/
import proofs.«425233_j52278341926994_2_alg».proof.Pre_finite_inputs
import proofs.«425233_j52278341926994_2_alg».proof.Proof.Gen.Pre_finite_inputs
import Idealize.ShloMosaic.Lib.ReduceAll
import Idealize.ShloMosaic.Lib.StableHlo.Predicate
import Idealize.ShloMosaic.Lib.IdealHost
import Idealize.ShloMosaic.PureOps.Ideal.Laws

namespace Cert.PreFacts

open Idealize.ShloMosaic Cert.Pre_finite_inputs

/-- The rank-0 shape has one index. -/
instance : Subsingleton S_.Idx := ⟨fun a b => funext fun d => d.elim0⟩

/-- The pattern of positive infinity denotes the top element. -/
theorem ofBits_inf : Ideal.ofBits .f32 0x7F800000#32 = ⊤ := by simp [Ideal.ofBits, Ideal.ieee]

/-- An extended real whose absolute value max x (-x) lies strictly below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An ordered equality test that came out 1 is an equality. -/
theorem eq_of_cmp_oeq (x y : EReal) (h : Ideal.cmp .oeq x y = 1#1) : x = y := by
  by_contra hne
  simp [Ideal.cmp, hne] at h

theorem toInt_zero32 : (0#32 : BitVec 32).toInt = 0 := by decide
theorem toInt_30522 : (30522#32 : BitVec 32).toInt = 30522 := by decide

theorem decode [Cert.Pre_finite_inputs.Facts]
    (a0 : FVec Ideal S2048x30522 .f32) (a1 : IVec S2048 32) (a2 : IVec S64x128 32)
    (a3 : FVec Ideal S64x128 .f32) (a4 : IVec S64x128 32) (a5 : FVec Ideal S30522 .f32)
    (h : Cert.Pre_finite_inputs.fn (F := Ideal) a0 a1 a2 a3 a4 a5 = fun _ => 1#1) :
    (∀ i, ∃ r : ℝ, a0 i = (r : EReal)) ∧ (∀ i, ∃ r : ℝ, a5 i = (r : EReal))
      ∧ (∀ i, 0 ≤ (a1 i).toInt ∧ (a1 i).toInt < 30522)
      ∧ (∀ i, 0 ≤ (a2 i).toInt ∧ (a2 i).toInt < 30522)
      ∧ (∀ i, a3 i = 0 ∨ a3 i = 1) := by
  have h0 := congrFun h (fun d => d.elim0)
  dsimp only [fn, fn_part1, fn_part2, andi] at h0
  simp only [IntOp.andi_eq_one] at h0
  obtain ⟨⟨⟨⟨⟨⟨⟨h1, h2⟩, h3⟩, h4⟩, h5⟩, h6⟩, h7⟩, h8⟩ := h0
  have e1 := Host.reduce_andi_all _ _ _ _ _ h1
  have e3 := Host.reduce_andi_all _ _ _ _ _ h3
  have e4 := Host.reduce_andi_all _ _ _ _ _ h4
  have e5 := Host.reduce_andi_all _ _ _ _ _ h5
  have e6 := Host.reduce_andi_all _ _ _ _ _ h6
  have e7 := Host.reduce_andi_all _ _ _ _ _ h7
  have e8 := Host.reduce_andi_all _ _ _ _ _ h8
  refine ⟨fun i => real_of_abs_lt_inf _ (e1 i), fun i => real_of_abs_lt_inf _ (e3 i), fun i => ⟨?_, ?_⟩,
    fun i => ⟨?_, ?_⟩, fun i => ?_⟩
  · have := IntOp.cmpi_sge.1 (e4 i)
    rwa [show (broadcastInDim S2048 ![] Facts.bcast_S_S2048 (constantI S_ 32 0#32) i).toInt = 0 from toInt_zero32] at this
  · have := IntOp.cmpi_slt.1 (e5 i)
    rwa [show (broadcastInDim S2048 ![] Facts.bcast_S_S2048 (constantI S_ 32 30522#32) i).toInt = 30522 from toInt_30522] at this
  · have := IntOp.cmpi_sge.1 (e6 i)
    rwa [show (broadcastInDim S64x128 ![] Facts.bcast_S_S64x128 (constantI S_ 32 0#32) i).toInt = 0 from toInt_zero32] at this
  · have := IntOp.cmpi_slt.1 (e7 i)
    rwa [show (broadcastInDim S64x128 ![] Facts.bcast_S_S64x128 (constantI S_ 32 30522#32) i).toInt = 30522 from toInt_30522] at this
  · rcases IntOp.ori_eq_one.1 (e8 i) with h | h
    · left
      exact (eq_of_cmp_oeq _ _ h).trans Ideal.ofBits_zero_f32
    · right
      exact (eq_of_cmp_oeq _ _ h).trans Ideal.ofBits_one_f32

end Cert.PreFacts
-- ==== Proof.Core.lean ====
import proofs.«425233_j52278341926994_2_alg».proof.Proof.KernelGlue
import proofs.«425233_j52278341926994_2_alg».proof.Proof.RefGlue
import proofs.«425233_j52278341926994_2_alg».proof.Proof.GlueIdx
import proofs.«425233_j52278341926994_2_alg».proof.Proof.GluePre
import proofs.«425233_j52278341926994_2_alg».proof.Proof.MleBridge
import proofs.«425233_j52278341926994_2_alg».proof.Proof.UlBridge
import proofs.«425233_j52278341926994_2_alg».proof.Proof.CandRange
import proofs.«425233_j52278341926994_2_alg».proof.Proof.PreFacts
import proofs.«425233_j52278341926994_2_alg».proof.Defs

/-!
# The two programs' three results are equal

From memories that agree on the six arguments and satisfy the precondition, the kernel program's likelihood term,
unlikelihood term and total are the reference's: the likelihood terms by the row-wise identity of the smoothed
distribution (the named constant closes `smoothing + 1 · (confidence − smoothing) = confidence`), the unlikelihood terms
because gathering the logits at the candidate columns and weighting is summing the penalties against the scatter-added
weights, the candidates and weights of the two programs being equal, and the totals by the same last lines.
-/

set_option maxRecDepth 16384

noncomputable section

namespace Cert.Core

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 4000000 in
theorem results
    (hpre : Cert.Pre_KernelIdeal (hPre_finite_inputs := Cert.Pre_finite_inputs.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.Hand.ops (F := Ideal)) (StableHlo.launchContents m' c) (Proc.devRef .tc Cert.ReferenceIdeal.main_v150)
        = Cert.KernelIdeal.Hand.Wfin m c (Proc.devRef .tc Cert.KernelIdeal.main_v134)
    ∧ StableHlo.after (Cert.ReferenceIdeal.Hand.ops (F := Ideal)) (StableHlo.launchContents m' c) (Proc.devRef .tc Cert.ReferenceIdeal.main_v33)
        = Cert.KernelIdeal.Hand.Wfin m c (Proc.devRef .tc Cert.KernelIdeal.main_v103)
    ∧ StableHlo.after (Cert.ReferenceIdeal.Hand.ops (F := Ideal)) (StableHlo.launchContents m' c) (Proc.devRef .tc Cert.ReferenceIdeal.main_v148)
        = Cert.KernelIdeal.Hand.Wfin m c (Proc.devRef .tc Cert.KernelIdeal.main_v132) := by
  obtain ⟨hx, _hw, htgt, hids, hmask⟩ := @Cert.PreFacts.decode Cert.Pre_finite_inputs.Gen.facts _ _ _ _ _ _ (hpre c)
  -- the reference's starting contents at the arguments are the kernel program's
  have a0 : StableHlo.launchContents m' c (Proc.devRef .tc Cert.ReferenceIdeal.main_arg0) = m ((c.tc : Thread Cert.KernelIdeal.nD Cert.KernelIdeal.τ).loc Cert.KernelIdeal.main_arg0) := h0
  have a1 : StableHlo.launchContents m' c (Proc.devRef .tc Cert.ReferenceIdeal.main_arg1) = m ((c.tc : Thread Cert.KernelIdeal.nD Cert.KernelIdeal.τ).loc Cert.KernelIdeal.main_arg1) := h1
  have a5 : StableHlo.launchContents m' c (Proc.devRef .tc Cert.ReferenceIdeal.main_arg5) = m ((c.tc : Thread Cert.KernelIdeal.nD Cert.KernelIdeal.τ).loc Cert.KernelIdeal.main_arg5) := h5
  -- the candidates and their weights agree
  obtain ⟨h88, h90⟩ := Cert.GluePre.pre_agree (fun b => m (c, b)) (StableHlo.launchContents m' c)
    (heq_of_eq h2.symm) (heq_of_eq h3.symm) (heq_of_eq h4.symm) hmask
  -- the likelihood terms
  have hmle : StableHlo.after (Cert.ReferenceIdeal.Hand.ops (F := Ideal)) (StableHlo.launchContents m' c) (Proc.devRef .tc Cert.ReferenceIdeal.main_v33)
      = Cert.KernelIdeal.Hand.Wfin m c (Proc.devRef .tc Cert.KernelIdeal.main_v103) := by
    rw [Cert.ReferenceIdeal.Glue.v33_eq, Cert.KernelIdeal.Glue.v103, Cert.KernelIdeal.Glue.V0_v97, a0, a1, a5]
    refine (Cert.MleBridge.mle_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.KernelIdeal.Pre.wOfK (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg1)))
      ((Cert.KernelIdeal.Gen.dats m 0 c).arrAt 3 Cert.KernelIdeal.cfg0.N) htgt ?_).symm
    intro n
    have hw := Cert.KernelIdeal.Arr.arr_weighted m c n
    rw [Cert.KernelIdeal.Glue.tA_apply, Cert.KernelIdeal.Glue.wA_apply, Cert.KernelIdeal.Glue.xA_eq] at hw
    exact hw
  -- the unlikelihood terms
  have hcand := Cert.KernelIdeal.CandRange.cand_range m c
    (fun i => by
      have e : Cert.KernelIdeal.CandRange.maskA m c = m ((c.tc : Thread Cert.KernelIdeal.nD Cert.KernelIdeal.τ).loc Cert.KernelIdeal.main_arg3) := Cert.KernelIdeal.Gen.V_main_arg3 m c
      rw [e]; exact hmask i)
    (fun i => by
      have e : Cert.KernelIdeal.CandRange.idsA m c = m ((c.tc : Thread Cert.KernelIdeal.nD Cert.KernelIdeal.τ).loc Cert.KernelIdeal.main_arg2) := Cert.KernelIdeal.Gen.V_main_arg2 m c
      rw [e]; exact hids i)
  have hidx := Cert.GlueIdx.idx_agree
    (Pipeline.withArrays Cert.KernelIdeal.spec0 c (Cert.KernelIdeal.Gen.V0 m c) fun w => (Cert.KernelIdeal.Gen.dats m 0 c).arrAt w Cert.KernelIdeal.cfg0.N)
    (StableHlo.launchContents m' c)
    (by rw [Cert.KernelIdeal.Hand.start_off_out m c Cert.KernelIdeal.main_v90 (by decide) (by decide)]; exact h90)
  rw [Cert.KernelIdeal.Hand.start_off_out m c Cert.KernelIdeal.main_v90 (by decide) (by decide)] at hidx
  have hul : StableHlo.after (Cert.ReferenceIdeal.Hand.ops (F := Ideal)) (StableHlo.launchContents m' c) (Proc.devRef .tc Cert.ReferenceIdeal.main_v148)
      = Cert.KernelIdeal.Hand.Wfin m c (Proc.devRef .tc Cert.KernelIdeal.main_v132) := by
    have e119 : Cert.ReferenceIdeal.Glue.Rchain (StableHlo.launchContents m' c) (Proc.devRef .tc Cert.ReferenceIdeal.main_v119)
        = Cert.KernelIdeal.Gen.V0 m c (Proc.devRef .tc Cert.KernelIdeal.main_v88) := (eq_of_heq h88).symm
    rw [Cert.ReferenceIdeal.Glue.v148_eq, Cert.KernelIdeal.Glue.v132, a0, ← eq_of_heq hidx, e119]
    obtain ⟨hr, hc⟩ := Cert.UlBridge.idx_facts (Cert.KernelIdeal.Gen.V0 m c (Proc.devRef .tc Cert.KernelIdeal.main_v90)) hcand
    refine (Cert.UlBridge.ul_bridge (m ((c.tc : Thread Cert.KernelIdeal.nD Cert.KernelIdeal.τ).loc Cert.KernelIdeal.main_arg0)) hx _ hr hc
      ((Cert.KernelIdeal.Gen.dats m 0 c).arrAt 4 Cert.KernelIdeal.cfg0.N) ?_ _ Cert.ReferenceIdeal.Glue.zerosR ?_).symm
    · intro n
      have hl := Cert.KernelIdeal.Arr.arr_lse m c n
      rw [Cert.KernelIdeal.Glue.xA_eq] at hl
      exact hl
    · intro i
      exact Ideal.ofBits_zero_f32
  refine ⟨?_, hmle, hul⟩
  rw [Cert.ReferenceIdeal.Glue.v150_eq, Cert.KernelIdeal.Glue.v134, hmle, hul]
  rfl

end Cert.Core

end
-- ==== Proof.lean ====
/- The certificate's claims, assembled.

   The kernel computes, per row of the logits, the log-sum-exp and the label-smoothed loss `(∑ₖ −(s + [k = target]·κ)·logpₖ)·w`,
   where `s` is the smoothing value and `κ` the folded difference `confidence − s`; the host lines around it build the
   unlikelihood candidates, gather the logits at them and sum the penalties. The reference takes the log-softmax on the host,
   writes the smoothed distribution by a scatter, and scatter-adds the candidates' weights into a dense array.
   * The three frames: the two kernel programs by their frame runs, the reference by its run read back as a line of host operations,
     none of which writes an argument.
   * The idealization's one rewrite: the folded literal denotes the exact difference of the reference's two literals.
   * The equivalence over the extended reals: with `κ` read exactly, `s + 1·κ` is the confidence, so the per-row losses agree;
     the candidate columns and weights of the two programs are equal (the mask takes the values 0 and 1, so masking integer
     ids and multiplying float ids agree), every candidate column is a class index, and then the sum over the gathered
     candidates is the sum of the penalties against the scatter-added weights (the penalties are finite and non-negative);
     `logit − (max + log ∑exp)` is `(logit − max) − log ∑exp` on finite logits. -/
import proofs.«425233_j52278341926994_2_alg».proof.Defs
import proofs.«425233_j52278341926994_2_alg».proof.Proof.Gen.Kernel
import proofs.«425233_j52278341926994_2_alg».proof.Proof.Gen.Kernel.Skeleton
import proofs.«425233_j52278341926994_2_alg».proof.Proof.Gen.Kernel.Launch
import proofs.«425233_j52278341926994_2_alg».proof.Proof.Gen.Kernel.Points
import proofs.«425233_j52278341926994_2_alg».proof.Proof.Gen.Kernel.Frame
import proofs.«425233_j52278341926994_2_alg».proof.Proof.Gen.KernelIdeal
import proofs.«425233_j52278341926994_2_alg».proof.Proof.Gen.KernelIdeal.Skeleton
import proofs.«425233_j52278341926994_2_alg».proof.Proof.Gen.KernelIdeal.Launch
import proofs.«425233_j52278341926994_2_alg».proof.Proof.Gen.KernelIdeal.Points
import proofs.«425233_j52278341926994_2_alg».proof.Proof.Gen.KernelIdeal.Frame
import proofs.«425233_j52278341926994_2_alg».proof.Proof.Gen.ReferenceIdeal
import proofs.«425233_j52278341926994_2_alg».proof.Proof.Gen.Pre_finite_inputs
import proofs.«425233_j52278341926994_2_alg».proof.Proof.KernelRun
import proofs.«425233_j52278341926994_2_alg».proof.Proof.RefRun
import proofs.«425233_j52278341926994_2_alg».proof.Proof.RefFrame
import proofs.«425233_j52278341926994_2_alg».proof.Proof.Core
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs as its line of host operations, none of which writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun r h c => ⟨(h c Cert.ReferenceIdeal.main_arg0).trans (Cert.ReferenceIdeal.Frame.arg0_kept _),
      (h c Cert.ReferenceIdeal.main_arg1).trans (Cert.ReferenceIdeal.Frame.arg1_kept _),
      (h c Cert.ReferenceIdeal.main_arg2).trans (Cert.ReferenceIdeal.Frame.arg2_kept _),
      (h c Cert.ReferenceIdeal.main_arg3).trans (Cert.ReferenceIdeal.Frame.arg3_kept _),
      (h c Cert.ReferenceIdeal.main_arg4).trans (Cert.ReferenceIdeal.Frame.arg4_kept _),
      (h c Cert.ReferenceIdeal.main_arg5).trans (Cert.ReferenceIdeal.Frame.arg5_kept _)⟩)
    (Cert.ReferenceIdeal.Hand.run_main (F := Ideal) m ρ)

/-- The one rewrite of the idealization: the table gives the folded literal the exact difference of the reference's
    confidence and smoothing literals. -/
theorem preserves : Cert.preserves_Kernel_KernelIdeal :=
  IdealRules.named_const.statement Cert.KernelIdeal.κ "conf_minus_smooth" .f32 0x3F4CCC5F#32
    ((1759204220753 / 2199023255552 : ℝ) : EReal) rfl

/-- From memories agreeing on the arguments, under the precondition, both programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.Wfin m c (Proc.devRef .tc Cert.KernelIdeal.main_v134),
    fun c => Cert.KernelIdeal.Hand.Wfin m c (Proc.devRef .tc Cert.KernelIdeal.main_v103),
    fun c => Cert.KernelIdeal.Hand.Wfin m c (Proc.devRef .tc Cert.KernelIdeal.main_v132),
    Cert.KernelIdeal.Hand.run_vals m g, ?_⟩
  refine (θ_run Cert.ReferenceIdeal.defs _ _).mono (fun r h c => ?_) (Cert.ReferenceIdeal.Hand.run_main (F := Ideal) m' g')
  obtain ⟨e150, e33, e148⟩ := Cert.Core.results m m' c hpre (hagree c).1 (hagree c).2.1 (hagree c).2.2.1 (hagree c).2.2.2.1
    (hagree c).2.2.2.2.1 (hagree c).2.2.2.2.2
  exact ⟨(h c Cert.ReferenceIdeal.main_v150).trans e150, (h c Cert.ReferenceIdeal.main_v33).trans e33,
    (h c Cert.ReferenceIdeal.main_v148).trans e148,
    (h c Cert.ReferenceIdeal.main_arg0).trans (Cert.ReferenceIdeal.Frame.arg0_kept _),
    (h c Cert.ReferenceIdeal.main_arg1).trans (Cert.ReferenceIdeal.Frame.arg1_kept _),
    (h c Cert.ReferenceIdeal.main_arg2).trans (Cert.ReferenceIdeal.Frame.arg2_kept _),
    (h c Cert.ReferenceIdeal.main_arg3).trans (Cert.ReferenceIdeal.Frame.arg3_kept _),
    (h c Cert.ReferenceIdeal.main_arg4).trans (Cert.ReferenceIdeal.Frame.arg4_kept _),
    (h c Cert.ReferenceIdeal.main_arg5).trans (Cert.ReferenceIdeal.Frame.arg5_kept _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
